-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50 : Shape := ⟨2, ![16384, 50]⟩
abbrev S100000 : Shape := ⟨1, ![100000]⟩
abbrev S1000000 : Shape := ⟨1, ![1000000]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1000000 : S_.BroadcastsInDim S1000000 (![] : Fin 0 → Fin S1000000.rank)
  reducesTo_S1000000_S_d0 : S1000000.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg15 : FVec F S1000000 .f32) (main_arg16 : FVec F S1 .f32) (main_v33 : IVec S_ 1) : IVec S_ 1 :=
  let main_v34 : FVec F S1000000 .f32 := Host.absf main_arg15
  let main_cst_12 : FVec F S_ .f32 := constant S_ .f32 0x7F800000#32
  let main_v35 : FVec F S1000000 .f32 := broadcastInDim S1000000 ![] bcast_S_S1000000 main_cst_12
  let main_v36 : IVec S1000000 1 := cmpf .olt main_v34 main_v35
  let main_c_13 : IVec S_ 1 := constantI S_ 1 1#1
  let main_v37 : IVec S_ 1 := (fun x v => Host.reduce IntOp.andi x v reducesTo_S1000000_S_d0 h_S_) main_v36 main_c_13
  let main_v38 : IVec S_ 1 := andi main_v33 main_v37
  let main_v39 : FVec F S1 .f32 := Host.absf main_arg16
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg12 : FVec F S100000 .f32) (main_arg13 : FVec F S100000 .f32) (main_arg14 : FVec F S1000000 .f32) (main_arg15 : FVec F S1000000 .f32) (main_arg16 : FVec F S1 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S100000 .f32 := Host.absf main_arg12
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S100000 .f32 := Host.absf main_arg13
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S1000000 .f32 := Host.absf main_arg14
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  fn_part2 (F := F) main_arg15 main_arg16 main_v33

def fn {F : FTy → Type} [FloatOps F] (main_arg0 : IVec S16384x50 32) (main_arg1 : IVec S16384x50 32) (main_arg2 : IVec S16384x50 32) (main_arg3 : IVec S16384x50 32) (main_arg4 : IVec S16384x50 32) (main_arg5 : IVec S16384x50 32) (main_arg6 : IVec S16384x50 32) (main_arg7 : IVec S16384x50 32) (main_arg8 : FVec F S100000 .f32) (main_arg9 : FVec F S100000 .f32) (main_arg10 : FVec F S100000 .f32) (main_arg11 : FVec F S100000 .f32) (main_arg12 : FVec F S100000 .f32) (main_arg13 : FVec F S100000 .f32) (main_arg14 : FVec F S1000000 .f32) (main_arg15 : FVec F S1000000 .f32) (main_arg16 : FVec F S1 .f32) : IVec S_ 1 :=
  let main_v0 : FVec F S100000 .f32 := Host.absf main_arg8
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg9
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg10
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg11
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg12 main_arg13 main_arg14 main_arg15 main_arg16 main_v13 main_v16
-- ==== Kernel.lean ====
abbrev S16384x50 : Shape := ⟨2, ![16384, 50]⟩
abbrev S100000 : Shape := ⟨1, ![100000]⟩
abbrev S1000000 : Shape := ⟨1, ![1000000]⟩
abbrev S1 : Shape := ⟨1, ![1]⟩
abbrev S_ : Shape := ⟨0, ![]⟩
abbrev S16384x1 : Shape := ⟨2, ![16384, 1]⟩
abbrev S16384x49 : Shape := ⟨2, ![16384, 49]⟩
abbrev S16384x50x1 : Shape := ⟨3, ![16384, 50, 1]⟩
abbrev S128x128 : Shape := ⟨2, ![128, 128]⟩
abbrev S2048x50 : Shape := ⟨2, ![2048, 50]⟩
abbrev S16x128 : Shape := ⟨2, ![16, 128]⟩
abbrev S2048 : Shape := ⟨1, ![2048]⟩

abbrev nBuf : Space → Nat
  | .hbm => 518
  | .vmem => 18
  | .smem => 0
  | _ => 0

abbrev hbmTy0_0 (i : Nat) : BufTy := match i % 128 with
  | 0 => ⟨S16384x50, .i32⟩
  | 1 => ⟨S16384x50, .i32⟩
  | 2 => ⟨S16384x50, .i32⟩
  | 3 => ⟨S16384x50, .i32⟩
  | 4 => ⟨S16384x50, .i32⟩
  | 5 => ⟨S16384x50, .i32⟩
  | 6 => ⟨S16384x50, .i32⟩
  | 7 => ⟨S16384x50, .i32⟩
  | 8 => ⟨S100000, .f32⟩
  | 9 => ⟨S100000, .f32⟩
  | 10 => ⟨S100000, .f32⟩
  | 11 => ⟨S100000, .f32⟩
  | 12 => ⟨S100000, .f32⟩
  | 13 => ⟨S100000, .f32⟩
  | 14 => ⟨S1000000, .f32⟩
  | 15 => ⟨S1000000, .f32⟩
  | 16 => ⟨S1, .f32⟩
  | 17 => ⟨S_, .i32⟩
  | 18 => ⟨S16384x50, .i32⟩
  | 19 => ⟨S16384x50, .i1⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S16384x50, .i32⟩
  | 27 => ⟨S16384x50, .i32⟩
  | 28 => ⟨S_, .i32⟩
  | 29 => ⟨S16384x50, .i32⟩
  | 30 => ⟨S16384x50, .i1⟩
  | 31 => ⟨S_, .i32⟩
  | 32 => ⟨S16384x50, .i32⟩
  | 33 => ⟨S16384x50, .i1⟩
  | 34 => ⟨S_, .i32⟩
  | 35 => ⟨S_, .i1⟩
  | 36 => ⟨S16384x50, .i1⟩
  | 37 => ⟨S16384x50, .i1⟩
  | 38 => ⟨S16384x50, .i1⟩
  | 39 => ⟨S16384x50, .i32⟩
  | 40 => ⟨S16384x50, .i32⟩
  | 41 => ⟨S16384x50, .i32⟩
  | 42 => ⟨S_, .i32⟩
  | 43 => ⟨S_, .i32⟩
  | 44 => ⟨S16384x50, .i32⟩
  | 45 => ⟨S16384x50, .i32⟩
  | 46 => ⟨S16384x50, .i32⟩
  | 47 => ⟨S16384x1, .i32⟩
  | 48 => ⟨S_, .i1⟩
  | 49 => ⟨S16384x1, .i1⟩
  | 50 => ⟨S16384x49, .i32⟩
  | 51 => ⟨S16384x49, .i32⟩
  | 52 => ⟨S16384x49, .i1⟩
  | 53 => ⟨S16384x50, .i1⟩
  | 54 => ⟨S_, .i32⟩
  | 55 => ⟨S16384x50, .i32⟩
  | 56 => ⟨S16384x50, .i1⟩
  | 57 => ⟨S16384x50, .i1⟩
  | 58 => ⟨S_, .i32⟩
  | 59 => ⟨S_, .i32⟩
  | 60 => ⟨S_, .i32⟩
  | 61 => ⟨S16384x50, .i32⟩
  | 62 => ⟨S16384x50, .i32⟩
  | 63 => ⟨S_, .i32⟩
  | 64 => ⟨S16384x50, .i32⟩
  | 65 => ⟨S16384x50, .i32⟩
  | 66 => ⟨S_, .i32⟩
  | 67 => ⟨S16384x50, .i32⟩
  | 68 => ⟨S16384x50, .i1⟩
  | 69 => ⟨S_, .i32⟩
  | 70 => ⟨S16384x50, .i32⟩
  | 71 => ⟨S16384x50, .i32⟩
  | 72 => ⟨S16384x50, .i32⟩
  | 73 => ⟨S16384x50x1, .i32⟩
  | 74 => ⟨S16384x50, .f32⟩
  | 75 => ⟨S_, .f32⟩
  | 76 => ⟨S_, .f32⟩
  | 77 => ⟨S16384x50, .f32⟩
  | 78 => ⟨S16384x50, .f32⟩
  | 79 => ⟨S_, .i32⟩
  | 80 => ⟨S16384x50, .i32⟩
  | 81 => ⟨S16384x50, .i1⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S16384x50, .i32⟩
  | 89 => ⟨S16384x50, .i32⟩
  | 90 => ⟨S_, .i32⟩
  | 91 => ⟨S16384x50, .i32⟩
  | 92 => ⟨S16384x50, .i1⟩
  | 93 => ⟨S_, .i32⟩
  | 94 => ⟨S16384x50, .i32⟩
  | 95 => ⟨S16384x50, .i1⟩
  | 96 => ⟨S_, .i32⟩
  | 97 => ⟨S_, .i1⟩
  | 98 => ⟨S16384x50, .i1⟩
  | 99 => ⟨S16384x50, .i1⟩
  | 100 => ⟨S16384x50, .i1⟩
  | 101 => ⟨S16384x50, .i32⟩
  | 102 => ⟨S16384x50, .i32⟩
  | 103 => ⟨S16384x50, .i32⟩
  | 104 => ⟨S_, .i32⟩
  | 105 => ⟨S_, .i32⟩
  | 106 => ⟨S16384x50, .i32⟩
  | 107 => ⟨S16384x50, .i32⟩
  | 108 => ⟨S16384x50, .i32⟩
  | 109 => ⟨S16384x1, .i32⟩
  | 110 => ⟨S_, .i1⟩
  | 111 => ⟨S16384x1, .i1⟩
  | 112 => ⟨S16384x49, .i32⟩
  | 113 => ⟨S16384x49, .i32⟩
  | 114 => ⟨S16384x49, .i1⟩
  | 115 => ⟨S16384x50, .i1⟩
  | 116 => ⟨S_, .i32⟩
  | 117 => ⟨S16384x50, .i32⟩
  | 118 => ⟨S16384x50, .i1⟩
  | 119 => ⟨S16384x50, .i1⟩
  | 120 => ⟨S_, .i32⟩
  | 121 => ⟨S_, .i32⟩
  | 122 => ⟨S_, .i32⟩
  | 123 => ⟨S16384x50, .i32⟩
  | 124 => ⟨S16384x50, .i32⟩
  | 125 => ⟨S_, .i32⟩
  | 126 => ⟨S16384x50, .i32⟩
  | 127 => ⟨S16384x50, .i32⟩
  | _ => ⟨S16384x50, .i32⟩

abbrev hbmTy0_1 (i : Nat) : BufTy := match i % 128 with
  | 0 => ⟨S_, .i32⟩
  | 1 => ⟨S16384x50, .i32⟩
  | 2 => ⟨S16384x50, .i1⟩
  | 3 => ⟨S_, .i32⟩
  | 4 => ⟨S16384x50, .i32⟩
  | 5 => ⟨S16384x50, .i32⟩
  | 6 => ⟨S16384x50, .i32⟩
  | 7 => ⟨S16384x50x1, .i32⟩
  | 8 => ⟨S16384x50, .f32⟩
  | 9 => ⟨S_, .f32⟩
  | 10 => ⟨S_, .f32⟩
  | 11 => ⟨S16384x50, .f32⟩
  | 12 => ⟨S16384x50, .f32⟩
  | 13 => ⟨S_, .i32⟩
  | 14 => ⟨S16384x50, .i32⟩
  | 15 => ⟨S16384x50, .i1⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S16384x50, .i32⟩
  | 23 => ⟨S16384x50, .i32⟩
  | 24 => ⟨S_, .i32⟩
  | 25 => ⟨S16384x50, .i32⟩
  | 26 => ⟨S16384x50, .i1⟩
  | 27 => ⟨S_, .i32⟩
  | 28 => ⟨S16384x50, .i32⟩
  | 29 => ⟨S16384x50, .i1⟩
  | 30 => ⟨S_, .i32⟩
  | 31 => ⟨S_, .i1⟩
  | 32 => ⟨S16384x50, .i1⟩
  | 33 => ⟨S16384x50, .i1⟩
  | 34 => ⟨S16384x50, .i1⟩
  | 35 => ⟨S16384x50, .i32⟩
  | 36 => ⟨S16384x50, .i32⟩
  | 37 => ⟨S16384x50, .i32⟩
  | 38 => ⟨S_, .i32⟩
  | 39 => ⟨S_, .i32⟩
  | 40 => ⟨S16384x50, .i32⟩
  | 41 => ⟨S16384x50, .i32⟩
  | 42 => ⟨S16384x50, .i32⟩
  | 43 => ⟨S16384x1, .i32⟩
  | 44 => ⟨S_, .i1⟩
  | 45 => ⟨S16384x1, .i1⟩
  | 46 => ⟨S16384x49, .i32⟩
  | 47 => ⟨S16384x49, .i32⟩
  | 48 => ⟨S16384x49, .i1⟩
  | 49 => ⟨S16384x50, .i1⟩
  | 50 => ⟨S_, .i32⟩
  | 51 => ⟨S16384x50, .i32⟩
  | 52 => ⟨S16384x50, .i1⟩
  | 53 => ⟨S16384x50, .i1⟩
  | 54 => ⟨S_, .i32⟩
  | 55 => ⟨S_, .i32⟩
  | 56 => ⟨S_, .i32⟩
  | 57 => ⟨S16384x50, .i32⟩
  | 58 => ⟨S16384x50, .i32⟩
  | 59 => ⟨S_, .i32⟩
  | 60 => ⟨S16384x50, .i32⟩
  | 61 => ⟨S16384x50, .i32⟩
  | 62 => ⟨S_, .i32⟩
  | 63 => ⟨S16384x50, .i32⟩
  | 64 => ⟨S16384x50, .i1⟩
  | 65 => ⟨S_, .i32⟩
  | 66 => ⟨S16384x50, .i32⟩
  | 67 => ⟨S16384x50, .i32⟩
  | 68 => ⟨S16384x50, .i32⟩
  | 69 => ⟨S16384x50x1, .i32⟩
  | 70 => ⟨S16384x50, .f32⟩
  | 71 => ⟨S_, .f32⟩
  | 72 => ⟨S_, .f32⟩
  | 73 => ⟨S16384x50, .f32⟩
  | 74 => ⟨S16384x50, .f32⟩
  | 75 => ⟨S_, .i32⟩
  | 76 => ⟨S16384x50, .i32⟩
  | 77 => ⟨S16384x50, .i1⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S16384x50, .i32⟩
  | 85 => ⟨S16384x50, .i32⟩
  | 86 => ⟨S_, .i32⟩
  | 87 => ⟨S16384x50, .i32⟩
  | 88 => ⟨S16384x50, .i1⟩
  | 89 => ⟨S_, .i32⟩
  | 90 => ⟨S16384x50, .i32⟩
  | 91 => ⟨S16384x50, .i1⟩
  | 92 => ⟨S_, .i32⟩
  | 93 => ⟨S_, .i1⟩
  | 94 => ⟨S16384x50, .i1⟩
  | 95 => ⟨S16384x50, .i1⟩
  | 96 => ⟨S16384x50, .i1⟩
  | 97 => ⟨S16384x50, .i32⟩
  | 98 => ⟨S16384x50, .i32⟩
  | 99 => ⟨S16384x50, .i32⟩
  | 100 => ⟨S_, .i32⟩
  | 101 => ⟨S_, .i32⟩
  | 102 => ⟨S16384x50, .i32⟩
  | 103 => ⟨S16384x50, .i32⟩
  | 104 => ⟨S16384x50, .i32⟩
  | 105 => ⟨S16384x1, .i32⟩
  | 106 => ⟨S_, .i1⟩
  | 107 => ⟨S16384x1, .i1⟩
  | 108 => ⟨S16384x49, .i32⟩
  | 109 => ⟨S16384x49, .i32⟩
  | 110 => ⟨S16384x49, .i1⟩
  | 111 => ⟨S16384x50, .i1⟩
  | 112 => ⟨S_, .i32⟩
  | 113 => ⟨S16384x50, .i32⟩
  | 114 => ⟨S16384x50, .i1⟩
  | 115 => ⟨S16384x50, .i1⟩
  | 116 => ⟨S_, .i32⟩
  | 117 => ⟨S_, .i32⟩
  | 118 => ⟨S_, .i32⟩
  | 119 => ⟨S16384x50, .i32⟩
  | 120 => ⟨S16384x50, .i32⟩
  | 121 => ⟨S_, .i32⟩
  | 122 => ⟨S16384x50, .i32⟩
  | 123 => ⟨S16384x50, .i32⟩
  | 124 => ⟨S_, .i32⟩
  | 125 => ⟨S16384x50, .i32⟩
  | 126 => ⟨S16384x50, .i1⟩
  | 127 => ⟨S_, .i32⟩
  | _ => ⟨S16384x50, .i32⟩

abbrev hbmTy0_2 (i : Nat) : BufTy := match i % 128 with
  | 0 => ⟨S16384x50, .i32⟩
  | 1 => ⟨S16384x50, .i32⟩
  | 2 => ⟨S16384x50, .i32⟩
  | 3 => ⟨S16384x50x1, .i32⟩
  | 4 => ⟨S16384x50, .f32⟩
  | 5 => ⟨S_, .f32⟩
  | 6 => ⟨S_, .f32⟩
  | 7 => ⟨S16384x50, .f32⟩
  | 8 => ⟨S16384x50, .f32⟩
  | 9 => ⟨S_, .i32⟩
  | 10 => ⟨S16384x50, .i32⟩
  | 11 => ⟨S16384x50, .i1⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S16384x50, .i32⟩
  | 19 => ⟨S16384x50, .i32⟩
  | 20 => ⟨S_, .i32⟩
  | 21 => ⟨S16384x50, .i32⟩
  | 22 => ⟨S16384x50, .i1⟩
  | 23 => ⟨S_, .i32⟩
  | 24 => ⟨S16384x50, .i32⟩
  | 25 => ⟨S16384x50, .i1⟩
  | 26 => ⟨S_, .i32⟩
  | 27 => ⟨S_, .i1⟩
  | 28 => ⟨S16384x50, .i1⟩
  | 29 => ⟨S16384x50, .i1⟩
  | 30 => ⟨S16384x50, .i1⟩
  | 31 => ⟨S16384x50, .i32⟩
  | 32 => ⟨S16384x50, .i32⟩
  | 33 => ⟨S16384x50, .i32⟩
  | 34 => ⟨S_, .i32⟩
  | 35 => ⟨S_, .i32⟩
  | 36 => ⟨S16384x50, .i32⟩
  | 37 => ⟨S16384x50, .i32⟩
  | 38 => ⟨S16384x50, .i32⟩
  | 39 => ⟨S16384x1, .i32⟩
  | 40 => ⟨S_, .i1⟩
  | 41 => ⟨S16384x1, .i1⟩
  | 42 => ⟨S16384x49, .i32⟩
  | 43 => ⟨S16384x49, .i32⟩
  | 44 => ⟨S16384x49, .i1⟩
  | 45 => ⟨S16384x50, .i1⟩
  | 46 => ⟨S_, .i32⟩
  | 47 => ⟨S16384x50, .i32⟩
  | 48 => ⟨S16384x50, .i1⟩
  | 49 => ⟨S16384x50, .i1⟩
  | 50 => ⟨S_, .i32⟩
  | 51 => ⟨S_, .i32⟩
  | 52 => ⟨S_, .i32⟩
  | 53 => ⟨S16384x50, .i32⟩
  | 54 => ⟨S16384x50, .i32⟩
  | 55 => ⟨S_, .i32⟩
  | 56 => ⟨S16384x50, .i32⟩
  | 57 => ⟨S16384x50, .i32⟩
  | 58 => ⟨S_, .i32⟩
  | 59 => ⟨S16384x50, .i32⟩
  | 60 => ⟨S16384x50, .i1⟩
  | 61 => ⟨S_, .i32⟩
  | 62 => ⟨S16384x50, .i32⟩
  | 63 => ⟨S16384x50, .i32⟩
  | 64 => ⟨S16384x50, .i32⟩
  | 65 => ⟨S16384x50x1, .i32⟩
  | 66 => ⟨S16384x50, .f32⟩
  | 67 => ⟨S_, .f32⟩
  | 68 => ⟨S_, .f32⟩
  | 69 => ⟨S16384x50, .f32⟩
  | 70 => ⟨S16384x50, .f32⟩
  | 71 => ⟨S_, .i32⟩
  | 72 => ⟨S16384x50, .i32⟩
  | 73 => ⟨S16384x50, .i1⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S16384x50, .i32⟩
  | 81 => ⟨S16384x50, .i32⟩
  | 82 => ⟨S_, .i32⟩
  | 83 => ⟨S16384x50, .i32⟩
  | 84 => ⟨S16384x50, .i1⟩
  | 85 => ⟨S_, .i32⟩
  | 86 => ⟨S16384x50, .i32⟩
  | 87 => ⟨S16384x50, .i1⟩
  | 88 => ⟨S_, .i32⟩
  | 89 => ⟨S_, .i1⟩
  | 90 => ⟨S16384x50, .i1⟩
  | 91 => ⟨S16384x50, .i1⟩
  | 92 => ⟨S16384x50, .i1⟩
  | 93 => ⟨S16384x50, .i32⟩
  | 94 => ⟨S16384x50, .i32⟩
  | 95 => ⟨S16384x50, .i32⟩
  | 96 => ⟨S_, .i32⟩
  | 97 => ⟨S_, .i32⟩
  | 98 => ⟨S16384x50, .i32⟩
  | 99 => ⟨S16384x50, .i32⟩
  | 100 => ⟨S16384x50, .i32⟩
  | 101 => ⟨S16384x1, .i32⟩
  | 102 => ⟨S_, .i1⟩
  | 103 => ⟨S16384x1, .i1⟩
  | 104 => ⟨S16384x49, .i32⟩
  | 105 => ⟨S16384x49, .i32⟩
  | 106 => ⟨S16384x49, .i1⟩
  | 107 => ⟨S16384x50, .i1⟩
  | 108 => ⟨S_, .i32⟩
  | 109 => ⟨S16384x50, .i32⟩
  | 110 => ⟨S16384x50, .i1⟩
  | 111 => ⟨S16384x50, .i1⟩
  | 112 => ⟨S_, .i32⟩
  | 113 => ⟨S_, .i32⟩
  | 114 => ⟨S_, .i32⟩
  | 115 => ⟨S16384x50, .i32⟩
  | 116 => ⟨S16384x50, .i32⟩
  | 117 => ⟨S_, .i32⟩
  | 118 => ⟨S16384x50, .i32⟩
  | 119 => ⟨S16384x50, .i32⟩
  | 120 => ⟨S_, .i32⟩
  | 121 => ⟨S16384x50, .i32⟩
  | 122 => ⟨S16384x50, .i1⟩
  | 123 => ⟨S_, .i32⟩
  | 124 => ⟨S16384x50, .i32⟩
  | 125 => ⟨S16384x50, .i32⟩
  | 126 => ⟨S16384x50, .i32⟩
  | 127 => ⟨S16384x50x1, .i32⟩
  | _ => ⟨S16384x50, .i32⟩

abbrev hbmTy0_3 (i : Nat) : BufTy := match i % 128 with
  | 0 => ⟨S16384x50, .f32⟩
  | 1 => ⟨S_, .f32⟩
  | 2 => ⟨S_, .f32⟩
  | 3 => ⟨S16384x50, .f32⟩
  | 4 => ⟨S16384x50, .f32⟩
  | 5 => ⟨S_, .i32⟩
  | 6 => ⟨S16384x50, .i32⟩
  | 7 => ⟨S16384x50, .i1⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S16384x50, .i32⟩
  | 15 => ⟨S16384x50, .i32⟩
  | 16 => ⟨S_, .i32⟩
  | 17 => ⟨S16384x50, .i32⟩
  | 18 => ⟨S16384x50, .i1⟩
  | 19 => ⟨S_, .i32⟩
  | 20 => ⟨S16384x50, .i32⟩
  | 21 => ⟨S16384x50, .i1⟩
  | 22 => ⟨S_, .i32⟩
  | 23 => ⟨S_, .i1⟩
  | 24 => ⟨S16384x50, .i1⟩
  | 25 => ⟨S16384x50, .i1⟩
  | 26 => ⟨S16384x50, .i1⟩
  | 27 => ⟨S16384x50, .i32⟩
  | 28 => ⟨S16384x50, .i32⟩
  | 29 => ⟨S16384x50, .i32⟩
  | 30 => ⟨S_, .i32⟩
  | 31 => ⟨S_, .i32⟩
  | 32 => ⟨S16384x50, .i32⟩
  | 33 => ⟨S16384x50, .i32⟩
  | 34 => ⟨S16384x50, .i32⟩
  | 35 => ⟨S16384x1, .i32⟩
  | 36 => ⟨S_, .i1⟩
  | 37 => ⟨S16384x1, .i1⟩
  | 38 => ⟨S16384x49, .i32⟩
  | 39 => ⟨S16384x49, .i32⟩
  | 40 => ⟨S16384x49, .i1⟩
  | 41 => ⟨S16384x50, .i1⟩
  | 42 => ⟨S_, .i32⟩
  | 43 => ⟨S16384x50, .i32⟩
  | 44 => ⟨S16384x50, .i1⟩
  | 45 => ⟨S16384x50, .i1⟩
  | 46 => ⟨S_, .i32⟩
  | 47 => ⟨S_, .i32⟩
  | 48 => ⟨S_, .i32⟩
  | 49 => ⟨S16384x50, .i32⟩
  | 50 => ⟨S16384x50, .i32⟩
  | 51 => ⟨S_, .i32⟩
  | 52 => ⟨S16384x50, .i32⟩
  | 53 => ⟨S16384x50, .i32⟩
  | 54 => ⟨S_, .i32⟩
  | 55 => ⟨S16384x50, .i32⟩
  | 56 => ⟨S16384x50, .i1⟩
  | 57 => ⟨S_, .i32⟩
  | 58 => ⟨S16384x50, .i32⟩
  | 59 => ⟨S16384x50, .i32⟩
  | 60 => ⟨S16384x50, .i32⟩
  | 61 => ⟨S16384x50x1, .i32⟩
  | 62 => ⟨S16384x50, .f32⟩
  | 63 => ⟨S_, .f32⟩
  | 64 => ⟨S_, .f32⟩
  | 65 => ⟨S16384x50, .f32⟩
  | 66 => ⟨S16384x50, .f32⟩
  | 67 => ⟨S_, .i32⟩
  | 68 => ⟨S16384x50, .i32⟩
  | 69 => ⟨S16384x50, .i1⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S16384x50, .i32⟩
  | 77 => ⟨S16384x50, .i32⟩
  | 78 => ⟨S_, .i32⟩
  | 79 => ⟨S16384x50, .i32⟩
  | 80 => ⟨S16384x50, .i1⟩
  | 81 => ⟨S_, .i32⟩
  | 82 => ⟨S16384x50, .i32⟩
  | 83 => ⟨S16384x50, .i1⟩
  | 84 => ⟨S_, .i32⟩
  | 85 => ⟨S_, .i1⟩
  | 86 => ⟨S16384x50, .i1⟩
  | 87 => ⟨S16384x50, .i1⟩
  | 88 => ⟨S16384x50, .i1⟩
  | 89 => ⟨S16384x50, .i32⟩
  | 90 => ⟨S16384x50, .i32⟩
  | 91 => ⟨S16384x50, .i32⟩
  | 92 => ⟨S_, .i32⟩
  | 93 => ⟨S_, .i32⟩
  | 94 => ⟨S16384x50, .i32⟩
  | 95 => ⟨S16384x50, .i32⟩
  | 96 => ⟨S16384x50, .i32⟩
  | 97 => ⟨S16384x1, .i32⟩
  | 98 => ⟨S_, .i1⟩
  | 99 => ⟨S16384x1, .i1⟩
  | 100 => ⟨S16384x49, .i32⟩
  | 101 => ⟨S16384x49, .i32⟩
  | 102 => ⟨S16384x49, .i1⟩
  | 103 => ⟨S16384x50, .i1⟩
  | 104 => ⟨S_, .i32⟩
  | 105 => ⟨S16384x50, .i32⟩
  | 106 => ⟨S16384x50, .i1⟩
  | 107 => ⟨S16384x50, .i1⟩
  | 108 => ⟨S_, .i32⟩
  | 109 => ⟨S_, .i32⟩
  | 110 => ⟨S_, .i32⟩
  | 111 => ⟨S16384x50, .i32⟩
  | 112 => ⟨S16384x50, .i32⟩
  | 113 => ⟨S_, .i32⟩
  | 114 => ⟨S16384x50, .i32⟩
  | 115 => ⟨S16384x50, .i32⟩
  | 116 => ⟨S_, .i32⟩
  | 117 => ⟨S16384x50, .i32⟩
  | 118 => ⟨S16384x50, .i1⟩
  | 119 => ⟨S_, .i32⟩
  | 120 => ⟨S16384x50, .i32⟩
  | 121 => ⟨S16384x50, .i32⟩
  | 122 => ⟨S16384x50, .i32⟩
  | 123 => ⟨S16384x50x1, .i32⟩
  | 124 => ⟨S16384x50, .f32⟩
  | 125 => ⟨S_, .f32⟩
  | 126 => ⟨S_, .f32⟩
  | 127 => ⟨S16384x50, .f32⟩
  | _ => ⟨S16384x50, .i32⟩

abbrev hbmTy0_4 (i : Nat) : BufTy := match i % 128 with
  | 0 => ⟨S16384x50, .f32⟩
  | 1 => ⟨S128x128, .f32⟩
  | 2 => ⟨S16384x1, .f32⟩
  | 3 => ⟨S_, .f32⟩
  | 4 => ⟨S16384x1, .f32⟩
  | 5 => ⟨S16384x1, .f32⟩
  | _ => ⟨S16384x50, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x50, .i32⟩

abbrev bufTy : (tb : Table) → Fin (tcTables nBuf tb) → BufTy
  | .hbm, ⟨i, _⟩ => hbmTy i
  | .local _ .vmem, ⟨0, _⟩ => ⟨S2048x50, .f32⟩
  | .local _ .vmem, ⟨1, _⟩ => ⟨S2048x50, .f32⟩
  | .local _ .vmem, ⟨2, _⟩ => ⟨S2048x50, .f32⟩
  | .local _ .vmem, ⟨3, _⟩ => ⟨S2048x50, .f32⟩
  | .local _ .vmem, ⟨4, _⟩ => ⟨S2048x50, .f32⟩
  | .local _ .vmem, ⟨5, _⟩ => ⟨S2048x50, .f32⟩
  | .local _ .vmem, ⟨6, _⟩ => ⟨S2048x50, .f32⟩
  | .local _ .vmem, ⟨7, _⟩ => ⟨S2048x50, .f32⟩
  | .local _ .vmem, ⟨8, _⟩ => ⟨S2048x50, .f32⟩
  | .local _ .vmem, ⟨9, _⟩ => ⟨S2048x50, .f32⟩
  | .local _ .vmem, ⟨10, _⟩ => ⟨S2048x50, .f32⟩
  | .local _ .vmem, ⟨11, _⟩ => ⟨S2048x50, .f32⟩
  | .local _ .vmem, ⟨12, _⟩ => ⟨S2048x50, .f32⟩
  | .local _ .vmem, ⟨13, _⟩ => ⟨S2048x50, .f32⟩
  | .local _ .vmem, ⟨14, _⟩ => ⟨S2048x50, .f32⟩
  | .local _ .vmem, ⟨15, _⟩ => ⟨S2048x50, .f32⟩
  | .local _ .vmem, ⟨16, _⟩ => ⟨S16x128, .f32⟩
  | .local _ .vmem, ⟨17, _⟩ => ⟨S16x128, .f32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v2 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_c_2 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_c_3 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_c_4 : Ref sig .tc := ⟨.hbm, 58, rfl⟩
abbrev main_c_5 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v14 : Ref sig .tc := ⟨.hbm, 65, rfl⟩
abbrev main_c_6 : Ref sig .tc := ⟨.hbm, 66, rfl⟩
abbrev main_v15 : Ref sig .tc := ⟨.hbm, 67, rfl⟩
abbrev main_v16 : Ref sig .tc := ⟨.hbm, 68, rfl⟩
abbrev main_c_7 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_cst : Ref sig .tc := ⟨.hbm, 75, rfl⟩
abbrev main_call4_v0 : Ref sig .tc := ⟨.hbm, 76, rfl⟩
abbrev main_call4_v1 : Ref sig .tc := ⟨.hbm, 77, rfl⟩
abbrev main_v22 : Ref sig .tc := ⟨.hbm, 78, rfl⟩
abbrev main_c_8 : Ref sig .tc := ⟨.hbm, 79, rfl⟩
abbrev main_v23 : Ref sig .tc := ⟨.hbm, 80, rfl⟩
abbrev main_v24 : Ref sig .tc := ⟨.hbm, 81, rfl⟩
abbrev main_c_9 : Ref sig .tc := ⟨.hbm, 82, rfl⟩
abbrev main_call5_v0 : Ref sig .tc := ⟨.hbm, 83, rfl⟩
abbrev main_call5_c : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_c_1 : Ref sig .tc := ⟨.hbm, 90, rfl⟩
abbrev main_call5_v5 : Ref sig .tc := ⟨.hbm, 91, rfl⟩
abbrev main_call5_v6 : Ref sig .tc := ⟨.hbm, 92, rfl⟩
abbrev main_call5_c_2 : Ref sig .tc := ⟨.hbm, 93, rfl⟩
abbrev main_call5_v7 : Ref sig .tc := ⟨.hbm, 94, rfl⟩
abbrev main_call5_v8 : Ref sig .tc := ⟨.hbm, 95, rfl⟩
abbrev main_call5_c_3 : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_v12 : Ref sig .tc := ⟨.hbm, 100, rfl⟩
abbrev main_call5_v13 : Ref sig .tc := ⟨.hbm, 101, rfl⟩
abbrev main_call5_v14 : Ref sig .tc := ⟨.hbm, 102, rfl⟩
abbrev main_v25 : Ref sig .tc := ⟨.hbm, 103, rfl⟩
abbrev main_c_10 : Ref sig .tc := ⟨.hbm, 104, rfl⟩
abbrev main_call6_v0 : Ref sig .tc := ⟨.hbm, 105, rfl⟩
abbrev main_call6_v1 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_c_11 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_c_12 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_c_13 : Ref sig .tc := ⟨.hbm, 120, rfl⟩
abbrev main_c_14 : Ref sig .tc := ⟨.hbm, 121, rfl⟩
abbrev main_call8_v0 : Ref sig .tc := ⟨.hbm, 122, rfl⟩
abbrev main_call8_v1 : Ref sig .tc := ⟨.hbm, 123, rfl⟩
abbrev main_call8_v2 : Ref sig .tc := ⟨.hbm, 124, rfl⟩
abbrev main_call8_v3 : Ref sig .tc := ⟨.hbm, 125, rfl⟩
abbrev main_call8_v4 : Ref sig .tc := ⟨.hbm, 126, rfl⟩
abbrev main_v37 : Ref sig .tc := ⟨.hbm, 127, rfl⟩
abbrev main_c_15 : Ref sig .tc := ⟨.hbm, 128, rfl⟩
abbrev main_v38 : Ref sig .tc := ⟨.hbm, 129, rfl⟩
abbrev main_v39 : Ref sig .tc := ⟨.hbm, 130, rfl⟩
abbrev main_c_16 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_cst_17 : Ref sig .tc := ⟨.hbm, 137, rfl⟩
abbrev main_call9_v0 : Ref sig .tc := ⟨.hbm, 138, rfl⟩
abbrev main_call9_v1 : Ref sig .tc := ⟨.hbm, 139, rfl⟩
abbrev main_v45 : Ref sig .tc := ⟨.hbm, 140, rfl⟩
abbrev main_c_18 : Ref sig .tc := ⟨.hbm, 141, rfl⟩
abbrev main_v46 : Ref sig .tc := ⟨.hbm, 142, rfl⟩
abbrev main_v47 : Ref sig .tc := ⟨.hbm, 143, rfl⟩
abbrev main_c_19 : Ref sig .tc := ⟨.hbm, 144, rfl⟩
abbrev main_call10_v0 : Ref sig .tc := ⟨.hbm, 145, rfl⟩
abbrev main_call10_c : Ref sig .tc := ⟨.hbm, 146, rfl⟩
abbrev main_call10_v1 : Ref sig .tc := ⟨.hbm, 147, rfl⟩
abbrev main_call10_c_0 : Ref sig .tc := ⟨.hbm, 148, rfl⟩
abbrev main_call10_v2 : Ref sig .tc := ⟨.hbm, 149, rfl⟩
abbrev main_call10_v3 : Ref sig .tc := ⟨.hbm, 150, rfl⟩
abbrev main_call10_v4 : Ref sig .tc := ⟨.hbm, 151, rfl⟩
abbrev main_call10_c_1 : Ref sig .tc := ⟨.hbm, 152, rfl⟩
abbrev main_call10_v5 : Ref sig .tc := ⟨.hbm, 153, rfl⟩
abbrev main_call10_v6 : Ref sig .tc := ⟨.hbm, 154, rfl⟩
abbrev main_call10_c_2 : Ref sig .tc := ⟨.hbm, 155, rfl⟩
abbrev main_call10_v7 : Ref sig .tc := ⟨.hbm, 156, rfl⟩
abbrev main_call10_v8 : Ref sig .tc := ⟨.hbm, 157, rfl⟩
abbrev main_call10_c_3 : Ref sig .tc := ⟨.hbm, 158, rfl⟩
abbrev main_call10_v9 : Ref sig .tc := ⟨.hbm, 159, rfl⟩
abbrev main_call10_v10 : Ref sig .tc := ⟨.hbm, 160, rfl⟩
abbrev main_call10_v11 : Ref sig .tc := ⟨.hbm, 161, rfl⟩
abbrev main_call10_v12 : Ref sig .tc := ⟨.hbm, 162, rfl⟩
abbrev main_call10_v13 : Ref sig .tc := ⟨.hbm, 163, rfl⟩
abbrev main_call10_v14 : Ref sig .tc := ⟨.hbm, 164, rfl⟩
abbrev main_v48 : Ref sig .tc := ⟨.hbm, 165, rfl⟩
abbrev main_c_20 : Ref sig .tc := ⟨.hbm, 166, rfl⟩
abbrev main_call11_v0 : Ref sig .tc := ⟨.hbm, 167, rfl⟩
abbrev main_call11_v1 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_c_21 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_c_22 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_c_23 : Ref sig .tc := ⟨.hbm, 182, rfl⟩
abbrev main_c_24 : Ref sig .tc := ⟨.hbm, 183, rfl⟩
abbrev main_call13_v0 : Ref sig .tc := ⟨.hbm, 184, rfl⟩
abbrev main_call13_v1 : Ref sig .tc := ⟨.hbm, 185, rfl⟩
abbrev main_call13_v2 : Ref sig .tc := ⟨.hbm, 186, rfl⟩
abbrev main_call13_v3 : Ref sig .tc := ⟨.hbm, 187, rfl⟩
abbrev main_call13_v4 : Ref sig .tc := ⟨.hbm, 188, rfl⟩
abbrev main_v60 : Ref sig .tc := ⟨.hbm, 189, rfl⟩
abbrev main_c_25 : Ref sig .tc := ⟨.hbm, 190, rfl⟩
abbrev main_v61 : Ref sig .tc := ⟨.hbm, 191, rfl⟩
abbrev main_v62 : Ref sig .tc := ⟨.hbm, 192, rfl⟩
abbrev main_c_26 : Ref sig .tc := ⟨.hbm, 193, rfl⟩
abbrev main_v63 : Ref sig .tc := ⟨.hbm, 194, rfl⟩
abbrev main_v64 : Ref sig .tc := ⟨.hbm, 195, rfl⟩
abbrev main_v65 : Ref sig .tc := ⟨.hbm, 196, rfl⟩
abbrev main_v66 : Ref sig .tc := ⟨.hbm, 197, rfl⟩
abbrev main_v67 : Ref sig .tc := ⟨.hbm, 198, rfl⟩
abbrev main_cst_27 : Ref sig .tc := ⟨.hbm, 199, rfl⟩
abbrev main_call14_v0 : Ref sig .tc := ⟨.hbm, 200, rfl⟩
abbrev main_call14_v1 : Ref sig .tc := ⟨.hbm, 201, rfl⟩
abbrev main_v68 : Ref sig .tc := ⟨.hbm, 202, rfl⟩
abbrev main_c_28 : Ref sig .tc := ⟨.hbm, 203, rfl⟩
abbrev main_v69 : Ref sig .tc := ⟨.hbm, 204, rfl⟩
abbrev main_v70 : Ref sig .tc := ⟨.hbm, 205, rfl⟩
abbrev main_c_29 : Ref sig .tc := ⟨.hbm, 206, rfl⟩
abbrev main_call15_v0 : Ref sig .tc := ⟨.hbm, 207, rfl⟩
abbrev main_call15_c : Ref sig .tc := ⟨.hbm, 208, rfl⟩
abbrev main_call15_v1 : Ref sig .tc := ⟨.hbm, 209, rfl⟩
abbrev main_call15_c_0 : Ref sig .tc := ⟨.hbm, 210, rfl⟩
abbrev main_call15_v2 : Ref sig .tc := ⟨.hbm, 211, rfl⟩
abbrev main_call15_v3 : Ref sig .tc := ⟨.hbm, 212, rfl⟩
abbrev main_call15_v4 : Ref sig .tc := ⟨.hbm, 213, rfl⟩
abbrev main_call15_c_1 : Ref sig .tc := ⟨.hbm, 214, rfl⟩
abbrev main_call15_v5 : Ref sig .tc := ⟨.hbm, 215, rfl⟩
abbrev main_call15_v6 : Ref sig .tc := ⟨.hbm, 216, rfl⟩
abbrev main_call15_c_2 : Ref sig .tc := ⟨.hbm, 217, rfl⟩
abbrev main_call15_v7 : Ref sig .tc := ⟨.hbm, 218, rfl⟩
abbrev main_call15_v8 : Ref sig .tc := ⟨.hbm, 219, rfl⟩
abbrev main_call15_c_3 : Ref sig .tc := ⟨.hbm, 220, rfl⟩
abbrev main_call15_v9 : Ref sig .tc := ⟨.hbm, 221, rfl⟩
abbrev main_call15_v10 : Ref sig .tc := ⟨.hbm, 222, rfl⟩
abbrev main_call15_v11 : Ref sig .tc := ⟨.hbm, 223, rfl⟩
abbrev main_call15_v12 : Ref sig .tc := ⟨.hbm, 224, rfl⟩
abbrev main_call15_v13 : Ref sig .tc := ⟨.hbm, 225, rfl⟩
abbrev main_call15_v14 : Ref sig .tc := ⟨.hbm, 226, rfl⟩
abbrev main_v71 : Ref sig .tc := ⟨.hbm, 227, rfl⟩
abbrev main_c_30 : Ref sig .tc := ⟨.hbm, 228, rfl⟩
abbrev main_call16_v0 : Ref sig .tc := ⟨.hbm, 229, rfl⟩
abbrev main_call16_v1 : Ref sig .tc := ⟨.hbm, 230, rfl⟩
abbrev main_v72 : Ref sig .tc := ⟨.hbm, 231, rfl⟩
abbrev main_v73 : Ref sig .tc := ⟨.hbm, 232, rfl⟩
abbrev main_v74 : Ref sig .tc := ⟨.hbm, 233, rfl⟩
abbrev main_c_31 : Ref sig .tc := ⟨.hbm, 234, rfl⟩
abbrev main_v75 : Ref sig .tc := ⟨.hbm, 235, rfl⟩
abbrev main_v76 : Ref sig .tc := ⟨.hbm, 236, rfl⟩
abbrev main_v77 : Ref sig .tc := ⟨.hbm, 237, rfl⟩
abbrev main_v78 : Ref sig .tc := ⟨.hbm, 238, rfl⟩
abbrev main_v79 : Ref sig .tc := ⟨.hbm, 239, rfl⟩
abbrev main_c_32 : Ref sig .tc := ⟨.hbm, 240, rfl⟩
abbrev main_v80 : Ref sig .tc := ⟨.hbm, 241, rfl⟩
abbrev main_v81 : Ref sig .tc := ⟨.hbm, 242, rfl⟩
abbrev main_v82 : Ref sig .tc := ⟨.hbm, 243, rfl⟩
abbrev main_c_33 : Ref sig .tc := ⟨.hbm, 244, rfl⟩
abbrev main_c_34 : Ref sig .tc := ⟨.hbm, 245, rfl⟩
abbrev main_call18_v0 : Ref sig .tc := ⟨.hbm, 246, rfl⟩
abbrev main_call18_v1 : Ref sig .tc := ⟨.hbm, 247, rfl⟩
abbrev main_call18_v2 : Ref sig .tc := ⟨.hbm, 248, rfl⟩
abbrev main_call18_v3 : Ref sig .tc := ⟨.hbm, 249, rfl⟩
abbrev main_call18_v4 : Ref sig .tc := ⟨.hbm, 250, rfl⟩
abbrev main_v83 : Ref sig .tc := ⟨.hbm, 251, rfl⟩
abbrev main_c_35 : Ref sig .tc := ⟨.hbm, 252, rfl⟩
abbrev main_v84 : Ref sig .tc := ⟨.hbm, 253, rfl⟩
abbrev main_v85 : Ref sig .tc := ⟨.hbm, 254, rfl⟩
abbrev main_c_36 : Ref sig .tc := ⟨.hbm, 255, rfl⟩
abbrev main_v86 : Ref sig .tc := ⟨.hbm, 256, rfl⟩
abbrev main_v87 : Ref sig .tc := ⟨.hbm, 257, rfl⟩
abbrev main_v88 : Ref sig .tc := ⟨.hbm, 258, rfl⟩
abbrev main_v89 : Ref sig .tc := ⟨.hbm, 259, rfl⟩
abbrev main_v90 : Ref sig .tc := ⟨.hbm, 260, rfl⟩
abbrev main_cst_37 : Ref sig .tc := ⟨.hbm, 261, rfl⟩
abbrev main_call19_v0 : Ref sig .tc := ⟨.hbm, 262, rfl⟩
abbrev main_call19_v1 : Ref sig .tc := ⟨.hbm, 263, rfl⟩
abbrev main_v91 : Ref sig .tc := ⟨.hbm, 264, rfl⟩
abbrev main_c_38 : Ref sig .tc := ⟨.hbm, 265, rfl⟩
abbrev main_v92 : Ref sig .tc := ⟨.hbm, 266, rfl⟩
abbrev main_v93 : Ref sig .tc := ⟨.hbm, 267, rfl⟩
abbrev main_c_39 : Ref sig .tc := ⟨.hbm, 268, rfl⟩
abbrev main_call20_v0 : Ref sig .tc := ⟨.hbm, 269, rfl⟩
abbrev main_call20_c : Ref sig .tc := ⟨.hbm, 270, rfl⟩
abbrev main_call20_v1 : Ref sig .tc := ⟨.hbm, 271, rfl⟩
abbrev main_call20_c_0 : Ref sig .tc := ⟨.hbm, 272, rfl⟩
abbrev main_call20_v2 : Ref sig .tc := ⟨.hbm, 273, rfl⟩
abbrev main_call20_v3 : Ref sig .tc := ⟨.hbm, 274, rfl⟩
abbrev main_call20_v4 : Ref sig .tc := ⟨.hbm, 275, rfl⟩
abbrev main_call20_c_1 : Ref sig .tc := ⟨.hbm, 276, rfl⟩
abbrev main_call20_v5 : Ref sig .tc := ⟨.hbm, 277, rfl⟩
abbrev main_call20_v6 : Ref sig .tc := ⟨.hbm, 278, rfl⟩
abbrev main_call20_c_2 : Ref sig .tc := ⟨.hbm, 279, rfl⟩
abbrev main_call20_v7 : Ref sig .tc := ⟨.hbm, 280, rfl⟩
abbrev main_call20_v8 : Ref sig .tc := ⟨.hbm, 281, rfl⟩
abbrev main_call20_c_3 : Ref sig .tc := ⟨.hbm, 282, rfl⟩
abbrev main_call20_v9 : Ref sig .tc := ⟨.hbm, 283, rfl⟩
abbrev main_call20_v10 : Ref sig .tc := ⟨.hbm, 284, rfl⟩
abbrev main_call20_v11 : Ref sig .tc := ⟨.hbm, 285, rfl⟩
abbrev main_call20_v12 : Ref sig .tc := ⟨.hbm, 286, rfl⟩
abbrev main_call20_v13 : Ref sig .tc := ⟨.hbm, 287, rfl⟩
abbrev main_call20_v14 : Ref sig .tc := ⟨.hbm, 288, rfl⟩
abbrev main_v94 : Ref sig .tc := ⟨.hbm, 289, rfl⟩
abbrev main_c_40 : Ref sig .tc := ⟨.hbm, 290, rfl⟩
abbrev main_call21_v0 : Ref sig .tc := ⟨.hbm, 291, rfl⟩
abbrev main_call21_v1 : Ref sig .tc := ⟨.hbm, 292, rfl⟩
abbrev main_v95 : Ref sig .tc := ⟨.hbm, 293, rfl⟩
abbrev main_v96 : Ref sig .tc := ⟨.hbm, 294, rfl⟩
abbrev main_v97 : Ref sig .tc := ⟨.hbm, 295, rfl⟩
abbrev main_c_41 : Ref sig .tc := ⟨.hbm, 296, rfl⟩
abbrev main_v98 : Ref sig .tc := ⟨.hbm, 297, rfl⟩
abbrev main_v99 : Ref sig .tc := ⟨.hbm, 298, rfl⟩
abbrev main_v100 : Ref sig .tc := ⟨.hbm, 299, rfl⟩
abbrev main_v101 : Ref sig .tc := ⟨.hbm, 300, rfl⟩
abbrev main_v102 : Ref sig .tc := ⟨.hbm, 301, rfl⟩
abbrev main_c_42 : Ref sig .tc := ⟨.hbm, 302, rfl⟩
abbrev main_v103 : Ref sig .tc := ⟨.hbm, 303, rfl⟩
abbrev main_v104 : Ref sig .tc := ⟨.hbm, 304, rfl⟩
abbrev main_v105 : Ref sig .tc := ⟨.hbm, 305, rfl⟩
abbrev main_c_43 : Ref sig .tc := ⟨.hbm, 306, rfl⟩
abbrev main_c_44 : Ref sig .tc := ⟨.hbm, 307, rfl⟩
abbrev main_call23_v0 : Ref sig .tc := ⟨.hbm, 308, rfl⟩
abbrev main_call23_v1 : Ref sig .tc := ⟨.hbm, 309, rfl⟩
abbrev main_call23_v2 : Ref sig .tc := ⟨.hbm, 310, rfl⟩
abbrev main_call23_v3 : Ref sig .tc := ⟨.hbm, 311, rfl⟩
abbrev main_call23_v4 : Ref sig .tc := ⟨.hbm, 312, rfl⟩
abbrev main_v106 : Ref sig .tc := ⟨.hbm, 313, rfl⟩
abbrev main_c_45 : Ref sig .tc := ⟨.hbm, 314, rfl⟩
abbrev main_v107 : Ref sig .tc := ⟨.hbm, 315, rfl⟩
abbrev main_v108 : Ref sig .tc := ⟨.hbm, 316, rfl⟩
abbrev main_c_46 : Ref sig .tc := ⟨.hbm, 317, rfl⟩
abbrev main_v109 : Ref sig .tc := ⟨.hbm, 318, rfl⟩
abbrev main_v110 : Ref sig .tc := ⟨.hbm, 319, rfl⟩
abbrev main_v111 : Ref sig .tc := ⟨.hbm, 320, rfl⟩
abbrev main_v112 : Ref sig .tc := ⟨.hbm, 321, rfl⟩
abbrev main_v113 : Ref sig .tc := ⟨.hbm, 322, rfl⟩
abbrev main_cst_47 : Ref sig .tc := ⟨.hbm, 323, rfl⟩
abbrev main_call24_v0 : Ref sig .tc := ⟨.hbm, 324, rfl⟩
abbrev main_call24_v1 : Ref sig .tc := ⟨.hbm, 325, rfl⟩
abbrev main_v114 : Ref sig .tc := ⟨.hbm, 326, rfl⟩
abbrev main_c_48 : Ref sig .tc := ⟨.hbm, 327, rfl⟩
abbrev main_v115 : Ref sig .tc := ⟨.hbm, 328, rfl⟩
abbrev main_v116 : Ref sig .tc := ⟨.hbm, 329, rfl⟩
abbrev main_c_49 : Ref sig .tc := ⟨.hbm, 330, rfl⟩
abbrev main_call25_v0 : Ref sig .tc := ⟨.hbm, 331, rfl⟩
abbrev main_call25_c : Ref sig .tc := ⟨.hbm, 332, rfl⟩
abbrev main_call25_v1 : Ref sig .tc := ⟨.hbm, 333, rfl⟩
abbrev main_call25_c_0 : Ref sig .tc := ⟨.hbm, 334, rfl⟩
abbrev main_call25_v2 : Ref sig .tc := ⟨.hbm, 335, rfl⟩
abbrev main_call25_v3 : Ref sig .tc := ⟨.hbm, 336, rfl⟩
abbrev main_call25_v4 : Ref sig .tc := ⟨.hbm, 337, rfl⟩
abbrev main_call25_c_1 : Ref sig .tc := ⟨.hbm, 338, rfl⟩
abbrev main_call25_v5 : Ref sig .tc := ⟨.hbm, 339, rfl⟩
abbrev main_call25_v6 : Ref sig .tc := ⟨.hbm, 340, rfl⟩
abbrev main_call25_c_2 : Ref sig .tc := ⟨.hbm, 341, rfl⟩
abbrev main_call25_v7 : Ref sig .tc := ⟨.hbm, 342, rfl⟩
abbrev main_call25_v8 : Ref sig .tc := ⟨.hbm, 343, rfl⟩
abbrev main_call25_c_3 : Ref sig .tc := ⟨.hbm, 344, rfl⟩
abbrev main_call25_v9 : Ref sig .tc := ⟨.hbm, 345, rfl⟩
abbrev main_call25_v10 : Ref sig .tc := ⟨.hbm, 346, rfl⟩
abbrev main_call25_v11 : Ref sig .tc := ⟨.hbm, 347, rfl⟩
abbrev main_call25_v12 : Ref sig .tc := ⟨.hbm, 348, rfl⟩
abbrev main_call25_v13 : Ref sig .tc := ⟨.hbm, 349, rfl⟩
abbrev main_call25_v14 : Ref sig .tc := ⟨.hbm, 350, rfl⟩
abbrev main_v117 : Ref sig .tc := ⟨.hbm, 351, rfl⟩
abbrev main_c_50 : Ref sig .tc := ⟨.hbm, 352, rfl⟩
abbrev main_call26_v0 : Ref sig .tc := ⟨.hbm, 353, rfl⟩
abbrev main_call26_v1 : Ref sig .tc := ⟨.hbm, 354, rfl⟩
abbrev main_v118 : Ref sig .tc := ⟨.hbm, 355, rfl⟩
abbrev main_v119 : Ref sig .tc := ⟨.hbm, 356, rfl⟩
abbrev main_v120 : Ref sig .tc := ⟨.hbm, 357, rfl⟩
abbrev main_c_51 : Ref sig .tc := ⟨.hbm, 358, rfl⟩
abbrev main_v121 : Ref sig .tc := ⟨.hbm, 359, rfl⟩
abbrev main_v122 : Ref sig .tc := ⟨.hbm, 360, rfl⟩
abbrev main_v123 : Ref sig .tc := ⟨.hbm, 361, rfl⟩
abbrev main_v124 : Ref sig .tc := ⟨.hbm, 362, rfl⟩
abbrev main_v125 : Ref sig .tc := ⟨.hbm, 363, rfl⟩
abbrev main_c_52 : Ref sig .tc := ⟨.hbm, 364, rfl⟩
abbrev main_v126 : Ref sig .tc := ⟨.hbm, 365, rfl⟩
abbrev main_v127 : Ref sig .tc := ⟨.hbm, 366, rfl⟩
abbrev main_v128 : Ref sig .tc := ⟨.hbm, 367, rfl⟩
abbrev main_c_53 : Ref sig .tc := ⟨.hbm, 368, rfl⟩
abbrev main_c_54 : Ref sig .tc := ⟨.hbm, 369, rfl⟩
abbrev main_call28_v0 : Ref sig .tc := ⟨.hbm, 370, rfl⟩
abbrev main_call28_v1 : Ref sig .tc := ⟨.hbm, 371, rfl⟩
abbrev main_call28_v2 : Ref sig .tc := ⟨.hbm, 372, rfl⟩
abbrev main_call28_v3 : Ref sig .tc := ⟨.hbm, 373, rfl⟩
abbrev main_call28_v4 : Ref sig .tc := ⟨.hbm, 374, rfl⟩
abbrev main_v129 : Ref sig .tc := ⟨.hbm, 375, rfl⟩
abbrev main_c_55 : Ref sig .tc := ⟨.hbm, 376, rfl⟩
abbrev main_v130 : Ref sig .tc := ⟨.hbm, 377, rfl⟩
abbrev main_v131 : Ref sig .tc := ⟨.hbm, 378, rfl⟩
abbrev main_c_56 : Ref sig .tc := ⟨.hbm, 379, rfl⟩
abbrev main_v132 : Ref sig .tc := ⟨.hbm, 380, rfl⟩
abbrev main_v133 : Ref sig .tc := ⟨.hbm, 381, rfl⟩
abbrev main_v134 : Ref sig .tc := ⟨.hbm, 382, rfl⟩
abbrev main_v135 : Ref sig .tc := ⟨.hbm, 383, rfl⟩
abbrev main_v136 : Ref sig .tc := ⟨.hbm, 384, rfl⟩
abbrev main_cst_57 : Ref sig .tc := ⟨.hbm, 385, rfl⟩
abbrev main_call29_v0 : Ref sig .tc := ⟨.hbm, 386, rfl⟩
abbrev main_call29_v1 : Ref sig .tc := ⟨.hbm, 387, rfl⟩
abbrev main_v137 : Ref sig .tc := ⟨.hbm, 388, rfl⟩
abbrev main_c_58 : Ref sig .tc := ⟨.hbm, 389, rfl⟩
abbrev main_v138 : Ref sig .tc := ⟨.hbm, 390, rfl⟩
abbrev main_v139 : Ref sig .tc := ⟨.hbm, 391, rfl⟩
abbrev main_c_59 : Ref sig .tc := ⟨.hbm, 392, rfl⟩
abbrev main_call30_v0 : Ref sig .tc := ⟨.hbm, 393, rfl⟩
abbrev main_call30_c : Ref sig .tc := ⟨.hbm, 394, rfl⟩
abbrev main_call30_v1 : Ref sig .tc := ⟨.hbm, 395, rfl⟩
abbrev main_call30_c_0 : Ref sig .tc := ⟨.hbm, 396, rfl⟩
abbrev main_call30_v2 : Ref sig .tc := ⟨.hbm, 397, rfl⟩
abbrev main_call30_v3 : Ref sig .tc := ⟨.hbm, 398, rfl⟩
abbrev main_call30_v4 : Ref sig .tc := ⟨.hbm, 399, rfl⟩
abbrev main_call30_c_1 : Ref sig .tc := ⟨.hbm, 400, rfl⟩
abbrev main_call30_v5 : Ref sig .tc := ⟨.hbm, 401, rfl⟩
abbrev main_call30_v6 : Ref sig .tc := ⟨.hbm, 402, rfl⟩
abbrev main_call30_c_2 : Ref sig .tc := ⟨.hbm, 403, rfl⟩
abbrev main_call30_v7 : Ref sig .tc := ⟨.hbm, 404, rfl⟩
abbrev main_call30_v8 : Ref sig .tc := ⟨.hbm, 405, rfl⟩
abbrev main_call30_c_3 : Ref sig .tc := ⟨.hbm, 406, rfl⟩
abbrev main_call30_v9 : Ref sig .tc := ⟨.hbm, 407, rfl⟩
abbrev main_call30_v10 : Ref sig .tc := ⟨.hbm, 408, rfl⟩
abbrev main_call30_v11 : Ref sig .tc := ⟨.hbm, 409, rfl⟩
abbrev main_call30_v12 : Ref sig .tc := ⟨.hbm, 410, rfl⟩
abbrev main_call30_v13 : Ref sig .tc := ⟨.hbm, 411, rfl⟩
abbrev main_call30_v14 : Ref sig .tc := ⟨.hbm, 412, rfl⟩
abbrev main_v140 : Ref sig .tc := ⟨.hbm, 413, rfl⟩
abbrev main_c_60 : Ref sig .tc := ⟨.hbm, 414, rfl⟩
abbrev main_call31_v0 : Ref sig .tc := ⟨.hbm, 415, rfl⟩
abbrev main_call31_v1 : Ref sig .tc := ⟨.hbm, 416, rfl⟩
abbrev main_v141 : Ref sig .tc := ⟨.hbm, 417, rfl⟩
abbrev main_v142 : Ref sig .tc := ⟨.hbm, 418, rfl⟩
abbrev main_v143 : Ref sig .tc := ⟨.hbm, 419, rfl⟩
abbrev main_c_61 : Ref sig .tc := ⟨.hbm, 420, rfl⟩
abbrev main_v144 : Ref sig .tc := ⟨.hbm, 421, rfl⟩
abbrev main_v145 : Ref sig .tc := ⟨.hbm, 422, rfl⟩
abbrev main_v146 : Ref sig .tc := ⟨.hbm, 423, rfl⟩
abbrev main_v147 : Ref sig .tc := ⟨.hbm, 424, rfl⟩
abbrev main_v148 : Ref sig .tc := ⟨.hbm, 425, rfl⟩
abbrev main_c_62 : Ref sig .tc := ⟨.hbm, 426, rfl⟩
abbrev main_v149 : Ref sig .tc := ⟨.hbm, 427, rfl⟩
abbrev main_v150 : Ref sig .tc := ⟨.hbm, 428, rfl⟩
abbrev main_v151 : Ref sig .tc := ⟨.hbm, 429, rfl⟩
abbrev main_c_63 : Ref sig .tc := ⟨.hbm, 430, rfl⟩
abbrev main_c_64 : Ref sig .tc := ⟨.hbm, 431, rfl⟩
abbrev main_call33_v0 : Ref sig .tc := ⟨.hbm, 432, rfl⟩
abbrev main_call33_v1 : Ref sig .tc := ⟨.hbm, 433, rfl⟩
abbrev main_call33_v2 : Ref sig .tc := ⟨.hbm, 434, rfl⟩
abbrev main_call33_v3 : Ref sig .tc := ⟨.hbm, 435, rfl⟩
abbrev main_call33_v4 : Ref sig .tc := ⟨.hbm, 436, rfl⟩
abbrev main_v152 : Ref sig .tc := ⟨.hbm, 437, rfl⟩
abbrev main_c_65 : Ref sig .tc := ⟨.hbm, 438, rfl⟩
abbrev main_v153 : Ref sig .tc := ⟨.hbm, 439, rfl⟩
abbrev main_v154 : Ref sig .tc := ⟨.hbm, 440, rfl⟩
abbrev main_c_66 : Ref sig .tc := ⟨.hbm, 441, rfl⟩
abbrev main_v155 : Ref sig .tc := ⟨.hbm, 442, rfl⟩
abbrev main_v156 : Ref sig .tc := ⟨.hbm, 443, rfl⟩
abbrev main_v157 : Ref sig .tc := ⟨.hbm, 444, rfl⟩
abbrev main_v158 : Ref sig .tc := ⟨.hbm, 445, rfl⟩
abbrev main_v159 : Ref sig .tc := ⟨.hbm, 446, rfl⟩
abbrev main_cst_67 : Ref sig .tc := ⟨.hbm, 447, rfl⟩
abbrev main_call34_v0 : Ref sig .tc := ⟨.hbm, 448, rfl⟩
abbrev main_call34_v1 : Ref sig .tc := ⟨.hbm, 449, rfl⟩
abbrev main_v160 : Ref sig .tc := ⟨.hbm, 450, rfl⟩
abbrev main_c_68 : Ref sig .tc := ⟨.hbm, 451, rfl⟩
abbrev main_v161 : Ref sig .tc := ⟨.hbm, 452, rfl⟩
abbrev main_v162 : Ref sig .tc := ⟨.hbm, 453, rfl⟩
abbrev main_c_69 : Ref sig .tc := ⟨.hbm, 454, rfl⟩
abbrev main_call35_v0 : Ref sig .tc := ⟨.hbm, 455, rfl⟩
abbrev main_call35_c : Ref sig .tc := ⟨.hbm, 456, rfl⟩
abbrev main_call35_v1 : Ref sig .tc := ⟨.hbm, 457, rfl⟩
abbrev main_call35_c_0 : Ref sig .tc := ⟨.hbm, 458, rfl⟩
abbrev main_call35_v2 : Ref sig .tc := ⟨.hbm, 459, rfl⟩
abbrev main_call35_v3 : Ref sig .tc := ⟨.hbm, 460, rfl⟩
abbrev main_call35_v4 : Ref sig .tc := ⟨.hbm, 461, rfl⟩
abbrev main_call35_c_1 : Ref sig .tc := ⟨.hbm, 462, rfl⟩
abbrev main_call35_v5 : Ref sig .tc := ⟨.hbm, 463, rfl⟩
abbrev main_call35_v6 : Ref sig .tc := ⟨.hbm, 464, rfl⟩
abbrev main_call35_c_2 : Ref sig .tc := ⟨.hbm, 465, rfl⟩
abbrev main_call35_v7 : Ref sig .tc := ⟨.hbm, 466, rfl⟩
abbrev main_call35_v8 : Ref sig .tc := ⟨.hbm, 467, rfl⟩
abbrev main_call35_c_3 : Ref sig .tc := ⟨.hbm, 468, rfl⟩
abbrev main_call35_v9 : Ref sig .tc := ⟨.hbm, 469, rfl⟩
abbrev main_call35_v10 : Ref sig .tc := ⟨.hbm, 470, rfl⟩
abbrev main_call35_v11 : Ref sig .tc := ⟨.hbm, 471, rfl⟩
abbrev main_call35_v12 : Ref sig .tc := ⟨.hbm, 472, rfl⟩
abbrev main_call35_v13 : Ref sig .tc := ⟨.hbm, 473, rfl⟩
abbrev main_call35_v14 : Ref sig .tc := ⟨.hbm, 474, rfl⟩
abbrev main_v163 : Ref sig .tc := ⟨.hbm, 475, rfl⟩
abbrev main_c_70 : Ref sig .tc := ⟨.hbm, 476, rfl⟩
abbrev main_call36_v0 : Ref sig .tc := ⟨.hbm, 477, rfl⟩
abbrev main_call36_v1 : Ref sig .tc := ⟨.hbm, 478, rfl⟩
abbrev main_v164 : Ref sig .tc := ⟨.hbm, 479, rfl⟩
abbrev main_v165 : Ref sig .tc := ⟨.hbm, 480, rfl⟩
abbrev main_v166 : Ref sig .tc := ⟨.hbm, 481, rfl⟩
abbrev main_c_71 : Ref sig .tc := ⟨.hbm, 482, rfl⟩
abbrev main_v167 : Ref sig .tc := ⟨.hbm, 483, rfl⟩
abbrev main_v168 : Ref sig .tc := ⟨.hbm, 484, rfl⟩
abbrev main_v169 : Ref sig .tc := ⟨.hbm, 485, rfl⟩
abbrev main_v170 : Ref sig .tc := ⟨.hbm, 486, rfl⟩
abbrev main_v171 : Ref sig .tc := ⟨.hbm, 487, rfl⟩
abbrev main_c_72 : Ref sig .tc := ⟨.hbm, 488, rfl⟩
abbrev main_v172 : Ref sig .tc := ⟨.hbm, 489, rfl⟩
abbrev main_v173 : Ref sig .tc := ⟨.hbm, 490, rfl⟩
abbrev main_v174 : Ref sig .tc := ⟨.hbm, 491, rfl⟩
abbrev main_c_73 : Ref sig .tc := ⟨.hbm, 492, rfl⟩
abbrev main_c_74 : Ref sig .tc := ⟨.hbm, 493, rfl⟩
abbrev main_call38_v0 : Ref sig .tc := ⟨.hbm, 494, rfl⟩
abbrev main_call38_v1 : Ref sig .tc := ⟨.hbm, 495, rfl⟩
abbrev main_call38_v2 : Ref sig .tc := ⟨.hbm, 496, rfl⟩
abbrev main_call38_v3 : Ref sig .tc := ⟨.hbm, 497, rfl⟩
abbrev main_call38_v4 : Ref sig .tc := ⟨.hbm, 498, rfl⟩
abbrev main_v175 : Ref sig .tc := ⟨.hbm, 499, rfl⟩
abbrev main_c_75 : Ref sig .tc := ⟨.hbm, 500, rfl⟩
abbrev main_v176 : Ref sig .tc := ⟨.hbm, 501, rfl⟩
abbrev main_v177 : Ref sig .tc := ⟨.hbm, 502, rfl⟩
abbrev main_c_76 : Ref sig .tc := ⟨.hbm, 503, rfl⟩
abbrev main_v178 : Ref sig .tc := ⟨.hbm, 504, rfl⟩
abbrev main_v179 : Ref sig .tc := ⟨.hbm, 505, rfl⟩
abbrev main_v180 : Ref sig .tc := ⟨.hbm, 506, rfl⟩
abbrev main_v181 : Ref sig .tc := ⟨.hbm, 507, rfl⟩
abbrev main_v182 : Ref sig .tc := ⟨.hbm, 508, rfl⟩
abbrev main_cst_77 : Ref sig .tc := ⟨.hbm, 509, rfl⟩
abbrev main_call39_v0 : Ref sig .tc := ⟨.hbm, 510, rfl⟩
abbrev main_call39_v1 : Ref sig .tc := ⟨.hbm, 511, rfl⟩
abbrev main_v183 : Ref sig .tc := ⟨.hbm, 512, rfl⟩
abbrev main_v184 : Ref sig .tc := ⟨.hbm, 513, rfl⟩
abbrev main_v185 : Ref sig .tc := ⟨.hbm, 514, rfl⟩
abbrev main_v186 : Ref sig .tc := ⟨.hbm, 515, rfl⟩
abbrev main_v187 : Ref sig .tc := ⟨.hbm, 516, rfl⟩
abbrev main_v188 : Ref sig .tc := ⟨.hbm, 517, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x50 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16384x50 : S_.BroadcastsInDim S16384x50 (![] : Fin 0 → Fin S16384x50.rank)
  slices_S16384x50_S16384x1_0_0 : S16384x50.Slices ![0, 0] S16384x1
  bcast_S_S16384x1 : S_.BroadcastsInDim S16384x1 (![] : Fin 0 → Fin S16384x1.rank)
  slices_S16384x50_S16384x49_0_1 : S16384x50.Slices ![0, 1] S16384x49
  slices_S16384x50_S16384x49_0_0 : S16384x50.Slices ![0, 0] S16384x49
  concatenates_S16384x1_S16384x49_S16384x50_d1 : Shape.Concatenates [S16384x1, S16384x49] S16384x50 1
  bcast_S16384x50_S16384x50x1_0_1 : S16384x50.BroadcastsInDim S16384x50x1 (![0, 1] : Fin 2 → Fin S16384x50x1.rank)
  inb_S2048x50_S2048x50_0_0 : ∀ a, (![0, 0] : Fin 2 → Nat) a + S2048x50.size a ≤ S2048x50.size a
  h_S2048x50 : 0 < S2048x50.numel
  shapeCasts_S2048x50_S2048x50 : S2048x50.ShapeCasts S2048x50
  reduces_S2048x50_S2048 : S2048x50.Reduces [1] S2048
  shapeCasts_S2048_S16x128 : S2048.ShapeCasts S16x128
  inb_S16x128_S16x128_0_0 : ∀ a, (![0, 0] : Fin 2 → Nat) a + S16x128.size a ≤ S16x128.size a
  h_S16x128 : 0 < S16x128.numel
  shapeCasts_S128x128_S16384x1 : S128x128.ShapeCasts S16384x1
  shapeCasts_S1_S_ : S1.ShapeCasts S_
  gather_S100000_S16384x50x1_S16384x50_n_0_n_n_0_2_1_wf : GatherDims.WF S100000 S16384x50x1 S16384x50 [] [0] [] [0] [] 2 ![1]
  gather_S1000000_S16384x50x1_S16384x50_n_0_n_n_0_2_1_wf : GatherDims.WF S1000000 S16384x50x1 S16384x50 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x50.size a ≤ S16384x50.size a
  hwx0_0 : ∀ i : grid0.Coords, EltTy.bits .f32 = 32 ∨ (Rect.block (s := S16384x50) S2048x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x50.size a ≤ S16384x50.size a
  hwx0_1 : ∀ i : grid0.Coords, EltTy.bits .f32 = 32 ∨ (Rect.block (s := S16384x50) S2048x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x50.size a ≤ S16384x50.size a
  hwx0_2 : ∀ i : grid0.Coords, EltTy.bits .f32 = 32 ∨ (Rect.block (s := S16384x50) S2048x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x50.size a ≤ S16384x50.size a
  hwx0_3 : ∀ i : grid0.Coords, EltTy.bits .f32 = 32 ∨ (Rect.block (s := S16384x50) S2048x50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x50.size a ≤ S16384x50.size a
  hwx0_4 : ∀ i : grid0.Coords, EltTy.bits .f32 = 32 ∨ (Rect.block (s := S16384x50) S2048x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x50.size a ≤ S16384x50.size a
  hwx0_5 : ∀ i : grid0.Coords, EltTy.bits .f32 = 32 ∨ (Rect.block (s := S16384x50) S2048x50.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x50.size a ≤ S16384x50.size a
  hwx0_6 : ∀ i : grid0.Coords, EltTy.bits .f32 = 32 ∨ (Rect.block (s := S16384x50) S2048x50.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x50.size a ≤ S16384x50.size a
  hwx0_7 : ∀ i : grid0.Coords, EltTy.bits .f32 = 32 ∨ (Rect.block (s := S16384x50) S2048x50.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x128.size a ≤ S128x128.size a
  hwx0_8 : ∀ i : grid0.Coords, EltTy.bits .f32 = 32 ∨ (Rect.block (s := S128x128) S16x128.size (cc0_transform_8 i) (hinb0_8 i)).WholeWords (EltTy.packing .f32)

variable [Facts₀]

def comparator_i32_d1 : BitVec 32 → BitVec 32 → BitVec 1 :=
  fun l r =>
    let v1 := IntOp.cmpi .slt l r
    v1
def gather_S100000_S16384x50x1_S16384x50_n_0_n_n_0_2_1 : GatherDims S100000 S16384x50x1 S16384x50 where
  offsetDims := []
  collapsedSliceDims := [0]
  operandBatchingDims := []
  startIndicesBatchingDims := []
  startIndexMap := [0]
  indexVectorDim := 2
  sliceSizes := ![1]
  wf := gather_S100000_S16384x50x1_S16384x50_n_0_n_n_0_2_1_wf
def gather_S1000000_S16384x50x1_S16384x50_n_0_n_n_0_2_1 : GatherDims S1000000 S16384x50x1 S16384x50 where
  offsetDims := []
  collapsedSliceDims := [0]
  operandBatchingDims := []
  startIndicesBatchingDims := []
  startIndexMap := [0]
  indexVectorDim := 2
  sliceSizes := ![1]
  wf := gather_S1000000_S16384x50x1_S16384x50_n_0_n_n_0_2_1_wf

abbrev win0_0 : Pipeline.Window sig grid0 :=
  Pipeline.Window.ofSpec (Memref.whole main_v22) S2048x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S2048x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S2048x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v91) S2048x50.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v114) S2048x50.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v137) S2048x50.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v160) S2048x50.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v183) S2048x50.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v184) S16x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x50 : Shape := ⟨2, ![16384, 50]⟩
abbrev S100000 : Shape := ⟨1, ![100000]⟩
abbrev S1000000 : Shape := ⟨1, ![1000000]⟩
abbrev S1 : Shape := ⟨1, ![1]⟩
abbrev S_ : Shape := ⟨0, ![]⟩
abbrev S16384x1 : Shape := ⟨2, ![16384, 1]⟩
abbrev S16384x49 : Shape := ⟨2, ![16384, 49]⟩
abbrev S16384x50x1 : Shape := ⟨3, ![16384, 50, 1]⟩
abbrev S16384 : Shape := ⟨1, ![16384]⟩

abbrev nBuf : Space → Nat
  | .hbm => 540
  | .vmem => 0
  | .smem => 0
  | _ => 0

abbrev hbmTy0_0 (i : Nat) : BufTy := match i % 128 with
  | 0 => ⟨S16384x50, .i32⟩
  | 1 => ⟨S16384x50, .i32⟩
  | 2 => ⟨S16384x50, .i32⟩
  | 3 => ⟨S16384x50, .i32⟩
  | 4 => ⟨S16384x50, .i32⟩
  | 5 => ⟨S16384x50, .i32⟩
  | 6 => ⟨S16384x50, .i32⟩
  | 7 => ⟨S16384x50, .i32⟩
  | 8 => ⟨S100000, .f32⟩
  | 9 => ⟨S100000, .f32⟩
  | 10 => ⟨S100000, .f32⟩
  | 11 => ⟨S100000, .f32⟩
  | 12 => ⟨S100000, .f32⟩
  | 13 => ⟨S100000, .f32⟩
  | 14 => ⟨S1000000, .f32⟩
  | 15 => ⟨S1000000, .f32⟩
  | 16 => ⟨S1, .f32⟩
  | 17 => ⟨S_, .f32⟩
  | 18 => ⟨S_, .i32⟩
  | 19 => ⟨S16384x50, .i32⟩
  | 20 => ⟨S16384x50, .i1⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S16384x50, .i32⟩
  | 28 => ⟨S16384x50, .i32⟩
  | 29 => ⟨S_, .i32⟩
  | 30 => ⟨S16384x50, .i32⟩
  | 31 => ⟨S16384x50, .i1⟩
  | 32 => ⟨S_, .i32⟩
  | 33 => ⟨S16384x50, .i32⟩
  | 34 => ⟨S16384x50, .i1⟩
  | 35 => ⟨S_, .i32⟩
  | 36 => ⟨S_, .i1⟩
  | 37 => ⟨S16384x50, .i1⟩
  | 38 => ⟨S16384x50, .i1⟩
  | 39 => ⟨S16384x50, .i1⟩
  | 40 => ⟨S16384x50, .i32⟩
  | 41 => ⟨S16384x50, .i32⟩
  | 42 => ⟨S16384x50, .i32⟩
  | 43 => ⟨S_, .i32⟩
  | 44 => ⟨S_, .i32⟩
  | 45 => ⟨S16384x50, .i32⟩
  | 46 => ⟨S16384x50, .i32⟩
  | 47 => ⟨S16384x50, .i32⟩
  | 48 => ⟨S16384x1, .i32⟩
  | 49 => ⟨S_, .i1⟩
  | 50 => ⟨S16384x1, .i1⟩
  | 51 => ⟨S16384x49, .i32⟩
  | 52 => ⟨S16384x49, .i32⟩
  | 53 => ⟨S16384x49, .i1⟩
  | 54 => ⟨S16384x50, .i1⟩
  | 55 => ⟨S_, .i32⟩
  | 56 => ⟨S16384x50, .i32⟩
  | 57 => ⟨S16384x50, .i1⟩
  | 58 => ⟨S16384x50, .i1⟩
  | 59 => ⟨S_, .i32⟩
  | 60 => ⟨S_, .i32⟩
  | 61 => ⟨S_, .i32⟩
  | 62 => ⟨S16384x50, .i32⟩
  | 63 => ⟨S16384x50, .i32⟩
  | 64 => ⟨S_, .i32⟩
  | 65 => ⟨S16384x50, .i32⟩
  | 66 => ⟨S16384x50, .i32⟩
  | 67 => ⟨S_, .i32⟩
  | 68 => ⟨S16384x50, .i32⟩
  | 69 => ⟨S16384x50, .i1⟩
  | 70 => ⟨S_, .i32⟩
  | 71 => ⟨S16384x50, .i32⟩
  | 72 => ⟨S16384x50, .i32⟩
  | 73 => ⟨S16384x50, .i32⟩
  | 74 => ⟨S16384x50x1, .i32⟩
  | 75 => ⟨S16384x50, .f32⟩
  | 76 => ⟨S_, .f32⟩
  | 77 => ⟨S_, .f32⟩
  | 78 => ⟨S16384x50, .f32⟩
  | 79 => ⟨S16384x50, .f32⟩
  | 80 => ⟨S_, .f32⟩
  | 81 => ⟨S16384, .f32⟩
  | 82 => ⟨S16384, .f32⟩
  | 83 => ⟨S16384, .f32⟩
  | 84 => ⟨S_, .i32⟩
  | 85 => ⟨S16384x50, .i32⟩
  | 86 => ⟨S16384x50, .i1⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S16384x50, .i32⟩
  | 94 => ⟨S16384x50, .i32⟩
  | 95 => ⟨S_, .i32⟩
  | 96 => ⟨S16384x50, .i32⟩
  | 97 => ⟨S16384x50, .i1⟩
  | 98 => ⟨S_, .i32⟩
  | 99 => ⟨S16384x50, .i32⟩
  | 100 => ⟨S16384x50, .i1⟩
  | 101 => ⟨S_, .i32⟩
  | 102 => ⟨S_, .i1⟩
  | 103 => ⟨S16384x50, .i1⟩
  | 104 => ⟨S16384x50, .i1⟩
  | 105 => ⟨S16384x50, .i1⟩
  | 106 => ⟨S16384x50, .i32⟩
  | 107 => ⟨S16384x50, .i32⟩
  | 108 => ⟨S16384x50, .i32⟩
  | 109 => ⟨S_, .i32⟩
  | 110 => ⟨S_, .i32⟩
  | 111 => ⟨S16384x50, .i32⟩
  | 112 => ⟨S16384x50, .i32⟩
  | 113 => ⟨S16384x50, .i32⟩
  | 114 => ⟨S16384x1, .i32⟩
  | 115 => ⟨S_, .i1⟩
  | 116 => ⟨S16384x1, .i1⟩
  | 117 => ⟨S16384x49, .i32⟩
  | 118 => ⟨S16384x49, .i32⟩
  | 119 => ⟨S16384x49, .i1⟩
  | 120 => ⟨S16384x50, .i1⟩
  | 121 => ⟨S_, .i32⟩
  | 122 => ⟨S16384x50, .i32⟩
  | 123 => ⟨S16384x50, .i1⟩
  | 124 => ⟨S16384x50, .i1⟩
  | 125 => ⟨S_, .i32⟩
  | 126 => ⟨S_, .i32⟩
  | 127 => ⟨S_, .i32⟩
  | _ => ⟨S16384x50, .i32⟩

abbrev hbmTy0_1 (i : Nat) : BufTy := match i % 128 with
  | 0 => ⟨S16384x50, .i32⟩
  | 1 => ⟨S16384x50, .i32⟩
  | 2 => ⟨S_, .i32⟩
  | 3 => ⟨S16384x50, .i32⟩
  | 4 => ⟨S16384x50, .i32⟩
  | 5 => ⟨S_, .i32⟩
  | 6 => ⟨S16384x50, .i32⟩
  | 7 => ⟨S16384x50, .i1⟩
  | 8 => ⟨S_, .i32⟩
  | 9 => ⟨S16384x50, .i32⟩
  | 10 => ⟨S16384x50, .i32⟩
  | 11 => ⟨S16384x50, .i32⟩
  | 12 => ⟨S16384x50x1, .i32⟩
  | 13 => ⟨S16384x50, .f32⟩
  | 14 => ⟨S_, .f32⟩
  | 15 => ⟨S_, .f32⟩
  | 16 => ⟨S16384x50, .f32⟩
  | 17 => ⟨S16384x50, .f32⟩
  | 18 => ⟨S_, .f32⟩
  | 19 => ⟨S16384, .f32⟩
  | 20 => ⟨S16384, .f32⟩
  | 21 => ⟨S_, .i32⟩
  | 22 => ⟨S16384x50, .i32⟩
  | 23 => ⟨S16384x50, .i1⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S16384x50, .i32⟩
  | 31 => ⟨S16384x50, .i32⟩
  | 32 => ⟨S_, .i32⟩
  | 33 => ⟨S16384x50, .i32⟩
  | 34 => ⟨S16384x50, .i1⟩
  | 35 => ⟨S_, .i32⟩
  | 36 => ⟨S16384x50, .i32⟩
  | 37 => ⟨S16384x50, .i1⟩
  | 38 => ⟨S_, .i32⟩
  | 39 => ⟨S_, .i1⟩
  | 40 => ⟨S16384x50, .i1⟩
  | 41 => ⟨S16384x50, .i1⟩
  | 42 => ⟨S16384x50, .i1⟩
  | 43 => ⟨S16384x50, .i32⟩
  | 44 => ⟨S16384x50, .i32⟩
  | 45 => ⟨S16384x50, .i32⟩
  | 46 => ⟨S_, .i32⟩
  | 47 => ⟨S_, .i32⟩
  | 48 => ⟨S16384x50, .i32⟩
  | 49 => ⟨S16384x50, .i32⟩
  | 50 => ⟨S16384x50, .i32⟩
  | 51 => ⟨S16384x1, .i32⟩
  | 52 => ⟨S_, .i1⟩
  | 53 => ⟨S16384x1, .i1⟩
  | 54 => ⟨S16384x49, .i32⟩
  | 55 => ⟨S16384x49, .i32⟩
  | 56 => ⟨S16384x49, .i1⟩
  | 57 => ⟨S16384x50, .i1⟩
  | 58 => ⟨S_, .i32⟩
  | 59 => ⟨S16384x50, .i32⟩
  | 60 => ⟨S16384x50, .i1⟩
  | 61 => ⟨S16384x50, .i1⟩
  | 62 => ⟨S_, .i32⟩
  | 63 => ⟨S_, .i32⟩
  | 64 => ⟨S_, .i32⟩
  | 65 => ⟨S16384x50, .i32⟩
  | 66 => ⟨S16384x50, .i32⟩
  | 67 => ⟨S_, .i32⟩
  | 68 => ⟨S16384x50, .i32⟩
  | 69 => ⟨S16384x50, .i32⟩
  | 70 => ⟨S_, .i32⟩
  | 71 => ⟨S16384x50, .i32⟩
  | 72 => ⟨S16384x50, .i1⟩
  | 73 => ⟨S_, .i32⟩
  | 74 => ⟨S16384x50, .i32⟩
  | 75 => ⟨S16384x50, .i32⟩
  | 76 => ⟨S16384x50, .i32⟩
  | 77 => ⟨S16384x50x1, .i32⟩
  | 78 => ⟨S16384x50, .f32⟩
  | 79 => ⟨S_, .f32⟩
  | 80 => ⟨S_, .f32⟩
  | 81 => ⟨S16384x50, .f32⟩
  | 82 => ⟨S16384x50, .f32⟩
  | 83 => ⟨S_, .f32⟩
  | 84 => ⟨S16384, .f32⟩
  | 85 => ⟨S16384, .f32⟩
  | 86 => ⟨S_, .i32⟩
  | 87 => ⟨S16384x50, .i32⟩
  | 88 => ⟨S16384x50, .i1⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S16384x50, .i32⟩
  | 96 => ⟨S16384x50, .i32⟩
  | 97 => ⟨S_, .i32⟩
  | 98 => ⟨S16384x50, .i32⟩
  | 99 => ⟨S16384x50, .i1⟩
  | 100 => ⟨S_, .i32⟩
  | 101 => ⟨S16384x50, .i32⟩
  | 102 => ⟨S16384x50, .i1⟩
  | 103 => ⟨S_, .i32⟩
  | 104 => ⟨S_, .i1⟩
  | 105 => ⟨S16384x50, .i1⟩
  | 106 => ⟨S16384x50, .i1⟩
  | 107 => ⟨S16384x50, .i1⟩
  | 108 => ⟨S16384x50, .i32⟩
  | 109 => ⟨S16384x50, .i32⟩
  | 110 => ⟨S16384x50, .i32⟩
  | 111 => ⟨S_, .i32⟩
  | 112 => ⟨S_, .i32⟩
  | 113 => ⟨S16384x50, .i32⟩
  | 114 => ⟨S16384x50, .i32⟩
  | 115 => ⟨S16384x50, .i32⟩
  | 116 => ⟨S16384x1, .i32⟩
  | 117 => ⟨S_, .i1⟩
  | 118 => ⟨S16384x1, .i1⟩
  | 119 => ⟨S16384x49, .i32⟩
  | 120 => ⟨S16384x49, .i32⟩
  | 121 => ⟨S16384x49, .i1⟩
  | 122 => ⟨S16384x50, .i1⟩
  | 123 => ⟨S_, .i32⟩
  | 124 => ⟨S16384x50, .i32⟩
  | 125 => ⟨S16384x50, .i1⟩
  | 126 => ⟨S16384x50, .i1⟩
  | 127 => ⟨S_, .i32⟩
  | _ => ⟨S16384x50, .i32⟩

abbrev hbmTy0_2 (i : Nat) : BufTy := match i % 128 with
  | 0 => ⟨S_, .i32⟩
  | 1 => ⟨S_, .i32⟩
  | 2 => ⟨S16384x50, .i32⟩
  | 3 => ⟨S16384x50, .i32⟩
  | 4 => ⟨S_, .i32⟩
  | 5 => ⟨S16384x50, .i32⟩
  | 6 => ⟨S16384x50, .i32⟩
  | 7 => ⟨S_, .i32⟩
  | 8 => ⟨S16384x50, .i32⟩
  | 9 => ⟨S16384x50, .i1⟩
  | 10 => ⟨S_, .i32⟩
  | 11 => ⟨S16384x50, .i32⟩
  | 12 => ⟨S16384x50, .i32⟩
  | 13 => ⟨S16384x50, .i32⟩
  | 14 => ⟨S16384x50x1, .i32⟩
  | 15 => ⟨S16384x50, .f32⟩
  | 16 => ⟨S_, .f32⟩
  | 17 => ⟨S_, .f32⟩
  | 18 => ⟨S16384x50, .f32⟩
  | 19 => ⟨S16384x50, .f32⟩
  | 20 => ⟨S_, .f32⟩
  | 21 => ⟨S16384, .f32⟩
  | 22 => ⟨S16384, .f32⟩
  | 23 => ⟨S_, .i32⟩
  | 24 => ⟨S16384x50, .i32⟩
  | 25 => ⟨S16384x50, .i1⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S16384x50, .i32⟩
  | 33 => ⟨S16384x50, .i32⟩
  | 34 => ⟨S_, .i32⟩
  | 35 => ⟨S16384x50, .i32⟩
  | 36 => ⟨S16384x50, .i1⟩
  | 37 => ⟨S_, .i32⟩
  | 38 => ⟨S16384x50, .i32⟩
  | 39 => ⟨S16384x50, .i1⟩
  | 40 => ⟨S_, .i32⟩
  | 41 => ⟨S_, .i1⟩
  | 42 => ⟨S16384x50, .i1⟩
  | 43 => ⟨S16384x50, .i1⟩
  | 44 => ⟨S16384x50, .i1⟩
  | 45 => ⟨S16384x50, .i32⟩
  | 46 => ⟨S16384x50, .i32⟩
  | 47 => ⟨S16384x50, .i32⟩
  | 48 => ⟨S_, .i32⟩
  | 49 => ⟨S_, .i32⟩
  | 50 => ⟨S16384x50, .i32⟩
  | 51 => ⟨S16384x50, .i32⟩
  | 52 => ⟨S16384x50, .i32⟩
  | 53 => ⟨S16384x1, .i32⟩
  | 54 => ⟨S_, .i1⟩
  | 55 => ⟨S16384x1, .i1⟩
  | 56 => ⟨S16384x49, .i32⟩
  | 57 => ⟨S16384x49, .i32⟩
  | 58 => ⟨S16384x49, .i1⟩
  | 59 => ⟨S16384x50, .i1⟩
  | 60 => ⟨S_, .i32⟩
  | 61 => ⟨S16384x50, .i32⟩
  | 62 => ⟨S16384x50, .i1⟩
  | 63 => ⟨S16384x50, .i1⟩
  | 64 => ⟨S_, .i32⟩
  | 65 => ⟨S_, .i32⟩
  | 66 => ⟨S_, .i32⟩
  | 67 => ⟨S16384x50, .i32⟩
  | 68 => ⟨S16384x50, .i32⟩
  | 69 => ⟨S_, .i32⟩
  | 70 => ⟨S16384x50, .i32⟩
  | 71 => ⟨S16384x50, .i32⟩
  | 72 => ⟨S_, .i32⟩
  | 73 => ⟨S16384x50, .i32⟩
  | 74 => ⟨S16384x50, .i1⟩
  | 75 => ⟨S_, .i32⟩
  | 76 => ⟨S16384x50, .i32⟩
  | 77 => ⟨S16384x50, .i32⟩
  | 78 => ⟨S16384x50, .i32⟩
  | 79 => ⟨S16384x50x1, .i32⟩
  | 80 => ⟨S16384x50, .f32⟩
  | 81 => ⟨S_, .f32⟩
  | 82 => ⟨S_, .f32⟩
  | 83 => ⟨S16384x50, .f32⟩
  | 84 => ⟨S16384x50, .f32⟩
  | 85 => ⟨S_, .f32⟩
  | 86 => ⟨S16384, .f32⟩
  | 87 => ⟨S16384, .f32⟩
  | 88 => ⟨S_, .i32⟩
  | 89 => ⟨S16384x50, .i32⟩
  | 90 => ⟨S16384x50, .i1⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S16384x50, .i32⟩
  | 98 => ⟨S16384x50, .i32⟩
  | 99 => ⟨S_, .i32⟩
  | 100 => ⟨S16384x50, .i32⟩
  | 101 => ⟨S16384x50, .i1⟩
  | 102 => ⟨S_, .i32⟩
  | 103 => ⟨S16384x50, .i32⟩
  | 104 => ⟨S16384x50, .i1⟩
  | 105 => ⟨S_, .i32⟩
  | 106 => ⟨S_, .i1⟩
  | 107 => ⟨S16384x50, .i1⟩
  | 108 => ⟨S16384x50, .i1⟩
  | 109 => ⟨S16384x50, .i1⟩
  | 110 => ⟨S16384x50, .i32⟩
  | 111 => ⟨S16384x50, .i32⟩
  | 112 => ⟨S16384x50, .i32⟩
  | 113 => ⟨S_, .i32⟩
  | 114 => ⟨S_, .i32⟩
  | 115 => ⟨S16384x50, .i32⟩
  | 116 => ⟨S16384x50, .i32⟩
  | 117 => ⟨S16384x50, .i32⟩
  | 118 => ⟨S16384x1, .i32⟩
  | 119 => ⟨S_, .i1⟩
  | 120 => ⟨S16384x1, .i1⟩
  | 121 => ⟨S16384x49, .i32⟩
  | 122 => ⟨S16384x49, .i32⟩
  | 123 => ⟨S16384x49, .i1⟩
  | 124 => ⟨S16384x50, .i1⟩
  | 125 => ⟨S_, .i32⟩
  | 126 => ⟨S16384x50, .i32⟩
  | 127 => ⟨S16384x50, .i1⟩
  | _ => ⟨S16384x50, .i32⟩

abbrev hbmTy0_3 (i : Nat) : BufTy := match i % 128 with
  | 0 => ⟨S16384x50, .i1⟩
  | 1 => ⟨S_, .i32⟩
  | 2 => ⟨S_, .i32⟩
  | 3 => ⟨S_, .i32⟩
  | 4 => ⟨S16384x50, .i32⟩
  | 5 => ⟨S16384x50, .i32⟩
  | 6 => ⟨S_, .i32⟩
  | 7 => ⟨S16384x50, .i32⟩
  | 8 => ⟨S16384x50, .i32⟩
  | 9 => ⟨S_, .i32⟩
  | 10 => ⟨S16384x50, .i32⟩
  | 11 => ⟨S16384x50, .i1⟩
  | 12 => ⟨S_, .i32⟩
  | 13 => ⟨S16384x50, .i32⟩
  | 14 => ⟨S16384x50, .i32⟩
  | 15 => ⟨S16384x50, .i32⟩
  | 16 => ⟨S16384x50x1, .i32⟩
  | 17 => ⟨S16384x50, .f32⟩
  | 18 => ⟨S_, .f32⟩
  | 19 => ⟨S_, .f32⟩
  | 20 => ⟨S16384x50, .f32⟩
  | 21 => ⟨S16384x50, .f32⟩
  | 22 => ⟨S_, .f32⟩
  | 23 => ⟨S16384, .f32⟩
  | 24 => ⟨S16384, .f32⟩
  | 25 => ⟨S_, .i32⟩
  | 26 => ⟨S16384x50, .i32⟩
  | 27 => ⟨S16384x50, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S16384x50, .i32⟩
  | 35 => ⟨S16384x50, .i32⟩
  | 36 => ⟨S_, .i32⟩
  | 37 => ⟨S16384x50, .i32⟩
  | 38 => ⟨S16384x50, .i1⟩
  | 39 => ⟨S_, .i32⟩
  | 40 => ⟨S16384x50, .i32⟩
  | 41 => ⟨S16384x50, .i1⟩
  | 42 => ⟨S_, .i32⟩
  | 43 => ⟨S_, .i1⟩
  | 44 => ⟨S16384x50, .i1⟩
  | 45 => ⟨S16384x50, .i1⟩
  | 46 => ⟨S16384x50, .i1⟩
  | 47 => ⟨S16384x50, .i32⟩
  | 48 => ⟨S16384x50, .i32⟩
  | 49 => ⟨S16384x50, .i32⟩
  | 50 => ⟨S_, .i32⟩
  | 51 => ⟨S_, .i32⟩
  | 52 => ⟨S16384x50, .i32⟩
  | 53 => ⟨S16384x50, .i32⟩
  | 54 => ⟨S16384x50, .i32⟩
  | 55 => ⟨S16384x1, .i32⟩
  | 56 => ⟨S_, .i1⟩
  | 57 => ⟨S16384x1, .i1⟩
  | 58 => ⟨S16384x49, .i32⟩
  | 59 => ⟨S16384x49, .i32⟩
  | 60 => ⟨S16384x49, .i1⟩
  | 61 => ⟨S16384x50, .i1⟩
  | 62 => ⟨S_, .i32⟩
  | 63 => ⟨S16384x50, .i32⟩
  | 64 => ⟨S16384x50, .i1⟩
  | 65 => ⟨S16384x50, .i1⟩
  | 66 => ⟨S_, .i32⟩
  | 67 => ⟨S_, .i32⟩
  | 68 => ⟨S_, .i32⟩
  | 69 => ⟨S16384x50, .i32⟩
  | 70 => ⟨S16384x50, .i32⟩
  | 71 => ⟨S_, .i32⟩
  | 72 => ⟨S16384x50, .i32⟩
  | 73 => ⟨S16384x50, .i32⟩
  | 74 => ⟨S_, .i32⟩
  | 75 => ⟨S16384x50, .i32⟩
  | 76 => ⟨S16384x50, .i1⟩
  | 77 => ⟨S_, .i32⟩
  | 78 => ⟨S16384x50, .i32⟩
  | 79 => ⟨S16384x50, .i32⟩
  | 80 => ⟨S16384x50, .i32⟩
  | 81 => ⟨S16384x50x1, .i32⟩
  | 82 => ⟨S16384x50, .f32⟩
  | 83 => ⟨S_, .f32⟩
  | 84 => ⟨S_, .f32⟩
  | 85 => ⟨S16384x50, .f32⟩
  | 86 => ⟨S16384x50, .f32⟩
  | 87 => ⟨S_, .f32⟩
  | 88 => ⟨S16384, .f32⟩
  | 89 => ⟨S16384, .f32⟩
  | 90 => ⟨S_, .i32⟩
  | 91 => ⟨S16384x50, .i32⟩
  | 92 => ⟨S16384x50, .i1⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S16384x50, .i32⟩
  | 100 => ⟨S16384x50, .i32⟩
  | 101 => ⟨S_, .i32⟩
  | 102 => ⟨S16384x50, .i32⟩
  | 103 => ⟨S16384x50, .i1⟩
  | 104 => ⟨S_, .i32⟩
  | 105 => ⟨S16384x50, .i32⟩
  | 106 => ⟨S16384x50, .i1⟩
  | 107 => ⟨S_, .i32⟩
  | 108 => ⟨S_, .i1⟩
  | 109 => ⟨S16384x50, .i1⟩
  | 110 => ⟨S16384x50, .i1⟩
  | 111 => ⟨S16384x50, .i1⟩
  | 112 => ⟨S16384x50, .i32⟩
  | 113 => ⟨S16384x50, .i32⟩
  | 114 => ⟨S16384x50, .i32⟩
  | 115 => ⟨S_, .i32⟩
  | 116 => ⟨S_, .i32⟩
  | 117 => ⟨S16384x50, .i32⟩
  | 118 => ⟨S16384x50, .i32⟩
  | 119 => ⟨S16384x50, .i32⟩
  | 120 => ⟨S16384x1, .i32⟩
  | 121 => ⟨S_, .i1⟩
  | 122 => ⟨S16384x1, .i1⟩
  | 123 => ⟨S16384x49, .i32⟩
  | 124 => ⟨S16384x49, .i32⟩
  | 125 => ⟨S16384x49, .i1⟩
  | 126 => ⟨S16384x50, .i1⟩
  | 127 => ⟨S_, .i32⟩
  | _ => ⟨S16384x50, .i32⟩

abbrev hbmTy0_4 (i : Nat) : BufTy := match i % 128 with
  | 0 => ⟨S16384x50, .i32⟩
  | 1 => ⟨S16384x50, .i1⟩
  | 2 => ⟨S16384x50, .i1⟩
  | 3 => ⟨S_, .i32⟩
  | 4 => ⟨S_, .i32⟩
  | 5 => ⟨S_, .i32⟩
  | 6 => ⟨S16384x50, .i32⟩
  | 7 => ⟨S16384x50, .i32⟩
  | 8 => ⟨S_, .i32⟩
  | 9 => ⟨S16384x50, .i32⟩
  | 10 => ⟨S16384x50, .i32⟩
  | 11 => ⟨S_, .i32⟩
  | 12 => ⟨S16384x50, .i32⟩
  | 13 => ⟨S16384x50, .i1⟩
  | 14 => ⟨S_, .i32⟩
  | 15 => ⟨S16384x50, .i32⟩
  | 16 => ⟨S16384x50, .i32⟩
  | 17 => ⟨S16384x50, .i32⟩
  | 18 => ⟨S16384x50x1, .i32⟩
  | 19 => ⟨S16384x50, .f32⟩
  | 20 => ⟨S_, .f32⟩
  | 21 => ⟨S_, .f32⟩
  | 22 => ⟨S16384x50, .f32⟩
  | 23 => ⟨S16384x50, .f32⟩
  | 24 => ⟨S_, .f32⟩
  | 25 => ⟨S16384, .f32⟩
  | 26 => ⟨S16384, .f32⟩
  | 27 => ⟨S16384x1, .f32⟩
  | _ => ⟨S16384x50, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x50, .i32⟩

abbrev bufTy : (tb : Table) → Fin (tcTables nBuf tb) → BufTy
  | .hbm, ⟨i, _⟩ => hbmTy i
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v3 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_c_3 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_c_4 : Ref sig .tc := ⟨.hbm, 59, rfl⟩
abbrev main_c_5 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v15 : Ref sig .tc := ⟨.hbm, 66, rfl⟩
abbrev main_c_6 : Ref sig .tc := ⟨.hbm, 67, rfl⟩
abbrev main_v16 : Ref sig .tc := ⟨.hbm, 68, rfl⟩
abbrev main_v17 : Ref sig .tc := ⟨.hbm, 69, rfl⟩
abbrev main_c_7 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst : Ref sig .tc := ⟨.hbm, 76, rfl⟩
abbrev main_call4_v0 : Ref sig .tc := ⟨.hbm, 77, rfl⟩
abbrev main_call4_v1 : Ref sig .tc := ⟨.hbm, 78, rfl⟩
abbrev main_v23 : Ref sig .tc := ⟨.hbm, 79, rfl⟩
abbrev main_cst_8 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_9 : Ref sig .tc := ⟨.hbm, 84, rfl⟩
abbrev main_v27 : Ref sig .tc := ⟨.hbm, 85, rfl⟩
abbrev main_v28 : Ref sig .tc := ⟨.hbm, 86, rfl⟩
abbrev main_c_10 : Ref sig .tc := ⟨.hbm, 87, rfl⟩
abbrev main_call5_v0 : Ref sig .tc := ⟨.hbm, 88, rfl⟩
abbrev main_call5_c : Ref sig .tc := ⟨.hbm, 89, rfl⟩
abbrev main_call5_v1 : Ref sig .tc := ⟨.hbm, 90, rfl⟩
abbrev main_call5_c_0 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_c_1 : Ref sig .tc := ⟨.hbm, 95, rfl⟩
abbrev main_call5_v5 : Ref sig .tc := ⟨.hbm, 96, rfl⟩
abbrev main_call5_v6 : Ref sig .tc := ⟨.hbm, 97, rfl⟩
abbrev main_call5_c_2 : Ref sig .tc := ⟨.hbm, 98, rfl⟩
abbrev main_call5_v7 : Ref sig .tc := ⟨.hbm, 99, rfl⟩
abbrev main_call5_v8 : Ref sig .tc := ⟨.hbm, 100, rfl⟩
abbrev main_call5_c_3 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_v12 : Ref sig .tc := ⟨.hbm, 105, rfl⟩
abbrev main_call5_v13 : Ref sig .tc := ⟨.hbm, 106, rfl⟩
abbrev main_call5_v14 : Ref sig .tc := ⟨.hbm, 107, rfl⟩
abbrev main_v29 : Ref sig .tc := ⟨.hbm, 108, rfl⟩
abbrev main_c_11 : Ref sig .tc := ⟨.hbm, 109, rfl⟩
abbrev main_call6_v0 : Ref sig .tc := ⟨.hbm, 110, rfl⟩
abbrev main_call6_v1 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_c_12 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_c_13 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_c_14 : Ref sig .tc := ⟨.hbm, 125, rfl⟩
abbrev main_c_15 : Ref sig .tc := ⟨.hbm, 126, rfl⟩
abbrev main_call8_v0 : Ref sig .tc := ⟨.hbm, 127, rfl⟩
abbrev main_call8_v1 : Ref sig .tc := ⟨.hbm, 128, rfl⟩
abbrev main_call8_v2 : Ref sig .tc := ⟨.hbm, 129, rfl⟩
abbrev main_call8_v3 : Ref sig .tc := ⟨.hbm, 130, rfl⟩
abbrev main_call8_v4 : Ref sig .tc := ⟨.hbm, 131, rfl⟩
abbrev main_v41 : Ref sig .tc := ⟨.hbm, 132, rfl⟩
abbrev main_c_16 : Ref sig .tc := ⟨.hbm, 133, rfl⟩
abbrev main_v42 : Ref sig .tc := ⟨.hbm, 134, rfl⟩
abbrev main_v43 : Ref sig .tc := ⟨.hbm, 135, rfl⟩
abbrev main_c_17 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_cst_18 : Ref sig .tc := ⟨.hbm, 142, rfl⟩
abbrev main_call9_v0 : Ref sig .tc := ⟨.hbm, 143, rfl⟩
abbrev main_call9_v1 : Ref sig .tc := ⟨.hbm, 144, rfl⟩
abbrev main_v49 : Ref sig .tc := ⟨.hbm, 145, rfl⟩
abbrev main_cst_19 : Ref sig .tc := ⟨.hbm, 146, rfl⟩
abbrev main_v50 : Ref sig .tc := ⟨.hbm, 147, rfl⟩
abbrev main_v51 : Ref sig .tc := ⟨.hbm, 148, rfl⟩
abbrev main_c_20 : Ref sig .tc := ⟨.hbm, 149, rfl⟩
abbrev main_v52 : Ref sig .tc := ⟨.hbm, 150, rfl⟩
abbrev main_v53 : Ref sig .tc := ⟨.hbm, 151, rfl⟩
abbrev main_c_21 : Ref sig .tc := ⟨.hbm, 152, rfl⟩
abbrev main_call10_v0 : Ref sig .tc := ⟨.hbm, 153, rfl⟩
abbrev main_call10_c : Ref sig .tc := ⟨.hbm, 154, rfl⟩
abbrev main_call10_v1 : Ref sig .tc := ⟨.hbm, 155, rfl⟩
abbrev main_call10_c_0 : Ref sig .tc := ⟨.hbm, 156, rfl⟩
abbrev main_call10_v2 : Ref sig .tc := ⟨.hbm, 157, rfl⟩
abbrev main_call10_v3 : Ref sig .tc := ⟨.hbm, 158, rfl⟩
abbrev main_call10_v4 : Ref sig .tc := ⟨.hbm, 159, rfl⟩
abbrev main_call10_c_1 : Ref sig .tc := ⟨.hbm, 160, rfl⟩
abbrev main_call10_v5 : Ref sig .tc := ⟨.hbm, 161, rfl⟩
abbrev main_call10_v6 : Ref sig .tc := ⟨.hbm, 162, rfl⟩
abbrev main_call10_c_2 : Ref sig .tc := ⟨.hbm, 163, rfl⟩
abbrev main_call10_v7 : Ref sig .tc := ⟨.hbm, 164, rfl⟩
abbrev main_call10_v8 : Ref sig .tc := ⟨.hbm, 165, rfl⟩
abbrev main_call10_c_3 : Ref sig .tc := ⟨.hbm, 166, rfl⟩
abbrev main_call10_v9 : Ref sig .tc := ⟨.hbm, 167, rfl⟩
abbrev main_call10_v10 : Ref sig .tc := ⟨.hbm, 168, rfl⟩
abbrev main_call10_v11 : Ref sig .tc := ⟨.hbm, 169, rfl⟩
abbrev main_call10_v12 : Ref sig .tc := ⟨.hbm, 170, rfl⟩
abbrev main_call10_v13 : Ref sig .tc := ⟨.hbm, 171, rfl⟩
abbrev main_call10_v14 : Ref sig .tc := ⟨.hbm, 172, rfl⟩
abbrev main_v54 : Ref sig .tc := ⟨.hbm, 173, rfl⟩
abbrev main_c_22 : Ref sig .tc := ⟨.hbm, 174, rfl⟩
abbrev main_call11_v0 : Ref sig .tc := ⟨.hbm, 175, rfl⟩
abbrev main_call11_v1 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_c_23 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_c_24 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_c_25 : Ref sig .tc := ⟨.hbm, 190, rfl⟩
abbrev main_c_26 : Ref sig .tc := ⟨.hbm, 191, rfl⟩
abbrev main_call13_v0 : Ref sig .tc := ⟨.hbm, 192, rfl⟩
abbrev main_call13_v1 : Ref sig .tc := ⟨.hbm, 193, rfl⟩
abbrev main_call13_v2 : Ref sig .tc := ⟨.hbm, 194, rfl⟩
abbrev main_call13_v3 : Ref sig .tc := ⟨.hbm, 195, rfl⟩
abbrev main_call13_v4 : Ref sig .tc := ⟨.hbm, 196, rfl⟩
abbrev main_v66 : Ref sig .tc := ⟨.hbm, 197, rfl⟩
abbrev main_c_27 : Ref sig .tc := ⟨.hbm, 198, rfl⟩
abbrev main_v67 : Ref sig .tc := ⟨.hbm, 199, rfl⟩
abbrev main_v68 : Ref sig .tc := ⟨.hbm, 200, rfl⟩
abbrev main_c_28 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_cst_29 : Ref sig .tc := ⟨.hbm, 207, rfl⟩
abbrev main_call14_v0 : Ref sig .tc := ⟨.hbm, 208, rfl⟩
abbrev main_call14_v1 : Ref sig .tc := ⟨.hbm, 209, rfl⟩
abbrev main_v74 : Ref sig .tc := ⟨.hbm, 210, rfl⟩
abbrev main_cst_30 : Ref sig .tc := ⟨.hbm, 211, rfl⟩
abbrev main_v75 : Ref sig .tc := ⟨.hbm, 212, rfl⟩
abbrev main_v76 : Ref sig .tc := ⟨.hbm, 213, rfl⟩
abbrev main_c_31 : Ref sig .tc := ⟨.hbm, 214, rfl⟩
abbrev main_v77 : Ref sig .tc := ⟨.hbm, 215, rfl⟩
abbrev main_v78 : Ref sig .tc := ⟨.hbm, 216, rfl⟩
abbrev main_c_32 : Ref sig .tc := ⟨.hbm, 217, rfl⟩
abbrev main_call15_v0 : Ref sig .tc := ⟨.hbm, 218, rfl⟩
abbrev main_call15_c : Ref sig .tc := ⟨.hbm, 219, rfl⟩
abbrev main_call15_v1 : Ref sig .tc := ⟨.hbm, 220, rfl⟩
abbrev main_call15_c_0 : Ref sig .tc := ⟨.hbm, 221, rfl⟩
abbrev main_call15_v2 : Ref sig .tc := ⟨.hbm, 222, rfl⟩
abbrev main_call15_v3 : Ref sig .tc := ⟨.hbm, 223, rfl⟩
abbrev main_call15_v4 : Ref sig .tc := ⟨.hbm, 224, rfl⟩
abbrev main_call15_c_1 : Ref sig .tc := ⟨.hbm, 225, rfl⟩
abbrev main_call15_v5 : Ref sig .tc := ⟨.hbm, 226, rfl⟩
abbrev main_call15_v6 : Ref sig .tc := ⟨.hbm, 227, rfl⟩
abbrev main_call15_c_2 : Ref sig .tc := ⟨.hbm, 228, rfl⟩
abbrev main_call15_v7 : Ref sig .tc := ⟨.hbm, 229, rfl⟩
abbrev main_call15_v8 : Ref sig .tc := ⟨.hbm, 230, rfl⟩
abbrev main_call15_c_3 : Ref sig .tc := ⟨.hbm, 231, rfl⟩
abbrev main_call15_v9 : Ref sig .tc := ⟨.hbm, 232, rfl⟩
abbrev main_call15_v10 : Ref sig .tc := ⟨.hbm, 233, rfl⟩
abbrev main_call15_v11 : Ref sig .tc := ⟨.hbm, 234, rfl⟩
abbrev main_call15_v12 : Ref sig .tc := ⟨.hbm, 235, rfl⟩
abbrev main_call15_v13 : Ref sig .tc := ⟨.hbm, 236, rfl⟩
abbrev main_call15_v14 : Ref sig .tc := ⟨.hbm, 237, rfl⟩
abbrev main_v79 : Ref sig .tc := ⟨.hbm, 238, rfl⟩
abbrev main_c_33 : Ref sig .tc := ⟨.hbm, 239, rfl⟩
abbrev main_call16_v0 : Ref sig .tc := ⟨.hbm, 240, rfl⟩
abbrev main_call16_v1 : Ref sig .tc := ⟨.hbm, 241, rfl⟩
abbrev main_v80 : Ref sig .tc := ⟨.hbm, 242, rfl⟩
abbrev main_v81 : Ref sig .tc := ⟨.hbm, 243, rfl⟩
abbrev main_v82 : Ref sig .tc := ⟨.hbm, 244, rfl⟩
abbrev main_c_34 : Ref sig .tc := ⟨.hbm, 245, rfl⟩
abbrev main_v83 : Ref sig .tc := ⟨.hbm, 246, rfl⟩
abbrev main_v84 : Ref sig .tc := ⟨.hbm, 247, rfl⟩
abbrev main_v85 : Ref sig .tc := ⟨.hbm, 248, rfl⟩
abbrev main_v86 : Ref sig .tc := ⟨.hbm, 249, rfl⟩
abbrev main_v87 : Ref sig .tc := ⟨.hbm, 250, rfl⟩
abbrev main_c_35 : Ref sig .tc := ⟨.hbm, 251, rfl⟩
abbrev main_v88 : Ref sig .tc := ⟨.hbm, 252, rfl⟩
abbrev main_v89 : Ref sig .tc := ⟨.hbm, 253, rfl⟩
abbrev main_v90 : Ref sig .tc := ⟨.hbm, 254, rfl⟩
abbrev main_c_36 : Ref sig .tc := ⟨.hbm, 255, rfl⟩
abbrev main_c_37 : Ref sig .tc := ⟨.hbm, 256, rfl⟩
abbrev main_call18_v0 : Ref sig .tc := ⟨.hbm, 257, rfl⟩
abbrev main_call18_v1 : Ref sig .tc := ⟨.hbm, 258, rfl⟩
abbrev main_call18_v2 : Ref sig .tc := ⟨.hbm, 259, rfl⟩
abbrev main_call18_v3 : Ref sig .tc := ⟨.hbm, 260, rfl⟩
abbrev main_call18_v4 : Ref sig .tc := ⟨.hbm, 261, rfl⟩
abbrev main_v91 : Ref sig .tc := ⟨.hbm, 262, rfl⟩
abbrev main_c_38 : Ref sig .tc := ⟨.hbm, 263, rfl⟩
abbrev main_v92 : Ref sig .tc := ⟨.hbm, 264, rfl⟩
abbrev main_v93 : Ref sig .tc := ⟨.hbm, 265, rfl⟩
abbrev main_c_39 : Ref sig .tc := ⟨.hbm, 266, rfl⟩
abbrev main_v94 : Ref sig .tc := ⟨.hbm, 267, rfl⟩
abbrev main_v95 : Ref sig .tc := ⟨.hbm, 268, rfl⟩
abbrev main_v96 : Ref sig .tc := ⟨.hbm, 269, rfl⟩
abbrev main_v97 : Ref sig .tc := ⟨.hbm, 270, rfl⟩
abbrev main_v98 : Ref sig .tc := ⟨.hbm, 271, rfl⟩
abbrev main_cst_40 : Ref sig .tc := ⟨.hbm, 272, rfl⟩
abbrev main_call19_v0 : Ref sig .tc := ⟨.hbm, 273, rfl⟩
abbrev main_call19_v1 : Ref sig .tc := ⟨.hbm, 274, rfl⟩
abbrev main_v99 : Ref sig .tc := ⟨.hbm, 275, rfl⟩
abbrev main_cst_41 : Ref sig .tc := ⟨.hbm, 276, rfl⟩
abbrev main_v100 : Ref sig .tc := ⟨.hbm, 277, rfl⟩
abbrev main_v101 : Ref sig .tc := ⟨.hbm, 278, rfl⟩
abbrev main_c_42 : Ref sig .tc := ⟨.hbm, 279, rfl⟩
abbrev main_v102 : Ref sig .tc := ⟨.hbm, 280, rfl⟩
abbrev main_v103 : Ref sig .tc := ⟨.hbm, 281, rfl⟩
abbrev main_c_43 : Ref sig .tc := ⟨.hbm, 282, rfl⟩
abbrev main_call20_v0 : Ref sig .tc := ⟨.hbm, 283, rfl⟩
abbrev main_call20_c : Ref sig .tc := ⟨.hbm, 284, rfl⟩
abbrev main_call20_v1 : Ref sig .tc := ⟨.hbm, 285, rfl⟩
abbrev main_call20_c_0 : Ref sig .tc := ⟨.hbm, 286, rfl⟩
abbrev main_call20_v2 : Ref sig .tc := ⟨.hbm, 287, rfl⟩
abbrev main_call20_v3 : Ref sig .tc := ⟨.hbm, 288, rfl⟩
abbrev main_call20_v4 : Ref sig .tc := ⟨.hbm, 289, rfl⟩
abbrev main_call20_c_1 : Ref sig .tc := ⟨.hbm, 290, rfl⟩
abbrev main_call20_v5 : Ref sig .tc := ⟨.hbm, 291, rfl⟩
abbrev main_call20_v6 : Ref sig .tc := ⟨.hbm, 292, rfl⟩
abbrev main_call20_c_2 : Ref sig .tc := ⟨.hbm, 293, rfl⟩
abbrev main_call20_v7 : Ref sig .tc := ⟨.hbm, 294, rfl⟩
abbrev main_call20_v8 : Ref sig .tc := ⟨.hbm, 295, rfl⟩
abbrev main_call20_c_3 : Ref sig .tc := ⟨.hbm, 296, rfl⟩
abbrev main_call20_v9 : Ref sig .tc := ⟨.hbm, 297, rfl⟩
abbrev main_call20_v10 : Ref sig .tc := ⟨.hbm, 298, rfl⟩
abbrev main_call20_v11 : Ref sig .tc := ⟨.hbm, 299, rfl⟩
abbrev main_call20_v12 : Ref sig .tc := ⟨.hbm, 300, rfl⟩
abbrev main_call20_v13 : Ref sig .tc := ⟨.hbm, 301, rfl⟩
abbrev main_call20_v14 : Ref sig .tc := ⟨.hbm, 302, rfl⟩
abbrev main_v104 : Ref sig .tc := ⟨.hbm, 303, rfl⟩
abbrev main_c_44 : Ref sig .tc := ⟨.hbm, 304, rfl⟩
abbrev main_call21_v0 : Ref sig .tc := ⟨.hbm, 305, rfl⟩
abbrev main_call21_v1 : Ref sig .tc := ⟨.hbm, 306, rfl⟩
abbrev main_v105 : Ref sig .tc := ⟨.hbm, 307, rfl⟩
abbrev main_v106 : Ref sig .tc := ⟨.hbm, 308, rfl⟩
abbrev main_v107 : Ref sig .tc := ⟨.hbm, 309, rfl⟩
abbrev main_c_45 : Ref sig .tc := ⟨.hbm, 310, rfl⟩
abbrev main_v108 : Ref sig .tc := ⟨.hbm, 311, rfl⟩
abbrev main_v109 : Ref sig .tc := ⟨.hbm, 312, rfl⟩
abbrev main_v110 : Ref sig .tc := ⟨.hbm, 313, rfl⟩
abbrev main_v111 : Ref sig .tc := ⟨.hbm, 314, rfl⟩
abbrev main_v112 : Ref sig .tc := ⟨.hbm, 315, rfl⟩
abbrev main_c_46 : Ref sig .tc := ⟨.hbm, 316, rfl⟩
abbrev main_v113 : Ref sig .tc := ⟨.hbm, 317, rfl⟩
abbrev main_v114 : Ref sig .tc := ⟨.hbm, 318, rfl⟩
abbrev main_v115 : Ref sig .tc := ⟨.hbm, 319, rfl⟩
abbrev main_c_47 : Ref sig .tc := ⟨.hbm, 320, rfl⟩
abbrev main_c_48 : Ref sig .tc := ⟨.hbm, 321, rfl⟩
abbrev main_call23_v0 : Ref sig .tc := ⟨.hbm, 322, rfl⟩
abbrev main_call23_v1 : Ref sig .tc := ⟨.hbm, 323, rfl⟩
abbrev main_call23_v2 : Ref sig .tc := ⟨.hbm, 324, rfl⟩
abbrev main_call23_v3 : Ref sig .tc := ⟨.hbm, 325, rfl⟩
abbrev main_call23_v4 : Ref sig .tc := ⟨.hbm, 326, rfl⟩
abbrev main_v116 : Ref sig .tc := ⟨.hbm, 327, rfl⟩
abbrev main_c_49 : Ref sig .tc := ⟨.hbm, 328, rfl⟩
abbrev main_v117 : Ref sig .tc := ⟨.hbm, 329, rfl⟩
abbrev main_v118 : Ref sig .tc := ⟨.hbm, 330, rfl⟩
abbrev main_c_50 : Ref sig .tc := ⟨.hbm, 331, rfl⟩
abbrev main_v119 : Ref sig .tc := ⟨.hbm, 332, rfl⟩
abbrev main_v120 : Ref sig .tc := ⟨.hbm, 333, rfl⟩
abbrev main_v121 : Ref sig .tc := ⟨.hbm, 334, rfl⟩
abbrev main_v122 : Ref sig .tc := ⟨.hbm, 335, rfl⟩
abbrev main_v123 : Ref sig .tc := ⟨.hbm, 336, rfl⟩
abbrev main_cst_51 : Ref sig .tc := ⟨.hbm, 337, rfl⟩
abbrev main_call24_v0 : Ref sig .tc := ⟨.hbm, 338, rfl⟩
abbrev main_call24_v1 : Ref sig .tc := ⟨.hbm, 339, rfl⟩
abbrev main_v124 : Ref sig .tc := ⟨.hbm, 340, rfl⟩
abbrev main_cst_52 : Ref sig .tc := ⟨.hbm, 341, rfl⟩
abbrev main_v125 : Ref sig .tc := ⟨.hbm, 342, rfl⟩
abbrev main_v126 : Ref sig .tc := ⟨.hbm, 343, rfl⟩
abbrev main_c_53 : Ref sig .tc := ⟨.hbm, 344, rfl⟩
abbrev main_v127 : Ref sig .tc := ⟨.hbm, 345, rfl⟩
abbrev main_v128 : Ref sig .tc := ⟨.hbm, 346, rfl⟩
abbrev main_c_54 : Ref sig .tc := ⟨.hbm, 347, rfl⟩
abbrev main_call25_v0 : Ref sig .tc := ⟨.hbm, 348, rfl⟩
abbrev main_call25_c : Ref sig .tc := ⟨.hbm, 349, rfl⟩
abbrev main_call25_v1 : Ref sig .tc := ⟨.hbm, 350, rfl⟩
abbrev main_call25_c_0 : Ref sig .tc := ⟨.hbm, 351, rfl⟩
abbrev main_call25_v2 : Ref sig .tc := ⟨.hbm, 352, rfl⟩
abbrev main_call25_v3 : Ref sig .tc := ⟨.hbm, 353, rfl⟩
abbrev main_call25_v4 : Ref sig .tc := ⟨.hbm, 354, rfl⟩
abbrev main_call25_c_1 : Ref sig .tc := ⟨.hbm, 355, rfl⟩
abbrev main_call25_v5 : Ref sig .tc := ⟨.hbm, 356, rfl⟩
abbrev main_call25_v6 : Ref sig .tc := ⟨.hbm, 357, rfl⟩
abbrev main_call25_c_2 : Ref sig .tc := ⟨.hbm, 358, rfl⟩
abbrev main_call25_v7 : Ref sig .tc := ⟨.hbm, 359, rfl⟩
abbrev main_call25_v8 : Ref sig .tc := ⟨.hbm, 360, rfl⟩
abbrev main_call25_c_3 : Ref sig .tc := ⟨.hbm, 361, rfl⟩
abbrev main_call25_v9 : Ref sig .tc := ⟨.hbm, 362, rfl⟩
abbrev main_call25_v10 : Ref sig .tc := ⟨.hbm, 363, rfl⟩
abbrev main_call25_v11 : Ref sig .tc := ⟨.hbm, 364, rfl⟩
abbrev main_call25_v12 : Ref sig .tc := ⟨.hbm, 365, rfl⟩
abbrev main_call25_v13 : Ref sig .tc := ⟨.hbm, 366, rfl⟩
abbrev main_call25_v14 : Ref sig .tc := ⟨.hbm, 367, rfl⟩
abbrev main_v129 : Ref sig .tc := ⟨.hbm, 368, rfl⟩
abbrev main_c_55 : Ref sig .tc := ⟨.hbm, 369, rfl⟩
abbrev main_call26_v0 : Ref sig .tc := ⟨.hbm, 370, rfl⟩
abbrev main_call26_v1 : Ref sig .tc := ⟨.hbm, 371, rfl⟩
abbrev main_v130 : Ref sig .tc := ⟨.hbm, 372, rfl⟩
abbrev main_v131 : Ref sig .tc := ⟨.hbm, 373, rfl⟩
abbrev main_v132 : Ref sig .tc := ⟨.hbm, 374, rfl⟩
abbrev main_c_56 : Ref sig .tc := ⟨.hbm, 375, rfl⟩
abbrev main_v133 : Ref sig .tc := ⟨.hbm, 376, rfl⟩
abbrev main_v134 : Ref sig .tc := ⟨.hbm, 377, rfl⟩
abbrev main_v135 : Ref sig .tc := ⟨.hbm, 378, rfl⟩
abbrev main_v136 : Ref sig .tc := ⟨.hbm, 379, rfl⟩
abbrev main_v137 : Ref sig .tc := ⟨.hbm, 380, rfl⟩
abbrev main_c_57 : Ref sig .tc := ⟨.hbm, 381, rfl⟩
abbrev main_v138 : Ref sig .tc := ⟨.hbm, 382, rfl⟩
abbrev main_v139 : Ref sig .tc := ⟨.hbm, 383, rfl⟩
abbrev main_v140 : Ref sig .tc := ⟨.hbm, 384, rfl⟩
abbrev main_c_58 : Ref sig .tc := ⟨.hbm, 385, rfl⟩
abbrev main_c_59 : Ref sig .tc := ⟨.hbm, 386, rfl⟩
abbrev main_call28_v0 : Ref sig .tc := ⟨.hbm, 387, rfl⟩
abbrev main_call28_v1 : Ref sig .tc := ⟨.hbm, 388, rfl⟩
abbrev main_call28_v2 : Ref sig .tc := ⟨.hbm, 389, rfl⟩
abbrev main_call28_v3 : Ref sig .tc := ⟨.hbm, 390, rfl⟩
abbrev main_call28_v4 : Ref sig .tc := ⟨.hbm, 391, rfl⟩
abbrev main_v141 : Ref sig .tc := ⟨.hbm, 392, rfl⟩
abbrev main_c_60 : Ref sig .tc := ⟨.hbm, 393, rfl⟩
abbrev main_v142 : Ref sig .tc := ⟨.hbm, 394, rfl⟩
abbrev main_v143 : Ref sig .tc := ⟨.hbm, 395, rfl⟩
abbrev main_c_61 : Ref sig .tc := ⟨.hbm, 396, rfl⟩
abbrev main_v144 : Ref sig .tc := ⟨.hbm, 397, rfl⟩
abbrev main_v145 : Ref sig .tc := ⟨.hbm, 398, rfl⟩
abbrev main_v146 : Ref sig .tc := ⟨.hbm, 399, rfl⟩
abbrev main_v147 : Ref sig .tc := ⟨.hbm, 400, rfl⟩
abbrev main_v148 : Ref sig .tc := ⟨.hbm, 401, rfl⟩
abbrev main_cst_62 : Ref sig .tc := ⟨.hbm, 402, rfl⟩
abbrev main_call29_v0 : Ref sig .tc := ⟨.hbm, 403, rfl⟩
abbrev main_call29_v1 : Ref sig .tc := ⟨.hbm, 404, rfl⟩
abbrev main_v149 : Ref sig .tc := ⟨.hbm, 405, rfl⟩
abbrev main_cst_63 : Ref sig .tc := ⟨.hbm, 406, rfl⟩
abbrev main_v150 : Ref sig .tc := ⟨.hbm, 407, rfl⟩
abbrev main_v151 : Ref sig .tc := ⟨.hbm, 408, rfl⟩
abbrev main_c_64 : Ref sig .tc := ⟨.hbm, 409, rfl⟩
abbrev main_v152 : Ref sig .tc := ⟨.hbm, 410, rfl⟩
abbrev main_v153 : Ref sig .tc := ⟨.hbm, 411, rfl⟩
abbrev main_c_65 : Ref sig .tc := ⟨.hbm, 412, rfl⟩
abbrev main_call30_v0 : Ref sig .tc := ⟨.hbm, 413, rfl⟩
abbrev main_call30_c : Ref sig .tc := ⟨.hbm, 414, rfl⟩
abbrev main_call30_v1 : Ref sig .tc := ⟨.hbm, 415, rfl⟩
abbrev main_call30_c_0 : Ref sig .tc := ⟨.hbm, 416, rfl⟩
abbrev main_call30_v2 : Ref sig .tc := ⟨.hbm, 417, rfl⟩
abbrev main_call30_v3 : Ref sig .tc := ⟨.hbm, 418, rfl⟩
abbrev main_call30_v4 : Ref sig .tc := ⟨.hbm, 419, rfl⟩
abbrev main_call30_c_1 : Ref sig .tc := ⟨.hbm, 420, rfl⟩
abbrev main_call30_v5 : Ref sig .tc := ⟨.hbm, 421, rfl⟩
abbrev main_call30_v6 : Ref sig .tc := ⟨.hbm, 422, rfl⟩
abbrev main_call30_c_2 : Ref sig .tc := ⟨.hbm, 423, rfl⟩
abbrev main_call30_v7 : Ref sig .tc := ⟨.hbm, 424, rfl⟩
abbrev main_call30_v8 : Ref sig .tc := ⟨.hbm, 425, rfl⟩
abbrev main_call30_c_3 : Ref sig .tc := ⟨.hbm, 426, rfl⟩
abbrev main_call30_v9 : Ref sig .tc := ⟨.hbm, 427, rfl⟩
abbrev main_call30_v10 : Ref sig .tc := ⟨.hbm, 428, rfl⟩
abbrev main_call30_v11 : Ref sig .tc := ⟨.hbm, 429, rfl⟩
abbrev main_call30_v12 : Ref sig .tc := ⟨.hbm, 430, rfl⟩
abbrev main_call30_v13 : Ref sig .tc := ⟨.hbm, 431, rfl⟩
abbrev main_call30_v14 : Ref sig .tc := ⟨.hbm, 432, rfl⟩
abbrev main_v154 : Ref sig .tc := ⟨.hbm, 433, rfl⟩
abbrev main_c_66 : Ref sig .tc := ⟨.hbm, 434, rfl⟩
abbrev main_call31_v0 : Ref sig .tc := ⟨.hbm, 435, rfl⟩
abbrev main_call31_v1 : Ref sig .tc := ⟨.hbm, 436, rfl⟩
abbrev main_v155 : Ref sig .tc := ⟨.hbm, 437, rfl⟩
abbrev main_v156 : Ref sig .tc := ⟨.hbm, 438, rfl⟩
abbrev main_v157 : Ref sig .tc := ⟨.hbm, 439, rfl⟩
abbrev main_c_67 : Ref sig .tc := ⟨.hbm, 440, rfl⟩
abbrev main_v158 : Ref sig .tc := ⟨.hbm, 441, rfl⟩
abbrev main_v159 : Ref sig .tc := ⟨.hbm, 442, rfl⟩
abbrev main_v160 : Ref sig .tc := ⟨.hbm, 443, rfl⟩
abbrev main_v161 : Ref sig .tc := ⟨.hbm, 444, rfl⟩
abbrev main_v162 : Ref sig .tc := ⟨.hbm, 445, rfl⟩
abbrev main_c_68 : Ref sig .tc := ⟨.hbm, 446, rfl⟩
abbrev main_v163 : Ref sig .tc := ⟨.hbm, 447, rfl⟩
abbrev main_v164 : Ref sig .tc := ⟨.hbm, 448, rfl⟩
abbrev main_v165 : Ref sig .tc := ⟨.hbm, 449, rfl⟩
abbrev main_c_69 : Ref sig .tc := ⟨.hbm, 450, rfl⟩
abbrev main_c_70 : Ref sig .tc := ⟨.hbm, 451, rfl⟩
abbrev main_call33_v0 : Ref sig .tc := ⟨.hbm, 452, rfl⟩
abbrev main_call33_v1 : Ref sig .tc := ⟨.hbm, 453, rfl⟩
abbrev main_call33_v2 : Ref sig .tc := ⟨.hbm, 454, rfl⟩
abbrev main_call33_v3 : Ref sig .tc := ⟨.hbm, 455, rfl⟩
abbrev main_call33_v4 : Ref sig .tc := ⟨.hbm, 456, rfl⟩
abbrev main_v166 : Ref sig .tc := ⟨.hbm, 457, rfl⟩
abbrev main_c_71 : Ref sig .tc := ⟨.hbm, 458, rfl⟩
abbrev main_v167 : Ref sig .tc := ⟨.hbm, 459, rfl⟩
abbrev main_v168 : Ref sig .tc := ⟨.hbm, 460, rfl⟩
abbrev main_c_72 : Ref sig .tc := ⟨.hbm, 461, rfl⟩
abbrev main_v169 : Ref sig .tc := ⟨.hbm, 462, rfl⟩
abbrev main_v170 : Ref sig .tc := ⟨.hbm, 463, rfl⟩
abbrev main_v171 : Ref sig .tc := ⟨.hbm, 464, rfl⟩
abbrev main_v172 : Ref sig .tc := ⟨.hbm, 465, rfl⟩
abbrev main_v173 : Ref sig .tc := ⟨.hbm, 466, rfl⟩
abbrev main_cst_73 : Ref sig .tc := ⟨.hbm, 467, rfl⟩
abbrev main_call34_v0 : Ref sig .tc := ⟨.hbm, 468, rfl⟩
abbrev main_call34_v1 : Ref sig .tc := ⟨.hbm, 469, rfl⟩
abbrev main_v174 : Ref sig .tc := ⟨.hbm, 470, rfl⟩
abbrev main_cst_74 : Ref sig .tc := ⟨.hbm, 471, rfl⟩
abbrev main_v175 : Ref sig .tc := ⟨.hbm, 472, rfl⟩
abbrev main_v176 : Ref sig .tc := ⟨.hbm, 473, rfl⟩
abbrev main_c_75 : Ref sig .tc := ⟨.hbm, 474, rfl⟩
abbrev main_v177 : Ref sig .tc := ⟨.hbm, 475, rfl⟩
abbrev main_v178 : Ref sig .tc := ⟨.hbm, 476, rfl⟩
abbrev main_c_76 : Ref sig .tc := ⟨.hbm, 477, rfl⟩
abbrev main_call35_v0 : Ref sig .tc := ⟨.hbm, 478, rfl⟩
abbrev main_call35_c : Ref sig .tc := ⟨.hbm, 479, rfl⟩
abbrev main_call35_v1 : Ref sig .tc := ⟨.hbm, 480, rfl⟩
abbrev main_call35_c_0 : Ref sig .tc := ⟨.hbm, 481, rfl⟩
abbrev main_call35_v2 : Ref sig .tc := ⟨.hbm, 482, rfl⟩
abbrev main_call35_v3 : Ref sig .tc := ⟨.hbm, 483, rfl⟩
abbrev main_call35_v4 : Ref sig .tc := ⟨.hbm, 484, rfl⟩
abbrev main_call35_c_1 : Ref sig .tc := ⟨.hbm, 485, rfl⟩
abbrev main_call35_v5 : Ref sig .tc := ⟨.hbm, 486, rfl⟩
abbrev main_call35_v6 : Ref sig .tc := ⟨.hbm, 487, rfl⟩
abbrev main_call35_c_2 : Ref sig .tc := ⟨.hbm, 488, rfl⟩
abbrev main_call35_v7 : Ref sig .tc := ⟨.hbm, 489, rfl⟩
abbrev main_call35_v8 : Ref sig .tc := ⟨.hbm, 490, rfl⟩
abbrev main_call35_c_3 : Ref sig .tc := ⟨.hbm, 491, rfl⟩
abbrev main_call35_v9 : Ref sig .tc := ⟨.hbm, 492, rfl⟩
abbrev main_call35_v10 : Ref sig .tc := ⟨.hbm, 493, rfl⟩
abbrev main_call35_v11 : Ref sig .tc := ⟨.hbm, 494, rfl⟩
abbrev main_call35_v12 : Ref sig .tc := ⟨.hbm, 495, rfl⟩
abbrev main_call35_v13 : Ref sig .tc := ⟨.hbm, 496, rfl⟩
abbrev main_call35_v14 : Ref sig .tc := ⟨.hbm, 497, rfl⟩
abbrev main_v179 : Ref sig .tc := ⟨.hbm, 498, rfl⟩
abbrev main_c_77 : Ref sig .tc := ⟨.hbm, 499, rfl⟩
abbrev main_call36_v0 : Ref sig .tc := ⟨.hbm, 500, rfl⟩
abbrev main_call36_v1 : Ref sig .tc := ⟨.hbm, 501, rfl⟩
abbrev main_v180 : Ref sig .tc := ⟨.hbm, 502, rfl⟩
abbrev main_v181 : Ref sig .tc := ⟨.hbm, 503, rfl⟩
abbrev main_v182 : Ref sig .tc := ⟨.hbm, 504, rfl⟩
abbrev main_c_78 : Ref sig .tc := ⟨.hbm, 505, rfl⟩
abbrev main_v183 : Ref sig .tc := ⟨.hbm, 506, rfl⟩
abbrev main_v184 : Ref sig .tc := ⟨.hbm, 507, rfl⟩
abbrev main_v185 : Ref sig .tc := ⟨.hbm, 508, rfl⟩
abbrev main_v186 : Ref sig .tc := ⟨.hbm, 509, rfl⟩
abbrev main_v187 : Ref sig .tc := ⟨.hbm, 510, rfl⟩
abbrev main_c_79 : Ref sig .tc := ⟨.hbm, 511, rfl⟩
abbrev main_v188 : Ref sig .tc := ⟨.hbm, 512, rfl⟩
abbrev main_v189 : Ref sig .tc := ⟨.hbm, 513, rfl⟩
abbrev main_v190 : Ref sig .tc := ⟨.hbm, 514, rfl⟩
abbrev main_c_80 : Ref sig .tc := ⟨.hbm, 515, rfl⟩
abbrev main_c_81 : Ref sig .tc := ⟨.hbm, 516, rfl⟩
abbrev main_call38_v0 : Ref sig .tc := ⟨.hbm, 517, rfl⟩
abbrev main_call38_v1 : Ref sig .tc := ⟨.hbm, 518, rfl⟩
abbrev main_call38_v2 : Ref sig .tc := ⟨.hbm, 519, rfl⟩
abbrev main_call38_v3 : Ref sig .tc := ⟨.hbm, 520, rfl⟩
abbrev main_call38_v4 : Ref sig .tc := ⟨.hbm, 521, rfl⟩
abbrev main_v191 : Ref sig .tc := ⟨.hbm, 522, rfl⟩
abbrev main_c_82 : Ref sig .tc := ⟨.hbm, 523, rfl⟩
abbrev main_v192 : Ref sig .tc := ⟨.hbm, 524, rfl⟩
abbrev main_v193 : Ref sig .tc := ⟨.hbm, 525, rfl⟩
abbrev main_c_83 : Ref sig .tc := ⟨.hbm, 526, rfl⟩
abbrev main_v194 : Ref sig .tc := ⟨.hbm, 527, rfl⟩
abbrev main_v195 : Ref sig .tc := ⟨.hbm, 528, rfl⟩
abbrev main_v196 : Ref sig .tc := ⟨.hbm, 529, rfl⟩
abbrev main_v197 : Ref sig .tc := ⟨.hbm, 530, rfl⟩
abbrev main_v198 : Ref sig .tc := ⟨.hbm, 531, rfl⟩
abbrev main_cst_84 : Ref sig .tc := ⟨.hbm, 532, rfl⟩
abbrev main_call39_v0 : Ref sig .tc := ⟨.hbm, 533, rfl⟩
abbrev main_call39_v1 : Ref sig .tc := ⟨.hbm, 534, rfl⟩
abbrev main_v199 : Ref sig .tc := ⟨.hbm, 535, rfl⟩
abbrev main_cst_85 : Ref sig .tc := ⟨.hbm, 536, rfl⟩
abbrev main_v200 : Ref sig .tc := ⟨.hbm, 537, rfl⟩
abbrev main_v201 : Ref sig .tc := ⟨.hbm, 538, rfl⟩
abbrev main_v202 : Ref sig .tc := ⟨.hbm, 539, rfl⟩

abbrev nD : Nat := 1
abbrev τ : Topo := Topo.v7x

variable {F : FTy → Type} [FloatOps F]

class Facts₀ : Prop where
  shapeCasts_S1_S_ : S1.ShapeCasts S_
  bcast_S_S16384x50 : S_.BroadcastsInDim S16384x50 (![] : Fin 0 → Fin S16384x50.rank)
  slices_S16384x50_S16384x1_0_0 : S16384x50.Slices ![0, 0] S16384x1
  bcast_S_S16384x1 : S_.BroadcastsInDim S16384x1 (![] : Fin 0 → Fin S16384x1.rank)
  slices_S16384x50_S16384x49_0_1 : S16384x50.Slices ![0, 1] S16384x49
  slices_S16384x50_S16384x49_0_0 : S16384x50.Slices ![0, 0] S16384x49
  concatenates_S16384x1_S16384x49_S16384x50_d1 : Shape.Concatenates [S16384x1, S16384x49] S16384x50 1
  bcast_S16384x50_S16384x50x1_0_1 : S16384x50.BroadcastsInDim S16384x50x1 (![0, 1] : Fin 2 → Fin S16384x50x1.rank)
  reducesTo_S16384x50_S16384_d1 : S16384x50.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  gather_S100000_S16384x50x1_S16384x50_n_0_n_n_0_2_1_wf : GatherDims.WF S100000 S16384x50x1 S16384x50 [] [0] [] [0] [] 2 ![1]
  gather_S1000000_S16384x50x1_S16384x50_n_0_n_n_0_2_1_wf : GatherDims.WF S1000000 S16384x50x1 S16384x50 [] [0] [] [0] [] 2 ![1]

variable [Facts₀]

def comparator_i32_d1 : BitVec 32 → BitVec 32 → BitVec 1 :=
  fun l r =>
    let v1 := IntOp.cmpi .slt l r
    v1
def gather_S100000_S16384x50x1_S16384x50_n_0_n_n_0_2_1 : GatherDims S100000 S16384x50x1 S16384x50 where
  offsetDims := []
  collapsedSliceDims := [0]
  operandBatchingDims := []
  startIndicesBatchingDims := []
  startIndexMap := [0]
  indexVectorDim := 2
  sliceSizes := ![1]
  wf := gather_S100000_S16384x50x1_S16384x50_n_0_n_n_0_2_1_wf
def gather_S1000000_S16384x50x1_S16384x50_n_0_n_n_0_2_1 : GatherDims S1000000 S16384x50x1 S16384x50 where
  offsetDims := []
  collapsedSliceDims := [0]
  operandBatchingDims := []
  startIndicesBatchingDims := []
  startIndexMap := [0]
  indexVectorDim := 2
  sliceSizes := ![1]
  wf := gather_S1000000_S16384x50x1_S16384x50_n_0_n_n_0_2_1_wf

class Facts : Prop extends Facts₀ where

variable [Facts]
-- ==== Proof.Spec.lean ====
/-
  The mathematics shared by the two programs, stated over no program.

  A WIDE (linear) model over eight hashed multi-valued features. For one feature with bucket count n, ids
  x : i32[16384, 50] (padded with negative entries) and weights W : f32[n], the MASKED GATHERED WEIGHTS are

      gw n x W [r, l] = W[s r l]  if s r l < n and (l = 0 or s r l ≠ s r (l-1)),   else 0,

  where s r · is row r of "x mod n where x ≥ 0, else n" sorted ascending: every distinct bucket of a row
  contributes its weight once, padding contributes nothing. Both programs compute this array by the same
  chain of integer operations (a floored remainder, a select, a stable sort along the row, two shifted slices
  compared, a clamp, a wrap of negative indices, a gather, a select against zero); `gw` below is that chain
  written once, generic in the float family, so that neither side ever has to open it.

  The model's output at row r is the bias plus the eight features' row sums. The kernel adds the eight row
  sums left to right and the bias last; the reference starts from the bias and adds a row sum (itself started
  from zero) per feature. On the extended reals addition is commutative and associative with no side
  condition, so the two agree for every input (`total_eq`).
-/
import Idealize.ShloMosaic.PureOps.Ideal
import Idealize.ShloMosaic.Lib.ValueIdx

noncomputable section

namespace Cert.WideSum

open Idealize.ShloMosaic

variable {F : FTy → Type} [FloatOps F]

/-! ## Shapes -/

abbrev Sc : Shape := ⟨0, ![]⟩
abbrev SBL : Shape := ⟨2, ![16384, 50]⟩
abbrev SB1 : Shape := ⟨2, ![16384, 1]⟩
abbrev SB49 : Shape := ⟨2, ![16384, 49]⟩
abbrev SBL1 : Shape := ⟨3, ![16384, 50, 1]⟩

theorem hb : Sc.BroadcastsInDim SBL (![] : Fin 0 → Fin SBL.rank) := by decide
theorem hb1 : Sc.BroadcastsInDim SB1 (![] : Fin 0 → Fin SB1.rank) := by decide
theorem hs0 : SBL.Slices ![0, 0] SB1 := by decide
theorem hs1 : SBL.Slices ![0, 1] SB49 := by decide
theorem hs2 : SBL.Slices ![0, 0] SB49 := by decide
theorem hcat : Shape.Concatenates [SB1, SB49] SBL 1 := by decide
theorem hb3 : SBL.BroadcastsInDim SBL1 (![0, 1] : Fin 2 → Fin SBL1.rank) := by decide

/-! ## One feature's chain -/

/-- A scalar splat over the [16384, 50] grid. -/
def splat {α : Type} (v : Sc.Idx → α) : SBL.Idx → α := broadcastInDim SBL ![] hb v

/-- The row comparator of the ascending sort: signed less-than. -/
def lt32 : BitVec 32 → BitVec 32 → BitVec 1 := fun l r => IntOp.cmpi .slt l r

/-- The divisor jax's remainder really divides by: 1 in place of 0. -/
def safeDiv (n : IVec Sc 32) : IVec Sc 32 :=
  select (cmpi .eq (id n) (constantI Sc 32 0#32)) (constantI Sc 32 1#32) (id n)

/-- Python's floored remainder x mod n from the truncated one: where the truncated remainder is non-zero and
    its sign differs from the divisor's, the divisor is added. -/
def floorMod (x : IVec SBL 32) (n : IVec Sc 32) : IVec SBL 32 :=
  select
    (andi
      (cmpi .ne (cmpi .slt (Host.remsi x (splat (safeDiv n))) (splat (constantI Sc 32 0#32)))
        (splat (cmpi .slt (safeDiv n) (constantI Sc 32 0#32))))
      (cmpi .ne (Host.remsi x (splat (safeDiv n))) (splat (constantI Sc 32 0#32))))
    (addi (Host.remsi x (splat (safeDiv n))) (splat (safeDiv n)))
    (Host.remsi x (splat (safeDiv n)))

/-- The hashed bins of one feature, padding sent to the sentinel n, each row sorted ascending. -/
def sortedBins (n : BitVec 32) (x : IVec SBL 32) : IVec SBL 32 :=
  Host.sort SBL 1 lt32
    (select (cmpi .sge x (splat (constantI Sc 32 0#32))) (floorMod x (constantI Sc 32 n)) (splat (id (constantI Sc 32 n))))

/-- The mask: the first entry of a row and every entry that differs from its left neighbour, and only real bins. -/
def keepMask (n : BitVec 32) (s : IVec SBL 32) : IVec SBL 1 :=
  andi
    (concatenate SBL 1
      [⟨SB1, broadcastInDim SB1 ![] hb1 (constantI Sc 1 1#1)⟩,
       ⟨SB49, cmpi .ne (extractStridedSlice SB49 ![0, 1] s hs1) (extractStridedSlice SB49 ![0, 0] s hs2)⟩] hcat)
    (cmpi .slt s (splat (constantI Sc 32 n)))

/-- The gather's row numbers: the bins clamped to [0, n-1], a negative one wrapped by n. -/
def rowIndex (n nm1 : BitVec 32) (s : IVec SBL 32) : IVec SBL 32 :=
  select
    (cmpi .slt (minsi (splat (id (constantI Sc 32 nm1))) (maxsi (splat (id (constantI Sc 32 0#32))) s)) (splat (constantI Sc 32 0#32)))
    (addi (minsi (splat (id (constantI Sc 32 nm1))) (maxsi (splat (id (constantI Sc 32 0#32))) s)) (splat (constantI Sc 32 n)))
    (minsi (splat (id (constantI Sc 32 nm1))) (maxsi (splat (id (constantI Sc 32 0#32))) s))

/-- One feature's masked gathered weights (`n` the bucket count, `nm1` = n - 1, `gd` the gather of single
    table entries by a trailing index axis). -/
def gw {SW : Shape} (gd : GatherDims SW SBL1 SBL) (n nm1 : BitVec 32) (x : IVec SBL 32) (W : FVec F SW .f32) : FVec F SBL .f32 :=
  select (keepMask n (sortedBins n x))
    (Host.gather gd W (broadcastInDim SBL1 ![0, 1] hb3 (rowIndex n nm1 (sortedBins n x))))
    (splat (id (constant (F := F) Sc .f32 0x00000000#32)))

/-! ## The two table sizes, the bias and the row sums -/

abbrev SWa : Shape := ⟨1, ![100000]⟩
abbrev SWb : Shape := ⟨1, ![1000000]⟩
abbrev S1v : Shape := ⟨1, ![1]⟩
abbrev SB : Shape := ⟨1, ![16384]⟩

theorem hwfA : GatherDims.WF SWa SBL1 SBL [] [0] [] [0] [] 2 ![1] := by decide
theorem hwfB : GatherDims.WF SWb SBL1 SBL [] [0] [] [0] [] 2 ![1] := by decide

/-- table[idx] for a table of 100000 entries: one entry per index, the index axis trailing. -/
def gdA : GatherDims SWa SBL1 SBL where
  offsetDims := []
  collapsedSliceDims := [0]
  operandBatchingDims := []
  startIndicesBatchingDims := []
  startIndexMap := [0]
  indexVectorDim := 2
  sliceSizes := ![1]
  wf := hwfA

/-- The same for a table of 1000000 entries. -/
def gdB : GatherDims SWb SBL1 SBL where
  offsetDims := []
  collapsedSliceDims := [0]
  operandBatchingDims := []
  startIndicesBatchingDims := []
  startIndexMap := [0]
  indexVectorDim := 2
  sliceSizes := ![1]
  wf := hwfB

theorem hsc : S1v.ShapeCasts Sc := by decide
theorem hbS : Sc.BroadcastsInDim SB (![] : Fin 0 → Fin SB.rank) := by decide
theorem hred : SBL.ReducesTo [1] SB := by decide
theorem hScPos : 0 < Sc.numel := by decide
theorem hbr : SB.BroadcastsInDim SB1 (![0] : Fin 1 → Fin SB1.rank) := by decide

/-- A feature's masked gathered weights at a small table (100000 buckets) and at a large one (1000000). -/
def gwA (x : IVec SBL 32) (W : FVec F SWa .f32) : FVec F SBL .f32 := gw gdA 100000#32 99999#32 x W
def gwB (x : IVec SBL 32) (W : FVec F SWb .f32) : FVec F SBL .f32 := gw gdB 1000000#32 999999#32 x W

/-- The host's sum of each row, started from the float zero. -/
def rowSumH (g : FVec F SBL .f32) : FVec F SB .f32 :=
  Host.reduceAdd g (constant (F := F) Sc .f32 0x00000000#32) hred hScPos

/-- The reference's result as one function of its seventeen arguments: the bias splat over the rows, plus one
    feature's row sums after the other, as a column. -/
def refOut (x0 x1 x2 x3 x4 x5 x6 x7 : IVec SBL 32) (W0 W1 W2 W3 W4 W5 : FVec F SWa .f32) (W6 W7 : FVec F SWb .f32)
    (bias : FVec F S1v .f32) : FVec F SB1 .f32 :=
  broadcastInDim SB1 ![0] hbr
    (addf (addf (addf (addf (addf (addf (addf (addf
      (broadcastInDim SB ![] hbS (shapeCast Sc bias hsc))
      (rowSumH (gwA x0 W0))) (rowSumH (gwA x1 W1))) (rowSumH (gwA x2 W2))) (rowSumH (gwA x3 W3)))
      (rowSumH (gwA x4 W4))) (rowSumH (gwA x5 W5))) (rowSumH (gwB x6 W6))) (rowSumH (gwB x7 W7)))

end Cert.WideSum

end
-- ==== Proof.Sums.lean ====
/-
  The two orders of adding up, and that they agree.

  With g0 … g7 the eight features' masked gathered weights, the kernel's result at row r is
  (((rowSum g0 r + rowSum g1 r) + … ) + rowSum g7 r) + bias, and the reference's is
  ((bias + (0 + rowSum g0 r)) + (0 + rowSum g1 r)) + … : the same nine extended reals added in another order
  and grouping, with eight zeros. Addition of extended reals is commutative and associative everywhere, the
  infinities included, so no finiteness is needed.
-/
import proofs.«420186_j87522843560495_3_alg».proof.Proof.Spec
import Idealize.ShloMosaic.PureOps.Ideal.Laws
import Idealize.ShloMosaic.Lib.IdealHost
import Idealize.ShloMosaic.Lib.Pipeline.Value

noncomputable section

namespace Cert.WideSum

open Idealize.ShloMosaic Idealize.ShloMosaic.ValueIdx

/-- The sum of row r of a [16384, 50] array of extended reals. -/
def rowSum (g : FVec Ideal SBL .f32) (r : Fin 16384) : EReal := ∑ l : Fin 50, g (ix2 r l)

/-- The eight row sums added left to right. -/
def kerTot (g0 g1 g2 g3 g4 g5 g6 g7 : FVec Ideal SBL .f32) (r : Fin 16384) : EReal :=
  ((((((rowSum g0 r + rowSum g1 r) + rowSum g2 r) + rowSum g3 r) + rowSum g4 r) + rowSum g5 r) + rowSum g6 r) + rowSum g7 r

/-- The kernel's result column: the eight row sums, then the bias. -/
def kerOut (g0 g1 g2 g3 g4 g5 g6 g7 : FVec Ideal SBL .f32) (bias : FVec Ideal S1v .f32) : FVec Ideal SB1 .f32 :=
  fun i => kerTot g0 g1 g2 g3 g4 g5 g6 g7 (i 0) + bias (ix1 0)

theorem hredK : SBL.Reduces [1] SB := by decide

/-- The host's row sum at row r is zero plus the sum of the row. -/
theorem rowSumH_apply (g : FVec Ideal SBL .f32) (r : Fin 16384) : rowSumH g (ix1 r) = 0 + rowSum g r := by
  unfold rowSumH rowSum
  rw [hostReduceAdd_apply, Ideal.hostReduceAdd_single hred hredK, constant_apply, Ideal.ofBits_zero_f32]
  refine congrArg (0 + ·) (Finset.sum_congr rfl fun l _ => congrArg g ?_)
  funext a
  match a with
  | ⟨0, _⟩ => rfl
  | ⟨1, _⟩ => rfl

/-- The reference's result is the kernel's, whatever the eight arrays and the bias are. -/
theorem refOut_eq_kerOut (x0 x1 x2 x3 x4 x5 x6 x7 : IVec SBL 32) (W0 W1 W2 W3 W4 W5 : FVec Ideal SWa .f32)
    (W6 W7 : FVec Ideal SWb .f32) (bias : FVec Ideal S1v .f32) :
    refOut x0 x1 x2 x3 x4 x5 x6 x7 W0 W1 W2 W3 W4 W5 W6 W7 bias
      = kerOut (gwA x0 W0) (gwA x1 W1) (gwA x2 W2) (gwA x3 W3) (gwA x4 W4) (gwA x5 W5) (gwB x6 W6) (gwB x7 W7) bias := by
  funext i
  obtain ⟨r, z, rfl⟩ : ∃ (r : Fin 16384) (z : Fin 1), i = ix2 r z := ⟨i 0, i 1, eq_ix2 i⟩
  show refOut x0 x1 x2 x3 x4 x5 x6 x7 W0 W1 W2 W3 W4 W5 W6 W7 bias (ix2 r z)
    = kerTot (gwA x0 W0) (gwA x1 W1) (gwA x2 W2) (gwA x3 W3) (gwA x4 W4) (gwA x5 W5) (gwB x6 W6) (gwB x7 W7) r + bias (ix1 0)
  unfold refOut kerTot
  rw [broadcastInDim_apply (![0] : Fin 1 → Fin SB1.rank) hbr _ (ix2 r z) (ix1 r) (fun a => by
    match a with
    | ⟨0, _⟩ => rfl)]
  simp only [addf_apply, rowSumH_apply]
  have hb : shapeCast Sc bias hsc ix0 = bias (ix1 0) :=
    shapeCast_apply bias hsc ix0 (ix1 0) (by rw [Shape.rowMajor_val_one]; rfl)
  rw [broadcastInDim_scalar_apply hbS, hb]
  simp only [zero_add]
  ac_rfl

end Cert.WideSum

end
-- ==== Proof.KPay.lean ====
/-
  The kernel's body at one element.

  At a grid point the body holds eight [2048, 50] blocks, sums each block's rows, adds the eight vectors of
  2048 row sums left to right and stores the result re-laid as [16, 128]: entry (p, q) of what it stores is the
  total of row 128·p + q of the blocks.
-/
import proofs.«420186_j87522843560495_3_alg».proof.Proof.Gen.KernelIdeal.Skeleton
import proofs.«420186_j87522843560495_3_alg».proof.Proof.Sums
import Idealize.ShloMosaic.PureOps.Ideal.Laws
import Idealize.ShloMosaic.Lib.Pipeline.Value

noncomputable section

namespace Cert.KernelIdeal.Pay

open Idealize.ShloMosaic Idealize.ShloMosaic.ValueIdx Cert.KernelIdeal Cert.KernelIdeal.Gen

/-- The sum of row j of a [2048, 50] block. -/
def blockRowSum (v : Vec Ideal S2048x50 .f32) (j : Fin 2048) : EReal := ∑ l : Fin 50, v (ix2 j l)

/-- A lane reduction of a block along its second axis, from the zero accumulator, read at row j. -/
theorem reduce_apply (v : Vec Ideal S2048x50 .f32) (hφ : FKind.Formats FTy.f32)
    (hacc : (0x00000000#32 : BitVec 32) = FKind.add.neutral .f32 hφ) (j : Fin 2048) :
    multiReduction (F := Ideal) .add [1] S2048 (shapeCast S2048x50 v shapeCasts_S2048x50_S2048x50) 0x00000000#32
        reduces_S2048x50_S2048 hφ hacc (ix1 j)
      = blockRowSum v j := by
  rw [shapeCast_self]
  refine (Ideal.multiReduction_add_single v 0x00000000#32 reduces_S2048x50_S2048 hφ hacc (ix1 j)).trans ?_
  unfold blockRowSum
  refine Finset.sum_congr rfl fun l _ => congrArg v ?_
  funext a
  match a with
  | ⟨0, _⟩ => rfl
  | ⟨1, _⟩ => rfl

/-- Entry (p, q) of the stored [16, 128] value is the eight blocks' sums of row 128·p + q, added left to right. -/
theorem pay_apply (x0 x1 x2 x3 x4 x5 x6 x7 : Vec Ideal S2048x50 .f32) (p : Fin 16) (q : Fin 128) (j : Fin 2048)
    (hj : j.val = 128 * p.val + q.val) :
    k0_pay1 x0 x1 x2 x3 x4 x5 x6 x7 (ix2 p q)
      = ((((((blockRowSum x0 j + blockRowSum x1 j) + blockRowSum x2 j) + blockRowSum x3 j) + blockRowSum x4 j)
          + blockRowSum x5 j) + blockRowSum x6 j) + blockRowSum x7 j := by
  unfold k0_pay1
  refine (shapeCast_apply _ shapeCasts_S2048_S16x128 (ix2 p q) (ix1 j) (by
    rw [Shape.rowMajor_val_one, Shape.rowMajor_val_two]
    show j.val = p.val * 128 + q.val
    omega)).trans ?_
  simp only [addf_apply]
  exact congrArg₂ (· + ·) (congrArg₂ (· + ·) (congrArg₂ (· + ·) (congrArg₂ (· + ·) (congrArg₂ (· + ·) (congrArg₂ (· + ·)
    (congrArg₂ (· + ·) (reduce_apply x0 _ _ j) (reduce_apply x1 _ _ j)) (reduce_apply x2 _ _ j)) (reduce_apply x3 _ _ j))
    (reduce_apply x4 _ _ j)) (reduce_apply x5 _ _ j)) (reduce_apply x6 _ _ j)) (reduce_apply x7 _ _ j)

end Cert.KernelIdeal.Pay

end
-- ==== Proof.KValue.lean ====
/-
  The kernel's result array, read off its run.

  The pallas_call walks eight grid points. At point t each of the eight [16384, 50] arrays contributes its rows
  2048·t … 2048·t + 2047, and the point writes back block t of the [128, 128] output: entry (p, q) of that block
  is the total of row 2048·t + 128·p + q, i.e. output entry (a, b) is the total of row 128·a + b. The eight
  blocks tile the output. The host then re-lays the output as a column (entry r of the column is entry
  (r / 128, r % 128)) and adds the bias to every row.
-/
import proofs.«420186_j87522843560495_3_alg».proof.Proof.Gen.KernelIdeal.Frame
import proofs.«420186_j87522843560495_3_alg».proof.Proof.KPay
import Idealize.ShloMosaic.Lib.Pipeline.Value
import Idealize.ShloMosaic.Lib.IdealHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Pay Cert.WideSum

variable (m : (ℓ : Loc nD τ sig) → Buf (Elt Ideal) ℓ) (ρ : Dev nD → PrngReg)

theorem hz : (![0, 0] : Fin 2 → Nat) = fun _ => 0 := funext fun a => by fin_cases a <;> rfl

/-! ## The eight arrays the region reads, as it finds them -/

abbrev g0 (c : Dev nD) : FVec Ideal S16384x50 .f32 := V m c main_v22
abbrev g1 (c : Dev nD) : FVec Ideal S16384x50 .f32 := V m c main_v45
abbrev g2 (c : Dev nD) : FVec Ideal S16384x50 .f32 := V m c main_v68
abbrev g3 (c : Dev nD) : FVec Ideal S16384x50 .f32 := V m c main_v91
abbrev g4 (c : Dev nD) : FVec Ideal S16384x50 .f32 := V m c main_v114
abbrev g5 (c : Dev nD) : FVec Ideal S16384x50 .f32 := V m c main_v137
abbrev g6 (c : Dev nD) : FVec Ideal S16384x50 .f32 := V m c main_v160
abbrev g7 (c : Dev nD) : FVec Ideal S16384x50 .f32 := V m c main_v183

/-! ## The index maps: every window's block at point t is block (t, 0) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-! ## An input block's row sums are the array's -/

/-- Row j of a window's block at point t is row 2048·t + j of the window's array `A` (the window's index map sends
    point t to block (t, 0): `hi`), so the two rows have the same sum. The same steps for each of the eight input
    windows: the window `W`, its array and its index facts are the parameters. -/
local macro "block_rows " W:term ", " A:term ", " hi:term ", " t:term ", " j:term ", " r:term ", " hr:term : tactic => `(tactic| (
  unfold blockRowSum rowSum
  refine Finset.sum_congr rfl fun l _ => ?_
  unfold iblk
  rw [View.read_apply]
  show $A _ = $A _
  refine congrArg $A (funext fun a => Fin.ext ?_)
  match a with
  | ⟨0, _⟩ => (show ($W).index $t (0 : Fin 2) * 2048 + 1 * ($j).val = ($r).val; rw [($hi).1, ($hr)]; omega)
  | ⟨1, _⟩ => (show ($W).index $t (1 : Fin 2) * 50 + 1 * l.val = l.val; rw [($hi).2]; omega)))

theorem rows0 (c : Dev nD) (t : Fin cfg0.N) (j : Fin 2048) (r : Fin 16384) (hr : r.val = 2048 * t.val + j.val) :
    blockRowSum (iblk m c 0 t) j = rowSum (g0 m c) r := by
  block_rows win0_0, (V m c main_v22), (idx0 t), t, j, r, hr
theorem rows1 (c : Dev nD) (t : Fin cfg0.N) (j : Fin 2048) (r : Fin 16384) (hr : r.val = 2048 * t.val + j.val) :
    blockRowSum (iblk m c 1 t) j = rowSum (g1 m c) r := by
  block_rows win0_1, (V m c main_v45), (idx1 t), t, j, r, hr
theorem rows2 (c : Dev nD) (t : Fin cfg0.N) (j : Fin 2048) (r : Fin 16384) (hr : r.val = 2048 * t.val + j.val) :
    blockRowSum (iblk m c 2 t) j = rowSum (g2 m c) r := by
  block_rows win0_2, (V m c main_v68), (idx2 t), t, j, r, hr
theorem rows3 (c : Dev nD) (t : Fin cfg0.N) (j : Fin 2048) (r : Fin 16384) (hr : r.val = 2048 * t.val + j.val) :
    blockRowSum (iblk m c 3 t) j = rowSum (g3 m c) r := by
  block_rows win0_3, (V m c main_v91), (idx3 t), t, j, r, hr
theorem rows4 (c : Dev nD) (t : Fin cfg0.N) (j : Fin 2048) (r : Fin 16384) (hr : r.val = 2048 * t.val + j.val) :
    blockRowSum (iblk m c 4 t) j = rowSum (g4 m c) r := by
  block_rows win0_4, (V m c main_v114), (idx4 t), t, j, r, hr
theorem rows5 (c : Dev nD) (t : Fin cfg0.N) (j : Fin 2048) (r : Fin 16384) (hr : r.val = 2048 * t.val + j.val) :
    blockRowSum (iblk m c 5 t) j = rowSum (g5 m c) r := by
  block_rows win0_5, (V m c main_v137), (idx5 t), t, j, r, hr
theorem rows6 (c : Dev nD) (t : Fin cfg0.N) (j : Fin 2048) (r : Fin 16384) (hr : r.val = 2048 * t.val + j.val) :
    blockRowSum (iblk m c 6 t) j = rowSum (g6 m c) r := by
  block_rows win0_6, (V m c main_v160), (idx6 t), t, j, r, hr
theorem rows7 (c : Dev nD) (t : Fin cfg0.N) (j : Fin 2048) (r : Fin 16384) (hr : r.val = 2048 * t.val + j.val) :
    blockRowSum (iblk m c 7 t) j = rowSum (g7 m c) r := by
  block_rows win0_7, (V m c main_v183), (idx7 t), t, j, r, hr

/-! ## The output array -/

/-- The row of the [16384, ·] arrays that entry (a, b) of the [128, 128] output totals. -/
def rowOf (i : S128x128.Idx) : Fin 16384 :=
  ⟨128 * (i 0).val + (i 1).val, by have h0 := idx2_lt0 i; have h1 := idx2_lt1 i; omega⟩

/-- The output array after the region: entry (a, b) is the eight arrays' sums of row 128·a + b, added left to right. -/
def outArr (c : Dev nD) : FVec Ideal S128x128 .f32 := fun i =>
  kerTot (g0 m c) (g1 m c) (g2 m c) (g3 m c) (g4 m c) (g5 m c) (g6 m c) (g7 m c) (rowOf i)

/-- What point t writes back is block t of `outArr`. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8]
  unfold out0_8
  rw [View.canon_unit_zero hz]
  simp only [View.ld_unit_zero (S := S2048x50) hz]
  funext y
  obtain ⟨p, q, rfl⟩ : ∃ (p : Fin 16) (q : Fin 128), y = ix2 p q := ⟨y 0, y 1, eq_ix2 y⟩
  have ht : t.val < 8 := Nat.lt_of_lt_of_eq t.isLt N_0
  have hi := idx8 t
  have hp : p.val < 16 := p.isLt
  have hq : q.val < 128 := q.isLt
  have hrow : (rowOf (((cfg0.win 8).blk t).view.emb (ix2 p q))).val
      = 2048 * t.val + ((⟨128 * p.val + q.val, by omega⟩ : Fin 2048)).val := by
    show 128 * (win0_8.index t (0 : Fin 2) * 16 + 1 * p.val) + (win0_8.index t (1 : Fin 2) * 128 + 1 * q.val) = 2048 * t.val + (128 * p.val + q.val)
    rw [hi.1, hi.2]; omega
  show k0_pay1 (iblk m c 0 t) (iblk m c 1 t) (iblk m c 2 t) (iblk m c 3 t) (iblk m c 4 t) (iblk m c 5 t) (iblk m c 6 t) (iblk m c 7 t) (ix2 p q)
    = outArr m c (((cfg0.win 8).blk t).view.emb (ix2 p q))
  refine (pay_apply (iblk m c 0 t) (iblk m c 1 t) (iblk m c 2 t) (iblk m c 3 t) (iblk m c 4 t) (iblk m c 5 t) (iblk m c 6 t) (iblk m c 7 t)
    p q ⟨128 * p.val + q.val, by omega⟩ rfl).trans ?_
  unfold outArr kerTot
  rw [rows0 m c t ⟨128 * p.val + q.val, by omega⟩ _ hrow, rows1 m c t ⟨128 * p.val + q.val, by omega⟩ _ hrow,
    rows2 m c t ⟨128 * p.val + q.val, by omega⟩ _ hrow, rows3 m c t ⟨128 * p.val + q.val, by omega⟩ _ hrow,
    rows4 m c t ⟨128 * p.val + q.val, by omega⟩ _ hrow, rows5 m c t ⟨128 * p.val + q.val, by omega⟩ _ hrow,
    rows6 m c t ⟨128 * p.val + q.val, by omega⟩ _ hrow, rows7 m c t ⟨128 * p.val + q.val, by omega⟩ _ hrow]

/-- An index of the output is in point t's block iff each coordinate is in the block's range on its axis. -/
theorem mem_blk8 (t : Fin cfg0.N) (i : S128x128.Idx) :
    i ∈ ((cfg0.win 8).blk t).view.set ↔ ∀ a : Fin 2, win0_8.index t a * S16x128.size a ≤ (i a).val ∧ (i a).val < win0_8.index t a * S16x128.size a + S16x128.size a := by
  show i ∈ ((View.whole main_v184).slice (win0_8.rect t)).set ↔ _
  rw [View.set_slice_whole, Rect.mem_set_unit]
  exact Iff.rfl

/-- The eight blocks tile the output: entry (a, b) is in the block of point a / 16. -/
theorem cover8 (i : S128x128.Idx) : ∃ t : Fin cfg0.N, (cfg0.win 8).flush t = true ∧ i ∈ ((cfg0.win 8).blk t).view.set := by
  have h0 := idx2_lt0 i
  have h1 := idx2_lt1 i
  have hN : cfg0.N = 8 := N_0
  refine ⟨⟨(i 0).val / 16, by rw [hN]; omega⟩, flush0_8 _, ?_⟩
  rw [mem_blk8]
  have hi := idx8 ⟨(i 0).val / 16, by rw [hN]; omega⟩
  intro a
  match a with
  | ⟨0, _⟩ =>
    show win0_8.index _ (0 : Fin 2) * 16 ≤ (i 0).val ∧ (i 0).val < win0_8.index _ (0 : Fin 2) * 16 + 16
    rw [hi.1]; show (i 0).val / 16 * 16 ≤ (i 0).val ∧ (i 0).val < (i 0).val / 16 * 16 + 16; omega
  | ⟨1, _⟩ =>
    show win0_8.index _ (1 : Fin 2) * 128 ≤ (i 1).val ∧ (i 1).val < win0_8.index _ (1 : Fin 2) * 128 + 128
    rw [hi.2]; omega

/-- So the output array ends holding `outArr`. -/
theorem final8 (c : Dev nD) : (dats m 0 c).arrAt 8 cfg0.N = outArr m c :=
  (dats m 0 c).arrAt_eq_of_cover 8 (outArr m c) (fun t _ => flushed_eq m c t) cover8

/-! ## The host operations after the region -/

/-- The tail at one row: a [128, 128] array re-laid as a column reads entry (r / 128, r % 128) at row r, and the bias,
    a one-element vector cast to a scalar and splat, reads its one entry. -/
theorem tail_apply (A : FVec Ideal S128x128 .f32) (bias : FVec Ideal S1 .f32) (r : Fin 16384) (z : Fin 1)
    (a : Fin 128) (b : Fin 128) (ha : a.val = r.val / 128) (hb : b.val = r.val % 128) :
    (shapeCast S16384x1 A shapeCasts_S128x128_S16384x1 (ix2 r z) : EReal)
        + broadcastInDim S16384x1 ![] bcast_S_S16384x1 (shapeCast S_ bias shapeCasts_S1_S_) (ix2 r z)
      = A (ix2 a b) + bias (ix1 0) := by
  have hz' : z.val = 0 := by omega
  rw [shapeCast_apply A shapeCasts_S128x128_S16384x1 (ix2 r z) (ix2 a b) (by
        rw [Shape.rowMajor_val_two, Shape.rowMajor_val_two]
        show a.val * 128 + b.val = r.val * 1 + z.val
        omega),
    broadcastInDim_scalar_apply,
    shapeCast_apply bias shapeCasts_S1_S_ ix0 (ix1 0) (by rw [Shape.rowMajor_val_one]; rfl)]

/-- The result buffer after the tail: the output re-laid as a column, plus the bias on every row. -/
theorem tail_eq (c : Dev nD) :
    Pipeline.afterTail₀ cfgs (dats m) 0 (V0 m) [hostOps1] c main_v188
      = kerOut (g0 m c) (g1 m c) (g2 m c) (g3 m c) (g4 m c) (g5 m c) (g6 m c) (g7 m c) (m ((c : Thread nD τ).loc main_arg16)) := by
  unfold Pipeline.afterTail₀
  show StableHlo.after hostOps1 _ (Proc.devRef .tc main_v188) = _
  have eA : Pipeline.withArrays (cfgs 0).spec c (V0 m c) (fun w => (dats m 0 c).arrAt w (cfgs 0).N) (Proc.devRef .tc main_v184) = outArr m c :=
    (Pipeline.withArrays_arr spec0 launch0.win.arr_inj c _ _ 8).trans (final8 m c)
  have eB : Pipeline.withArrays (cfgs 0).spec c (V0 m c) (fun w => (dats m 0 c).arrAt w (cfgs 0).N) (Proc.devRef .tc main_arg16) = m ((c : Thread nD τ).loc main_arg16) :=
    (Pipeline.withArrays_of_ne spec0 c _ _ main_arg16 (by decide)).trans (V_main_arg16 m c)
  generalize Pipeline.withArrays (cfgs 0).spec c (V0 m c) (fun w => (dats m 0 c).arrAt w (cfgs 0).N) = W at eA eB ⊢
  after_results
  rw [eA, eB]
  funext i
  obtain ⟨r, z, rfl⟩ : ∃ (r : Fin 16384) (z : Fin 1), i = ix2 r z := ⟨i 0, i 1, eq_ix2 i⟩
  refine (tail_apply (outArr m c) (m ((c : Thread nD τ).loc main_arg16)) r z ⟨r.val / 128, by omega⟩ ⟨r.val % 128, by omega⟩ rfl rfl).trans ?_
  show outArr m c _ + _ = kerTot (g0 m c) (g1 m c) (g2 m c) (g3 m c) (g4 m c) (g5 m c) (g6 m c) (g7 m c) r + _
  refine congrArg (· + _) ?_
  unfold outArr
  refine congrArg _ (Fin.ext ?_)
  show 128 * (r.val / 128) + r.val % 128 = r.val
  omega

/-! ## The run, read -/

/-- Every execution of the idealized kernel program ends with the result at `kerOut` of the eight arrays the region
    found and the bias, and the seventeen arguments unchanged. -/
theorem run : θ_run defs (onTc (τ := τ) (main (F := Ideal))) ⟨m, fun _ => 0, ρ⟩ fun r => ∀ c : Dev nD,
      r.2.mem ((c.tc : Thread nD τ).loc main_v188)
        = kerOut (g0 m c) (g1 m c) (g2 m c) (g3 m c) (g4 m c) (g5 m c) (g6 m c) (g7 m c) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c =>
    ⟨((h c).2 main_v188 (Pipeline.mem_restRefs_of main_v188 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c)⟩)
    (run_main m ρ)

end Cert.KernelIdeal.Hand

end
-- ==== Proof.KHostWr.lean ====
/-
  The references the kernel's host operations before its launch write, feature by feature (feature k is the
  stretches 9k to 9k+8 of the launch module's lists), each in the order of its operations. The tables serve proofs
  only, so no code is generated for them.
-/
import proofs.«420186_j87522843560495_3_alg».proof.KernelIdeal

namespace Cert.KernelIdeal.HostIn

open Idealize.ShloMosaic Cert.KernelIdeal

/-- The 62 references feature 0 writes. -/
noncomputable def wr0 : List (Ref sig .tc) :=
  [main_c, main_v0, main_v1, main_c_0, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v2, main_c_1, main_call1_v0, main_call1_v1, main_v3, main_v4, main_v5, main_c_2, main_v6, main_v7, main_v8, main_v9, main_v10, main_c_3, main_v11, main_v12, main_v13, main_c_4, main_c_5, main_call3_v0, main_call3_v1, main_call3_v2, main_call3_v3, main_call3_v4, main_v14, main_c_6, main_v15, main_v16, main_c_7, main_v17, main_v18, main_v19, main_v20, main_v21, main_cst, main_call4_v0, main_call4_v1, main_v22]

/-- The 62 references feature 1 writes. -/
noncomputable def wr1 : List (Ref sig .tc) :=
  [main_c_8, main_v23, main_v24, main_c_9, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v25, main_c_10, main_call6_v0, main_call6_v1, main_v26, main_v27, main_v28, main_c_11, main_v29, main_v30, main_v31, main_v32, main_v33, main_c_12, main_v34, main_v35, main_v36, main_c_13, main_c_14, main_call8_v0, main_call8_v1, main_call8_v2, main_call8_v3, main_call8_v4, main_v37, main_c_15, main_v38, main_v39, main_c_16, main_v40, main_v41, main_v42, main_v43, main_v44, main_cst_17, main_call9_v0, main_call9_v1, main_v45]

/-- The 62 references feature 2 writes. -/
noncomputable def wr2 : List (Ref sig .tc) :=
  [main_c_18, main_v46, main_v47, main_c_19, main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v48, main_c_20, main_call11_v0, main_call11_v1, main_v49, main_v50, main_v51, main_c_21, main_v52, main_v53, main_v54, main_v55, main_v56, main_c_22, main_v57, main_v58, main_v59, main_c_23, main_c_24, main_call13_v0, main_call13_v1, main_call13_v2, main_call13_v3, main_call13_v4, main_v60, main_c_25, main_v61, main_v62, main_c_26, main_v63, main_v64, main_v65, main_v66, main_v67, main_cst_27, main_call14_v0, main_call14_v1, main_v68]

/-- The 62 references feature 3 writes. -/
noncomputable def wr3 : List (Ref sig .tc) :=
  [main_c_28, main_v69, main_v70, main_c_29, main_call15_v0, main_call15_c, main_call15_v1, main_call15_c_0, main_call15_v2, main_call15_v3, main_call15_v4, main_call15_c_1, main_call15_v5, main_call15_v6, main_call15_c_2, main_call15_v7, main_call15_v8, main_call15_c_3, main_call15_v9, main_call15_v10, main_call15_v11, main_call15_v12, main_call15_v13, main_call15_v14, main_v71, main_c_30, main_call16_v0, main_call16_v1, main_v72, main_v73, main_v74, main_c_31, main_v75, main_v76, main_v77, main_v78, main_v79, main_c_32, main_v80, main_v81, main_v82, main_c_33, main_c_34, main_call18_v0, main_call18_v1, main_call18_v2, main_call18_v3, main_call18_v4, main_v83, main_c_35, main_v84, main_v85, main_c_36, main_v86, main_v87, main_v88, main_v89, main_v90, main_cst_37, main_call19_v0, main_call19_v1, main_v91]

/-- The 62 references feature 4 writes. -/
noncomputable def wr4 : List (Ref sig .tc) :=
  [main_c_38, main_v92, main_v93, main_c_39, main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v94, main_c_40, main_call21_v0, main_call21_v1, main_v95, main_v96, main_v97, main_c_41, main_v98, main_v99, main_v100, main_v101, main_v102, main_c_42, main_v103, main_v104, main_v105, main_c_43, main_c_44, main_call23_v0, main_call23_v1, main_call23_v2, main_call23_v3, main_call23_v4, main_v106, main_c_45, main_v107, main_v108, main_c_46, main_v109, main_v110, main_v111, main_v112, main_v113, main_cst_47, main_call24_v0, main_call24_v1, main_v114]

/-- The 62 references feature 5 writes. -/
noncomputable def wr5 : List (Ref sig .tc) :=
  [main_c_48, main_v115, main_v116, main_c_49, main_call25_v0, main_call25_c, main_call25_v1, main_call25_c_0, main_call25_v2, main_call25_v3, main_call25_v4, main_call25_c_1, main_call25_v5, main_call25_v6, main_call25_c_2, main_call25_v7, main_call25_v8, main_call25_c_3, main_call25_v9, main_call25_v10, main_call25_v11, main_call25_v12, main_call25_v13, main_call25_v14, main_v117, main_c_50, main_call26_v0, main_call26_v1, main_v118, main_v119, main_v120, main_c_51, main_v121, main_v122, main_v123, main_v124, main_v125, main_c_52, main_v126, main_v127, main_v128, main_c_53, main_c_54, main_call28_v0, main_call28_v1, main_call28_v2, main_call28_v3, main_call28_v4, main_v129, main_c_55, main_v130, main_v131, main_c_56, main_v132, main_v133, main_v134, main_v135, main_v136, main_cst_57, main_call29_v0, main_call29_v1, main_v137]

/-- The 62 references feature 6 writes. -/
noncomputable def wr6 : List (Ref sig .tc) :=
  [main_c_58, main_v138, main_v139, main_c_59, main_call30_v0, main_call30_c, main_call30_v1, main_call30_c_0, main_call30_v2, main_call30_v3, main_call30_v4, main_call30_c_1, main_call30_v5, main_call30_v6, main_call30_c_2, main_call30_v7, main_call30_v8, main_call30_c_3, main_call30_v9, main_call30_v10, main_call30_v11, main_call30_v12, main_call30_v13, main_call30_v14, main_v140, main_c_60, main_call31_v0, main_call31_v1, main_v141, main_v142, main_v143, main_c_61, main_v144, main_v145, main_v146, main_v147, main_v148, main_c_62, main_v149, main_v150, main_v151, main_c_63, main_c_64, main_call33_v0, main_call33_v1, main_call33_v2, main_call33_v3, main_call33_v4, main_v152, main_c_65, main_v153, main_v154, main_c_66, main_v155, main_v156, main_v157, main_v158, main_v159, main_cst_67, main_call34_v0, main_call34_v1, main_v160]

/-- The 62 references feature 7 writes. -/
noncomputable def wr7 : List (Ref sig .tc) :=
  [main_c_68, main_v161, main_v162, main_c_69, main_call35_v0, main_call35_c, main_call35_v1, main_call35_c_0, main_call35_v2, main_call35_v3, main_call35_v4, main_call35_c_1, main_call35_v5, main_call35_v6, main_call35_c_2, main_call35_v7, main_call35_v8, main_call35_c_3, main_call35_v9, main_call35_v10, main_call35_v11, main_call35_v12, main_call35_v13, main_call35_v14, main_v163, main_c_70, main_call36_v0, main_call36_v1, main_v164, main_v165, main_v166, main_c_71, main_v167, main_v168, main_v169, main_v170, main_v171, main_c_72, main_v172, main_v173, main_v174, main_c_73, main_c_74, main_call38_v0, main_call38_v1, main_call38_v2, main_call38_v3, main_call38_v4, main_v175, main_c_75, main_v176, main_v177, main_c_76, main_v178, main_v179, main_v180, main_v181, main_v182, main_cst_77, main_call39_v0, main_call39_v1, main_v183]

end Cert.KernelIdeal.HostIn
-- ==== Proof.KHost0.lean ====
/-
  Feature 0 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L0 : List (HloOp τ sig (Elt F)) :=
  hostOps0 ++ (hostOps0_1 ++ (hostOps0_2 ++ (hostOps0_3 ++ (hostOps0_4 ++ (hostOps0_5 ++ (hostOps0_6 ++ (hostOps0_7 ++ (hostOps0_8))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val0 (W : Valuation τ sig (Elt F)) :
    after L0 W (Proc.devRef .tc main_v22)
      = gwA (W (Proc.devRef .tc main_arg0)) (W (Proc.devRef .tc main_arg8)) := by
  simp only [L0, hostOps0, hostOps0_1, hostOps0_2, hostOps0_3, hostOps0_4, hostOps0_5, hostOps0_6, hostOps0_7, hostOps0_8, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L0_writes :
    (L0 : List (HloOp τ sig (Elt F))).Forall fun op => op.writes ⊆ (wr0.map (Proc.devRef (τ := τ) .tc)).toFinset := by
  simp only [L0, hostOps0, hostOps0_1, hostOps0_2, hostOps0_3, hostOps0_4, hostOps0_5, hostOps0_6, hostOps0_7, hostOps0_8, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep0 {r : Ref sig .tc} (W : Valuation τ sig (Elt F)) (hr : r ∉ wr0) :
    after L0 W (Proc.devRef .tc r) = W (Proc.devRef .tc r) :=
  after_of_writes_sub L0 W L0_writes hr

end Cert.KernelIdeal.HostIn

end
-- ==== Proof.KHost1.lean ====
/-
  Feature 1 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L1 : List (HloOp τ sig (Elt F)) :=
  hostOps0_9 ++ (hostOps0_10 ++ (hostOps0_11 ++ (hostOps0_12 ++ (hostOps0_13 ++ (hostOps0_14 ++ (hostOps0_15 ++ (hostOps0_16 ++ (hostOps0_17))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val1 (W : Valuation τ sig (Elt F)) :
    after L1 W (Proc.devRef .tc main_v45)
      = gwA (W (Proc.devRef .tc main_arg1)) (W (Proc.devRef .tc main_arg9)) := by
  simp only [L1, hostOps0_9, hostOps0_10, hostOps0_11, hostOps0_12, hostOps0_13, hostOps0_14, hostOps0_15, hostOps0_16, hostOps0_17, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L1_writes :
    (L1 : List (HloOp τ sig (Elt F))).Forall fun op => op.writes ⊆ (wr1.map (Proc.devRef (τ := τ) .tc)).toFinset := by
  simp only [L1, hostOps0_9, hostOps0_10, hostOps0_11, hostOps0_12, hostOps0_13, hostOps0_14, hostOps0_15, hostOps0_16, hostOps0_17, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep1 {r : Ref sig .tc} (W : Valuation τ sig (Elt F)) (hr : r ∉ wr1) :
    after L1 W (Proc.devRef .tc r) = W (Proc.devRef .tc r) :=
  after_of_writes_sub L1 W L1_writes hr

end Cert.KernelIdeal.HostIn

end
-- ==== Proof.KHost2.lean ====
/-
  Feature 2 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L2 : List (HloOp τ sig (Elt F)) :=
  hostOps0_18 ++ (hostOps0_19 ++ (hostOps0_20 ++ (hostOps0_21 ++ (hostOps0_22 ++ (hostOps0_23 ++ (hostOps0_24 ++ (hostOps0_25 ++ (hostOps0_26))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val2 (W : Valuation τ sig (Elt F)) :
    after L2 W (Proc.devRef .tc main_v68)
      = gwA (W (Proc.devRef .tc main_arg2)) (W (Proc.devRef .tc main_arg10)) := by
  simp only [L2, hostOps0_18, hostOps0_19, hostOps0_20, hostOps0_21, hostOps0_22, hostOps0_23, hostOps0_24, hostOps0_25, hostOps0_26, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L2_writes :
    (L2 : List (HloOp τ sig (Elt F))).Forall fun op => op.writes ⊆ (wr2.map (Proc.devRef (τ := τ) .tc)).toFinset := by
  simp only [L2, hostOps0_18, hostOps0_19, hostOps0_20, hostOps0_21, hostOps0_22, hostOps0_23, hostOps0_24, hostOps0_25, hostOps0_26, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep2 {r : Ref sig .tc} (W : Valuation τ sig (Elt F)) (hr : r ∉ wr2) :
    after L2 W (Proc.devRef .tc r) = W (Proc.devRef .tc r) :=
  after_of_writes_sub L2 W L2_writes hr

end Cert.KernelIdeal.HostIn

end
-- ==== Proof.KHost3.lean ====
/-
  Feature 3 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L3 : List (HloOp τ sig (Elt F)) :=
  hostOps0_27 ++ (hostOps0_28 ++ (hostOps0_29 ++ (hostOps0_30 ++ (hostOps0_31 ++ (hostOps0_32 ++ (hostOps0_33 ++ (hostOps0_34 ++ (hostOps0_35))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val3 (W : Valuation τ sig (Elt F)) :
    after L3 W (Proc.devRef .tc main_v91)
      = gwA (W (Proc.devRef .tc main_arg3)) (W (Proc.devRef .tc main_arg11)) := by
  simp only [L3, hostOps0_27, hostOps0_28, hostOps0_29, hostOps0_30, hostOps0_31, hostOps0_32, hostOps0_33, hostOps0_34, hostOps0_35, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L3_writes :
    (L3 : List (HloOp τ sig (Elt F))).Forall fun op => op.writes ⊆ (wr3.map (Proc.devRef (τ := τ) .tc)).toFinset := by
  simp only [L3, hostOps0_27, hostOps0_28, hostOps0_29, hostOps0_30, hostOps0_31, hostOps0_32, hostOps0_33, hostOps0_34, hostOps0_35, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep3 {r : Ref sig .tc} (W : Valuation τ sig (Elt F)) (hr : r ∉ wr3) :
    after L3 W (Proc.devRef .tc r) = W (Proc.devRef .tc r) :=
  after_of_writes_sub L3 W L3_writes hr

end Cert.KernelIdeal.HostIn

end
-- ==== Proof.KHost4.lean ====
/-
  Feature 4 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L4 : List (HloOp τ sig (Elt F)) :=
  hostOps0_36 ++ (hostOps0_37 ++ (hostOps0_38 ++ (hostOps0_39 ++ (hostOps0_40 ++ (hostOps0_41 ++ (hostOps0_42 ++ (hostOps0_43 ++ (hostOps0_44))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val4 (W : Valuation τ sig (Elt F)) :
    after L4 W (Proc.devRef .tc main_v114)
      = gwA (W (Proc.devRef .tc main_arg4)) (W (Proc.devRef .tc main_arg12)) := by
  simp only [L4, hostOps0_36, hostOps0_37, hostOps0_38, hostOps0_39, hostOps0_40, hostOps0_41, hostOps0_42, hostOps0_43, hostOps0_44, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L4_writes :
    (L4 : List (HloOp τ sig (Elt F))).Forall fun op => op.writes ⊆ (wr4.map (Proc.devRef (τ := τ) .tc)).toFinset := by
  simp only [L4, hostOps0_36, hostOps0_37, hostOps0_38, hostOps0_39, hostOps0_40, hostOps0_41, hostOps0_42, hostOps0_43, hostOps0_44, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep4 {r : Ref sig .tc} (W : Valuation τ sig (Elt F)) (hr : r ∉ wr4) :
    after L4 W (Proc.devRef .tc r) = W (Proc.devRef .tc r) :=
  after_of_writes_sub L4 W L4_writes hr

end Cert.KernelIdeal.HostIn

end
-- ==== Proof.KHost5.lean ====
/-
  Feature 5 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L5 : List (HloOp τ sig (Elt F)) :=
  hostOps0_45 ++ (hostOps0_46 ++ (hostOps0_47 ++ (hostOps0_48 ++ (hostOps0_49 ++ (hostOps0_50 ++ (hostOps0_51 ++ (hostOps0_52 ++ (hostOps0_53))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val5 (W : Valuation τ sig (Elt F)) :
    after L5 W (Proc.devRef .tc main_v137)
      = gwA (W (Proc.devRef .tc main_arg5)) (W (Proc.devRef .tc main_arg13)) := by
  simp only [L5, hostOps0_45, hostOps0_46, hostOps0_47, hostOps0_48, hostOps0_49, hostOps0_50, hostOps0_51, hostOps0_52, hostOps0_53, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L5_writes :
    (L5 : List (HloOp τ sig (Elt F))).Forall fun op => op.writes ⊆ (wr5.map (Proc.devRef (τ := τ) .tc)).toFinset := by
  simp only [L5, hostOps0_45, hostOps0_46, hostOps0_47, hostOps0_48, hostOps0_49, hostOps0_50, hostOps0_51, hostOps0_52, hostOps0_53, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep5 {r : Ref sig .tc} (W : Valuation τ sig (Elt F)) (hr : r ∉ wr5) :
    after L5 W (Proc.devRef .tc r) = W (Proc.devRef .tc r) :=
  after_of_writes_sub L5 W L5_writes hr

end Cert.KernelIdeal.HostIn

end
-- ==== Proof.KHost6.lean ====
/-
  Feature 6 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L6 : List (HloOp τ sig (Elt F)) :=
  hostOps0_54 ++ (hostOps0_55 ++ (hostOps0_56 ++ (hostOps0_57 ++ (hostOps0_58 ++ (hostOps0_59 ++ (hostOps0_60 ++ (hostOps0_61 ++ (hostOps0_62))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val6 (W : Valuation τ sig (Elt F)) :
    after L6 W (Proc.devRef .tc main_v160)
      = gwB (W (Proc.devRef .tc main_arg6)) (W (Proc.devRef .tc main_arg14)) := by
  simp only [L6, hostOps0_54, hostOps0_55, hostOps0_56, hostOps0_57, hostOps0_58, hostOps0_59, hostOps0_60, hostOps0_61, hostOps0_62, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L6_writes :
    (L6 : List (HloOp τ sig (Elt F))).Forall fun op => op.writes ⊆ (wr6.map (Proc.devRef (τ := τ) .tc)).toFinset := by
  simp only [L6, hostOps0_54, hostOps0_55, hostOps0_56, hostOps0_57, hostOps0_58, hostOps0_59, hostOps0_60, hostOps0_61, hostOps0_62, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep6 {r : Ref sig .tc} (W : Valuation τ sig (Elt F)) (hr : r ∉ wr6) :
    after L6 W (Proc.devRef .tc r) = W (Proc.devRef .tc r) :=
  after_of_writes_sub L6 W L6_writes hr

end Cert.KernelIdeal.HostIn

end
-- ==== Proof.KHost7.lean ====
/-
  Feature 7 of the kernel's host line before its launch: what its 62 operations compute, and what they leave alone.

  The nine printed stretches of one feature (a non-negativity test, the floored remainder, the select that sends
  padding to the sentinel, the sort along the row, the first-of-a-run mask, the clamp, the wrap of negative indices,
  the gather and the select against zero) compose, whatever the buffers held before, to the shared specification's
  masked gathered weights of the feature's id array and table; and a buffer that is none of the 62 results keeps
  its contents.
-/
import proofs.«420186_j87522843560495_3_alg».proof.Proof.Gen.KernelIdeal.Launch
import proofs.«420186_j87522843560495_3_alg».proof.Proof.Spec
import proofs.«420186_j87522843560495_3_alg».proof.Proof.KHostWr
import Idealize.ShloMosaic.Lib.StableHlo.Run

noncomputable section

namespace Cert.KernelIdeal.HostIn

open Idealize.ShloMosaic Idealize.ShloMosaic.StableHlo Cert.KernelIdeal Cert.KernelIdeal.Gen Cert.WideSum

variable {F : FTy → Type} [FloatOps F]

/-- The feature's operations, in order. -/
abbrev L7 : List (HloOp τ sig (Elt F)) :=
  hostOps0_63 ++ (hostOps0_64 ++ (hostOps0_65 ++ (hostOps0_66 ++ (hostOps0_67 ++ (hostOps0_68 ++ (hostOps0_69 ++ (hostOps0_70 ++ (hostOps0_71))))))))

set_option maxHeartbeats 2000000 in
/-- The value: from any contents `W`, the feature's result buffer ends holding the masked gathered weights of what
    `W` holds at the id array and at the table. The concatenation's two operands sit inside a list of dependent
    pairs, where a rewriting pass does not descend; its function is therefore named first, so that its operands are
    ordinary arguments while the fold is computed, and put back before the two sides are compared. The callees'
    operations carry their values along the identity of the buffer's type with the value's; these transports are
    removed before the closing comparison, which then only unfolds the specification. -/
theorem val7 (W : Valuation τ sig (Elt F)) :
    after L7 W (Proc.devRef .tc main_v183)
      = gwB (W (Proc.devRef .tc main_arg7)) (W (Proc.devRef .tc main_arg15)) := by
  simp only [L7, hostOps0_63, hostOps0_64, hostOps0_65, hostOps0_66, hostOps0_67, hostOps0_68, hostOps0_69, hostOps0_70, hostOps0_71, List.cons_append, List.nil_append]
  generalize hcat : ((fun a b => concatenate S16384x50 1 [⟨S16384x1, a⟩, ⟨S16384x49, b⟩] concatenates_S16384x1_S16384x49_S16384x50_d1) :
    (⟨S16384x1, .i1⟩ : BufTy).Contents (Elt F) → (⟨S16384x49, .i1⟩ : BufTy).Contents (Elt F) → (⟨S16384x50, .i1⟩ : BufTy).Contents (Elt F)) = cat
  after_results_simp
  subst hcat
  simp only [TRef.ofBuf, TRef.toBuf, cast_eq]
  rfl

set_option maxHeartbeats 1000000 in
/-- Every operation of the feature writes one of the references listed for it. -/
theorem L7_writes :
    (L7 : List (HloOp τ sig (Elt F))).Forall fun op => op.writes ⊆ (wr7.map (Proc.devRef (τ := τ) .tc)).toFinset := by
  simp only [L7, hostOps0_63, hostOps0_64, hostOps0_65, hostOps0_66, hostOps0_67, hostOps0_68, hostOps0_69, hostOps0_70, hostOps0_71, List.cons_append, List.nil_append, List.Forall,
    nullary_writes, unary_writes, binary_writes, ternary_writes, Finset.singleton_subset_iff, List.mem_toFinset]
  repeat' apply And.intro
  all_goals exact List.mem_map_of_mem (by decide)

/-- A reference that is none of them keeps its contents across the feature. -/
theorem keep7 {r : Ref sig .tc} (W : Valuation τ sig (Elt F)) (hr : r ∉ wr7) :
    after L7 W (Proc.devRef .tc r) = W (Proc.devRef .tc r) :=
  after_of_writes_sub L7 W L7_writes hr

end Cert.KernelIdeal.HostIn

end
-- ==== Proof.KHost.lean ====
/-
  The kernel's host line before its launch, feature by feature.

  The line is the eight features' lines one after the other. A feature's result buffer is written by that feature
  only, and no feature writes an id array or a table; so at the launch each result buffer holds the shared
  specification's masked gathered weights of the launch contents of its own id array and table.
-/
import proofs.«420186_j87522843560495_3_alg».proof.Proof.KHost0
import proofs.«420186_j87522843560495_3_alg».proof.Proof.KHost1
import proofs.«420186_j87522843560495_3_alg».proof.Proof.KHost2
import proofs.«420186_j87522843560495_3_alg».proof.Proof.KHost3
import proofs.«420186_j87522843560495_3_alg».proof.Proof.KHost4
import proofs.«420186_j87522843560495_3_alg».proof.Proof.KHost5
import proofs.«420186_j87522843560495_3_alg».proof.Proof.KHost6
import proofs.«420186_j87522843560495_3_alg».proof.Proof.KHost7
import Idealize.ShloMosaic.Lib.Pipeline.Frame

noncomputable section

namespace Cert.KernelIdeal.HostIn

open Idealize.ShloMosaic Idealize.ShloMosaic.TcCoe Idealize.ShloMosaic.StableHlo Cert.KernelIdeal Cert.KernelIdeal.Gen Cert.WideSum

variable {F : FTy → Type} [FloatOps F]

/-- The whole line is the features' lines in order. -/
theorem flat_eq :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71] : List (HloOp τ sig (Elt F)))
      = L0 ++ (L1 ++ (L2 ++ (L3 ++ (L4 ++ (L5 ++ (L6 ++ L7)))))) := by
  simp only [L0, L1, L2, L3, L4, L5, L6, L7, List.flatten_cons, List.flatten_nil, List.append_assoc, List.append_nil]

/-- Reads through every feature that does not write the reference read. -/
macro "kept" : tactic =>
  `(tactic| repeat (first
      | (rw [keep0]; rotate_left; decide) | (rw [keep1]; rotate_left; decide) | (rw [keep2]; rotate_left; decide)
      | (rw [keep3]; rotate_left; decide) | (rw [keep4]; rotate_left; decide) | (rw [keep5]; rotate_left; decide)
      | (rw [keep6]; rotate_left; decide) | (rw [keep7]; rotate_left; decide)))

/-- One result buffer at the launch, from its feature's value lemma `v`: the fold splits at the features' boundaries;
    the later features keep the result buffer; the feature's own line gives the masked gathered weights of the
    contents the earlier features left at its two arguments; the earlier features keep those, so they are the launch
    contents. -/
macro "at_launch" v:term : tactic =>
  `(tactic| (rw [flat_eq]; rw [after_append, after_append, after_append, after_append, after_append, after_append, after_append]; kept; rw [$v:term]; kept; try rfl))

/-! ## The eight result buffers at the launch -/

theorem hostIn_0 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v22)
      = gwA (m ((c : Thread nD τ).loc main_arg0)) (m ((c : Thread nD τ).loc main_arg8)) := by
  at_launch val0

theorem hostIn_1 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v45)
      = gwA (m ((c : Thread nD τ).loc main_arg1)) (m ((c : Thread nD τ).loc main_arg9)) := by
  at_launch val1

theorem hostIn_2 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v68)
      = gwA (m ((c : Thread nD τ).loc main_arg2)) (m ((c : Thread nD τ).loc main_arg10)) := by
  at_launch val2

theorem hostIn_3 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v91)
      = gwA (m ((c : Thread nD τ).loc main_arg3)) (m ((c : Thread nD τ).loc main_arg11)) := by
  at_launch val3

theorem hostIn_4 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v114)
      = gwA (m ((c : Thread nD τ).loc main_arg4)) (m ((c : Thread nD τ).loc main_arg12)) := by
  at_launch val4

theorem hostIn_5 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v137)
      = gwA (m ((c : Thread nD τ).loc main_arg5)) (m ((c : Thread nD τ).loc main_arg13)) := by
  at_launch val5

theorem hostIn_6 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v160)
      = gwB (m ((c : Thread nD τ).loc main_arg6)) (m ((c : Thread nD τ).loc main_arg14)) := by
  at_launch val6

theorem hostIn_7 (m : (ℓ : Loc nD τ sig) → Buf (Elt F) ℓ) (c : Dev nD) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]) (fun b => m (c, b)) (Proc.devRef .tc main_v183)
      = gwB (m ((c : Thread nD τ).loc main_arg7)) (m ((c : Thread nD τ).loc main_arg15)) := by
  at_launch val7

end Cert.KernelIdeal.HostIn

end
-- ==== Proof.RefOps.lean ====
/-
  The reference's @main as a table: its 523 operations in program order, every call replaced by the callee's
  operations over the buffers of that call's record, cut into 84 consecutive stretches (a cut at every call of
  @main, at every window boundary, after the bias's reshape and after every feature's sum into the running total).
  Per stretch: the list, that each operation touches TensorCore references only, that none allocates, and the
  references it writes. Per feature: the stretches, every reference they write, and that they write no other.
-/
import proofs.«420186_j87522843560495_3_alg».proof.Proof.Gen.ReferenceIdeal
import Idealize.ShloMosaic.Lib.StableHlo.Run

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]

/-- A written reference listed among W is, as a device buffer, among W's device buffers. -/
theorem wsub {W : List (Ref sig .tc)} {y : Ref sig .tc} (h : y ∈ W) :
    ({Proc.devRef .tc y} : Finset (DevRef τ sig)) ⊆ (W.map (Proc.devRef (τ := τ) .tc)).toFinset := by
  rw [Finset.singleton_subset_iff, List.mem_toFinset]; exact List.mem_map_of_mem h

/-- 1 operation of @main, window 0. -/
abbrev ops0 : List (HloOp τ sig (Elt F)) :=
  [ StableHlo.reshape main_arg16 main_v0 rfl shapeCasts_S1_S_ ]
theorem ops0_sub : (ops0 : List (HloOp τ sig (Elt F))).Forall fun op => op.bufs ⊆ StableHlo.tcRefs τ sig :=
  StableHlo.reshape_bufs_sub ..
theorem ops0_fresh : (ops0 : List (HloOp τ sig (Elt F))).Forall fun op => op.fresh = ∅ := by
  simp only [List.Forall]; repeat' constructor

/-- 4 operations of @main, window 0. -/
abbrev ops1 : List (HloOp τ sig (Elt F)) :=
  [ StableHlo.nullary main_c (constantI S_ 32 0#32),
    StableHlo.unary main_c main_v1 (broadcastInDim S16384x50 ![] bcast_S_S16384x50 : (⟨S_, .i32⟩ : BufTy).Contents (Elt F) → (⟨S16384x50, .i32⟩ : BufTy).Contents (Elt F)),
    StableHlo.binary main_arg0 main_v1 main_v2 (cmpi .sge : (⟨S16384x50, .i32⟩ : BufTy).Contents (Elt F) → (⟨S16384x50, .i32⟩ : BufTy).Contents (Elt F) → (⟨S16384x50, .i1⟩ : BufTy).Contents (Elt F)),
    StableHlo.nullary main_c_0 (constantI S_ 32 100000#32) ]
theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops1_fresh : (ops1 : List (HloOp τ sig (Elt F))).Forall fun op => op.fresh = ∅ := by
  simp only [List.Forall]; repeat' constructor

/-- 21 operations of @remainder (main_call0), window 0. -/
abbrev ops2 : List (HloOp τ sig (Elt F)) :=
  [ StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S16384x50, .i32⟩) (broadcastInDim S16384x50 ![] bcast_S_S16384x50),
    StableHlo.TRef.binary (.of main_arg0 : StableHlo.TRef sig ⟨S16384x50, .i32⟩) (.of main_call0_v3 : StableHlo.TRef sig ⟨S16384x50, .i32⟩) (.of main_call0_v4 : StableHlo.TRef sig ⟨S16384x50, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S16384x50, .i32⟩) (broadcastInDim S16384x50 ![] bcast_S_S16384x50),
    StableHlo.TRef.binary (.of main_call0_v4 : StableHlo.TRef sig ⟨S16384x50, .i32⟩) (.of main_call0_v5 : StableHlo.TRef sig ⟨S16384x50, .i32⟩) (.of main_call0_v6 : StableHlo.TRef sig ⟨S16384x50, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S16384x50, .i32⟩) (broadcastInDim S16384x50 ![] bcast_S_S16384x50),
    StableHlo.TRef.binary (.of main_call0_v4 : StableHlo.TRef sig ⟨S16384x50, .i32⟩) (.of main_call0_v7 : StableHlo.TRef sig ⟨S16384x50, .i32⟩) (.of main_call0_v8 : StableHlo.TRef sig ⟨S16384x50, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S16384x50, .i1⟩) (broadcastInDim S16384x50 ![] bcast_S_S16384x50),
    StableHlo.TRef.binary (.of main_call0_v8 : StableHlo.TRef sig ⟨S16384x50, .i1⟩) (.of main_call0_v10 : StableHlo.TRef sig ⟨S16384x50, .i1⟩) (.of main_call0_v11 : StableHlo.TRef sig ⟨S16384x50, .i1⟩) (cmpi .ne),
    StableHlo.TRef.binary (.of main_call0_v11 : StableHlo.TRef sig ⟨S16384x50, .i1⟩) (.of main_call0_v6 : StableHlo.TRef sig ⟨S16384x50, .i1⟩) (.of main_call0_v12 : StableHlo.TRef sig ⟨S16384x50, .i1⟩) andi,
    StableHlo.TRef.unary (.of main_call0_v2 : StableHlo.TRef sig ⟨S_, .i32⟩) (.of main_call0_v13 : StableHlo.TRef sig ⟨S16384x50, .i32⟩) (broadcastInDim S16384x50 ![] bcast_S_S16384x50),
    StableHlo.TRef.binary (.of main_call0_v4 : StableHlo.TRef sig ⟨S16384x50, .i32⟩) (.of main_call0_v13 : StableHlo.TRef sig ⟨S16384x50, .i32⟩) (.of main_call0_v14 : StableHlo.TRef sig ⟨S16384x50, .i32⟩) addi,
    StableHlo.TRef.ternary (.of main_call0_v12 : StableHlo.TRef sig ⟨S16384x50, .i1⟩) (.of main_call0_v14 : StableHlo.TRef sig ⟨S16384x50, .i32⟩) (.of main_call0_v4 : StableHlo.TRef sig ⟨S16384x50, .i32⟩) (.of main_v3 : StableHlo.TRef sig ⟨S16384x50, .i32⟩) select ]
theorem ops2_sub : (ops2 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops2_fresh : (ops2 : List (HloOp τ sig (Elt F))).Forall fun op => op.fresh = ∅ := by
  simp only [List.Forall]; repeat' constructor

/-- 1 operation of @main, window 0. -/
abbrev ops3 : List (HloOp τ sig (Elt F)) :=
  [ StableHlo.nullary main_c_1 (constantI S_ 32 100000#32) ]
theorem ops3_sub : (ops3 : List (HloOp τ sig (Elt F))).Forall fun op => op.bufs ⊆ StableHlo.tcRefs τ sig :=
  StableHlo.nullary_bufs_sub ..
theorem ops3_fresh : (ops3 : List (HloOp τ sig (Elt F))).Forall fun op => op.fresh = ∅ := by
  simp only [List.Forall]; repeat' constructor

/-- 3 operations of @where_0 (main_call1), window 0. -/
abbrev ops4 : List (HloOp τ sig (Elt F)) :=
  [ StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S16384x50, .i32⟩) (broadcastInDim S16384x50 ![] bcast_S_S16384x50),
    StableHlo.TRef.ternary (.of main_v2 : StableHlo.TRef sig ⟨S16384x50, .i1⟩) (.of main_v3 : StableHlo.TRef sig ⟨S16384x50, .i32⟩) (.of main_call1_v1 : StableHlo.TRef sig ⟨S16384x50, .i32⟩) (.of main_v4 : StableHlo.TRef sig ⟨S16384x50, .i32⟩) select ]
theorem ops4_sub : (ops4 : List (HloOp τ sig (Elt F))).Forall fun op => op.bufs ⊆ StableHlo.tcRefs τ sig :=
  ⟨StableHlo.unary_bufs_sub .., StableHlo.unary_bufs_sub .., StableHlo.ternary_bufs_sub ..⟩
theorem ops4_fresh : (ops4 : List (HloOp τ sig (Elt F))).Forall fun op => op.fresh = ∅ := by
  simp only [List.Forall]; repeat' constructor

/-- 1 operation of @sort (main_call2), window 0. -/
abbrev ops5 : List (HloOp τ sig (Elt F)) :=
  [ StableHlo.TRef.unary (.of main_v4 : StableHlo.TRef sig ⟨S16384x50, .i32⟩) (.of main_v5 : StableHlo.TRef sig ⟨S16384x50, .i32⟩) (fun x => Host.sort S16384x50 1 comparator_i32_d1 x) ]
theorem ops5_sub : (ops5 : List (HloOp τ sig (Elt F))).Forall fun op => op.bufs ⊆ StableHlo.tcRefs τ sig :=
  StableHlo.unary_bufs_sub ..
theorem ops5_fresh : (ops5 : List (HloOp τ sig (Elt F))).Forall fun op => op.fresh = ∅ := by
  simp only [List.Forall]; repeat' constructor

/-- 13 operations of @main, window 0. -/
abbrev ops6 : List (HloOp τ sig (Elt F)) :=
  [ StableHlo.unary main_v5 main_v6 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_2 (constantI S_ 1 1#1),
    StableHlo.unary main_c_2 main_v7 (broadcastInDim S16384x1 ![] bcast_S_S16384x1 : (⟨S_, .i1⟩ : BufTy).Contents (Elt F) → (⟨S16384x1, .i1⟩ : BufTy).Contents (Elt F)),
    StableHlo.unary main_v5 main_v8 ((extractStridedSlice S16384x49 ![0, 1] · slices_S16384x50_S16384x49_0_1) : (⟨S16384x50, .i32⟩ : BufTy).Contents (Elt F) → (⟨S16384x49, .i32⟩ : BufTy).Contents (Elt F)),
    StableHlo.unary main_v5 main_v9 ((extractStridedSlice S16384x49 ![0, 0] · slices_S16384x50_S16384x49_0_0) : (⟨S16384x50, .i32⟩ : BufTy).Contents (Elt F) → (⟨S16384x49, .i32⟩ : BufTy).Contents (Elt F)),
    StableHlo.binary main_v8 main_v9 main_v10 (cmpi .ne : (⟨S16384x49, .i32⟩ : BufTy).Contents (Elt F) → (⟨S16384x49, .i32⟩ : BufTy).Contents (Elt F) → (⟨S16384x49, .i1⟩ : BufTy).Contents (Elt F)),
    StableHlo.binary main_v7 main_v10 main_v11 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_3 (constantI S_ 32 100000#32),
    StableHlo.unary main_c_3 main_v12 (broadcastInDim S16384x50 ![] bcast_S_S16384x50 : (⟨S_, .i32⟩ : BufTy).Contents (Elt F) → (⟨S16384x50, .i32⟩ : BufTy).Contents (Elt F)),
    StableHlo.binary main_v5 main_v12 main_v13 (cmpi .slt : (⟨S16384x50, .i32⟩ : BufTy).Contents (Elt F) → (⟨S16384x50, .i32⟩ : BufTy).Contents (Elt F) → (⟨S16384x50, .i1⟩ : BufTy).Contents (Elt F)),
    StableHlo.binary main_v11 main_v13 main_v14 (andi : (⟨S16384x50, .i1⟩ : BufTy).Contents (Elt F) → (⟨S16384x50, .i1⟩ : BufTy).Contents (Elt F) → (⟨S16384x50, .i1⟩ : BufTy).Contents (Elt F)),
    StableHlo.nullary main_c_4 (constantI S_ 32 0#32),
    StableHlo.nullary main_c_5 (constantI S_ 32 99999#32) ]
theorem ops6_sub : (ops6 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops6_fresh : (ops6 : List (HloOp τ sig (Elt F))).Forall fun op => op.fresh = ∅ := by
  simp only [List.Forall]; repeat' constructor

/-- 6 operations of @clip (main_call3), window 0. -/
abbrev ops7 : List (HloOp τ sig (Elt F)) :=
  [ StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16384x50, .i32⟩) (broadcastInDim S16384x50 ![] bcast_S_S16384x50),
    StableHlo.TRef.binary (.of main_call3_v1 : StableHlo.TRef sig ⟨S16384x50, .i32⟩) (.of main_v5 : StableHlo.TRef sig ⟨S16384x50, .i32⟩) (.of main_call3_v2 : StableHlo.TRef sig ⟨S16384x50, .i32⟩) maxsi,
    StableHlo.TRef.unary (.of main_c_5 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S16384x50, .i32⟩) (broadcastInDim S16384x50 ![] bcast_S_S16384x50),
    StableHlo.TRef.binary (.of main_call3_v4 : StableHlo.TRef sig ⟨S16384x50, .i32⟩) (.of main_call3_v2 : StableHlo.TRef sig ⟨S16384x50, .i32⟩) (.of main_v15 : StableHlo.TRef sig ⟨S16384x50, .i32⟩) minsi ]
theorem ops7_sub : (ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops7_fresh : (ops7 : List (HloOp τ sig (Elt F))).Forall fun op => op.fresh = ∅ := by
  simp only [List.Forall]; repeat' constructor

/-- 10 operations of @main, window 0. -/
abbrev ops8 : List (HloOp τ sig (Elt F)) :=
  [ StableHlo.nullary main_c_6 (constantI S_ 32 0#32),
    StableHlo.unary main_c_6 main_v16 (broadcastInDim S16384x50 ![] bcast_S_S16384x50 : (⟨S_, .i32⟩ : BufTy).Contents (Elt F) → (⟨S16384x50, .i32⟩ : BufTy).Contents (Elt F)),
    StableHlo.binary main_v15 main_v16 main_v17 (cmpi .slt : (⟨S16384x50, .i32⟩ : BufTy).Contents (Elt F) → (⟨S16384x50, .i32⟩ : BufTy).Contents (Elt F) → (⟨S16384x50, .i1⟩ : BufTy).Contents (Elt F)),
    StableHlo.nullary main_c_7 (constantI S_ 32 100000#32),
    StableHlo.unary main_c_7 main_v18 (broadcastInDim S16384x50 ![] bcast_S_S16384x50 : (⟨S_, .i32⟩ : BufTy).Contents (Elt F) → (⟨S16384x50, .i32⟩ : BufTy).Contents (Elt F)),
    StableHlo.binary main_v15 main_v18 main_v19 (addi : (⟨S16384x50, .i32⟩ : BufTy).Contents (Elt F) → (⟨S16384x50, .i32⟩ : BufTy).Contents (Elt F) → (⟨S16384x50, .i32⟩ : BufTy).Contents (Elt F)),
    StableHlo.ternary main_v17 main_v19 main_v15 main_v20 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v20 main_v21 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg8 main_v21 main_v22 ((fun x i => Host.gather gather_S100000_S16384x50x1_S16384x50_n_0_n_n_0_2_1 x i) : (⟨S100000, .f32⟩ : BufTy).Contents (Elt F) → (⟨S16384x50x1, .i32⟩ : BufTy).Contents (Elt F) → (⟨S16384x50, .f32⟩ : BufTy).Contents (Elt F)),
    StableHlo.nullary main_cst (constant S_ .f32 0x00000000#32) ]
theorem ops8_sub : (ops8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops8_fresh : (ops8 : List (HloOp τ sig (Elt F))).Forall fun op => op.fresh = ∅ := by
  simp only [List.Forall]; repeat' constructor

/-- 3 operations of @where_1 (main_call4), window 0. -/
abbrev ops9 : List (HloOp τ sig (Elt F)) :=
  [ StableHlo.TRef.unary (.of main_cst : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S16384x50, .f32⟩) (broadcastInDim S16384x50 ![] bcast_S_S16384x50),
    StableHlo.TRef.ternary (.of main_v14 : StableHlo.TRef sig ⟨S16384x50, .i1⟩) (.of main_v22 : StableHlo.TRef sig ⟨S16384x50, .f32⟩) (.of main_call4_v1 : StableHlo.TRef sig ⟨S16384x50, .f32⟩) (.of main_v23 : StableHlo.TRef sig ⟨S16384x50, .f32⟩) select ]
theorem ops9_sub : (ops9 : List (HloOp τ sig (Elt F))).Forall fun op => op.bufs ⊆ StableHlo.tcRefs τ sig :=
  ⟨StableHlo.unary_bufs_sub .., StableHlo.unary_bufs_sub .., StableHlo.ternary_bufs_sub ..⟩
theorem ops9_fresh : (ops9 : List (HloOp τ sig (Elt F))).Forall fun op => op.fresh = ∅ := by
  simp only [List.Forall]; repeat' constructor

/-- 4 operations of @main, window 0. -/
abbrev ops10 : List (HloOp τ sig (Elt F)) :=
  [ StableHlo.nullary main_cst_8 (constant S_ .f32 0x00000000#32),
    StableHlo.binary main_v23 main_cst_8 main_v24 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.unary main_v0 main_v25 (broadcastInDim S16384 ![] bcast_S_S16384 : (⟨S_, .f32⟩ : BufTy).Contents (Elt F) → (⟨S16384, .f32⟩ : BufTy).Contents (Elt F)),
    StableHlo.binary main_v25 main_v24 main_v26 (addf : (⟨S16384, .f32⟩ : BufTy).Contents (Elt F) → (⟨S16384, .f32⟩ : BufTy).Contents (Elt F) → (⟨S16384, .f32⟩ : BufTy).Contents (Elt F)) ]
theorem ops10_sub : (ops10 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub ..⟩
theorem ops10_fresh : (ops10 : List (HloOp τ sig (Elt F))).Forall fun op => op.fresh = ∅ := by
  simp only [List.Forall]; repeat' constructor

/-- 4 operations of @main, window 0. -/
abbrev ops11 : List (HloOp τ sig (Elt F)) :=
  [ StableHlo.nullary main_c_9 (constantI S_ 32 0#32),
    StableHlo.unary main_c_9 main_v27 (broadcastInDim S16384x50 ![] bcast_S_S16384x50 : (⟨S_, .i32⟩ : BufTy).Contents (Elt F) → (⟨S16384x50, .i32⟩ : BufTy).Contents (Elt F)),
    StableHlo.binary main_arg1 main_v27 main_v28 (cmpi .sge : (⟨S16384x50, .i32⟩ : BufTy).Contents (Elt F) → (⟨S16384x50, .i32⟩ : BufTy).Contents (Elt F) → (⟨S16384x50, .i1⟩ : BufTy).Contents (Elt F)),
    StableHlo.nullary main_c_10 (constantI S_ 32 100000#32) ]
theorem ops11_sub : (ops11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops11_fresh : (ops11 : List (HloOp τ sig (Elt F))).Forall fun op => op.fresh = ∅ := by
  simp only [List.Forall]; repeat' constructor

/-- 21 operations of @remainder (main_call5), window 0. -/
abbrev ops12 : List (HloOp τ sig (Elt F)) :=
  [ StableHlo.TRef.unary (.of main_c_10 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S16384x50, .i32⟩) (broadcastInDim S16384x50 ![] bcast_S_S16384x50),
    StableHlo.TRef.binary (.of main_arg1 : StableHlo.TRef sig ⟨S16384x50, .i32⟩) (.of main_call5_v3 : StableHlo.TRef sig ⟨S16384x50, .i32⟩) (.of main_call5_v4 : StableHlo.TRef sig ⟨S16384x50, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S16384x50, .i32⟩) (broadcastInDim S16384x50 ![] bcast_S_S16384x50),
    StableHlo.TRef.binary (.of main_call5_v4 : StableHlo.TRef sig ⟨S16384x50, .i32⟩) (.of main_call5_v5 : StableHlo.TRef sig ⟨S16384x50, .i32⟩) (.of main_call5_v6 : StableHlo.TRef sig ⟨S16384x50, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S16384x50, .i32⟩) (broadcastInDim S16384x50 ![] bcast_S_S16384x50),
    StableHlo.TRef.binary (.of main_call5_v4 : StableHlo.TRef sig ⟨S16384x50, .i32⟩) (.of main_call5_v7 : StableHlo.TRef sig ⟨S16384x50, .i32⟩) (.of main_call5_v8 : StableHlo.TRef sig ⟨S16384x50, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S16384x50, .i1⟩) (broadcastInDim S16384x50 ![] bcast_S_S16384x50),
    StableHlo.TRef.binary (.of main_call5_v8 : StableHlo.TRef sig ⟨S16384x50, .i1⟩) (.of main_call5_v10 : StableHlo.TRef sig ⟨S16384x50, .i1⟩) (.of main_call5_v11 : StableHlo.TRef sig ⟨S16384x50, .i1⟩) (cmpi .ne),
    StableHlo.TRef.binary (.of main_call5_v11 : StableHlo.TRef sig ⟨S16384x50, .i1⟩) (.of main_call5_v6 : StableHlo.TRef sig ⟨S16384x50, .i1⟩) (.of main_call5_v12 : StableHlo.TRef sig ⟨S16384x50, .i1⟩) andi,
    StableHlo.TRef.unary (.of main_call5_v2 : StableHlo.TRef sig ⟨S_, .i32⟩) (.of main_call5_v13 : StableHlo.TRef sig ⟨S16384x50, .i32⟩) (broadcastInDim S16384x50 ![] bcast_S_S16384x50),
    StableHlo.TRef.binary (.of main_call5_v4 : StableHlo.TRef sig ⟨S16384x50, .i32⟩) (.of main_call5_v13 : StableHlo.TRef sig ⟨S16384x50, .i32⟩) (.of main_call5_v14 : StableHlo.TRef sig ⟨S16384x50, .i32⟩) addi,
    StableHlo.TRef.ternary (.of main_call5_v12 : StableHlo.TRef sig ⟨S16384x50, .i1⟩) (.of main_call5_v14 : StableHlo.TRef sig ⟨S16384x50, .i32⟩) (.of main_call5_v4 : StableHlo.TRef sig ⟨S16384x50, .i32⟩) (.of main_v29 : StableHlo.TRef sig ⟨S16384x50, .i32⟩) select ]
theorem ops12_sub : (ops12 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops12_fresh : (ops12 : List (HloOp τ sig (Elt F))).Forall fun op => op.fresh = ∅ := by
  simp only [List.Forall]; repeat' constructor

/-- 1 operation of @main, window 0. -/
abbrev ops13 : List (HloOp τ sig (Elt F)) :=
  [ StableHlo.nullary main_c_11 (constantI S_ 32 100000#32) ]
theorem ops13_sub : (ops13 : List (HloOp τ sig (Elt F))).Forall fun op => op.bufs ⊆ StableHlo.tcRefs τ sig :=
  StableHlo.nullary_bufs_sub ..
theorem ops13_fresh : (ops13 : List (HloOp τ sig (Elt F))).Forall fun op => op.fresh = ∅ := by
  simp only [List.Forall]; repeat' constructor

/-- 3 operations of @where_0 (main_call6), window 0. -/
abbrev ops14 : List (HloOp τ sig (Elt F)) :=
  [ StableHlo.TRef.unary (.of main_c_11 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S16384x50, .i32⟩) (broadcastInDim S16384x50 ![] bcast_S_S16384x50),
    StableHlo.TRef.ternary (.of main_v28 : StableHlo.TRef sig ⟨S16384x50, .i1⟩) (.of main_v29 : StableHlo.TRef sig ⟨S16384x50, .i32⟩) (.of main_call6_v1 : StableHlo.TRef sig ⟨S16384x50, .i32⟩) (.of main_v30 : StableHlo.TRef sig ⟨S16384x50, .i32⟩) select ]
theorem ops14_sub : (ops14 : List (HloOp τ sig (Elt F))).Forall fun op => op.bufs ⊆ StableHlo.tcRefs τ sig :=
  ⟨StableHlo.unary_bufs_sub .., StableHlo.unary_bufs_sub .., StableHlo.ternary_bufs_sub ..⟩
theorem ops14_fresh : (ops14 : List (HloOp τ sig (Elt F))).Forall fun op => op.fresh = ∅ := by
  simp only [List.Forall]; repeat' constructor

/-- 1 operation of @sort (main_call7), window 0. -/
abbrev ops15 : List (HloOp τ sig (Elt F)) :=
  [ StableHlo.TRef.unary (.of main_v30 : StableHlo.TRef sig ⟨S16384x50, .i32⟩) (.of main_v31 : StableHlo.TRef sig ⟨S16384x50, .i32⟩) (fun x => Host.sort S16384x50 1 comparator_i32_d1 x) ]
theorem ops15_sub : (ops15 : List (HloOp τ sig (Elt F))).Forall fun op => op.bufs ⊆ StableHlo.tcRefs τ sig :=
  StableHlo.unary_bufs_sub ..
theorem ops15_fresh : (ops15 : List (HloOp τ sig (Elt F))).Forall fun op => op.fresh = ∅ := by
  simp only [List.Forall]; repeat' constructor

/-- 13 operations of @main, window 0. -/
abbrev ops16 : List (HloOp τ sig (Elt F)) :=
  [ StableHlo.unary main_v31 main_v32 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_12 (constantI S_ 1 1#1),
    StableHlo.unary main_c_12 main_v33 (broadcastInDim S16384x1 ![] bcast_S_S16384x1 : (⟨S_, .i1⟩ : BufTy).Contents (Elt F) → (⟨S16384x1, .i1⟩ : BufTy).Contents (Elt F)),
    StableHlo.unary main_v31 main_v34 ((extractStridedSlice S16384x49 ![0, 1] · slices_S16384x50_S16384x49_0_1) : (⟨S16384x50, .i32⟩ : BufTy).Contents (Elt F) → (⟨S16384x49, .i32⟩ : BufTy).Contents (Elt F)),
    StableHlo.unary main_v31 main_v35 ((extractStridedSlice S16384x49 ![0, 0] · slices_S16384x50_S16384x49_0_0) : (⟨S16384x50, .i32⟩ : BufTy).Contents (Elt F) → (⟨S16384x49, .i32⟩ : BufTy).Contents (Elt F)),
    StableHlo.binary main_v34 main_v35 main_v36 (cmpi .ne : (⟨S16384x49, .i32⟩ : BufTy).Contents (Elt F) → (⟨S16384x49, .i32⟩ : BufTy).Contents (Elt F) → (⟨S16384x49, .i1⟩ : BufTy).Contents (Elt F)),
    StableHlo.binary main_v33 main_v36 main_v37 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_13 (constantI S_ 32 100000#32),
    StableHlo.unary main_c_13 main_v38 (broadcastInDim S16384x50 ![] bcast_S_S16384x50 : (⟨S_, .i32⟩ : BufTy).Contents (Elt F) → (⟨S16384x50, .i32⟩ : BufTy).Contents (Elt F)),
    StableHlo.binary main_v31 main_v38 main_v39 (cmpi .slt : (⟨S16384x50, .i32⟩ : BufTy).Contents (Elt F) → (⟨S16384x50, .i32⟩ : BufTy).Contents (Elt F) → (⟨S16384x50, .i1⟩ : BufTy).Contents (Elt F)),
    StableHlo.binary main_v37 main_v39 main_v40 (andi : (⟨S16384x50, .i1⟩ : BufTy).Contents (Elt F) → (⟨S16384x50, .i1⟩ : BufTy).Contents (Elt F) → (⟨S16384x50, .i1⟩ : BufTy).Contents (Elt F)),
    StableHlo.nullary main_c_14 (constantI S_ 32 0#32),
    StableHlo.nullary main_c_15 (constantI S_ 32 99999#32) ]
theorem ops16_sub : (ops16 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops16_fresh : (ops16 : List (HloOp τ sig (Elt F))).Forall fun op => op.fresh = ∅ := by
  simp only [List.Forall]; repeat' constructor

/-- 6 operations of @clip (main_call8), window 0. -/
abbrev ops17 : List (HloOp τ sig (Elt F)) :=
  [ StableHlo.TRef.unary (.of main_c_14 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S16384x50, .i32⟩) (broadcastInDim S16384x50 ![] bcast_S_S16384x50),
    StableHlo.TRef.binary (.of main_call8_v1 : StableHlo.TRef sig ⟨S16384x50, .i32⟩) (.of main_v31 : StableHlo.TRef sig ⟨S16384x50, .i32⟩) (.of main_call8_v2 : StableHlo.TRef sig ⟨S16384x50, .i32⟩) maxsi,
    StableHlo.TRef.unary (.of main_c_15 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S16384x50, .i32⟩) (broadcastInDim S16384x50 ![] bcast_S_S16384x50),
    StableHlo.TRef.binary (.of main_call8_v4 : StableHlo.TRef sig ⟨S16384x50, .i32⟩) (.of main_call8_v2 : StableHlo.TRef sig ⟨S16384x50, .i32⟩) (.of main_v41 : StableHlo.TRef sig ⟨S16384x50, .i32⟩) minsi ]
theorem ops17_sub : (ops17 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops17_fresh : (ops17 : List (HloOp τ sig (Elt F))).Forall fun op => op.fresh = ∅ := by
  simp only [List.Forall]; repeat' constructor

/-- 10 operations of @main, window 1. -/
abbrev ops18 : List (HloOp τ sig (Elt F)) :=
  [ StableHlo.nullary main_c_16 (constantI S_ 32 0#32),
    StableHlo.unary main_c_16 main_v42 (broadcastInDim S16384x50 ![] bcast_S_S16384x50 : (⟨S_, .i32⟩ : BufTy).Contents (Elt F) → (⟨S16384x50, .i32⟩ : BufTy).Contents (Elt F)),
    StableHlo.binary main_v41 main_v42 main_v43 (cmpi .slt : (⟨S16384x50, .i32⟩ : BufTy).Contents (Elt F) → (⟨S16384x50, .i32⟩ : BufTy).Contents (Elt F) → (⟨S16384x50, .i1⟩ : BufTy).Contents (Elt F)),
    StableHlo.nullary main_c_17 (constantI S_ 32 100000#32),
    StableHlo.unary main_c_17 main_v44 (broadcastInDim S16384x50 ![] bcast_S_S16384x50 : (⟨S_, .i32⟩ : BufTy).Contents (Elt F) → (⟨S16384x50, .i32⟩ : BufTy).Contents (Elt F)),
    StableHlo.binary main_v41 main_v44 main_v45 (addi : (⟨S16384x50, .i32⟩ : BufTy).Contents (Elt F) → (⟨S16384x50, .i32⟩ : BufTy).Contents (Elt F) → (⟨S16384x50, .i32⟩ : BufTy).Contents (Elt F)),
    StableHlo.ternary main_v43 main_v45 main_v41 main_v46 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v46 main_v47 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg9 main_v47 main_v48 ((fun x i => Host.gather gather_S100000_S16384x50x1_S16384x50_n_0_n_n_0_2_1 x i) : (⟨S100000, .f32⟩ : BufTy).Contents (Elt F) → (⟨S16384x50x1, .i32⟩ : BufTy).Contents (Elt F) → (⟨S16384x50, .f32⟩ : BufTy).Contents (Elt F)),
    StableHlo.nullary main_cst_18 (constant S_ .f32 0x00000000#32) ]
theorem ops18_sub : (ops18 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops18_fresh : (ops18 : List (HloOp τ sig (Elt F))).Forall fun op => op.fresh = ∅ := by
  simp only [List.Forall]; repeat' constructor

/-- 3 operations of @where_1 (main_call9), window 1. -/
abbrev ops19 : List (HloOp τ sig (Elt F)) :=
  [ StableHlo.TRef.unary (.of main_cst_18 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S16384x50, .f32⟩) (broadcastInDim S16384x50 ![] bcast_S_S16384x50),
    StableHlo.TRef.ternary (.of main_v40 : StableHlo.TRef sig ⟨S16384x50, .i1⟩) (.of main_v48 : StableHlo.TRef sig ⟨S16384x50, .f32⟩) (.of main_call9_v1 : StableHlo.TRef sig ⟨S16384x50, .f32⟩) (.of main_v49 : StableHlo.TRef sig ⟨S16384x50, .f32⟩) select ]
theorem ops19_sub : (ops19 : List (HloOp τ sig (Elt F))).Forall fun op => op.bufs ⊆ StableHlo.tcRefs τ sig :=
  ⟨StableHlo.unary_bufs_sub .., StableHlo.unary_bufs_sub .., StableHlo.ternary_bufs_sub ..⟩
theorem ops19_fresh : (ops19 : List (HloOp τ sig (Elt F))).Forall fun op => op.fresh = ∅ := by
  simp only [List.Forall]; repeat' constructor

/-- 3 operations of @main, window 1. -/
abbrev ops20 : List (HloOp τ sig (Elt F)) :=
  [ StableHlo.nullary main_cst_19 (constant S_ .f32 0x00000000#32),
    StableHlo.binary main_v49 main_cst_19 main_v50 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v26 main_v50 main_v51 (addf : (⟨S16384, .f32⟩ : BufTy).Contents (Elt F) → (⟨S16384, .f32⟩ : BufTy).Contents (Elt F) → (⟨S16384, .f32⟩ : BufTy).Contents (Elt F)) ]
theorem ops20_sub : (ops20 : List (HloOp τ sig (Elt F))).Forall fun op => op.bufs ⊆ StableHlo.tcRefs τ sig :=
  ⟨StableHlo.nullary_bufs_sub .., StableHlo.binary_bufs_sub .., StableHlo.binary_bufs_sub ..⟩
theorem ops20_fresh : (ops20 : List (HloOp τ sig (Elt F))).Forall fun op => op.fresh = ∅ := by
  simp only [List.Forall]; repeat' constructor

/-- 4 operations of @main, window 1. -/
abbrev ops21 : List (HloOp τ sig (Elt F)) :=
  [ StableHlo.nullary main_c_20 (constantI S_ 32 0#32),
    StableHlo.unary main_c_20 main_v52 (broadcastInDim S16384x50 ![] bcast_S_S16384x50 : (⟨S_, .i32⟩ : BufTy).Contents (Elt F) → (⟨S16384x50, .i32⟩ : BufTy).Contents (Elt F)),
    StableHlo.binary main_arg2 main_v52 main_v53 (cmpi .sge : (⟨S16384x50, .i32⟩ : BufTy).Contents (Elt F) → (⟨S16384x50, .i32⟩ : BufTy).Contents (Elt F) → (⟨S16384x50, .i1⟩ : BufTy).Contents (Elt F)),
    StableHlo.nullary main_c_21 (constantI S_ 32 100000#32) ]
theorem ops21_sub : (ops21 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops21_fresh : (ops21 : List (HloOp τ sig (Elt F))).Forall fun op => op.fresh = ∅ := by
  simp only [List.Forall]; repeat' constructor

/-- 21 operations of @remainder (main_call10), window 1. -/
abbrev ops22 : List (HloOp τ sig (Elt F)) :=
  [ StableHlo.TRef.unary (.of main_c_21 : StableHlo.TRef sig ⟨S_, .i32⟩) (.of main_call10_v0 : StableHlo.TRef sig ⟨S_, .i32⟩) id,
    StableHlo.TRef.nullary (.of main_call10_c : StableHlo.TRef sig ⟨S_, .i32⟩) (constantI S_ 32 0#32),
    StableHlo.TRef.binary (.of main_call10_v0 : StableHlo.TRef sig ⟨S_, .i32⟩) (.of main_call10_c : StableHlo.TRef sig ⟨S_, .i32⟩) (.of main_call10_v1 : StableHlo.TRef sig ⟨S_, .i1⟩) (cmpi .eq),
    StableHlo.TRef.nullary (.of main_call10_c_0 : StableHlo.TRef sig ⟨S_, .i32⟩) (constantI S_ 32 1#32),
    StableHlo.TRef.ternary (.of main_call10_v1 : StableHlo.TRef sig ⟨S_, .i1⟩) (.of main_call10_c_0 : StableHlo.TRef sig ⟨S_, .i32⟩) (.of main_call10_v0 : StableHlo.TRef sig ⟨S_, .i32⟩) (.of main_call10_v2 : StableHlo.TRef sig ⟨S_, .i32⟩) select,
    StableHlo.TRef.unary (.of main_call10_v2 : StableHlo.TRef sig ⟨S_, .i32⟩) (.of main_call10_v3 : StableHlo.TRef sig ⟨S16384x50, .i32⟩) (broadcastInDim S16384x50 ![] bcast_S_S16384x50),
    StableHlo.TRef.binary (.of main_arg2 : StableHlo.TRef sig ⟨S16384x50, .i32⟩) (.of main_call10_v3 : StableHlo.TRef sig ⟨S16384x50, .i32⟩) (.of main_call10_v4 : StableHlo.TRef sig ⟨S16384x50, .i32⟩) Host.remsi,
    StableHlo.TRef.nullary (.of main_call10_c_1 : StableHlo.TRef sig ⟨S_, .i32⟩) (constantI S_ 32 0#32),
    StableHlo.TRef.unary (.of main_call10_c_1 : StableHlo.TRef sig ⟨S_, .i32⟩) (.of main_call10_v5 : StableHlo.TRef sig ⟨S16384x50, .i32⟩) (broadcastInDim S16384x50 ![] bcast_S_S16384x50),
    StableHlo.TRef.binary (.of main_call10_v4 : StableHlo.TRef sig ⟨S16384x50, .i32⟩) (.of main_call10_v5 : StableHlo.TRef sig ⟨S16384x50, .i32⟩) (.of main_call10_v6 : StableHlo.TRef sig ⟨S16384x50, .i1⟩) (cmpi .ne),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v7 : StableHlo.TRef sig ⟨S16384x50, .i32⟩) (broadcastInDim S16384x50 ![] bcast_S_S16384x50),
    StableHlo.TRef.binary (.of main_call10_v4 : StableHlo.TRef sig ⟨S16384x50, .i32⟩) (.of main_call10_v7 : StableHlo.TRef sig ⟨S16384x50, .i32⟩) (.of main_call10_v8 : StableHlo.TRef sig ⟨S16384x50, .i1⟩) (cmpi .slt),
    StableHlo.TRef.nullary (.of main_call10_c_3 : StableHlo.TRef sig ⟨S_, .i32⟩) (constantI S_ 32 0#32),
    StableHlo.TRef.binary (.of main_call10_v2 : StableHlo.TRef sig ⟨S_, .i32⟩) (.of main_call10_c_3 : StableHlo.TRef sig ⟨S_, .i32⟩) (.of main_call10_v9 : StableHlo.TRef sig ⟨S_, .i1⟩) (cmpi .slt),
    StableHlo.TRef.unary (.of main_call10_v9 : StableHlo.TRef sig ⟨S_, .i1⟩) (.of main_call10_v10 : StableHlo.TRef sig ⟨S16384x50, .i1⟩) (broadcastInDim S16384x50 ![] bcast_S_S16384x50),
    StableHlo.TRef.binary (.of main_call10_v8 : StableHlo.TRef sig ⟨S16384x50, .i1⟩) (.of main_call10_v10 : StableHlo.TRef sig ⟨S16384x50, .i1⟩) (.of main_call10_v11 : StableHlo.TRef sig ⟨S16384x50, .i1⟩) (cmpi .ne),
    StableHlo.TRef.binary (.of main_call10_v11 : StableHlo.TRef sig ⟨S16384x50, .i1⟩) (.of main_call10_v6 : StableHlo.TRef sig ⟨S16384x50, .i1⟩) (.of main_call10_v12 : StableHlo.TRef sig ⟨S16384x50, .i1⟩) andi,
    StableHlo.TRef.unary (.of main_call10_v2 : StableHlo.TRef sig ⟨S_, .i32⟩) (.of main_call10_v13 : StableHlo.TRef sig ⟨S16384x50, .i32⟩) (broadcastInDim S16384x50 ![] bcast_S_S16384x50),
    StableHlo.TRef.binary (.of main_call10_v4 : StableHlo.TRef sig ⟨S16384x50, .i32⟩) (.of main_call10_v13 : StableHlo.TRef sig ⟨S16384x50, .i32⟩) (.of main_call10_v14 : StableHlo.TRef sig ⟨S16384x50, .i32⟩) addi,
    StableHlo.TRef.ternary (.of main_call10_v12 : StableHlo.TRef sig ⟨S16384x50, .i1⟩) (.of main_call10_v14 : StableHlo.TRef sig ⟨S16384x50, .i32⟩) (.of main_call10_v4 : StableHlo.TRef sig ⟨S16384x50, .i32⟩) (.of main_v54 : StableHlo.TRef sig ⟨S16384x50, .i32⟩) select ]
theorem ops22_sub : (ops22 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops22_fresh : (ops22 : List (HloOp τ sig (Elt F))).Forall fun op => op.fresh = ∅ := by
  simp only [List.Forall]; repeat' constructor

/-- 1 operation of @main, window 1. -/
abbrev ops23 : List (HloOp τ sig (Elt F)) :=
  [ StableHlo.nullary main_c_22 (constantI S_ 32 100000#32) ]
theorem ops23_sub : (ops23 : List (HloOp τ sig (Elt F))).Forall fun op => op.bufs ⊆ StableHlo.tcRefs τ sig :=
  StableHlo.nullary_bufs_sub ..
theorem ops23_fresh : (ops23 : List (HloOp τ sig (Elt F))).Forall fun op => op.fresh = ∅ := by
  simp only [List.Forall]; repeat' constructor

/-- 3 operations of @where_0 (main_call11), window 1. -/
abbrev ops24 : List (HloOp τ sig (Elt F)) :=
  [ StableHlo.TRef.unary (.of main_c_22 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S16384x50, .i32⟩) (broadcastInDim S16384x50 ![] bcast_S_S16384x50),
    StableHlo.TRef.ternary (.of main_v53 : StableHlo.TRef sig ⟨S16384x50, .i1⟩) (.of main_v54 : StableHlo.TRef sig ⟨S16384x50, .i32⟩) (.of main_call11_v1 : StableHlo.TRef sig ⟨S16384x50, .i32⟩) (.of main_v55 : StableHlo.TRef sig ⟨S16384x50, .i32⟩) select ]
theorem ops24_sub : (ops24 : List (HloOp τ sig (Elt F))).Forall fun op => op.bufs ⊆ StableHlo.tcRefs τ sig :=
  ⟨StableHlo.unary_bufs_sub .., StableHlo.unary_bufs_sub .., StableHlo.ternary_bufs_sub ..⟩
theorem ops24_fresh : (ops24 : List (HloOp τ sig (Elt F))).Forall fun op => op.fresh = ∅ := by
  simp only [List.Forall]; repeat' constructor

/-- 1 operation of @sort (main_call12), window 1. -/
abbrev ops25 : List (HloOp τ sig (Elt F)) :=
  [ StableHlo.TRef.unary (.of main_v55 : StableHlo.TRef sig ⟨S16384x50, .i32⟩) (.of main_v56 : StableHlo.TRef sig ⟨S16384x50, .i32⟩) (fun x => Host.sort S16384x50 1 comparator_i32_d1 x) ]
theorem ops25_sub : (ops25 : List (HloOp τ sig (Elt F))).Forall fun op => op.bufs ⊆ StableHlo.tcRefs τ sig :=
  StableHlo.unary_bufs_sub ..
theorem ops25_fresh : (ops25 : List (HloOp τ sig (Elt F))).Forall fun op => op.fresh = ∅ := by
  simp only [List.Forall]; repeat' constructor

/-- 13 operations of @main, window 1. -/
abbrev ops26 : List (HloOp τ sig (Elt F)) :=
  [ StableHlo.unary main_v56 main_v57 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_23 (constantI S_ 1 1#1),
    StableHlo.unary main_c_23 main_v58 (broadcastInDim S16384x1 ![] bcast_S_S16384x1 : (⟨S_, .i1⟩ : BufTy).Contents (Elt F) → (⟨S16384x1, .i1⟩ : BufTy).Contents (Elt F)),
    StableHlo.unary main_v56 main_v59 ((extractStridedSlice S16384x49 ![0, 1] · slices_S16384x50_S16384x49_0_1) : (⟨S16384x50, .i32⟩ : BufTy).Contents (Elt F) → (⟨S16384x49, .i32⟩ : BufTy).Contents (Elt F)),
    StableHlo.unary main_v56 main_v60 ((extractStridedSlice S16384x49 ![0, 0] · slices_S16384x50_S16384x49_0_0) : (⟨S16384x50, .i32⟩ : BufTy).Contents (Elt F) → (⟨S16384x49, .i32⟩ : BufTy).Contents (Elt F)),
    StableHlo.binary main_v59 main_v60 main_v61 (cmpi .ne : (⟨S16384x49, .i32⟩ : BufTy).Contents (Elt F) → (⟨S16384x49, .i32⟩ : BufTy).Contents (Elt F) → (⟨S16384x49, .i1⟩ : BufTy).Contents (Elt F)),
    StableHlo.binary main_v58 main_v61 main_v62 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_24 (constantI S_ 32 100000#32),
    StableHlo.unary main_c_24 main_v63 (broadcastInDim S16384x50 ![] bcast_S_S16384x50 : (⟨S_, .i32⟩ : BufTy).Contents (Elt F) → (⟨S16384x50, .i32⟩ : BufTy).Contents (Elt F)),
    StableHlo.binary main_v56 main_v63 main_v64 (cmpi .slt : (⟨S16384x50, .i32⟩ : BufTy).Contents (Elt F) → (⟨S16384x50, .i32⟩ : BufTy).Contents (Elt F) → (⟨S16384x50, .i1⟩ : BufTy).Contents (Elt F)),
    StableHlo.binary main_v62 main_v64 main_v65 (andi : (⟨S16384x50, .i1⟩ : BufTy).Contents (Elt F) → (⟨S16384x50, .i1⟩ : BufTy).Contents (Elt F) → (⟨S16384x50, .i1⟩ : BufTy).Contents (Elt F)),
    StableHlo.nullary main_c_25 (constantI S_ 32 0#32),
    StableHlo.nullary main_c_26 (constantI S_ 32 99999#32) ]
theorem ops26_sub : (ops26 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops26_fresh : (ops26 : List (HloOp τ sig (Elt F))).Forall fun op => op.fresh = ∅ := by
  simp only [List.Forall]; repeat' constructor

/-- 6 operations of @clip (main_call13), window 1. -/
abbrev ops27 : List (HloOp τ sig (Elt F)) :=
  [ StableHlo.TRef.unary (.of main_c_25 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S16384x50, .i32⟩) (broadcastInDim S16384x50 ![] bcast_S_S16384x50),
    StableHlo.TRef.binary (.of main_call13_v1 : StableHlo.TRef sig ⟨S16384x50, .i32⟩) (.of main_v56 : StableHlo.TRef sig ⟨S16384x50, .i32⟩) (.of main_call13_v2 : StableHlo.TRef sig ⟨S16384x50, .i32⟩) maxsi,
    StableHlo.TRef.unary (.of main_c_26 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S16384x50, .i32⟩) (broadcastInDim S16384x50 ![] bcast_S_S16384x50),
    StableHlo.TRef.binary (.of main_call13_v4 : StableHlo.TRef sig ⟨S16384x50, .i32⟩) (.of main_call13_v2 : StableHlo.TRef sig ⟨S16384x50, .i32⟩) (.of main_v66 : StableHlo.TRef sig ⟨S16384x50, .i32⟩) minsi ]
theorem ops27_sub : (ops27 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops27_fresh : (ops27 : List (HloOp τ sig (Elt F))).Forall fun op => op.fresh = ∅ := by
  simp only [List.Forall]; repeat' constructor

/-- 10 operations of @main, window 1. -/
abbrev ops28 : List (HloOp τ sig (Elt F)) :=
  [ StableHlo.nullary main_c_27 (constantI S_ 32 0#32),
    StableHlo.unary main_c_27 main_v67 (broadcastInDim S16384x50 ![] bcast_S_S16384x50 : (⟨S_, .i32⟩ : BufTy).Contents (Elt F) → (⟨S16384x50, .i32⟩ : BufTy).Contents (Elt F)),
    StableHlo.binary main_v66 main_v67 main_v68 (cmpi .slt : (⟨S16384x50, .i32⟩ : BufTy).Contents (Elt F) → (⟨S16384x50, .i32⟩ : BufTy).Contents (Elt F) → (⟨S16384x50, .i1⟩ : BufTy).Contents (Elt F)),
    StableHlo.nullary main_c_28 (constantI S_ 32 100000#32),
    StableHlo.unary main_c_28 main_v69 (broadcastInDim S16384x50 ![] bcast_S_S16384x50 : (⟨S_, .i32⟩ : BufTy).Contents (Elt F) → (⟨S16384x50, .i32⟩ : BufTy).Contents (Elt F)),
    StableHlo.binary main_v66 main_v69 main_v70 (addi : (⟨S16384x50, .i32⟩ : BufTy).Contents (Elt F) → (⟨S16384x50, .i32⟩ : BufTy).Contents (Elt F) → (⟨S16384x50, .i32⟩ : BufTy).Contents (Elt F)),
    StableHlo.ternary main_v68 main_v70 main_v66 main_v71 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v71 main_v72 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg10 main_v72 main_v73 ((fun x i => Host.gather gather_S100000_S16384x50x1_S16384x50_n_0_n_n_0_2_1 x i) : (⟨S100000, .f32⟩ : BufTy).Contents (Elt F) → (⟨S16384x50x1, .i32⟩ : BufTy).Contents (Elt F) → (⟨S16384x50, .f32⟩ : BufTy).Contents (Elt F)),
    StableHlo.nullary main_cst_29 (constant S_ .f32 0x00000000#32) ]
theorem ops28_sub : (ops28 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops28_fresh : (ops28 : List (HloOp τ sig (Elt F))).Forall fun op => op.fresh = ∅ := by
  simp only [List.Forall]; repeat' constructor

/-- 3 operations of @where_1 (main_call14), window 1. -/
abbrev ops29 : List (HloOp τ sig (Elt F)) :=
  [ StableHlo.TRef.unary (.of main_cst_29 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S16384x50, .f32⟩) (broadcastInDim S16384x50 ![] bcast_S_S16384x50),
    StableHlo.TRef.ternary (.of main_v65 : StableHlo.TRef sig ⟨S16384x50, .i1⟩) (.of main_v73 : StableHlo.TRef sig ⟨S16384x50, .f32⟩) (.of main_call14_v1 : StableHlo.TRef sig ⟨S16384x50, .f32⟩) (.of main_v74 : StableHlo.TRef sig ⟨S16384x50, .f32⟩) select ]
theorem ops29_sub : (ops29 : List (HloOp τ sig (Elt F))).Forall fun op => op.bufs ⊆ StableHlo.tcRefs τ sig :=
  ⟨StableHlo.unary_bufs_sub .., StableHlo.unary_bufs_sub .., StableHlo.ternary_bufs_sub ..⟩
theorem ops29_fresh : (ops29 : List (HloOp τ sig (Elt F))).Forall fun op => op.fresh = ∅ := by
  simp only [List.Forall]; repeat' constructor

/-- 3 operations of @main, window 1. -/
abbrev ops30 : List (HloOp τ sig (Elt F)) :=
  [ StableHlo.nullary main_cst_30 (constant S_ .f32 0x00000000#32),
    StableHlo.binary main_v74 main_cst_30 main_v75 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v51 main_v75 main_v76 (addf : (⟨S16384, .f32⟩ : BufTy).Contents (Elt F) → (⟨S16384, .f32⟩ : BufTy).Contents (Elt F) → (⟨S16384, .f32⟩ : BufTy).Contents (Elt F)) ]
theorem ops30_sub : (ops30 : List (HloOp τ sig (Elt F))).Forall fun op => op.bufs ⊆ StableHlo.tcRefs τ sig :=
  ⟨StableHlo.nullary_bufs_sub .., StableHlo.binary_bufs_sub .., StableHlo.binary_bufs_sub ..⟩
theorem ops30_fresh : (ops30 : List (HloOp τ sig (Elt F))).Forall fun op => op.fresh = ∅ := by
  simp only [List.Forall]; repeat' constructor

/-- 4 operations of @main, window 1. -/
abbrev ops31 : List (HloOp τ sig (Elt F)) :=
  [ StableHlo.nullary main_c_31 (constantI S_ 32 0#32),
    StableHlo.unary main_c_31 main_v77 (broadcastInDim S16384x50 ![] bcast_S_S16384x50 : (⟨S_, .i32⟩ : BufTy).Contents (Elt F) → (⟨S16384x50, .i32⟩ : BufTy).Contents (Elt F)),
    StableHlo.binary main_arg3 main_v77 main_v78 (cmpi .sge : (⟨S16384x50, .i32⟩ : BufTy).Contents (Elt F) → (⟨S16384x50, .i32⟩ : BufTy).Contents (Elt F) → (⟨S16384x50, .i1⟩ : BufTy).Contents (Elt F)),
    StableHlo.nullary main_c_32 (constantI S_ 32 100000#32) ]
theorem ops31_sub : (ops31 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops31_fresh : (ops31 : List (HloOp τ sig (Elt F))).Forall fun op => op.fresh = ∅ := by
  simp only [List.Forall]; repeat' constructor

/-- 21 operations of @remainder (main_call15), window 1. -/
abbrev ops32 : List (HloOp τ sig (Elt F)) :=
  [ StableHlo.TRef.unary (.of main_c_32 : StableHlo.TRef sig ⟨S_, .i32⟩) (.of main_call15_v0 : StableHlo.TRef sig ⟨S_, .i32⟩) id,
    StableHlo.TRef.nullary (.of main_call15_c : StableHlo.TRef sig ⟨S_, .i32⟩) (constantI S_ 32 0#32),
    StableHlo.TRef.binary (.of main_call15_v0 : StableHlo.TRef sig ⟨S_, .i32⟩) (.of main_call15_c : StableHlo.TRef sig ⟨S_, .i32⟩) (.of main_call15_v1 : StableHlo.TRef sig ⟨S_, .i1⟩) (cmpi .eq),
    StableHlo.TRef.nullary (.of main_call15_c_0 : StableHlo.TRef sig ⟨S_, .i32⟩) (constantI S_ 32 1#32),
    StableHlo.TRef.ternary (.of main_call15_v1 : StableHlo.TRef sig ⟨S_, .i1⟩) (.of main_call15_c_0 : StableHlo.TRef sig ⟨S_, .i32⟩) (.of main_call15_v0 : StableHlo.TRef sig ⟨S_, .i32⟩) (.of main_call15_v2 : StableHlo.TRef sig ⟨S_, .i32⟩) select,
    StableHlo.TRef.unary (.of main_call15_v2 : StableHlo.TRef sig ⟨S_, .i32⟩) (.of main_call15_v3 : StableHlo.TRef sig ⟨S16384x50, .i32⟩) (broadcastInDim S16384x50 ![] bcast_S_S16384x50),
    StableHlo.TRef.binary (.of main_arg3 : StableHlo.TRef sig ⟨S16384x50, .i32⟩) (.of main_call15_v3 : StableHlo.TRef sig ⟨S16384x50, .i32⟩) (.of main_call15_v4 : StableHlo.TRef sig ⟨S16384x50, .i32⟩) Host.remsi,
    StableHlo.TRef.nullary (.of main_call15_c_1 : StableHlo.TRef sig ⟨S_, .i32⟩) (constantI S_ 32 0#32),
    StableHlo.TRef.unary (.of main_call15_c_1 : StableHlo.TRef sig ⟨S_, .i32⟩) (.of main_call15_v5 : StableHlo.TRef sig ⟨S16384x50, .i32⟩) (broadcastInDim S16384x50 ![] bcast_S_S16384x50),
    StableHlo.TRef.binary (.of main_call15_v4 : StableHlo.TRef sig ⟨S16384x50, .i32⟩) (.of main_call15_v5 : StableHlo.TRef sig ⟨S16384x50, .i32⟩) (.of main_call15_v6 : StableHlo.TRef sig ⟨S16384x50, .i1⟩) (cmpi .ne),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v7 : StableHlo.TRef sig ⟨S16384x50, .i32⟩) (broadcastInDim S16384x50 ![] bcast_S_S16384x50),
    StableHlo.TRef.binary (.of main_call15_v4 : StableHlo.TRef sig ⟨S16384x50, .i32⟩) (.of main_call15_v7 : StableHlo.TRef sig ⟨S16384x50, .i32⟩) (.of main_call15_v8 : StableHlo.TRef sig ⟨S16384x50, .i1⟩) (cmpi .slt),
    StableHlo.TRef.nullary (.of main_call15_c_3 : StableHlo.TRef sig ⟨S_, .i32⟩) (constantI S_ 32 0#32),
    StableHlo.TRef.binary (.of main_call15_v2 : StableHlo.TRef sig ⟨S_, .i32⟩) (.of main_call15_c_3 : StableHlo.TRef sig ⟨S_, .i32⟩) (.of main_call15_v9 : StableHlo.TRef sig ⟨S_, .i1⟩) (cmpi .slt),
    StableHlo.TRef.unary (.of main_call15_v9 : StableHlo.TRef sig ⟨S_, .i1⟩) (.of main_call15_v10 : StableHlo.TRef sig ⟨S16384x50, .i1⟩) (broadcastInDim S16384x50 ![] bcast_S_S16384x50),
    StableHlo.TRef.binary (.of main_call15_v8 : StableHlo.TRef sig ⟨S16384x50, .i1⟩) (.of main_call15_v10 : StableHlo.TRef sig ⟨S16384x50, .i1⟩) (.of main_call15_v11 : StableHlo.TRef sig ⟨S16384x50, .i1⟩) (cmpi .ne),
    StableHlo.TRef.binary (.of main_call15_v11 : StableHlo.TRef sig ⟨S16384x50, .i1⟩) (.of main_call15_v6 : StableHlo.TRef sig ⟨S16384x50, .i1⟩) (.of main_call15_v12 : StableHlo.TRef sig ⟨S16384x50, .i1⟩) andi,
    StableHlo.TRef.unary (.of main_call15_v2 : StableHlo.TRef sig ⟨S_, .i32⟩) (.of main_call15_v13 : StableHlo.TRef sig ⟨S16384x50, .i32⟩) (broadcastInDim S16384x50 ![] bcast_S_S16384x50),
    StableHlo.TRef.binary (.of main_call15_v4 : StableHlo.TRef sig ⟨S16384x50, .i32⟩) (.of main_call15_v13 : StableHlo.TRef sig ⟨S16384x50, .i32⟩) (.of main_call15_v14 : StableHlo.TRef sig ⟨S16384x50, .i32⟩) addi,
    StableHlo.TRef.ternary (.of main_call15_v12 : StableHlo.TRef sig ⟨S16384x50, .i1⟩) (.of main_call15_v14 : StableHlo.TRef sig ⟨S16384x50, .i32⟩) (.of main_call15_v4 : StableHlo.TRef sig ⟨S16384x50, .i32⟩) (.of main_v79 : StableHlo.TRef sig ⟨S16384x50, .i32⟩) select ]
theorem ops32_sub : (ops32 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops32_fresh : (ops32 : List (HloOp τ sig (Elt F))).Forall fun op => op.fresh = ∅ := by
  simp only [List.Forall]; repeat' constructor

/-- 1 operation of @main, window 1. -/
abbrev ops33 : List (HloOp τ sig (Elt F)) :=
  [ StableHlo.nullary main_c_33 (constantI S_ 32 100000#32) ]
theorem ops33_sub : (ops33 : List (HloOp τ sig (Elt F))).Forall fun op => op.bufs ⊆ StableHlo.tcRefs τ sig :=
  StableHlo.nullary_bufs_sub ..
theorem ops33_fresh : (ops33 : List (HloOp τ sig (Elt F))).Forall fun op => op.fresh = ∅ := by
  simp only [List.Forall]; repeat' constructor

/-- 3 operations of @where_0 (main_call16), window 1. -/
abbrev ops34 : List (HloOp τ sig (Elt F)) :=
  [ StableHlo.TRef.unary (.of main_c_33 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S16384x50, .i32⟩) (broadcastInDim S16384x50 ![] bcast_S_S16384x50),
    StableHlo.TRef.ternary (.of main_v78 : StableHlo.TRef sig ⟨S16384x50, .i1⟩) (.of main_v79 : StableHlo.TRef sig ⟨S16384x50, .i32⟩) (.of main_call16_v1 : StableHlo.TRef sig ⟨S16384x50, .i32⟩) (.of main_v80 : StableHlo.TRef sig ⟨S16384x50, .i32⟩) select ]
theorem ops34_sub : (ops34 : List (HloOp τ sig (Elt F))).Forall fun op => op.bufs ⊆ StableHlo.tcRefs τ sig :=
  ⟨StableHlo.unary_bufs_sub .., StableHlo.unary_bufs_sub .., StableHlo.ternary_bufs_sub ..⟩
theorem ops34_fresh : (ops34 : List (HloOp τ sig (Elt F))).Forall fun op => op.fresh = ∅ := by
  simp only [List.Forall]; repeat' constructor

/-- 1 operation of @sort (main_call17), window 1. -/
abbrev ops35 : List (HloOp τ sig (Elt F)) :=
  [ StableHlo.TRef.unary (.of main_v80 : StableHlo.TRef sig ⟨S16384x50, .i32⟩) (.of main_v81 : StableHlo.TRef sig ⟨S16384x50, .i32⟩) (fun x => Host.sort S16384x50 1 comparator_i32_d1 x) ]
theorem ops35_sub : (ops35 : List (HloOp τ sig (Elt F))).Forall fun op => op.bufs ⊆ StableHlo.tcRefs τ sig :=
  StableHlo.unary_bufs_sub ..
theorem ops35_fresh : (ops35 : List (HloOp τ sig (Elt F))).Forall fun op => op.fresh = ∅ := by
  simp only [List.Forall]; repeat' constructor

/-- 2 operations of @main, window 1. -/
abbrev ops36 : List (HloOp τ sig (Elt F)) :=
  [ StableHlo.unary main_v81 main_v82 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_34 (constantI S_ 1 1#1) ]
theorem ops36_sub : (ops36 : List (HloOp τ sig (Elt F))).Forall fun op => op.bufs ⊆ StableHlo.tcRefs τ sig :=
  ⟨StableHlo.unary_bufs_sub .., StableHlo.nullary_bufs_sub ..⟩
theorem ops36_fresh : (ops36 : List (HloOp τ sig (Elt F))).Forall fun op => op.fresh = ∅ := by
  simp only [List.Forall]; repeat' constructor

/-- 11 operations of @main, window 2. -/
abbrev ops37 : List (HloOp τ sig (Elt F)) :=
  [ StableHlo.unary main_c_34 main_v83 (broadcastInDim S16384x1 ![] bcast_S_S16384x1 : (⟨S_, .i1⟩ : BufTy).Contents (Elt F) → (⟨S16384x1, .i1⟩ : BufTy).Contents (Elt F)),
    StableHlo.unary main_v81 main_v84 ((extractStridedSlice S16384x49 ![0, 1] · slices_S16384x50_S16384x49_0_1) : (⟨S16384x50, .i32⟩ : BufTy).Contents (Elt F) → (⟨S16384x49, .i32⟩ : BufTy).Contents (Elt F)),
    StableHlo.unary main_v81 main_v85 ((extractStridedSlice S16384x49 ![0, 0] · slices_S16384x50_S16384x49_0_0) : (⟨S16384x50, .i32⟩ : BufTy).Contents (Elt F) → (⟨S16384x49, .i32⟩ : BufTy).Contents (Elt F)),
    StableHlo.binary main_v84 main_v85 main_v86 (cmpi .ne : (⟨S16384x49, .i32⟩ : BufTy).Contents (Elt F) → (⟨S16384x49, .i32⟩ : BufTy).Contents (Elt F) → (⟨S16384x49, .i1⟩ : BufTy).Contents (Elt F)),
    StableHlo.binary main_v83 main_v86 main_v87 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_35 (constantI S_ 32 100000#32),
    StableHlo.unary main_c_35 main_v88 (broadcastInDim S16384x50 ![] bcast_S_S16384x50 : (⟨S_, .i32⟩ : BufTy).Contents (Elt F) → (⟨S16384x50, .i32⟩ : BufTy).Contents (Elt F)),
    StableHlo.binary main_v81 main_v88 main_v89 (cmpi .slt : (⟨S16384x50, .i32⟩ : BufTy).Contents (Elt F) → (⟨S16384x50, .i32⟩ : BufTy).Contents (Elt F) → (⟨S16384x50, .i1⟩ : BufTy).Contents (Elt F)),
    StableHlo.binary main_v87 main_v89 main_v90 (andi : (⟨S16384x50, .i1⟩ : BufTy).Contents (Elt F) → (⟨S16384x50, .i1⟩ : BufTy).Contents (Elt F) → (⟨S16384x50, .i1⟩ : BufTy).Contents (Elt F)),
    StableHlo.nullary main_c_36 (constantI S_ 32 0#32),
    StableHlo.nullary main_c_37 (constantI S_ 32 99999#32) ]
theorem ops37_sub : (ops37 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops37_fresh : (ops37 : List (HloOp τ sig (Elt F))).Forall fun op => op.fresh = ∅ := by
  simp only [List.Forall]; repeat' constructor

/-- 6 operations of @clip (main_call18), window 2. -/
abbrev ops38 : List (HloOp τ sig (Elt F)) :=
  [ StableHlo.TRef.unary (.of main_c_36 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S16384x50, .i32⟩) (broadcastInDim S16384x50 ![] bcast_S_S16384x50),
    StableHlo.TRef.binary (.of main_call18_v1 : StableHlo.TRef sig ⟨S16384x50, .i32⟩) (.of main_v81 : StableHlo.TRef sig ⟨S16384x50, .i32⟩) (.of main_call18_v2 : StableHlo.TRef sig ⟨S16384x50, .i32⟩) maxsi,
    StableHlo.TRef.unary (.of main_c_37 : StableHlo.TRef sig ⟨S_, .i32⟩) (.of main_call18_v3 : StableHlo.TRef sig ⟨S_, .i32⟩) id,
    StableHlo.TRef.unary (.of main_call18_v3 : StableHlo.TRef sig ⟨S_, .i32⟩) (.of main_call18_v4 : StableHlo.TRef sig ⟨S16384x50, .i32⟩) (broadcastInDim S16384x50 ![] bcast_S_S16384x50),
    StableHlo.TRef.binary (.of main_call18_v4 : StableHlo.TRef sig ⟨S16384x50, .i32⟩) (.of main_call18_v2 : StableHlo.TRef sig ⟨S16384x50, .i32⟩) (.of main_v91 : StableHlo.TRef sig ⟨S16384x50, .i32⟩) minsi ]
theorem ops38_sub : (ops38 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops38_fresh : (ops38 : List (HloOp τ sig (Elt F))).Forall fun op => op.fresh = ∅ := by
  simp only [List.Forall]; repeat' constructor

/-- 10 operations of @main, window 2. -/
abbrev ops39 : List (HloOp τ sig (Elt F)) :=
  [ StableHlo.nullary main_c_38 (constantI S_ 32 0#32),
    StableHlo.unary main_c_38 main_v92 (broadcastInDim S16384x50 ![] bcast_S_S16384x50 : (⟨S_, .i32⟩ : BufTy).Contents (Elt F) → (⟨S16384x50, .i32⟩ : BufTy).Contents (Elt F)),
    StableHlo.binary main_v91 main_v92 main_v93 (cmpi .slt : (⟨S16384x50, .i32⟩ : BufTy).Contents (Elt F) → (⟨S16384x50, .i32⟩ : BufTy).Contents (Elt F) → (⟨S16384x50, .i1⟩ : BufTy).Contents (Elt F)),
    StableHlo.nullary main_c_39 (constantI S_ 32 100000#32),
    StableHlo.unary main_c_39 main_v94 (broadcastInDim S16384x50 ![] bcast_S_S16384x50 : (⟨S_, .i32⟩ : BufTy).Contents (Elt F) → (⟨S16384x50, .i32⟩ : BufTy).Contents (Elt F)),
    StableHlo.binary main_v91 main_v94 main_v95 (addi : (⟨S16384x50, .i32⟩ : BufTy).Contents (Elt F) → (⟨S16384x50, .i32⟩ : BufTy).Contents (Elt F) → (⟨S16384x50, .i32⟩ : BufTy).Contents (Elt F)),
    StableHlo.ternary main_v93 main_v95 main_v91 main_v96 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v96 main_v97 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg11 main_v97 main_v98 ((fun x i => Host.gather gather_S100000_S16384x50x1_S16384x50_n_0_n_n_0_2_1 x i) : (⟨S100000, .f32⟩ : BufTy).Contents (Elt F) → (⟨S16384x50x1, .i32⟩ : BufTy).Contents (Elt F) → (⟨S16384x50, .f32⟩ : BufTy).Contents (Elt F)),
    StableHlo.nullary main_cst_40 (constant S_ .f32 0x00000000#32) ]
theorem ops39_sub : (ops39 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops39_fresh : (ops39 : List (HloOp τ sig (Elt F))).Forall fun op => op.fresh = ∅ := by
  simp only [List.Forall]; repeat' constructor

/-- 3 operations of @where_1 (main_call19), window 2. -/
abbrev ops40 : List (HloOp τ sig (Elt F)) :=
  [ StableHlo.TRef.unary (.of main_cst_40 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S16384x50, .f32⟩) (broadcastInDim S16384x50 ![] bcast_S_S16384x50),
    StableHlo.TRef.ternary (.of main_v90 : StableHlo.TRef sig ⟨S16384x50, .i1⟩) (.of main_v98 : StableHlo.TRef sig ⟨S16384x50, .f32⟩) (.of main_call19_v1 : StableHlo.TRef sig ⟨S16384x50, .f32⟩) (.of main_v99 : StableHlo.TRef sig ⟨S16384x50, .f32⟩) select ]
theorem ops40_sub : (ops40 : List (HloOp τ sig (Elt F))).Forall fun op => op.bufs ⊆ StableHlo.tcRefs τ sig :=
  ⟨StableHlo.unary_bufs_sub .., StableHlo.unary_bufs_sub .., StableHlo.ternary_bufs_sub ..⟩
theorem ops40_fresh : (ops40 : List (HloOp τ sig (Elt F))).Forall fun op => op.fresh = ∅ := by
  simp only [List.Forall]; repeat' constructor

/-- 3 operations of @main, window 2. -/
abbrev ops41 : List (HloOp τ sig (Elt F)) :=
  [ StableHlo.nullary main_cst_41 (constant S_ .f32 0x00000000#32),
    StableHlo.binary main_v99 main_cst_41 main_v100 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v76 main_v100 main_v101 (addf : (⟨S16384, .f32⟩ : BufTy).Contents (Elt F) → (⟨S16384, .f32⟩ : BufTy).Contents (Elt F) → (⟨S16384, .f32⟩ : BufTy).Contents (Elt F)) ]
theorem ops41_sub : (ops41 : List (HloOp τ sig (Elt F))).Forall fun op => op.bufs ⊆ StableHlo.tcRefs τ sig :=
  ⟨StableHlo.nullary_bufs_sub .., StableHlo.binary_bufs_sub .., StableHlo.binary_bufs_sub ..⟩
theorem ops41_fresh : (ops41 : List (HloOp τ sig (Elt F))).Forall fun op => op.fresh = ∅ := by
  simp only [List.Forall]; repeat' constructor

/-- 4 operations of @main, window 2. -/
abbrev ops42 : List (HloOp τ sig (Elt F)) :=
  [ StableHlo.nullary main_c_42 (constantI S_ 32 0#32),
    StableHlo.unary main_c_42 main_v102 (broadcastInDim S16384x50 ![] bcast_S_S16384x50 : (⟨S_, .i32⟩ : BufTy).Contents (Elt F) → (⟨S16384x50, .i32⟩ : BufTy).Contents (Elt F)),
    StableHlo.binary main_arg4 main_v102 main_v103 (cmpi .sge : (⟨S16384x50, .i32⟩ : BufTy).Contents (Elt F) → (⟨S16384x50, .i32⟩ : BufTy).Contents (Elt F) → (⟨S16384x50, .i1⟩ : BufTy).Contents (Elt F)),
    StableHlo.nullary main_c_43 (constantI S_ 32 100000#32) ]
theorem ops42_sub : (ops42 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops42_fresh : (ops42 : List (HloOp τ sig (Elt F))).Forall fun op => op.fresh = ∅ := by
  simp only [List.Forall]; repeat' constructor

/-- 21 operations of @remainder (main_call20), window 2. -/
abbrev ops43 : List (HloOp τ sig (Elt F)) :=
  [ StableHlo.TRef.unary (.of main_c_43 : StableHlo.TRef sig ⟨S_, .i32⟩) (.of main_call20_v0 : StableHlo.TRef sig ⟨S_, .i32⟩) id,
    StableHlo.TRef.nullary (.of main_call20_c : StableHlo.TRef sig ⟨S_, .i32⟩) (constantI S_ 32 0#32),
    StableHlo.TRef.binary (.of main_call20_v0 : StableHlo.TRef sig ⟨S_, .i32⟩) (.of main_call20_c : StableHlo.TRef sig ⟨S_, .i32⟩) (.of main_call20_v1 : StableHlo.TRef sig ⟨S_, .i1⟩) (cmpi .eq),
    StableHlo.TRef.nullary (.of main_call20_c_0 : StableHlo.TRef sig ⟨S_, .i32⟩) (constantI S_ 32 1#32),
    StableHlo.TRef.ternary (.of main_call20_v1 : StableHlo.TRef sig ⟨S_, .i1⟩) (.of main_call20_c_0 : StableHlo.TRef sig ⟨S_, .i32⟩) (.of main_call20_v0 : StableHlo.TRef sig ⟨S_, .i32⟩) (.of main_call20_v2 : StableHlo.TRef sig ⟨S_, .i32⟩) select,
    StableHlo.TRef.unary (.of main_call20_v2 : StableHlo.TRef sig ⟨S_, .i32⟩) (.of main_call20_v3 : StableHlo.TRef sig ⟨S16384x50, .i32⟩) (broadcastInDim S16384x50 ![] bcast_S_S16384x50),
    StableHlo.TRef.binary (.of main_arg4 : StableHlo.TRef sig ⟨S16384x50, .i32⟩) (.of main_call20_v3 : StableHlo.TRef sig ⟨S16384x50, .i32⟩) (.of main_call20_v4 : StableHlo.TRef sig ⟨S16384x50, .i32⟩) Host.remsi,
    StableHlo.TRef.nullary (.of main_call20_c_1 : StableHlo.TRef sig ⟨S_, .i32⟩) (constantI S_ 32 0#32),
    StableHlo.TRef.unary (.of main_call20_c_1 : StableHlo.TRef sig ⟨S_, .i32⟩) (.of main_call20_v5 : StableHlo.TRef sig ⟨S16384x50, .i32⟩) (broadcastInDim S16384x50 ![] bcast_S_S16384x50),
    StableHlo.TRef.binary (.of main_call20_v4 : StableHlo.TRef sig ⟨S16384x50, .i32⟩) (.of main_call20_v5 : StableHlo.TRef sig ⟨S16384x50, .i32⟩) (.of main_call20_v6 : StableHlo.TRef sig ⟨S16384x50, .i1⟩) (cmpi .ne),
    StableHlo.TRef.nullary (.of main_call20_c_2 : StableHlo.TRef sig ⟨S_, .i32⟩) (constantI S_ 32 0#32),
    StableHlo.TRef.unary (.of main_call20_c_2 : StableHlo.TRef sig ⟨S_, .i32⟩) (.of main_call20_v7 : StableHlo.TRef sig ⟨S16384x50, .i32⟩) (broadcastInDim S16384x50 ![] bcast_S_S16384x50),
    StableHlo.TRef.binary (.of main_call20_v4 : StableHlo.TRef sig ⟨S16384x50, .i32⟩) (.of main_call20_v7 : StableHlo.TRef sig ⟨S16384x50, .i32⟩) (.of main_call20_v8 : StableHlo.TRef sig ⟨S16384x50, .i1⟩) (cmpi .slt),
    StableHlo.TRef.nullary (.of main_call20_c_3 : StableHlo.TRef sig ⟨S_, .i32⟩) (constantI S_ 32 0#32),
    StableHlo.TRef.binary (.of main_call20_v2 : StableHlo.TRef sig ⟨S_, .i32⟩) (.of main_call20_c_3 : StableHlo.TRef sig ⟨S_, .i32⟩) (.of main_call20_v9 : StableHlo.TRef sig ⟨S_, .i1⟩) (cmpi .slt),
    StableHlo.TRef.unary (.of main_call20_v9 : StableHlo.TRef sig ⟨S_, .i1⟩) (.of main_call20_v10 : StableHlo.TRef sig ⟨S16384x50, .i1⟩) (broadcastInDim S16384x50 ![] bcast_S_S16384x50),
    StableHlo.TRef.binary (.of main_call20_v8 : StableHlo.TRef sig ⟨S16384x50, .i1⟩) (.of main_call20_v10 : StableHlo.TRef sig ⟨S16384x50, .i1⟩) (.of main_call20_v11 : StableHlo.TRef sig ⟨S16384x50, .i1⟩) (cmpi .ne),
    StableHlo.TRef.binary (.of main_call20_v11 : StableHlo.TRef sig ⟨S16384x50, .i1⟩) (.of main_call20_v6 : StableHlo.TRef sig ⟨S16384x50, .i1⟩) (.of main_call20_v12 : StableHlo.TRef sig ⟨S16384x50, .i1⟩) andi,
    StableHlo.TRef.unary (.of main_call20_v2 : StableHlo.TRef sig ⟨S_, .i32⟩) (.of main_call20_v13 : StableHlo.TRef sig ⟨S16384x50, .i32⟩) (broadcastInDim S16384x50 ![] bcast_S_S16384x50),
    StableHlo.TRef.binary (.of main_call20_v4 : StableHlo.TRef sig ⟨S16384x50, .i32⟩) (.of main_call20_v13 : StableHlo.TRef sig ⟨S16384x50, .i32⟩) (.of main_call20_v14 : StableHlo.TRef sig ⟨S16384x50, .i32⟩) addi,
    StableHlo.TRef.ternary (.of main_call20_v12 : StableHlo.TRef sig ⟨S16384x50, .i1⟩) (.of main_call20_v14 : StableHlo.TRef sig ⟨S16384x50, .i32⟩) (.of main_call20_v4 : StableHlo.TRef sig ⟨S16384x50, .i32⟩) (.of main_v104 : StableHlo.TRef sig ⟨S16384x50, .i32⟩) select ]
theorem ops43_sub : (ops43 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops43_fresh : (ops43 : List (HloOp τ sig (Elt F))).Forall fun op => op.fresh = ∅ := by
  simp only [List.Forall]; repeat' constructor

/-- 1 operation of @main, window 2. -/
abbrev ops44 : List (HloOp τ sig (Elt F)) :=
  [ StableHlo.nullary main_c_44 (constantI S_ 32 100000#32) ]
theorem ops44_sub : (ops44 : List (HloOp τ sig (Elt F))).Forall fun op => op.bufs ⊆ StableHlo.tcRefs τ sig :=
  StableHlo.nullary_bufs_sub ..
theorem ops44_fresh : (ops44 : List (HloOp τ sig (Elt F))).Forall fun op => op.fresh = ∅ := by
  simp only [List.Forall]; repeat' constructor

/-- 3 operations of @where_0 (main_call21), window 2. -/
abbrev ops45 : List (HloOp τ sig (Elt F)) :=
  [ StableHlo.TRef.unary (.of main_c_44 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S16384x50, .i32⟩) (broadcastInDim S16384x50 ![] bcast_S_S16384x50),
    StableHlo.TRef.ternary (.of main_v103 : StableHlo.TRef sig ⟨S16384x50, .i1⟩) (.of main_v104 : StableHlo.TRef sig ⟨S16384x50, .i32⟩) (.of main_call21_v1 : StableHlo.TRef sig ⟨S16384x50, .i32⟩) (.of main_v105 : StableHlo.TRef sig ⟨S16384x50, .i32⟩) select ]
theorem ops45_sub : (ops45 : List (HloOp τ sig (Elt F))).Forall fun op => op.bufs ⊆ StableHlo.tcRefs τ sig :=
  ⟨StableHlo.unary_bufs_sub .., StableHlo.unary_bufs_sub .., StableHlo.ternary_bufs_sub ..⟩
theorem ops45_fresh : (ops45 : List (HloOp τ sig (Elt F))).Forall fun op => op.fresh = ∅ := by
  simp only [List.Forall]; repeat' constructor

/-- 1 operation of @sort (main_call22), window 2. -/
abbrev ops46 : List (HloOp τ sig (Elt F)) :=
  [ StableHlo.TRef.unary (.of main_v105 : StableHlo.TRef sig ⟨S16384x50, .i32⟩) (.of main_v106 : StableHlo.TRef sig ⟨S16384x50, .i32⟩) (fun x => Host.sort S16384x50 1 comparator_i32_d1 x) ]
theorem ops46_sub : (ops46 : List (HloOp τ sig (Elt F))).Forall fun op => op.bufs ⊆ StableHlo.tcRefs τ sig :=
  StableHlo.unary_bufs_sub ..
theorem ops46_fresh : (ops46 : List (HloOp τ sig (Elt F))).Forall fun op => op.fresh = ∅ := by
  simp only [List.Forall]; repeat' constructor

/-- 13 operations of @main, window 2. -/
abbrev ops47 : List (HloOp τ sig (Elt F)) :=
  [ StableHlo.unary main_v106 main_v107 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_45 (constantI S_ 1 1#1),
    StableHlo.unary main_c_45 main_v108 (broadcastInDim S16384x1 ![] bcast_S_S16384x1 : (⟨S_, .i1⟩ : BufTy).Contents (Elt F) → (⟨S16384x1, .i1⟩ : BufTy).Contents (Elt F)),
    StableHlo.unary main_v106 main_v109 ((extractStridedSlice S16384x49 ![0, 1] · slices_S16384x50_S16384x49_0_1) : (⟨S16384x50, .i32⟩ : BufTy).Contents (Elt F) → (⟨S16384x49, .i32⟩ : BufTy).Contents (Elt F)),
    StableHlo.unary main_v106 main_v110 ((extractStridedSlice S16384x49 ![0, 0] · slices_S16384x50_S16384x49_0_0) : (⟨S16384x50, .i32⟩ : BufTy).Contents (Elt F) → (⟨S16384x49, .i32⟩ : BufTy).Contents (Elt F)),
    StableHlo.binary main_v109 main_v110 main_v111 (cmpi .ne : (⟨S16384x49, .i32⟩ : BufTy).Contents (Elt F) → (⟨S16384x49, .i32⟩ : BufTy).Contents (Elt F) → (⟨S16384x49, .i1⟩ : BufTy).Contents (Elt F)),
    StableHlo.binary main_v108 main_v111 main_v112 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_46 (constantI S_ 32 100000#32),
    StableHlo.unary main_c_46 main_v113 (broadcastInDim S16384x50 ![] bcast_S_S16384x50 : (⟨S_, .i32⟩ : BufTy).Contents (Elt F) → (⟨S16384x50, .i32⟩ : BufTy).Contents (Elt F)),
    StableHlo.binary main_v106 main_v113 main_v114 (cmpi .slt : (⟨S16384x50, .i32⟩ : BufTy).Contents (Elt F) → (⟨S16384x50, .i32⟩ : BufTy).Contents (Elt F) → (⟨S16384x50, .i1⟩ : BufTy).Contents (Elt F)),
    StableHlo.binary main_v112 main_v114 main_v115 (andi : (⟨S16384x50, .i1⟩ : BufTy).Contents (Elt F) → (⟨S16384x50, .i1⟩ : BufTy).Contents (Elt F) → (⟨S16384x50, .i1⟩ : BufTy).Contents (Elt F)),
    StableHlo.nullary main_c_47 (constantI S_ 32 0#32),
    StableHlo.nullary main_c_48 (constantI S_ 32 99999#32) ]
theorem ops47_sub : (ops47 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops47_fresh : (ops47 : List (HloOp τ sig (Elt F))).Forall fun op => op.fresh = ∅ := by
  simp only [List.Forall]; repeat' constructor

/-- 6 operations of @clip (main_call23), window 2. -/
abbrev ops48 : List (HloOp τ sig (Elt F)) :=
  [ StableHlo.TRef.unary (.of main_c_47 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S16384x50, .i32⟩) (broadcastInDim S16384x50 ![] bcast_S_S16384x50),
    StableHlo.TRef.binary (.of main_call23_v1 : StableHlo.TRef sig ⟨S16384x50, .i32⟩) (.of main_v106 : StableHlo.TRef sig ⟨S16384x50, .i32⟩) (.of main_call23_v2 : StableHlo.TRef sig ⟨S16384x50, .i32⟩) maxsi,
    StableHlo.TRef.unary (.of main_c_48 : StableHlo.TRef sig ⟨S_, .i32⟩) (.of main_call23_v3 : StableHlo.TRef sig ⟨S_, .i32⟩) id,
    StableHlo.TRef.unary (.of main_call23_v3 : StableHlo.TRef sig ⟨S_, .i32⟩) (.of main_call23_v4 : StableHlo.TRef sig ⟨S16384x50, .i32⟩) (broadcastInDim S16384x50 ![] bcast_S_S16384x50),
    StableHlo.TRef.binary (.of main_call23_v4 : StableHlo.TRef sig ⟨S16384x50, .i32⟩) (.of main_call23_v2 : StableHlo.TRef sig ⟨S16384x50, .i32⟩) (.of main_v116 : StableHlo.TRef sig ⟨S16384x50, .i32⟩) minsi ]
theorem ops48_sub : (ops48 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops48_fresh : (ops48 : List (HloOp τ sig (Elt F))).Forall fun op => op.fresh = ∅ := by
  simp only [List.Forall]; repeat' constructor

/-- 10 operations of @main, window 2. -/
abbrev ops49 : List (HloOp τ sig (Elt F)) :=
  [ StableHlo.nullary main_c_49 (constantI S_ 32 0#32),
    StableHlo.unary main_c_49 main_v117 (broadcastInDim S16384x50 ![] bcast_S_S16384x50 : (⟨S_, .i32⟩ : BufTy).Contents (Elt F) → (⟨S16384x50, .i32⟩ : BufTy).Contents (Elt F)),
    StableHlo.binary main_v116 main_v117 main_v118 (cmpi .slt : (⟨S16384x50, .i32⟩ : BufTy).Contents (Elt F) → (⟨S16384x50, .i32⟩ : BufTy).Contents (Elt F) → (⟨S16384x50, .i1⟩ : BufTy).Contents (Elt F)),
    StableHlo.nullary main_c_50 (constantI S_ 32 100000#32),
    StableHlo.unary main_c_50 main_v119 (broadcastInDim S16384x50 ![] bcast_S_S16384x50 : (⟨S_, .i32⟩ : BufTy).Contents (Elt F) → (⟨S16384x50, .i32⟩ : BufTy).Contents (Elt F)),
    StableHlo.binary main_v116 main_v119 main_v120 (addi : (⟨S16384x50, .i32⟩ : BufTy).Contents (Elt F) → (⟨S16384x50, .i32⟩ : BufTy).Contents (Elt F) → (⟨S16384x50, .i32⟩ : BufTy).Contents (Elt F)),
    StableHlo.ternary main_v118 main_v120 main_v116 main_v121 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v121 main_v122 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg12 main_v122 main_v123 ((fun x i => Host.gather gather_S100000_S16384x50x1_S16384x50_n_0_n_n_0_2_1 x i) : (⟨S100000, .f32⟩ : BufTy).Contents (Elt F) → (⟨S16384x50x1, .i32⟩ : BufTy).Contents (Elt F) → (⟨S16384x50, .f32⟩ : BufTy).Contents (Elt F)),
    StableHlo.nullary main_cst_51 (constant S_ .f32 0x00000000#32) ]
theorem ops49_sub : (ops49 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops49_fresh : (ops49 : List (HloOp τ sig (Elt F))).Forall fun op => op.fresh = ∅ := by
  simp only [List.Forall]; repeat' constructor

/-- 3 operations of @where_1 (main_call24), window 2. -/
abbrev ops50 : List (HloOp τ sig (Elt F)) :=
  [ StableHlo.TRef.unary (.of main_cst_51 : StableHlo.TRef sig ⟨S_, .f32⟩) (.of main_call24_v0 : StableHlo.TRef sig ⟨S_, .f32⟩) id,
    StableHlo.TRef.unary (.of main_call24_v0 : StableHlo.TRef sig ⟨S_, .f32⟩) (.of main_call24_v1 : StableHlo.TRef sig ⟨S16384x50, .f32⟩) (broadcastInDim S16384x50 ![] bcast_S_S16384x50),
    StableHlo.TRef.ternary (.of main_v115 : StableHlo.TRef sig ⟨S16384x50, .i1⟩) (.of main_v123 : StableHlo.TRef sig ⟨S16384x50, .f32⟩) (.of main_call24_v1 : StableHlo.TRef sig ⟨S16384x50, .f32⟩) (.of main_v124 : StableHlo.TRef sig ⟨S16384x50, .f32⟩) select ]
theorem ops50_sub : (ops50 : List (HloOp τ sig (Elt F))).Forall fun op => op.bufs ⊆ StableHlo.tcRefs τ sig :=
  ⟨StableHlo.unary_bufs_sub .., StableHlo.unary_bufs_sub .., StableHlo.ternary_bufs_sub ..⟩
theorem ops50_fresh : (ops50 : List (HloOp τ sig (Elt F))).Forall fun op => op.fresh = ∅ := by
  simp only [List.Forall]; repeat' constructor

/-- 1 operation of @main, window 2. -/
abbrev ops51 : List (HloOp τ sig (Elt F)) :=
  [ StableHlo.nullary main_cst_52 (constant S_ .f32 0x00000000#32) ]
theorem ops51_sub : (ops51 : List (HloOp τ sig (Elt F))).Forall fun op => op.bufs ⊆ StableHlo.tcRefs τ sig :=
  StableHlo.nullary_bufs_sub ..
theorem ops51_fresh : (ops51 : List (HloOp τ sig (Elt F))).Forall fun op => op.fresh = ∅ := by
  simp only [List.Forall]; repeat' constructor

/-- 2 operations of @main, window 3. -/
abbrev ops52 : List (HloOp τ sig (Elt F)) :=
  [ StableHlo.binary main_v124 main_cst_52 main_v125 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v101 main_v125 main_v126 (addf : (⟨S16384, .f32⟩ : BufTy).Contents (Elt F) → (⟨S16384, .f32⟩ : BufTy).Contents (Elt F) → (⟨S16384, .f32⟩ : BufTy).Contents (Elt F)) ]
theorem ops52_sub : (ops52 : List (HloOp τ sig (Elt F))).Forall fun op => op.bufs ⊆ StableHlo.tcRefs τ sig :=
  ⟨StableHlo.binary_bufs_sub .., StableHlo.binary_bufs_sub ..⟩
theorem ops52_fresh : (ops52 : List (HloOp τ sig (Elt F))).Forall fun op => op.fresh = ∅ := by
  simp only [List.Forall]; repeat' constructor

/-- 4 operations of @main, window 3. -/
abbrev ops53 : List (HloOp τ sig (Elt F)) :=
  [ StableHlo.nullary main_c_53 (constantI S_ 32 0#32),
    StableHlo.unary main_c_53 main_v127 (broadcastInDim S16384x50 ![] bcast_S_S16384x50 : (⟨S_, .i32⟩ : BufTy).Contents (Elt F) → (⟨S16384x50, .i32⟩ : BufTy).Contents (Elt F)),
    StableHlo.binary main_arg5 main_v127 main_v128 (cmpi .sge : (⟨S16384x50, .i32⟩ : BufTy).Contents (Elt F) → (⟨S16384x50, .i32⟩ : BufTy).Contents (Elt F) → (⟨S16384x50, .i1⟩ : BufTy).Contents (Elt F)),
    StableHlo.nullary main_c_54 (constantI S_ 32 100000#32) ]
theorem ops53_sub : (ops53 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops53_fresh : (ops53 : List (HloOp τ sig (Elt F))).Forall fun op => op.fresh = ∅ := by
  simp only [List.Forall]; repeat' constructor

/-- 21 operations of @remainder (main_call25), window 3. -/
abbrev ops54 : List (HloOp τ sig (Elt F)) :=
  [ StableHlo.TRef.unary (.of main_c_54 : StableHlo.TRef sig ⟨S_, .i32⟩) (.of main_call25_v0 : StableHlo.TRef sig ⟨S_, .i32⟩) id,
    StableHlo.TRef.nullary (.of main_call25_c : StableHlo.TRef sig ⟨S_, .i32⟩) (constantI S_ 32 0#32),
    StableHlo.TRef.binary (.of main_call25_v0 : StableHlo.TRef sig ⟨S_, .i32⟩) (.of main_call25_c : StableHlo.TRef sig ⟨S_, .i32⟩) (.of main_call25_v1 : StableHlo.TRef sig ⟨S_, .i1⟩) (cmpi .eq),
    StableHlo.TRef.nullary (.of main_call25_c_0 : StableHlo.TRef sig ⟨S_, .i32⟩) (constantI S_ 32 1#32),
    StableHlo.TRef.ternary (.of main_call25_v1 : StableHlo.TRef sig ⟨S_, .i1⟩) (.of main_call25_c_0 : StableHlo.TRef sig ⟨S_, .i32⟩) (.of main_call25_v0 : StableHlo.TRef sig ⟨S_, .i32⟩) (.of main_call25_v2 : StableHlo.TRef sig ⟨S_, .i32⟩) select,
    StableHlo.TRef.unary (.of main_call25_v2 : StableHlo.TRef sig ⟨S_, .i32⟩) (.of main_call25_v3 : StableHlo.TRef sig ⟨S16384x50, .i32⟩) (broadcastInDim S16384x50 ![] bcast_S_S16384x50),
    StableHlo.TRef.binary (.of main_arg5 : StableHlo.TRef sig ⟨S16384x50, .i32⟩) (.of main_call25_v3 : StableHlo.TRef sig ⟨S16384x50, .i32⟩) (.of main_call25_v4 : StableHlo.TRef sig ⟨S16384x50, .i32⟩) Host.remsi,
    StableHlo.TRef.nullary (.of main_call25_c_1 : StableHlo.TRef sig ⟨S_, .i32⟩) (constantI S_ 32 0#32),
    StableHlo.TRef.unary (.of main_call25_c_1 : StableHlo.TRef sig ⟨S_, .i32⟩) (.of main_call25_v5 : StableHlo.TRef sig ⟨S16384x50, .i32⟩) (broadcastInDim S16384x50 ![] bcast_S_S16384x50),
    StableHlo.TRef.binary (.of main_call25_v4 : StableHlo.TRef sig ⟨S16384x50, .i32⟩) (.of main_call25_v5 : StableHlo.TRef sig ⟨S16384x50, .i32⟩) (.of main_call25_v6 : StableHlo.TRef sig ⟨S16384x50, .i1⟩) (cmpi .ne),
    StableHlo.TRef.nullary (.of main_call25_c_2 : StableHlo.TRef sig ⟨S_, .i32⟩) (constantI S_ 32 0#32),
    StableHlo.TRef.unary (.of main_call25_c_2 : StableHlo.TRef sig ⟨S_, .i32⟩) (.of main_call25_v7 : StableHlo.TRef sig ⟨S16384x50, .i32⟩) (broadcastInDim S16384x50 ![] bcast_S_S16384x50),
    StableHlo.TRef.binary (.of main_call25_v4 : StableHlo.TRef sig ⟨S16384x50, .i32⟩) (.of main_call25_v7 : StableHlo.TRef sig ⟨S16384x50, .i32⟩) (.of main_call25_v8 : StableHlo.TRef sig ⟨S16384x50, .i1⟩) (cmpi .slt),
    StableHlo.TRef.nullary (.of main_call25_c_3 : StableHlo.TRef sig ⟨S_, .i32⟩) (constantI S_ 32 0#32),
    StableHlo.TRef.binary (.of main_call25_v2 : StableHlo.TRef sig ⟨S_, .i32⟩) (.of main_call25_c_3 : StableHlo.TRef sig ⟨S_, .i32⟩) (.of main_call25_v9 : StableHlo.TRef sig ⟨S_, .i1⟩) (cmpi .slt),
    StableHlo.TRef.unary (.of main_call25_v9 : StableHlo.TRef sig ⟨S_, .i1⟩) (.of main_call25_v10 : StableHlo.TRef sig ⟨S16384x50, .i1⟩) (broadcastInDim S16384x50 ![] bcast_S_S16384x50),
    StableHlo.TRef.binary (.of main_call25_v8 : StableHlo.TRef sig ⟨S16384x50, .i1⟩) (.of main_call25_v10 : StableHlo.TRef sig ⟨S16384x50, .i1⟩) (.of main_call25_v11 : StableHlo.TRef sig ⟨S16384x50, .i1⟩) (cmpi .ne),
    StableHlo.TRef.binary (.of main_call25_v11 : StableHlo.TRef sig ⟨S16384x50, .i1⟩) (.of main_call25_v6 : StableHlo.TRef sig ⟨S16384x50, .i1⟩) (.of main_call25_v12 : StableHlo.TRef sig ⟨S16384x50, .i1⟩) andi,
    StableHlo.TRef.unary (.of main_call25_v2 : StableHlo.TRef sig ⟨S_, .i32⟩) (.of main_call25_v13 : StableHlo.TRef sig ⟨S16384x50, .i32⟩) (broadcastInDim S16384x50 ![] bcast_S_S16384x50),
    StableHlo.TRef.binary (.of main_call25_v4 : StableHlo.TRef sig ⟨S16384x50, .i32⟩) (.of main_call25_v13 : StableHlo.TRef sig ⟨S16384x50, .i32⟩) (.of main_call25_v14 : StableHlo.TRef sig ⟨S16384x50, .i32⟩) addi,
    StableHlo.TRef.ternary (.of main_call25_v12 : StableHlo.TRef sig ⟨S16384x50, .i1⟩) (.of main_call25_v14 : StableHlo.TRef sig ⟨S16384x50, .i32⟩) (.of main_call25_v4 : StableHlo.TRef sig ⟨S16384x50, .i32⟩) (.of main_v129 : StableHlo.TRef sig ⟨S16384x50, .i32⟩) select ]
theorem ops54_sub : (ops54 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops54_fresh : (ops54 : List (HloOp τ sig (Elt F))).Forall fun op => op.fresh = ∅ := by
  simp only [List.Forall]; repeat' constructor

/-- 1 operation of @main, window 3. -/
abbrev ops55 : List (HloOp τ sig (Elt F)) :=
  [ StableHlo.nullary main_c_55 (constantI S_ 32 100000#32) ]
theorem ops55_sub : (ops55 : List (HloOp τ sig (Elt F))).Forall fun op => op.bufs ⊆ StableHlo.tcRefs τ sig :=
  StableHlo.nullary_bufs_sub ..
theorem ops55_fresh : (ops55 : List (HloOp τ sig (Elt F))).Forall fun op => op.fresh = ∅ := by
  simp only [List.Forall]; repeat' constructor

/-- 3 operations of @where_0 (main_call26), window 3. -/
abbrev ops56 : List (HloOp τ sig (Elt F)) :=
  [ StableHlo.TRef.unary (.of main_c_55 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S16384x50, .i32⟩) (broadcastInDim S16384x50 ![] bcast_S_S16384x50),
    StableHlo.TRef.ternary (.of main_v128 : StableHlo.TRef sig ⟨S16384x50, .i1⟩) (.of main_v129 : StableHlo.TRef sig ⟨S16384x50, .i32⟩) (.of main_call26_v1 : StableHlo.TRef sig ⟨S16384x50, .i32⟩) (.of main_v130 : StableHlo.TRef sig ⟨S16384x50, .i32⟩) select ]
theorem ops56_sub : (ops56 : List (HloOp τ sig (Elt F))).Forall fun op => op.bufs ⊆ StableHlo.tcRefs τ sig :=
  ⟨StableHlo.unary_bufs_sub .., StableHlo.unary_bufs_sub .., StableHlo.ternary_bufs_sub ..⟩
theorem ops56_fresh : (ops56 : List (HloOp τ sig (Elt F))).Forall fun op => op.fresh = ∅ := by
  simp only [List.Forall]; repeat' constructor

/-- 1 operation of @sort (main_call27), window 3. -/
abbrev ops57 : List (HloOp τ sig (Elt F)) :=
  [ StableHlo.TRef.unary (.of main_v130 : StableHlo.TRef sig ⟨S16384x50, .i32⟩) (.of main_v131 : StableHlo.TRef sig ⟨S16384x50, .i32⟩) (fun x => Host.sort S16384x50 1 comparator_i32_d1 x) ]
theorem ops57_sub : (ops57 : List (HloOp τ sig (Elt F))).Forall fun op => op.bufs ⊆ StableHlo.tcRefs τ sig :=
  StableHlo.unary_bufs_sub ..
theorem ops57_fresh : (ops57 : List (HloOp τ sig (Elt F))).Forall fun op => op.fresh = ∅ := by
  simp only [List.Forall]; repeat' constructor

/-- 13 operations of @main, window 3. -/
abbrev ops58 : List (HloOp τ sig (Elt F)) :=
  [ StableHlo.unary main_v131 main_v132 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_56 (constantI S_ 1 1#1),
    StableHlo.unary main_c_56 main_v133 (broadcastInDim S16384x1 ![] bcast_S_S16384x1 : (⟨S_, .i1⟩ : BufTy).Contents (Elt F) → (⟨S16384x1, .i1⟩ : BufTy).Contents (Elt F)),
    StableHlo.unary main_v131 main_v134 ((extractStridedSlice S16384x49 ![0, 1] · slices_S16384x50_S16384x49_0_1) : (⟨S16384x50, .i32⟩ : BufTy).Contents (Elt F) → (⟨S16384x49, .i32⟩ : BufTy).Contents (Elt F)),
    StableHlo.unary main_v131 main_v135 ((extractStridedSlice S16384x49 ![0, 0] · slices_S16384x50_S16384x49_0_0) : (⟨S16384x50, .i32⟩ : BufTy).Contents (Elt F) → (⟨S16384x49, .i32⟩ : BufTy).Contents (Elt F)),
    StableHlo.binary main_v134 main_v135 main_v136 (cmpi .ne : (⟨S16384x49, .i32⟩ : BufTy).Contents (Elt F) → (⟨S16384x49, .i32⟩ : BufTy).Contents (Elt F) → (⟨S16384x49, .i1⟩ : BufTy).Contents (Elt F)),
    StableHlo.binary main_v133 main_v136 main_v137 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_57 (constantI S_ 32 100000#32),
    StableHlo.unary main_c_57 main_v138 (broadcastInDim S16384x50 ![] bcast_S_S16384x50 : (⟨S_, .i32⟩ : BufTy).Contents (Elt F) → (⟨S16384x50, .i32⟩ : BufTy).Contents (Elt F)),
    StableHlo.binary main_v131 main_v138 main_v139 (cmpi .slt : (⟨S16384x50, .i32⟩ : BufTy).Contents (Elt F) → (⟨S16384x50, .i32⟩ : BufTy).Contents (Elt F) → (⟨S16384x50, .i1⟩ : BufTy).Contents (Elt F)),
    StableHlo.binary main_v137 main_v139 main_v140 (andi : (⟨S16384x50, .i1⟩ : BufTy).Contents (Elt F) → (⟨S16384x50, .i1⟩ : BufTy).Contents (Elt F) → (⟨S16384x50, .i1⟩ : BufTy).Contents (Elt F)),
    StableHlo.nullary main_c_58 (constantI S_ 32 0#32),
    StableHlo.nullary main_c_59 (constantI S_ 32 99999#32) ]
theorem ops58_sub : (ops58 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops58_fresh : (ops58 : List (HloOp τ sig (Elt F))).Forall fun op => op.fresh = ∅ := by
  simp only [List.Forall]; repeat' constructor

/-- 6 operations of @clip (main_call28), window 3. -/
abbrev ops59 : List (HloOp τ sig (Elt F)) :=
  [ StableHlo.TRef.unary (.of main_c_58 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S16384x50, .i32⟩) (broadcastInDim S16384x50 ![] bcast_S_S16384x50),
    StableHlo.TRef.binary (.of main_call28_v1 : StableHlo.TRef sig ⟨S16384x50, .i32⟩) (.of main_v131 : StableHlo.TRef sig ⟨S16384x50, .i32⟩) (.of main_call28_v2 : StableHlo.TRef sig ⟨S16384x50, .i32⟩) maxsi,
    StableHlo.TRef.unary (.of main_c_59 : StableHlo.TRef sig ⟨S_, .i32⟩) (.of main_call28_v3 : StableHlo.TRef sig ⟨S_, .i32⟩) id,
    StableHlo.TRef.unary (.of main_call28_v3 : StableHlo.TRef sig ⟨S_, .i32⟩) (.of main_call28_v4 : StableHlo.TRef sig ⟨S16384x50, .i32⟩) (broadcastInDim S16384x50 ![] bcast_S_S16384x50),
    StableHlo.TRef.binary (.of main_call28_v4 : StableHlo.TRef sig ⟨S16384x50, .i32⟩) (.of main_call28_v2 : StableHlo.TRef sig ⟨S16384x50, .i32⟩) (.of main_v141 : StableHlo.TRef sig ⟨S16384x50, .i32⟩) minsi ]
theorem ops59_sub : (ops59 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops59_fresh : (ops59 : List (HloOp τ sig (Elt F))).Forall fun op => op.fresh = ∅ := by
  simp only [List.Forall]; repeat' constructor

/-- 10 operations of @main, window 3. -/
abbrev ops60 : List (HloOp τ sig (Elt F)) :=
  [ StableHlo.nullary main_c_60 (constantI S_ 32 0#32),
    StableHlo.unary main_c_60 main_v142 (broadcastInDim S16384x50 ![] bcast_S_S16384x50 : (⟨S_, .i32⟩ : BufTy).Contents (Elt F) → (⟨S16384x50, .i32⟩ : BufTy).Contents (Elt F)),
    StableHlo.binary main_v141 main_v142 main_v143 (cmpi .slt : (⟨S16384x50, .i32⟩ : BufTy).Contents (Elt F) → (⟨S16384x50, .i32⟩ : BufTy).Contents (Elt F) → (⟨S16384x50, .i1⟩ : BufTy).Contents (Elt F)),
    StableHlo.nullary main_c_61 (constantI S_ 32 100000#32),
    StableHlo.unary main_c_61 main_v144 (broadcastInDim S16384x50 ![] bcast_S_S16384x50 : (⟨S_, .i32⟩ : BufTy).Contents (Elt F) → (⟨S16384x50, .i32⟩ : BufTy).Contents (Elt F)),
    StableHlo.binary main_v141 main_v144 main_v145 (addi : (⟨S16384x50, .i32⟩ : BufTy).Contents (Elt F) → (⟨S16384x50, .i32⟩ : BufTy).Contents (Elt F) → (⟨S16384x50, .i32⟩ : BufTy).Contents (Elt F)),
    StableHlo.ternary main_v143 main_v145 main_v141 main_v146 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v146 main_v147 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg13 main_v147 main_v148 ((fun x i => Host.gather gather_S100000_S16384x50x1_S16384x50_n_0_n_n_0_2_1 x i) : (⟨S100000, .f32⟩ : BufTy).Contents (Elt F) → (⟨S16384x50x1, .i32⟩ : BufTy).Contents (Elt F) → (⟨S16384x50, .f32⟩ : BufTy).Contents (Elt F)),
    StableHlo.nullary main_cst_62 (constant S_ .f32 0x00000000#32) ]
theorem ops60_sub : (ops60 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops60_fresh : (ops60 : List (HloOp τ sig (Elt F))).Forall fun op => op.fresh = ∅ := by
  simp only [List.Forall]; repeat' constructor

/-- 3 operations of @where_1 (main_call29), window 3. -/
abbrev ops61 : List (HloOp τ sig (Elt F)) :=
  [ StableHlo.TRef.unary (.of main_cst_62 : StableHlo.TRef sig ⟨S_, .f32⟩) (.of main_call29_v0 : StableHlo.TRef sig ⟨S_, .f32⟩) id,
    StableHlo.TRef.unary (.of main_call29_v0 : StableHlo.TRef sig ⟨S_, .f32⟩) (.of main_call29_v1 : StableHlo.TRef sig ⟨S16384x50, .f32⟩) (broadcastInDim S16384x50 ![] bcast_S_S16384x50),
    StableHlo.TRef.ternary (.of main_v140 : StableHlo.TRef sig ⟨S16384x50, .i1⟩) (.of main_v148 : StableHlo.TRef sig ⟨S16384x50, .f32⟩) (.of main_call29_v1 : StableHlo.TRef sig ⟨S16384x50, .f32⟩) (.of main_v149 : StableHlo.TRef sig ⟨S16384x50, .f32⟩) select ]
theorem ops61_sub : (ops61 : List (HloOp τ sig (Elt F))).Forall fun op => op.bufs ⊆ StableHlo.tcRefs τ sig :=
  ⟨StableHlo.unary_bufs_sub .., StableHlo.unary_bufs_sub .., StableHlo.ternary_bufs_sub ..⟩
theorem ops61_fresh : (ops61 : List (HloOp τ sig (Elt F))).Forall fun op => op.fresh = ∅ := by
  simp only [List.Forall]; repeat' constructor

/-- 3 operations of @main, window 3. -/
abbrev ops62 : List (HloOp τ sig (Elt F)) :=
  [ StableHlo.nullary main_cst_63 (constant S_ .f32 0x00000000#32),
    StableHlo.binary main_v149 main_cst_63 main_v150 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v126 main_v150 main_v151 (addf : (⟨S16384, .f32⟩ : BufTy).Contents (Elt F) → (⟨S16384, .f32⟩ : BufTy).Contents (Elt F) → (⟨S16384, .f32⟩ : BufTy).Contents (Elt F)) ]
theorem ops62_sub : (ops62 : List (HloOp τ sig (Elt F))).Forall fun op => op.bufs ⊆ StableHlo.tcRefs τ sig :=
  ⟨StableHlo.nullary_bufs_sub .., StableHlo.binary_bufs_sub .., StableHlo.binary_bufs_sub ..⟩
theorem ops62_fresh : (ops62 : List (HloOp τ sig (Elt F))).Forall fun op => op.fresh = ∅ := by
  simp only [List.Forall]; repeat' constructor

/-- 4 operations of @main, window 3. -/
abbrev ops63 : List (HloOp τ sig (Elt F)) :=
  [ StableHlo.nullary main_c_64 (constantI S_ 32 0#32),
    StableHlo.unary main_c_64 main_v152 (broadcastInDim S16384x50 ![] bcast_S_S16384x50 : (⟨S_, .i32⟩ : BufTy).Contents (Elt F) → (⟨S16384x50, .i32⟩ : BufTy).Contents (Elt F)),
    StableHlo.binary main_arg6 main_v152 main_v153 (cmpi .sge : (⟨S16384x50, .i32⟩ : BufTy).Contents (Elt F) → (⟨S16384x50, .i32⟩ : BufTy).Contents (Elt F) → (⟨S16384x50, .i1⟩ : BufTy).Contents (Elt F)),
    StableHlo.nullary main_c_65 (constantI S_ 32 1000000#32) ]
theorem ops63_sub : (ops63 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops63_fresh : (ops63 : List (HloOp τ sig (Elt F))).Forall fun op => op.fresh = ∅ := by
  simp only [List.Forall]; repeat' constructor

/-- 21 operations of @remainder (main_call30), window 3. -/
abbrev ops64 : List (HloOp τ sig (Elt F)) :=
  [ StableHlo.TRef.unary (.of main_c_65 : StableHlo.TRef sig ⟨S_, .i32⟩) (.of main_call30_v0 : StableHlo.TRef sig ⟨S_, .i32⟩) id,
    StableHlo.TRef.nullary (.of main_call30_c : StableHlo.TRef sig ⟨S_, .i32⟩) (constantI S_ 32 0#32),
    StableHlo.TRef.binary (.of main_call30_v0 : StableHlo.TRef sig ⟨S_, .i32⟩) (.of main_call30_c : StableHlo.TRef sig ⟨S_, .i32⟩) (.of main_call30_v1 : StableHlo.TRef sig ⟨S_, .i1⟩) (cmpi .eq),
    StableHlo.TRef.nullary (.of main_call30_c_0 : StableHlo.TRef sig ⟨S_, .i32⟩) (constantI S_ 32 1#32),
    StableHlo.TRef.ternary (.of main_call30_v1 : StableHlo.TRef sig ⟨S_, .i1⟩) (.of main_call30_c_0 : StableHlo.TRef sig ⟨S_, .i32⟩) (.of main_call30_v0 : StableHlo.TRef sig ⟨S_, .i32⟩) (.of main_call30_v2 : StableHlo.TRef sig ⟨S_, .i32⟩) select,
    StableHlo.TRef.unary (.of main_call30_v2 : StableHlo.TRef sig ⟨S_, .i32⟩) (.of main_call30_v3 : StableHlo.TRef sig ⟨S16384x50, .i32⟩) (broadcastInDim S16384x50 ![] bcast_S_S16384x50),
    StableHlo.TRef.binary (.of main_arg6 : StableHlo.TRef sig ⟨S16384x50, .i32⟩) (.of main_call30_v3 : StableHlo.TRef sig ⟨S16384x50, .i32⟩) (.of main_call30_v4 : StableHlo.TRef sig ⟨S16384x50, .i32⟩) Host.remsi,
    StableHlo.TRef.nullary (.of main_call30_c_1 : StableHlo.TRef sig ⟨S_, .i32⟩) (constantI S_ 32 0#32),
    StableHlo.TRef.unary (.of main_call30_c_1 : StableHlo.TRef sig ⟨S_, .i32⟩) (.of main_call30_v5 : StableHlo.TRef sig ⟨S16384x50, .i32⟩) (broadcastInDim S16384x50 ![] bcast_S_S16384x50),
    StableHlo.TRef.binary (.of main_call30_v4 : StableHlo.TRef sig ⟨S16384x50, .i32⟩) (.of main_call30_v5 : StableHlo.TRef sig ⟨S16384x50, .i32⟩) (.of main_call30_v6 : StableHlo.TRef sig ⟨S16384x50, .i1⟩) (cmpi .ne),
    StableHlo.TRef.nullary (.of main_call30_c_2 : StableHlo.TRef sig ⟨S_, .i32⟩) (constantI S_ 32 0#32),
    StableHlo.TRef.unary (.of main_call30_c_2 : StableHlo.TRef sig ⟨S_, .i32⟩) (.of main_call30_v7 : StableHlo.TRef sig ⟨S16384x50, .i32⟩) (broadcastInDim S16384x50 ![] bcast_S_S16384x50),
    StableHlo.TRef.binary (.of main_call30_v4 : StableHlo.TRef sig ⟨S16384x50, .i32⟩) (.of main_call30_v7 : StableHlo.TRef sig ⟨S16384x50, .i32⟩) (.of main_call30_v8 : StableHlo.TRef sig ⟨S16384x50, .i1⟩) (cmpi .slt),
    StableHlo.TRef.nullary (.of main_call30_c_3 : StableHlo.TRef sig ⟨S_, .i32⟩) (constantI S_ 32 0#32),
    StableHlo.TRef.binary (.of main_call30_v2 : StableHlo.TRef sig ⟨S_, .i32⟩) (.of main_call30_c_3 : StableHlo.TRef sig ⟨S_, .i32⟩) (.of main_call30_v9 : StableHlo.TRef sig ⟨S_, .i1⟩) (cmpi .slt),
    StableHlo.TRef.unary (.of main_call30_v9 : StableHlo.TRef sig ⟨S_, .i1⟩) (.of main_call30_v10 : StableHlo.TRef sig ⟨S16384x50, .i1⟩) (broadcastInDim S16384x50 ![] bcast_S_S16384x50),
    StableHlo.TRef.binary (.of main_call30_v8 : StableHlo.TRef sig ⟨S16384x50, .i1⟩) (.of main_call30_v10 : StableHlo.TRef sig ⟨S16384x50, .i1⟩) (.of main_call30_v11 : StableHlo.TRef sig ⟨S16384x50, .i1⟩) (cmpi .ne),
    StableHlo.TRef.binary (.of main_call30_v11 : StableHlo.TRef sig ⟨S16384x50, .i1⟩) (.of main_call30_v6 : StableHlo.TRef sig ⟨S16384x50, .i1⟩) (.of main_call30_v12 : StableHlo.TRef sig ⟨S16384x50, .i1⟩) andi,
    StableHlo.TRef.unary (.of main_call30_v2 : StableHlo.TRef sig ⟨S_, .i32⟩) (.of main_call30_v13 : StableHlo.TRef sig ⟨S16384x50, .i32⟩) (broadcastInDim S16384x50 ![] bcast_S_S16384x50),
    StableHlo.TRef.binary (.of main_call30_v4 : StableHlo.TRef sig ⟨S16384x50, .i32⟩) (.of main_call30_v13 : StableHlo.TRef sig ⟨S16384x50, .i32⟩) (.of main_call30_v14 : StableHlo.TRef sig ⟨S16384x50, .i32⟩) addi,
    StableHlo.TRef.ternary (.of main_call30_v12 : StableHlo.TRef sig ⟨S16384x50, .i1⟩) (.of main_call30_v14 : StableHlo.TRef sig ⟨S16384x50, .i32⟩) (.of main_call30_v4 : StableHlo.TRef sig ⟨S16384x50, .i32⟩) (.of main_v154 : StableHlo.TRef sig ⟨S16384x50, .i32⟩) select ]
theorem ops64_sub : (ops64 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops64_fresh : (ops64 : List (HloOp τ sig (Elt F))).Forall fun op => op.fresh = ∅ := by
  simp only [List.Forall]; repeat' constructor

/-- 1 operation of @main, window 3. -/
abbrev ops65 : List (HloOp τ sig (Elt F)) :=
  [ StableHlo.nullary main_c_66 (constantI S_ 32 1000000#32) ]
theorem ops65_sub : (ops65 : List (HloOp τ sig (Elt F))).Forall fun op => op.bufs ⊆ StableHlo.tcRefs τ sig :=
  StableHlo.nullary_bufs_sub ..
theorem ops65_fresh : (ops65 : List (HloOp τ sig (Elt F))).Forall fun op => op.fresh = ∅ := by
  simp only [List.Forall]; repeat' constructor

/-- 3 operations of @where_0 (main_call31), window 3. -/
abbrev ops66 : List (HloOp τ sig (Elt F)) :=
  [ StableHlo.TRef.unary (.of main_c_66 : StableHlo.TRef sig ⟨S_, .i32⟩) (.of main_call31_v0 : StableHlo.TRef sig ⟨S_, .i32⟩) id,
    StableHlo.TRef.unary (.of main_call31_v0 : StableHlo.TRef sig ⟨S_, .i32⟩) (.of main_call31_v1 : StableHlo.TRef sig ⟨S16384x50, .i32⟩) (broadcastInDim S16384x50 ![] bcast_S_S16384x50),
    StableHlo.TRef.ternary (.of main_v153 : StableHlo.TRef sig ⟨S16384x50, .i1⟩) (.of main_v154 : StableHlo.TRef sig ⟨S16384x50, .i32⟩) (.of main_call31_v1 : StableHlo.TRef sig ⟨S16384x50, .i32⟩) (.of main_v155 : StableHlo.TRef sig ⟨S16384x50, .i32⟩) select ]
theorem ops66_sub : (ops66 : List (HloOp τ sig (Elt F))).Forall fun op => op.bufs ⊆ StableHlo.tcRefs τ sig :=
  ⟨StableHlo.unary_bufs_sub .., StableHlo.unary_bufs_sub .., StableHlo.ternary_bufs_sub ..⟩
theorem ops66_fresh : (ops66 : List (HloOp τ sig (Elt F))).Forall fun op => op.fresh = ∅ := by
  simp only [List.Forall]; repeat' constructor

/-- 1 operation of @sort (main_call32), window 3. -/
abbrev ops67 : List (HloOp τ sig (Elt F)) :=
  [ StableHlo.TRef.unary (.of main_v155 : StableHlo.TRef sig ⟨S16384x50, .i32⟩) (.of main_v156 : StableHlo.TRef sig ⟨S16384x50, .i32⟩) (fun x => Host.sort S16384x50 1 comparator_i32_d1 x) ]
theorem ops67_sub : (ops67 : List (HloOp τ sig (Elt F))).Forall fun op => op.bufs ⊆ StableHlo.tcRefs τ sig :=
  StableHlo.unary_bufs_sub ..
theorem ops67_fresh : (ops67 : List (HloOp τ sig (Elt F))).Forall fun op => op.fresh = ∅ := by
  simp only [List.Forall]; repeat' constructor

/-- 13 operations of @main, window 3. -/
abbrev ops68 : List (HloOp τ sig (Elt F)) :=
  [ StableHlo.unary main_v156 main_v157 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_67 (constantI S_ 1 1#1),
    StableHlo.unary main_c_67 main_v158 (broadcastInDim S16384x1 ![] bcast_S_S16384x1 : (⟨S_, .i1⟩ : BufTy).Contents (Elt F) → (⟨S16384x1, .i1⟩ : BufTy).Contents (Elt F)),
    StableHlo.unary main_v156 main_v159 ((extractStridedSlice S16384x49 ![0, 1] · slices_S16384x50_S16384x49_0_1) : (⟨S16384x50, .i32⟩ : BufTy).Contents (Elt F) → (⟨S16384x49, .i32⟩ : BufTy).Contents (Elt F)),
    StableHlo.unary main_v156 main_v160 ((extractStridedSlice S16384x49 ![0, 0] · slices_S16384x50_S16384x49_0_0) : (⟨S16384x50, .i32⟩ : BufTy).Contents (Elt F) → (⟨S16384x49, .i32⟩ : BufTy).Contents (Elt F)),
    StableHlo.binary main_v159 main_v160 main_v161 (cmpi .ne : (⟨S16384x49, .i32⟩ : BufTy).Contents (Elt F) → (⟨S16384x49, .i32⟩ : BufTy).Contents (Elt F) → (⟨S16384x49, .i1⟩ : BufTy).Contents (Elt F)),
    StableHlo.binary main_v158 main_v161 main_v162 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_68 (constantI S_ 32 1000000#32),
    StableHlo.unary main_c_68 main_v163 (broadcastInDim S16384x50 ![] bcast_S_S16384x50 : (⟨S_, .i32⟩ : BufTy).Contents (Elt F) → (⟨S16384x50, .i32⟩ : BufTy).Contents (Elt F)),
    StableHlo.binary main_v156 main_v163 main_v164 (cmpi .slt : (⟨S16384x50, .i32⟩ : BufTy).Contents (Elt F) → (⟨S16384x50, .i32⟩ : BufTy).Contents (Elt F) → (⟨S16384x50, .i1⟩ : BufTy).Contents (Elt F)),
    StableHlo.binary main_v162 main_v164 main_v165 (andi : (⟨S16384x50, .i1⟩ : BufTy).Contents (Elt F) → (⟨S16384x50, .i1⟩ : BufTy).Contents (Elt F) → (⟨S16384x50, .i1⟩ : BufTy).Contents (Elt F)),
    StableHlo.nullary main_c_69 (constantI S_ 32 0#32),
    StableHlo.nullary main_c_70 (constantI S_ 32 999999#32) ]
theorem ops68_sub : (ops68 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops68_fresh : (ops68 : List (HloOp τ sig (Elt F))).Forall fun op => op.fresh = ∅ := by
  simp only [List.Forall]; repeat' constructor

/-- 6 operations of @clip (main_call33), window 3. -/
abbrev ops69 : List (HloOp τ sig (Elt F)) :=
  [ StableHlo.TRef.unary (.of main_c_69 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S16384x50, .i32⟩) (broadcastInDim S16384x50 ![] bcast_S_S16384x50),
    StableHlo.TRef.binary (.of main_call33_v1 : StableHlo.TRef sig ⟨S16384x50, .i32⟩) (.of main_v156 : StableHlo.TRef sig ⟨S16384x50, .i32⟩) (.of main_call33_v2 : StableHlo.TRef sig ⟨S16384x50, .i32⟩) maxsi,
    StableHlo.TRef.unary (.of main_c_70 : StableHlo.TRef sig ⟨S_, .i32⟩) (.of main_call33_v3 : StableHlo.TRef sig ⟨S_, .i32⟩) id,
    StableHlo.TRef.unary (.of main_call33_v3 : StableHlo.TRef sig ⟨S_, .i32⟩) (.of main_call33_v4 : StableHlo.TRef sig ⟨S16384x50, .i32⟩) (broadcastInDim S16384x50 ![] bcast_S_S16384x50),
    StableHlo.TRef.binary (.of main_call33_v4 : StableHlo.TRef sig ⟨S16384x50, .i32⟩) (.of main_call33_v2 : StableHlo.TRef sig ⟨S16384x50, .i32⟩) (.of main_v166 : StableHlo.TRef sig ⟨S16384x50, .i32⟩) minsi ]
theorem ops69_sub : (ops69 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops69_fresh : (ops69 : List (HloOp τ sig (Elt F))).Forall fun op => op.fresh = ∅ := by
  simp only [List.Forall]; repeat' constructor

/-- 10 operations of @main, window 4. -/
abbrev ops70 : List (HloOp τ sig (Elt F)) :=
  [ StableHlo.nullary main_c_71 (constantI S_ 32 0#32),
    StableHlo.unary main_c_71 main_v167 (broadcastInDim S16384x50 ![] bcast_S_S16384x50 : (⟨S_, .i32⟩ : BufTy).Contents (Elt F) → (⟨S16384x50, .i32⟩ : BufTy).Contents (Elt F)),
    StableHlo.binary main_v166 main_v167 main_v168 (cmpi .slt : (⟨S16384x50, .i32⟩ : BufTy).Contents (Elt F) → (⟨S16384x50, .i32⟩ : BufTy).Contents (Elt F) → (⟨S16384x50, .i1⟩ : BufTy).Contents (Elt F)),
    StableHlo.nullary main_c_72 (constantI S_ 32 1000000#32),
    StableHlo.unary main_c_72 main_v169 (broadcastInDim S16384x50 ![] bcast_S_S16384x50 : (⟨S_, .i32⟩ : BufTy).Contents (Elt F) → (⟨S16384x50, .i32⟩ : BufTy).Contents (Elt F)),
    StableHlo.binary main_v166 main_v169 main_v170 (addi : (⟨S16384x50, .i32⟩ : BufTy).Contents (Elt F) → (⟨S16384x50, .i32⟩ : BufTy).Contents (Elt F) → (⟨S16384x50, .i32⟩ : BufTy).Contents (Elt F)),
    StableHlo.ternary main_v168 main_v170 main_v166 main_v171 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v171 main_v172 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg14 main_v172 main_v173 ((fun x i => Host.gather gather_S1000000_S16384x50x1_S16384x50_n_0_n_n_0_2_1 x i) : (⟨S1000000, .f32⟩ : BufTy).Contents (Elt F) → (⟨S16384x50x1, .i32⟩ : BufTy).Contents (Elt F) → (⟨S16384x50, .f32⟩ : BufTy).Contents (Elt F)),
    StableHlo.nullary main_cst_73 (constant S_ .f32 0x00000000#32) ]
theorem ops70_sub : (ops70 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops70_fresh : (ops70 : List (HloOp τ sig (Elt F))).Forall fun op => op.fresh = ∅ := by
  simp only [List.Forall]; repeat' constructor

/-- 3 operations of @where_1 (main_call34), window 4. -/
abbrev ops71 : List (HloOp τ sig (Elt F)) :=
  [ StableHlo.TRef.unary (.of main_cst_73 : StableHlo.TRef sig ⟨S_, .f32⟩) (.of main_call34_v0 : StableHlo.TRef sig ⟨S_, .f32⟩) id,
    StableHlo.TRef.unary (.of main_call34_v0 : StableHlo.TRef sig ⟨S_, .f32⟩) (.of main_call34_v1 : StableHlo.TRef sig ⟨S16384x50, .f32⟩) (broadcastInDim S16384x50 ![] bcast_S_S16384x50),
    StableHlo.TRef.ternary (.of main_v165 : StableHlo.TRef sig ⟨S16384x50, .i1⟩) (.of main_v173 : StableHlo.TRef sig ⟨S16384x50, .f32⟩) (.of main_call34_v1 : StableHlo.TRef sig ⟨S16384x50, .f32⟩) (.of main_v174 : StableHlo.TRef sig ⟨S16384x50, .f32⟩) select ]
theorem ops71_sub : (ops71 : List (HloOp τ sig (Elt F))).Forall fun op => op.bufs ⊆ StableHlo.tcRefs τ sig :=
  ⟨StableHlo.unary_bufs_sub .., StableHlo.unary_bufs_sub .., StableHlo.ternary_bufs_sub ..⟩
theorem ops71_fresh : (ops71 : List (HloOp τ sig (Elt F))).Forall fun op => op.fresh = ∅ := by
  simp only [List.Forall]; repeat' constructor

/-- 3 operations of @main, window 4. -/
abbrev ops72 : List (HloOp τ sig (Elt F)) :=
  [ StableHlo.nullary main_cst_74 (constant S_ .f32 0x00000000#32),
    StableHlo.binary main_v174 main_cst_74 main_v175 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v151 main_v175 main_v176 (addf : (⟨S16384, .f32⟩ : BufTy).Contents (Elt F) → (⟨S16384, .f32⟩ : BufTy).Contents (Elt F) → (⟨S16384, .f32⟩ : BufTy).Contents (Elt F)) ]
theorem ops72_sub : (ops72 : List (HloOp τ sig (Elt F))).Forall fun op => op.bufs ⊆ StableHlo.tcRefs τ sig :=
  ⟨StableHlo.nullary_bufs_sub .., StableHlo.binary_bufs_sub .., StableHlo.binary_bufs_sub ..⟩
theorem ops72_fresh : (ops72 : List (HloOp τ sig (Elt F))).Forall fun op => op.fresh = ∅ := by
  simp only [List.Forall]; repeat' constructor

/-- 4 operations of @main, window 4. -/
abbrev ops73 : List (HloOp τ sig (Elt F)) :=
  [ StableHlo.nullary main_c_75 (constantI S_ 32 0#32),
    StableHlo.unary main_c_75 main_v177 (broadcastInDim S16384x50 ![] bcast_S_S16384x50 : (⟨S_, .i32⟩ : BufTy).Contents (Elt F) → (⟨S16384x50, .i32⟩ : BufTy).Contents (Elt F)),
    StableHlo.binary main_arg7 main_v177 main_v178 (cmpi .sge : (⟨S16384x50, .i32⟩ : BufTy).Contents (Elt F) → (⟨S16384x50, .i32⟩ : BufTy).Contents (Elt F) → (⟨S16384x50, .i1⟩ : BufTy).Contents (Elt F)),
    StableHlo.nullary main_c_76 (constantI S_ 32 1000000#32) ]
theorem ops73_sub : (ops73 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops73_fresh : (ops73 : List (HloOp τ sig (Elt F))).Forall fun op => op.fresh = ∅ := by
  simp only [List.Forall]; repeat' constructor

/-- 21 operations of @remainder (main_call35), window 4. -/
abbrev ops74 : List (HloOp τ sig (Elt F)) :=
  [ StableHlo.TRef.unary (.of main_c_76 : StableHlo.TRef sig ⟨S_, .i32⟩) (.of main_call35_v0 : StableHlo.TRef sig ⟨S_, .i32⟩) id,
    StableHlo.TRef.nullary (.of main_call35_c : StableHlo.TRef sig ⟨S_, .i32⟩) (constantI S_ 32 0#32),
    StableHlo.TRef.binary (.of main_call35_v0 : StableHlo.TRef sig ⟨S_, .i32⟩) (.of main_call35_c : StableHlo.TRef sig ⟨S_, .i32⟩) (.of main_call35_v1 : StableHlo.TRef sig ⟨S_, .i1⟩) (cmpi .eq),
    StableHlo.TRef.nullary (.of main_call35_c_0 : StableHlo.TRef sig ⟨S_, .i32⟩) (constantI S_ 32 1#32),
    StableHlo.TRef.ternary (.of main_call35_v1 : StableHlo.TRef sig ⟨S_, .i1⟩) (.of main_call35_c_0 : StableHlo.TRef sig ⟨S_, .i32⟩) (.of main_call35_v0 : StableHlo.TRef sig ⟨S_, .i32⟩) (.of main_call35_v2 : StableHlo.TRef sig ⟨S_, .i32⟩) select,
    StableHlo.TRef.unary (.of main_call35_v2 : StableHlo.TRef sig ⟨S_, .i32⟩) (.of main_call35_v3 : StableHlo.TRef sig ⟨S16384x50, .i32⟩) (broadcastInDim S16384x50 ![] bcast_S_S16384x50),
    StableHlo.TRef.binary (.of main_arg7 : StableHlo.TRef sig ⟨S16384x50, .i32⟩) (.of main_call35_v3 : StableHlo.TRef sig ⟨S16384x50, .i32⟩) (.of main_call35_v4 : StableHlo.TRef sig ⟨S16384x50, .i32⟩) Host.remsi,
    StableHlo.TRef.nullary (.of main_call35_c_1 : StableHlo.TRef sig ⟨S_, .i32⟩) (constantI S_ 32 0#32),
    StableHlo.TRef.unary (.of main_call35_c_1 : StableHlo.TRef sig ⟨S_, .i32⟩) (.of main_call35_v5 : StableHlo.TRef sig ⟨S16384x50, .i32⟩) (broadcastInDim S16384x50 ![] bcast_S_S16384x50),
    StableHlo.TRef.binary (.of main_call35_v4 : StableHlo.TRef sig ⟨S16384x50, .i32⟩) (.of main_call35_v5 : StableHlo.TRef sig ⟨S16384x50, .i32⟩) (.of main_call35_v6 : StableHlo.TRef sig ⟨S16384x50, .i1⟩) (cmpi .ne),
    StableHlo.TRef.nullary (.of main_call35_c_2 : StableHlo.TRef sig ⟨S_, .i32⟩) (constantI S_ 32 0#32),
    StableHlo.TRef.unary (.of main_call35_c_2 : StableHlo.TRef sig ⟨S_, .i32⟩) (.of main_call35_v7 : StableHlo.TRef sig ⟨S16384x50, .i32⟩) (broadcastInDim S16384x50 ![] bcast_S_S16384x50),
    StableHlo.TRef.binary (.of main_call35_v4 : StableHlo.TRef sig ⟨S16384x50, .i32⟩) (.of main_call35_v7 : StableHlo.TRef sig ⟨S16384x50, .i32⟩) (.of main_call35_v8 : StableHlo.TRef sig ⟨S16384x50, .i1⟩) (cmpi .slt),
    StableHlo.TRef.nullary (.of main_call35_c_3 : StableHlo.TRef sig ⟨S_, .i32⟩) (constantI S_ 32 0#32),
    StableHlo.TRef.binary (.of main_call35_v2 : StableHlo.TRef sig ⟨S_, .i32⟩) (.of main_call35_c_3 : StableHlo.TRef sig ⟨S_, .i32⟩) (.of main_call35_v9 : StableHlo.TRef sig ⟨S_, .i1⟩) (cmpi .slt),
    StableHlo.TRef.unary (.of main_call35_v9 : StableHlo.TRef sig ⟨S_, .i1⟩) (.of main_call35_v10 : StableHlo.TRef sig ⟨S16384x50, .i1⟩) (broadcastInDim S16384x50 ![] bcast_S_S16384x50),
    StableHlo.TRef.binary (.of main_call35_v8 : StableHlo.TRef sig ⟨S16384x50, .i1⟩) (.of main_call35_v10 : StableHlo.TRef sig ⟨S16384x50, .i1⟩) (.of main_call35_v11 : StableHlo.TRef sig ⟨S16384x50, .i1⟩) (cmpi .ne),
    StableHlo.TRef.binary (.of main_call35_v11 : StableHlo.TRef sig ⟨S16384x50, .i1⟩) (.of main_call35_v6 : StableHlo.TRef sig ⟨S16384x50, .i1⟩) (.of main_call35_v12 : StableHlo.TRef sig ⟨S16384x50, .i1⟩) andi,
    StableHlo.TRef.unary (.of main_call35_v2 : StableHlo.TRef sig ⟨S_, .i32⟩) (.of main_call35_v13 : StableHlo.TRef sig ⟨S16384x50, .i32⟩) (broadcastInDim S16384x50 ![] bcast_S_S16384x50),
    StableHlo.TRef.binary (.of main_call35_v4 : StableHlo.TRef sig ⟨S16384x50, .i32⟩) (.of main_call35_v13 : StableHlo.TRef sig ⟨S16384x50, .i32⟩) (.of main_call35_v14 : StableHlo.TRef sig ⟨S16384x50, .i32⟩) addi,
    StableHlo.TRef.ternary (.of main_call35_v12 : StableHlo.TRef sig ⟨S16384x50, .i1⟩) (.of main_call35_v14 : StableHlo.TRef sig ⟨S16384x50, .i32⟩) (.of main_call35_v4 : StableHlo.TRef sig ⟨S16384x50, .i32⟩) (.of main_v179 : StableHlo.TRef sig ⟨S16384x50, .i32⟩) select ]
theorem ops74_sub : (ops74 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem ops74_fresh : (ops74 : List (HloOp τ sig (Elt F))).Forall fun op => op.fresh = ∅ := by
  simp only [List.Forall]; repeat' constructor

/-- 1 operation of @main, window 4. -/
abbrev ops75 : List (HloOp τ sig (Elt F)) :=
  [ StableHlo.nullary main_c_77 (constantI S_ 32 1000000#32) ]
theorem ops75_sub : (ops75 : List (HloOp τ sig (Elt F))).Forall fun op => op.bufs ⊆ StableHlo.tcRefs τ sig :=
  StableHlo.nullary_bufs_sub ..
theorem ops75_fresh : (ops75 : List (HloOp τ sig (Elt F))).Forall fun op => op.fresh = ∅ := by
  simp only [List.Forall]; repeat' constructor

/-- 3 operations of @where_0 (main_call36), window 4. -/
abbrev ops76 : List (HloOp τ sig (Elt F)) :=
  [ StableHlo.TRef.unary (.of main_c_77 : StableHlo.TRef sig ⟨S_, .i32⟩) (.of main_call36_v0 : StableHlo.TRef sig ⟨S_, .i32⟩) id,
    StableHlo.TRef.unary (.of main_call36_v0 : StableHlo.TRef sig ⟨S_, .i32⟩) (.of main_call36_v1 : StableHlo.TRef sig ⟨S16384x50, .i32⟩) (broadcastInDim S16384x50 ![] bcast_S_S16384x50),
    StableHlo.TRef.ternary (.of main_v178 : StableHlo.TRef sig ⟨S16384x50, .i1⟩) (.of main_v179 : StableHlo.TRef sig ⟨S16384x50, .i32⟩) (.of main_call36_v1 : StableHlo.TRef sig ⟨S16384x50, .i32⟩) (.of main_v180 : StableHlo.TRef sig ⟨S16384x50, .i32⟩) select ]
theorem ops76_sub : (ops76 : List (HloOp τ sig (Elt F))).Forall fun op => op.bufs ⊆ StableHlo.tcRefs τ sig :=
  ⟨StableHlo.unary_bufs_sub .., StableHlo.unary_bufs_sub .., StableHlo.ternary_bufs_sub ..⟩
theorem ops76_fresh : (ops76 : List (HloOp τ sig (Elt F))).Forall fun op => op.fresh = ∅ := by
  simp only [List.Forall]; repeat' constructor

/-- 1 operation of @sort (main_call37), window 4. -/
abbrev ops77 : List (HloOp τ sig (Elt F)) :=
  [ StableHlo.TRef.unary (.of main_v180 : StableHlo.TRef sig ⟨S16384x50, .i32⟩) (.of main_v181 : StableHlo.TRef sig ⟨S16384x50, .i32⟩) (fun x => Host.sort S16384x50 1 comparator_i32_d1 x) ]
theorem ops77_sub : (ops77 : List (HloOp τ sig (Elt F))).Forall fun op => op.bufs ⊆ StableHlo.tcRefs τ sig :=
  StableHlo.unary_bufs_sub ..
theorem ops77_fresh : (ops77 : List (HloOp τ sig (Elt F))).Forall fun op => op.fresh = ∅ := by
  simp only [List.Forall]; repeat' constructor

/-- 13 operations of @main, window 4. -/
abbrev ops78 : List (HloOp τ sig (Elt F)) :=
  [ StableHlo.unary main_v181 main_v182 ((extractStridedSlice S16384x1 ![0, 0] · slices_S16384x50_S16384x1_0_0) : (⟨S16384x50, .i32⟩ : BufTy).Contents (Elt F) → (⟨S16384x1, .i32⟩ : BufTy).Contents (Elt F)),
    StableHlo.nullary main_c_78 (constantI S_ 1 1#1),
    StableHlo.unary main_c_78 main_v183 (broadcastInDim S16384x1 ![] bcast_S_S16384x1 : (⟨S_, .i1⟩ : BufTy).Contents (Elt F) → (⟨S16384x1, .i1⟩ : BufTy).Contents (Elt F)),
    StableHlo.unary main_v181 main_v184 ((extractStridedSlice S16384x49 ![0, 1] · slices_S16384x50_S16384x49_0_1) : (⟨S16384x50, .i32⟩ : BufTy).Contents (Elt F) → (⟨S16384x49, .i32⟩ : BufTy).Contents (Elt F)),
    StableHlo.unary main_v181 main_v185 ((extractStridedSlice S16384x49 ![0, 0] · slices_S16384x50_S16384x49_0_0) : (⟨S16384x50, .i32⟩ : BufTy).Contents (Elt F) → (⟨S16384x49, .i32⟩ : BufTy).Contents (Elt F)),
    StableHlo.binary main_v184 main_v185 main_v186 (cmpi .ne : (⟨S16384x49, .i32⟩ : BufTy).Contents (Elt F) → (⟨S16384x49, .i32⟩ : BufTy).Contents (Elt F) → (⟨S16384x49, .i1⟩ : BufTy).Contents (Elt F)),
    StableHlo.binary main_v183 main_v186 main_v187 ((fun a b => concatenate S16384x50 1 [⟨S16384x1, a⟩, ⟨S16384x49, b⟩] concatenates_S16384x1_S16384x49_S16384x50_d1) : (⟨S16384x1, .i1⟩ : BufTy).Contents (Elt F) → (⟨S16384x49, .i1⟩ : BufTy).Contents (Elt F) → (⟨S16384x50, .i1⟩ : BufTy).Contents (Elt F)),
    StableHlo.nullary main_c_79 (constantI S_ 32 1000000#32),
    StableHlo.unary main_c_79 main_v188 (broadcastInDim S16384x50 ![] bcast_S_S16384x50 : (⟨S_, .i32⟩ : BufTy).Contents (Elt F) → (⟨S16384x50, .i32⟩ : BufTy).Contents (Elt F)),
    StableHlo.binary main_v181 main_v188 main_v189 (cmpi .slt : (⟨S16384x50, .i32⟩ : BufTy).Contents (Elt F) → (⟨S16384x50, .i32⟩ : BufTy).Contents (Elt F) → (⟨S16384x50, .i1⟩ : BufTy).Contents (Elt F)),
    StableHlo.binary main_v187 main_v189 main_v190 (andi : (⟨S16384x50, .i1⟩ : BufTy).Contents (Elt F) → (⟨S16384x50, .i1⟩ : BufTy).Contents (Elt F) → (⟨S16384x50, .i1⟩ : BufTy).Contents (Elt F)),
    StableHlo.nullary main_c_80 (constantI S_ 32 0#32),
    StableHlo.nullary main_c_81 (constantI S_ 32 999999#32) ]
theorem ops78_sub : (ops78 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem ops78_fresh : (ops78 : List (HloOp τ sig (Elt F))).Forall fun op => op.fresh = ∅ := by
  simp only [List.Forall]; repeat' constructor

/-- 6 operations of @clip (main_call38), window 4. -/
abbrev ops79 : List (HloOp τ sig (Elt F)) :=
  [ StableHlo.TRef.unary (.of main_c_80 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S16384x50, .i32⟩) (broadcastInDim S16384x50 ![] bcast_S_S16384x50),
    StableHlo.TRef.binary (.of main_call38_v1 : StableHlo.TRef sig ⟨S16384x50, .i32⟩) (.of main_v181 : StableHlo.TRef sig ⟨S16384x50, .i32⟩) (.of main_call38_v2 : StableHlo.TRef sig ⟨S16384x50, .i32⟩) maxsi,
    StableHlo.TRef.unary (.of main_c_81 : StableHlo.TRef sig ⟨S_, .i32⟩) (.of main_call38_v3 : StableHlo.TRef sig ⟨S_, .i32⟩) id,
    StableHlo.TRef.unary (.of main_call38_v3 : StableHlo.TRef sig ⟨S_, .i32⟩) (.of main_call38_v4 : StableHlo.TRef sig ⟨S16384x50, .i32⟩) (broadcastInDim S16384x50 ![] bcast_S_S16384x50),
    StableHlo.TRef.binary (.of main_call38_v4 : StableHlo.TRef sig ⟨S16384x50, .i32⟩) (.of main_call38_v2 : StableHlo.TRef sig ⟨S16384x50, .i32⟩) (.of main_v191 : StableHlo.TRef sig ⟨S16384x50, .i32⟩) minsi ]
theorem ops79_sub : (ops79 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops79_fresh : (ops79 : List (HloOp τ sig (Elt F))).Forall fun op => op.fresh = ∅ := by
  simp only [List.Forall]; repeat' constructor

/-- 10 operations of @main, window 4. -/
abbrev ops80 : List (HloOp τ sig (Elt F)) :=
  [ StableHlo.nullary main_c_82 (constantI S_ 32 0#32),
    StableHlo.unary main_c_82 main_v192 (broadcastInDim S16384x50 ![] bcast_S_S16384x50 : (⟨S_, .i32⟩ : BufTy).Contents (Elt F) → (⟨S16384x50, .i32⟩ : BufTy).Contents (Elt F)),
    StableHlo.binary main_v191 main_v192 main_v193 (cmpi .slt : (⟨S16384x50, .i32⟩ : BufTy).Contents (Elt F) → (⟨S16384x50, .i32⟩ : BufTy).Contents (Elt F) → (⟨S16384x50, .i1⟩ : BufTy).Contents (Elt F)),
    StableHlo.nullary main_c_83 (constantI S_ 32 1000000#32),
    StableHlo.unary main_c_83 main_v194 (broadcastInDim S16384x50 ![] bcast_S_S16384x50 : (⟨S_, .i32⟩ : BufTy).Contents (Elt F) → (⟨S16384x50, .i32⟩ : BufTy).Contents (Elt F)),
    StableHlo.binary main_v191 main_v194 main_v195 (addi : (⟨S16384x50, .i32⟩ : BufTy).Contents (Elt F) → (⟨S16384x50, .i32⟩ : BufTy).Contents (Elt F) → (⟨S16384x50, .i32⟩ : BufTy).Contents (Elt F)),
    StableHlo.ternary main_v193 main_v195 main_v191 main_v196 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    StableHlo.unary main_v196 main_v197 (broadcastInDim S16384x50x1 ![0, 1] bcast_S16384x50_S16384x50x1_0_1 : (⟨S16384x50, .i32⟩ : BufTy).Contents (Elt F) → (⟨S16384x50x1, .i32⟩ : BufTy).Contents (Elt F)),
    StableHlo.binary main_arg15 main_v197 main_v198 ((fun x i => Host.gather gather_S1000000_S16384x50x1_S16384x50_n_0_n_n_0_2_1 x i) : (⟨S1000000, .f32⟩ : BufTy).Contents (Elt F) → (⟨S16384x50x1, .i32⟩ : BufTy).Contents (Elt F) → (⟨S16384x50, .f32⟩ : BufTy).Contents (Elt F)),
    StableHlo.nullary main_cst_84 (constant S_ .f32 0x00000000#32) ]
theorem ops80_sub : (ops80 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem ops80_fresh : (ops80 : List (HloOp τ sig (Elt F))).Forall fun op => op.fresh = ∅ := by
  simp only [List.Forall]; repeat' constructor

/-- 3 operations of @where_1 (main_call39), window 4. -/
abbrev ops81 : List (HloOp τ sig (Elt F)) :=
  [ StableHlo.TRef.unary (.of main_cst_84 : StableHlo.TRef sig ⟨S_, .f32⟩) (.of main_call39_v0 : StableHlo.TRef sig ⟨S_, .f32⟩) id,
    StableHlo.TRef.unary (.of main_call39_v0 : StableHlo.TRef sig ⟨S_, .f32⟩) (.of main_call39_v1 : StableHlo.TRef sig ⟨S16384x50, .f32⟩) (broadcastInDim S16384x50 ![] bcast_S_S16384x50),
    StableHlo.TRef.ternary (.of main_v190 : StableHlo.TRef sig ⟨S16384x50, .i1⟩) (.of main_v198 : StableHlo.TRef sig ⟨S16384x50, .f32⟩) (.of main_call39_v1 : StableHlo.TRef sig ⟨S16384x50, .f32⟩) (.of main_v199 : StableHlo.TRef sig ⟨S16384x50, .f32⟩) select ]
theorem ops81_sub : (ops81 : List (HloOp τ sig (Elt F))).Forall fun op => op.bufs ⊆ StableHlo.tcRefs τ sig :=
  ⟨StableHlo.unary_bufs_sub .., StableHlo.unary_bufs_sub .., StableHlo.ternary_bufs_sub ..⟩
theorem ops81_fresh : (ops81 : List (HloOp τ sig (Elt F))).Forall fun op => op.fresh = ∅ := by
  simp only [List.Forall]; repeat' constructor

/-- 3 operations of @main, window 4. -/
abbrev ops82 : List (HloOp τ sig (Elt F)) :=
  [ StableHlo.nullary main_cst_85 (constant S_ .f32 0x00000000#32),
    StableHlo.binary main_v199 main_cst_85 main_v200 ((fun x v => Host.reduceAdd x v reducesTo_S16384x50_S16384_d1 h_S_) : (⟨S16384x50, .f32⟩ : BufTy).Contents (Elt F) → (⟨S_, .f32⟩ : BufTy).Contents (Elt F) → (⟨S16384, .f32⟩ : BufTy).Contents (Elt F)),
    StableHlo.binary main_v176 main_v200 main_v201 (addf : (⟨S16384, .f32⟩ : BufTy).Contents (Elt F) → (⟨S16384, .f32⟩ : BufTy).Contents (Elt F) → (⟨S16384, .f32⟩ : BufTy).Contents (Elt F)) ]
theorem ops82_sub : (ops82 : List (HloOp τ sig (Elt F))).Forall fun op => op.bufs ⊆ StableHlo.tcRefs τ sig :=
  ⟨StableHlo.nullary_bufs_sub .., StableHlo.binary_bufs_sub .., StableHlo.binary_bufs_sub ..⟩
theorem ops82_fresh : (ops82 : List (HloOp τ sig (Elt F))).Forall fun op => op.fresh = ∅ := by
  simp only [List.Forall]; repeat' constructor

/-- 1 operation of @main, window 4. -/
abbrev ops83 : List (HloOp τ sig (Elt F)) :=
  [ StableHlo.unary main_v201 main_v202 (broadcastInDim S16384x1 ![0] bcast_S16384_S16384x1_0 : (⟨S16384, .f32⟩ : BufTy).Contents (Elt F) → (⟨S16384x1, .f32⟩ : BufTy).Contents (Elt F)) ]
theorem ops83_sub : (ops83 : List (HloOp τ sig (Elt F))).Forall fun op => op.bufs ⊆ StableHlo.tcRefs τ sig :=
  StableHlo.unary_bufs_sub ..
theorem ops83_fresh : (ops83 : List (HloOp τ sig (Elt F))).Forall fun op => op.fresh = ∅ := by
  simp only [List.Forall]; repeat' constructor

/-- The stretches of the bias's reshape. -/
abbrev pre : List (List (HloOp τ sig (Elt F))) := [ops0]
/-- Every reference they write. -/
abbrev pre_w : List (Ref sig .tc) :=
  [main_v0]
theorem ops0_writes : (ops0 : List (HloOp τ sig (Elt F))).Forall fun op => op.writes ⊆ ((pre_w).map (Proc.devRef (τ := τ) .tc)).toFinset :=
  wsub (by decide)
theorem pre_writes : (pre : List (List (HloOp τ sig (Elt F)))).Forall fun l => l.Forall fun op => op.writes ⊆ ((pre_w).map (Proc.devRef (τ := τ) .tc)).toFinset :=
  ops0_writes

/-- The stretches of feature 0. -/
abbrev feat0 : List (List (HloOp τ sig (Elt F))) := [ops1, ops2, ops3, ops4, ops5, ops6, ops7, ops8, ops9, ops10]
/-- Every reference they write. -/
abbrev feat0_w : List (Ref sig .tc) :=
  [main_c, main_v1, main_v2, main_c_0, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v3, main_c_1, main_call1_v0, main_call1_v1, main_v4, main_v5, main_v6, main_c_2, main_v7, main_v8, main_v9, main_v10, main_v11, main_c_3, main_v12, main_v13, main_v14, main_c_4, main_c_5, main_call3_v0, main_call3_v1, main_call3_v2, main_call3_v3, main_call3_v4, main_v15, main_c_6, main_v16, main_v17, main_c_7, main_v18, main_v19, main_v20, main_v21, main_v22, main_cst, main_call4_v0, main_call4_v1, main_v23, main_cst_8, main_v24, main_v25, main_v26]
theorem ops1_writes : (ops1 : List (HloOp τ sig (Elt F))).Forall fun op => op.writes ⊆ ((feat0_w).map (Proc.devRef (τ := τ) .tc)).toFinset :=
  ⟨wsub (by decide), wsub (by decide), wsub (by decide), wsub (by decide)⟩
theorem ops2_writes : (ops2 : List (HloOp τ sig (Elt F))).Forall fun op => op.writes ⊆ ((feat0_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops3_writes : (ops3 : List (HloOp τ sig (Elt F))).Forall fun op => op.writes ⊆ ((feat0_w).map (Proc.devRef (τ := τ) .tc)).toFinset :=
  wsub (by decide)
theorem ops4_writes : (ops4 : List (HloOp τ sig (Elt F))).Forall fun op => op.writes ⊆ ((feat0_w).map (Proc.devRef (τ := τ) .tc)).toFinset :=
  ⟨wsub (by decide), wsub (by decide), wsub (by decide)⟩
theorem ops5_writes : (ops5 : List (HloOp τ sig (Elt F))).Forall fun op => op.writes ⊆ ((feat0_w).map (Proc.devRef (τ := τ) .tc)).toFinset :=
  wsub (by decide)
theorem ops6_writes : (ops6 : List (HloOp τ sig (Elt F))).Forall fun op => op.writes ⊆ ((feat0_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide)⟩
theorem ops7_writes : (ops7 : List (HloOp τ sig (Elt F))).Forall fun op => op.writes ⊆ ((feat0_w).map (Proc.devRef (τ := τ) .tc)).toFinset :=
  ⟨wsub (by decide), wsub (by decide), wsub (by decide), wsub (by decide), wsub (by decide), wsub (by decide)⟩
theorem ops8_writes : (ops8 : List (HloOp τ sig (Elt F))).Forall fun op => op.writes ⊆ ((feat0_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops9_writes : (ops9 : List (HloOp τ sig (Elt F))).Forall fun op => op.writes ⊆ ((feat0_w).map (Proc.devRef (τ := τ) .tc)).toFinset :=
  ⟨wsub (by decide), wsub (by decide), wsub (by decide)⟩
theorem ops10_writes : (ops10 : List (HloOp τ sig (Elt F))).Forall fun op => op.writes ⊆ ((feat0_w).map (Proc.devRef (τ := τ) .tc)).toFinset :=
  ⟨wsub (by decide), wsub (by decide), wsub (by decide), wsub (by decide)⟩
theorem feat0_writes : (feat0 : List (List (HloOp τ sig (Elt F)))).Forall fun l => l.Forall fun op => op.writes ⊆ ((feat0_w).map (Proc.devRef (τ := τ) .tc)).toFinset :=
  ⟨ops1_writes, ops2_writes, ops3_writes, ops4_writes, ops5_writes, ops6_writes, ops7_writes, ops8_writes, ops9_writes, ops10_writes⟩

/-- The stretches of feature 1. -/
abbrev feat1 : List (List (HloOp τ sig (Elt F))) := [ops11, ops12, ops13, ops14, ops15, ops16, ops17, ops18, ops19, ops20]
/-- Every reference they write. -/
abbrev feat1_w : List (Ref sig .tc) :=
  [main_c_9, main_v27, main_v28, main_c_10, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v29, main_c_11, main_call6_v0, main_call6_v1, main_v30, main_v31, main_v32, main_c_12, main_v33, main_v34, main_v35, main_v36, main_v37, main_c_13, main_v38, main_v39, main_v40, main_c_14, main_c_15, main_call8_v0, main_call8_v1, main_call8_v2, main_call8_v3, main_call8_v4, main_v41, main_c_16, main_v42, main_v43, main_c_17, main_v44, main_v45, main_v46, main_v47, main_v48, main_cst_18, main_call9_v0, main_call9_v1, main_v49, main_cst_19, main_v50, main_v51]
theorem ops11_writes : (ops11 : List (HloOp τ sig (Elt F))).Forall fun op => op.writes ⊆ ((feat1_w).map (Proc.devRef (τ := τ) .tc)).toFinset :=
  ⟨wsub (by decide), wsub (by decide), wsub (by decide), wsub (by decide)⟩
theorem ops12_writes : (ops12 : List (HloOp τ sig (Elt F))).Forall fun op => op.writes ⊆ ((feat1_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops13_writes : (ops13 : List (HloOp τ sig (Elt F))).Forall fun op => op.writes ⊆ ((feat1_w).map (Proc.devRef (τ := τ) .tc)).toFinset :=
  wsub (by decide)
theorem ops14_writes : (ops14 : List (HloOp τ sig (Elt F))).Forall fun op => op.writes ⊆ ((feat1_w).map (Proc.devRef (τ := τ) .tc)).toFinset :=
  ⟨wsub (by decide), wsub (by decide), wsub (by decide)⟩
theorem ops15_writes : (ops15 : List (HloOp τ sig (Elt F))).Forall fun op => op.writes ⊆ ((feat1_w).map (Proc.devRef (τ := τ) .tc)).toFinset :=
  wsub (by decide)
theorem ops16_writes : (ops16 : List (HloOp τ sig (Elt F))).Forall fun op => op.writes ⊆ ((feat1_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide)⟩
theorem ops17_writes : (ops17 : List (HloOp τ sig (Elt F))).Forall fun op => op.writes ⊆ ((feat1_w).map (Proc.devRef (τ := τ) .tc)).toFinset :=
  ⟨wsub (by decide), wsub (by decide), wsub (by decide), wsub (by decide), wsub (by decide), wsub (by decide)⟩
theorem ops18_writes : (ops18 : List (HloOp τ sig (Elt F))).Forall fun op => op.writes ⊆ ((feat1_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops19_writes : (ops19 : List (HloOp τ sig (Elt F))).Forall fun op => op.writes ⊆ ((feat1_w).map (Proc.devRef (τ := τ) .tc)).toFinset :=
  ⟨wsub (by decide), wsub (by decide), wsub (by decide)⟩
theorem ops20_writes : (ops20 : List (HloOp τ sig (Elt F))).Forall fun op => op.writes ⊆ ((feat1_w).map (Proc.devRef (τ := τ) .tc)).toFinset :=
  ⟨wsub (by decide), wsub (by decide), wsub (by decide)⟩
theorem feat1_writes : (feat1 : List (List (HloOp τ sig (Elt F)))).Forall fun l => l.Forall fun op => op.writes ⊆ ((feat1_w).map (Proc.devRef (τ := τ) .tc)).toFinset :=
  ⟨ops11_writes, ops12_writes, ops13_writes, ops14_writes, ops15_writes, ops16_writes, ops17_writes, ops18_writes, ops19_writes, ops20_writes⟩

/-- The stretches of feature 2. -/
abbrev feat2 : List (List (HloOp τ sig (Elt F))) := [ops21, ops22, ops23, ops24, ops25, ops26, ops27, ops28, ops29, ops30]
/-- Every reference they write. -/
abbrev feat2_w : List (Ref sig .tc) :=
  [main_c_20, main_v52, main_v53, main_c_21, main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v54, main_c_22, main_call11_v0, main_call11_v1, main_v55, main_v56, main_v57, main_c_23, main_v58, main_v59, main_v60, main_v61, main_v62, main_c_24, main_v63, main_v64, main_v65, main_c_25, main_c_26, main_call13_v0, main_call13_v1, main_call13_v2, main_call13_v3, main_call13_v4, main_v66, main_c_27, main_v67, main_v68, main_c_28, main_v69, main_v70, main_v71, main_v72, main_v73, main_cst_29, main_call14_v0, main_call14_v1, main_v74, main_cst_30, main_v75, main_v76]
theorem ops21_writes : (ops21 : List (HloOp τ sig (Elt F))).Forall fun op => op.writes ⊆ ((feat2_w).map (Proc.devRef (τ := τ) .tc)).toFinset :=
  ⟨wsub (by decide), wsub (by decide), wsub (by decide), wsub (by decide)⟩
theorem ops22_writes : (ops22 : List (HloOp τ sig (Elt F))).Forall fun op => op.writes ⊆ ((feat2_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops23_writes : (ops23 : List (HloOp τ sig (Elt F))).Forall fun op => op.writes ⊆ ((feat2_w).map (Proc.devRef (τ := τ) .tc)).toFinset :=
  wsub (by decide)
theorem ops24_writes : (ops24 : List (HloOp τ sig (Elt F))).Forall fun op => op.writes ⊆ ((feat2_w).map (Proc.devRef (τ := τ) .tc)).toFinset :=
  ⟨wsub (by decide), wsub (by decide), wsub (by decide)⟩
theorem ops25_writes : (ops25 : List (HloOp τ sig (Elt F))).Forall fun op => op.writes ⊆ ((feat2_w).map (Proc.devRef (τ := τ) .tc)).toFinset :=
  wsub (by decide)
theorem ops26_writes : (ops26 : List (HloOp τ sig (Elt F))).Forall fun op => op.writes ⊆ ((feat2_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide)⟩
theorem ops27_writes : (ops27 : List (HloOp τ sig (Elt F))).Forall fun op => op.writes ⊆ ((feat2_w).map (Proc.devRef (τ := τ) .tc)).toFinset :=
  ⟨wsub (by decide), wsub (by decide), wsub (by decide), wsub (by decide), wsub (by decide), wsub (by decide)⟩
theorem ops28_writes : (ops28 : List (HloOp τ sig (Elt F))).Forall fun op => op.writes ⊆ ((feat2_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops29_writes : (ops29 : List (HloOp τ sig (Elt F))).Forall fun op => op.writes ⊆ ((feat2_w).map (Proc.devRef (τ := τ) .tc)).toFinset :=
  ⟨wsub (by decide), wsub (by decide), wsub (by decide)⟩
theorem ops30_writes : (ops30 : List (HloOp τ sig (Elt F))).Forall fun op => op.writes ⊆ ((feat2_w).map (Proc.devRef (τ := τ) .tc)).toFinset :=
  ⟨wsub (by decide), wsub (by decide), wsub (by decide)⟩
theorem feat2_writes : (feat2 : List (List (HloOp τ sig (Elt F)))).Forall fun l => l.Forall fun op => op.writes ⊆ ((feat2_w).map (Proc.devRef (τ := τ) .tc)).toFinset :=
  ⟨ops21_writes, ops22_writes, ops23_writes, ops24_writes, ops25_writes, ops26_writes, ops27_writes, ops28_writes, ops29_writes, ops30_writes⟩

/-- The stretches of feature 3. -/
abbrev feat3 : List (List (HloOp τ sig (Elt F))) := [ops31, ops32, ops33, ops34, ops35, ops36, ops37, ops38, ops39, ops40, ops41]
/-- Every reference they write. -/
abbrev feat3_w : List (Ref sig .tc) :=
  [main_c_31, main_v77, main_v78, main_c_32, main_call15_v0, main_call15_c, main_call15_v1, main_call15_c_0, main_call15_v2, main_call15_v3, main_call15_v4, main_call15_c_1, main_call15_v5, main_call15_v6, main_call15_c_2, main_call15_v7, main_call15_v8, main_call15_c_3, main_call15_v9, main_call15_v10, main_call15_v11, main_call15_v12, main_call15_v13, main_call15_v14, main_v79, main_c_33, main_call16_v0, main_call16_v1, main_v80, main_v81, main_v82, main_c_34, main_v83, main_v84, main_v85, main_v86, main_v87, main_c_35, main_v88, main_v89, main_v90, main_c_36, main_c_37, main_call18_v0, main_call18_v1, main_call18_v2, main_call18_v3, main_call18_v4, main_v91, main_c_38, main_v92, main_v93, main_c_39, main_v94, main_v95, main_v96, main_v97, main_v98, main_cst_40, main_call19_v0, main_call19_v1, main_v99, main_cst_41, main_v100, main_v101]
theorem ops31_writes : (ops31 : List (HloOp τ sig (Elt F))).Forall fun op => op.writes ⊆ ((feat3_w).map (Proc.devRef (τ := τ) .tc)).toFinset :=
  ⟨wsub (by decide), wsub (by decide), wsub (by decide), wsub (by decide)⟩
theorem ops32_writes : (ops32 : List (HloOp τ sig (Elt F))).Forall fun op => op.writes ⊆ ((feat3_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops33_writes : (ops33 : List (HloOp τ sig (Elt F))).Forall fun op => op.writes ⊆ ((feat3_w).map (Proc.devRef (τ := τ) .tc)).toFinset :=
  wsub (by decide)
theorem ops34_writes : (ops34 : List (HloOp τ sig (Elt F))).Forall fun op => op.writes ⊆ ((feat3_w).map (Proc.devRef (τ := τ) .tc)).toFinset :=
  ⟨wsub (by decide), wsub (by decide), wsub (by decide)⟩
theorem ops35_writes : (ops35 : List (HloOp τ sig (Elt F))).Forall fun op => op.writes ⊆ ((feat3_w).map (Proc.devRef (τ := τ) .tc)).toFinset :=
  wsub (by decide)
theorem ops36_writes : (ops36 : List (HloOp τ sig (Elt F))).Forall fun op => op.writes ⊆ ((feat3_w).map (Proc.devRef (τ := τ) .tc)).toFinset :=
  ⟨wsub (by decide), wsub (by decide)⟩
theorem ops37_writes : (ops37 : List (HloOp τ sig (Elt F))).Forall fun op => op.writes ⊆ ((feat3_w).map (Proc.devRef (τ := τ) .tc)).toFinset :=
  ⟨wsub (by decide), wsub (by decide), wsub (by decide), wsub (by decide), wsub (by decide), wsub (by decide), wsub (by decide), wsub (by decide), wsub (by decide), wsub (by decide), wsub (by decide)⟩
theorem ops38_writes : (ops38 : List (HloOp τ sig (Elt F))).Forall fun op => op.writes ⊆ ((feat3_w).map (Proc.devRef (τ := τ) .tc)).toFinset :=
  ⟨wsub (by decide), wsub (by decide), wsub (by decide), wsub (by decide), wsub (by decide), wsub (by decide)⟩
theorem ops39_writes : (ops39 : List (HloOp τ sig (Elt F))).Forall fun op => op.writes ⊆ ((feat3_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops40_writes : (ops40 : List (HloOp τ sig (Elt F))).Forall fun op => op.writes ⊆ ((feat3_w).map (Proc.devRef (τ := τ) .tc)).toFinset :=
  ⟨wsub (by decide), wsub (by decide), wsub (by decide)⟩
theorem ops41_writes : (ops41 : List (HloOp τ sig (Elt F))).Forall fun op => op.writes ⊆ ((feat3_w).map (Proc.devRef (τ := τ) .tc)).toFinset :=
  ⟨wsub (by decide), wsub (by decide), wsub (by decide)⟩
theorem feat3_writes : (feat3 : List (List (HloOp τ sig (Elt F)))).Forall fun l => l.Forall fun op => op.writes ⊆ ((feat3_w).map (Proc.devRef (τ := τ) .tc)).toFinset :=
  ⟨ops31_writes, ops32_writes, ops33_writes, ops34_writes, ops35_writes, ops36_writes, ops37_writes, ops38_writes, ops39_writes, ops40_writes, ops41_writes⟩

/-- The stretches of feature 4. -/
abbrev feat4 : List (List (HloOp τ sig (Elt F))) := [ops42, ops43, ops44, ops45, ops46, ops47, ops48, ops49, ops50, ops51, ops52]
/-- Every reference they write. -/
abbrev feat4_w : List (Ref sig .tc) :=
  [main_c_42, main_v102, main_v103, main_c_43, main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v104, main_c_44, main_call21_v0, main_call21_v1, main_v105, main_v106, main_v107, main_c_45, main_v108, main_v109, main_v110, main_v111, main_v112, main_c_46, main_v113, main_v114, main_v115, main_c_47, main_c_48, main_call23_v0, main_call23_v1, main_call23_v2, main_call23_v3, main_call23_v4, main_v116, main_c_49, main_v117, main_v118, main_c_50, main_v119, main_v120, main_v121, main_v122, main_v123, main_cst_51, main_call24_v0, main_call24_v1, main_v124, main_cst_52, main_v125, main_v126]
theorem ops42_writes : (ops42 : List (HloOp τ sig (Elt F))).Forall fun op => op.writes ⊆ ((feat4_w).map (Proc.devRef (τ := τ) .tc)).toFinset :=
  ⟨wsub (by decide), wsub (by decide), wsub (by decide), wsub (by decide)⟩
theorem ops43_writes : (ops43 : List (HloOp τ sig (Elt F))).Forall fun op => op.writes ⊆ ((feat4_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops44_writes : (ops44 : List (HloOp τ sig (Elt F))).Forall fun op => op.writes ⊆ ((feat4_w).map (Proc.devRef (τ := τ) .tc)).toFinset :=
  wsub (by decide)
theorem ops45_writes : (ops45 : List (HloOp τ sig (Elt F))).Forall fun op => op.writes ⊆ ((feat4_w).map (Proc.devRef (τ := τ) .tc)).toFinset :=
  ⟨wsub (by decide), wsub (by decide), wsub (by decide)⟩
theorem ops46_writes : (ops46 : List (HloOp τ sig (Elt F))).Forall fun op => op.writes ⊆ ((feat4_w).map (Proc.devRef (τ := τ) .tc)).toFinset :=
  wsub (by decide)
theorem ops47_writes : (ops47 : List (HloOp τ sig (Elt F))).Forall fun op => op.writes ⊆ ((feat4_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide)⟩
theorem ops48_writes : (ops48 : List (HloOp τ sig (Elt F))).Forall fun op => op.writes ⊆ ((feat4_w).map (Proc.devRef (τ := τ) .tc)).toFinset :=
  ⟨wsub (by decide), wsub (by decide), wsub (by decide), wsub (by decide), wsub (by decide), wsub (by decide)⟩
theorem ops49_writes : (ops49 : List (HloOp τ sig (Elt F))).Forall fun op => op.writes ⊆ ((feat4_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops50_writes : (ops50 : List (HloOp τ sig (Elt F))).Forall fun op => op.writes ⊆ ((feat4_w).map (Proc.devRef (τ := τ) .tc)).toFinset :=
  ⟨wsub (by decide), wsub (by decide), wsub (by decide)⟩
theorem ops51_writes : (ops51 : List (HloOp τ sig (Elt F))).Forall fun op => op.writes ⊆ ((feat4_w).map (Proc.devRef (τ := τ) .tc)).toFinset :=
  wsub (by decide)
theorem ops52_writes : (ops52 : List (HloOp τ sig (Elt F))).Forall fun op => op.writes ⊆ ((feat4_w).map (Proc.devRef (τ := τ) .tc)).toFinset :=
  ⟨wsub (by decide), wsub (by decide)⟩
theorem feat4_writes : (feat4 : List (List (HloOp τ sig (Elt F)))).Forall fun l => l.Forall fun op => op.writes ⊆ ((feat4_w).map (Proc.devRef (τ := τ) .tc)).toFinset :=
  ⟨ops42_writes, ops43_writes, ops44_writes, ops45_writes, ops46_writes, ops47_writes, ops48_writes, ops49_writes, ops50_writes, ops51_writes, ops52_writes⟩

/-- The stretches of feature 5. -/
abbrev feat5 : List (List (HloOp τ sig (Elt F))) := [ops53, ops54, ops55, ops56, ops57, ops58, ops59, ops60, ops61, ops62]
/-- Every reference they write. -/
abbrev feat5_w : List (Ref sig .tc) :=
  [main_c_53, main_v127, main_v128, main_c_54, main_call25_v0, main_call25_c, main_call25_v1, main_call25_c_0, main_call25_v2, main_call25_v3, main_call25_v4, main_call25_c_1, main_call25_v5, main_call25_v6, main_call25_c_2, main_call25_v7, main_call25_v8, main_call25_c_3, main_call25_v9, main_call25_v10, main_call25_v11, main_call25_v12, main_call25_v13, main_call25_v14, main_v129, main_c_55, main_call26_v0, main_call26_v1, main_v130, main_v131, main_v132, main_c_56, main_v133, main_v134, main_v135, main_v136, main_v137, main_c_57, main_v138, main_v139, main_v140, main_c_58, main_c_59, main_call28_v0, main_call28_v1, main_call28_v2, main_call28_v3, main_call28_v4, main_v141, main_c_60, main_v142, main_v143, main_c_61, main_v144, main_v145, main_v146, main_v147, main_v148, main_cst_62, main_call29_v0, main_call29_v1, main_v149, main_cst_63, main_v150, main_v151]
theorem ops53_writes : (ops53 : List (HloOp τ sig (Elt F))).Forall fun op => op.writes ⊆ ((feat5_w).map (Proc.devRef (τ := τ) .tc)).toFinset :=
  ⟨wsub (by decide), wsub (by decide), wsub (by decide), wsub (by decide)⟩
theorem ops54_writes : (ops54 : List (HloOp τ sig (Elt F))).Forall fun op => op.writes ⊆ ((feat5_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops55_writes : (ops55 : List (HloOp τ sig (Elt F))).Forall fun op => op.writes ⊆ ((feat5_w).map (Proc.devRef (τ := τ) .tc)).toFinset :=
  wsub (by decide)
theorem ops56_writes : (ops56 : List (HloOp τ sig (Elt F))).Forall fun op => op.writes ⊆ ((feat5_w).map (Proc.devRef (τ := τ) .tc)).toFinset :=
  ⟨wsub (by decide), wsub (by decide), wsub (by decide)⟩
theorem ops57_writes : (ops57 : List (HloOp τ sig (Elt F))).Forall fun op => op.writes ⊆ ((feat5_w).map (Proc.devRef (τ := τ) .tc)).toFinset :=
  wsub (by decide)
theorem ops58_writes : (ops58 : List (HloOp τ sig (Elt F))).Forall fun op => op.writes ⊆ ((feat5_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide)⟩
theorem ops59_writes : (ops59 : List (HloOp τ sig (Elt F))).Forall fun op => op.writes ⊆ ((feat5_w).map (Proc.devRef (τ := τ) .tc)).toFinset :=
  ⟨wsub (by decide), wsub (by decide), wsub (by decide), wsub (by decide), wsub (by decide), wsub (by decide)⟩
theorem ops60_writes : (ops60 : List (HloOp τ sig (Elt F))).Forall fun op => op.writes ⊆ ((feat5_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops61_writes : (ops61 : List (HloOp τ sig (Elt F))).Forall fun op => op.writes ⊆ ((feat5_w).map (Proc.devRef (τ := τ) .tc)).toFinset :=
  ⟨wsub (by decide), wsub (by decide), wsub (by decide)⟩
theorem ops62_writes : (ops62 : List (HloOp τ sig (Elt F))).Forall fun op => op.writes ⊆ ((feat5_w).map (Proc.devRef (τ := τ) .tc)).toFinset :=
  ⟨wsub (by decide), wsub (by decide), wsub (by decide)⟩
theorem feat5_writes : (feat5 : List (List (HloOp τ sig (Elt F)))).Forall fun l => l.Forall fun op => op.writes ⊆ ((feat5_w).map (Proc.devRef (τ := τ) .tc)).toFinset :=
  ⟨ops53_writes, ops54_writes, ops55_writes, ops56_writes, ops57_writes, ops58_writes, ops59_writes, ops60_writes, ops61_writes, ops62_writes⟩

/-- The stretches of feature 6. -/
abbrev feat6 : List (List (HloOp τ sig (Elt F))) := [ops63, ops64, ops65, ops66, ops67, ops68, ops69, ops70, ops71, ops72]
/-- Every reference they write. -/
abbrev feat6_w : List (Ref sig .tc) :=
  [main_c_64, main_v152, main_v153, main_c_65, main_call30_v0, main_call30_c, main_call30_v1, main_call30_c_0, main_call30_v2, main_call30_v3, main_call30_v4, main_call30_c_1, main_call30_v5, main_call30_v6, main_call30_c_2, main_call30_v7, main_call30_v8, main_call30_c_3, main_call30_v9, main_call30_v10, main_call30_v11, main_call30_v12, main_call30_v13, main_call30_v14, main_v154, main_c_66, main_call31_v0, main_call31_v1, main_v155, main_v156, main_v157, main_c_67, main_v158, main_v159, main_v160, main_v161, main_v162, main_c_68, main_v163, main_v164, main_v165, main_c_69, main_c_70, main_call33_v0, main_call33_v1, main_call33_v2, main_call33_v3, main_call33_v4, main_v166, main_c_71, main_v167, main_v168, main_c_72, main_v169, main_v170, main_v171, main_v172, main_v173, main_cst_73, main_call34_v0, main_call34_v1, main_v174, main_cst_74, main_v175, main_v176]
theorem ops63_writes : (ops63 : List (HloOp τ sig (Elt F))).Forall fun op => op.writes ⊆ ((feat6_w).map (Proc.devRef (τ := τ) .tc)).toFinset :=
  ⟨wsub (by decide), wsub (by decide), wsub (by decide), wsub (by decide)⟩
theorem ops64_writes : (ops64 : List (HloOp τ sig (Elt F))).Forall fun op => op.writes ⊆ ((feat6_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops65_writes : (ops65 : List (HloOp τ sig (Elt F))).Forall fun op => op.writes ⊆ ((feat6_w).map (Proc.devRef (τ := τ) .tc)).toFinset :=
  wsub (by decide)
theorem ops66_writes : (ops66 : List (HloOp τ sig (Elt F))).Forall fun op => op.writes ⊆ ((feat6_w).map (Proc.devRef (τ := τ) .tc)).toFinset :=
  ⟨wsub (by decide), wsub (by decide), wsub (by decide)⟩
theorem ops67_writes : (ops67 : List (HloOp τ sig (Elt F))).Forall fun op => op.writes ⊆ ((feat6_w).map (Proc.devRef (τ := τ) .tc)).toFinset :=
  wsub (by decide)
theorem ops68_writes : (ops68 : List (HloOp τ sig (Elt F))).Forall fun op => op.writes ⊆ ((feat6_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide)⟩
theorem ops69_writes : (ops69 : List (HloOp τ sig (Elt F))).Forall fun op => op.writes ⊆ ((feat6_w).map (Proc.devRef (τ := τ) .tc)).toFinset :=
  ⟨wsub (by decide), wsub (by decide), wsub (by decide), wsub (by decide), wsub (by decide), wsub (by decide)⟩
theorem ops70_writes : (ops70 : List (HloOp τ sig (Elt F))).Forall fun op => op.writes ⊆ ((feat6_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops71_writes : (ops71 : List (HloOp τ sig (Elt F))).Forall fun op => op.writes ⊆ ((feat6_w).map (Proc.devRef (τ := τ) .tc)).toFinset :=
  ⟨wsub (by decide), wsub (by decide), wsub (by decide)⟩
theorem ops72_writes : (ops72 : List (HloOp τ sig (Elt F))).Forall fun op => op.writes ⊆ ((feat6_w).map (Proc.devRef (τ := τ) .tc)).toFinset :=
  ⟨wsub (by decide), wsub (by decide), wsub (by decide)⟩
theorem feat6_writes : (feat6 : List (List (HloOp τ sig (Elt F)))).Forall fun l => l.Forall fun op => op.writes ⊆ ((feat6_w).map (Proc.devRef (τ := τ) .tc)).toFinset :=
  ⟨ops63_writes, ops64_writes, ops65_writes, ops66_writes, ops67_writes, ops68_writes, ops69_writes, ops70_writes, ops71_writes, ops72_writes⟩

/-- The stretches of feature 7. -/
abbrev feat7 : List (List (HloOp τ sig (Elt F))) := [ops73, ops74, ops75, ops76, ops77, ops78, ops79, ops80, ops81, ops82]
/-- Every reference they write. -/
abbrev feat7_w : List (Ref sig .tc) :=
  [main_c_75, main_v177, main_v178, main_c_76, main_call35_v0, main_call35_c, main_call35_v1, main_call35_c_0, main_call35_v2, main_call35_v3, main_call35_v4, main_call35_c_1, main_call35_v5, main_call35_v6, main_call35_c_2, main_call35_v7, main_call35_v8, main_call35_c_3, main_call35_v9, main_call35_v10, main_call35_v11, main_call35_v12, main_call35_v13, main_call35_v14, main_v179, main_c_77, main_call36_v0, main_call36_v1, main_v180, main_v181, main_v182, main_c_78, main_v183, main_v184, main_v185, main_v186, main_v187, main_c_79, main_v188, main_v189, main_v190, main_c_80, main_c_81, main_call38_v0, main_call38_v1, main_call38_v2, main_call38_v3, main_call38_v4, main_v191, main_c_82, main_v192, main_v193, main_c_83, main_v194, main_v195, main_v196, main_v197, main_v198, main_cst_84, main_call39_v0, main_call39_v1, main_v199, main_cst_85, main_v200, main_v201]
theorem ops73_writes : (ops73 : List (HloOp τ sig (Elt F))).Forall fun op => op.writes ⊆ ((feat7_w).map (Proc.devRef (τ := τ) .tc)).toFinset :=
  ⟨wsub (by decide), wsub (by decide), wsub (by decide), wsub (by decide)⟩
theorem ops74_writes : (ops74 : List (HloOp τ sig (Elt F))).Forall fun op => op.writes ⊆ ((feat7_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem ops75_writes : (ops75 : List (HloOp τ sig (Elt F))).Forall fun op => op.writes ⊆ ((feat7_w).map (Proc.devRef (τ := τ) .tc)).toFinset :=
  wsub (by decide)
theorem ops76_writes : (ops76 : List (HloOp τ sig (Elt F))).Forall fun op => op.writes ⊆ ((feat7_w).map (Proc.devRef (τ := τ) .tc)).toFinset :=
  ⟨wsub (by decide), wsub (by decide), wsub (by decide)⟩
theorem ops77_writes : (ops77 : List (HloOp τ sig (Elt F))).Forall fun op => op.writes ⊆ ((feat7_w).map (Proc.devRef (τ := τ) .tc)).toFinset :=
  wsub (by decide)
theorem ops78_writes : (ops78 : List (HloOp τ sig (Elt F))).Forall fun op => op.writes ⊆ ((feat7_w).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide)⟩
theorem ops79_writes : (ops79 : List (HloOp τ sig (Elt F))).Forall fun op => op.writes ⊆ ((feat7_w).map (Proc.devRef (τ := τ) .tc)).toFinset :=
  ⟨wsub (by decide), wsub (by decide), wsub (by decide), wsub (by decide), wsub (by decide), wsub (by decide)⟩
theorem ops80_writes : (ops80 : List (HloOp τ sig (Elt F))).Forall fun op => op.writes ⊆ ((feat7_w).map (Proc.devRef (τ := τ) .tc)).toFinset :=
  ⟨wsub (by decide), wsub (by decide), wsub (by decide), wsub (by decide), wsub (by decide), wsub (by decide), wsub (by decide), wsub (by decide), wsub (by decide), wsub (by decide)⟩
theorem ops81_writes : (ops81 : List (HloOp τ sig (Elt F))).Forall fun op => op.writes ⊆ ((feat7_w).map (Proc.devRef (τ := τ) .tc)).toFinset :=
  ⟨wsub (by decide), wsub (by decide), wsub (by decide)⟩
theorem ops82_writes : (ops82 : List (HloOp τ sig (Elt F))).Forall fun op => op.writes ⊆ ((feat7_w).map (Proc.devRef (τ := τ) .tc)).toFinset :=
  ⟨wsub (by decide), wsub (by decide), wsub (by decide)⟩
theorem feat7_writes : (feat7 : List (List (HloOp τ sig (Elt F)))).Forall fun l => l.Forall fun op => op.writes ⊆ ((feat7_w).map (Proc.devRef (τ := τ) .tc)).toFinset :=
  ⟨ops73_writes, ops74_writes, ops75_writes, ops76_writes, ops77_writes, ops78_writes, ops79_writes, ops80_writes, ops81_writes, ops82_writes⟩

/-- The stretches of the result's broadcast. -/
abbrev post : List (List (HloOp τ sig (Elt F))) := [ops83]
/-- Every reference they write. -/
abbrev post_w : List (Ref sig .tc) :=
  [main_v202]
theorem ops83_writes : (ops83 : List (HloOp τ sig (Elt F))).Forall fun op => op.writes ⊆ ((post_w).map (Proc.devRef (τ := τ) .tc)).toFinset :=
  wsub (by decide)
theorem post_writes : (post : List (List (HloOp τ sig (Elt F)))).Forall fun l => l.Forall fun op => op.writes ⊆ ((post_w).map (Proc.devRef (τ := τ) .tc)).toFinset :=
  ops83_writes

/-- All the stretches of @main, in order. -/
abbrev stretches : List (List (HloOp τ sig (Elt F))) :=
  [ops0, ops1, ops2, ops3, ops4, ops5, ops6, ops7, ops8, ops9, ops10, ops11, ops12, ops13, ops14, ops15, ops16, ops17, ops18, ops19, ops20, ops21, ops22, ops23, ops24, ops25, ops26, ops27, ops28, ops29, ops30, ops31, ops32, ops33, ops34, ops35, ops36, ops37, ops38, ops39, ops40, ops41, ops42, ops43, ops44, ops45, ops46, ops47, ops48, ops49, ops50, ops51, ops52, ops53, ops54, ops55, ops56, ops57, ops58, ops59, ops60, ops61, ops62, ops63, ops64, ops65, ops66, ops67, ops68, ops69, ops70, ops71, ops72, ops73, ops74, ops75, ops76, ops77, ops78, ops79, ops80, ops81, ops82, ops83]
theorem stretches_sub : (stretches : List (List (HloOp τ sig (Elt F)))).Forall fun l => l.Forall fun op => op.bufs ⊆ StableHlo.tcRefs τ sig :=
  ⟨ops0_sub, ops1_sub, ops2_sub, ops3_sub, ops4_sub, ops5_sub, ops6_sub, ops7_sub, ops8_sub, ops9_sub, ops10_sub, ops11_sub, ops12_sub, ops13_sub, ops14_sub, ops15_sub, ops16_sub, ops17_sub, ops18_sub, ops19_sub, ops20_sub, ops21_sub, ops22_sub, ops23_sub, ops24_sub, ops25_sub, ops26_sub, ops27_sub, ops28_sub, ops29_sub, ops30_sub, ops31_sub, ops32_sub, ops33_sub, ops34_sub, ops35_sub, ops36_sub, ops37_sub, ops38_sub, ops39_sub, ops40_sub, ops41_sub, ops42_sub, ops43_sub, ops44_sub, ops45_sub, ops46_sub, ops47_sub, ops48_sub, ops49_sub, ops50_sub, ops51_sub, ops52_sub, ops53_sub, ops54_sub, ops55_sub, ops56_sub, ops57_sub, ops58_sub, ops59_sub, ops60_sub, ops61_sub, ops62_sub, ops63_sub, ops64_sub, ops65_sub, ops66_sub, ops67_sub, ops68_sub, ops69_sub, ops70_sub, ops71_sub, ops72_sub, ops73_sub, ops74_sub, ops75_sub, ops76_sub, ops77_sub, ops78_sub, ops79_sub, ops80_sub, ops81_sub, ops82_sub, ops83_sub⟩
theorem stretches_fresh : (stretches : List (List (HloOp τ sig (Elt F)))).Forall fun l => l.Forall fun op => op.fresh = ∅ :=
  ⟨ops0_fresh, ops1_fresh, ops2_fresh, ops3_fresh, ops4_fresh, ops5_fresh, ops6_fresh, ops7_fresh, ops8_fresh, ops9_fresh, ops10_fresh, ops11_fresh, ops12_fresh, ops13_fresh, ops14_fresh, ops15_fresh, ops16_fresh, ops17_fresh, ops18_fresh, ops19_fresh, ops20_fresh, ops21_fresh, ops22_fresh, ops23_fresh, ops24_fresh, ops25_fresh, ops26_fresh, ops27_fresh, ops28_fresh, ops29_fresh, ops30_fresh, ops31_fresh, ops32_fresh, ops33_fresh, ops34_fresh, ops35_fresh, ops36_fresh, ops37_fresh, ops38_fresh, ops39_fresh, ops40_fresh, ops41_fresh, ops42_fresh, ops43_fresh, ops44_fresh, ops45_fresh, ops46_fresh, ops47_fresh, ops48_fresh, ops49_fresh, ops50_fresh, ops51_fresh, ops52_fresh, ops53_fresh, ops54_fresh, ops55_fresh, ops56_fresh, ops57_fresh, ops58_fresh, ops59_fresh, ops60_fresh, ops61_fresh, ops62_fresh, ops63_fresh, ops64_fresh, ops65_fresh, ops66_fresh, ops67_fresh, ops68_fresh, ops69_fresh, ops70_fresh, ops71_fresh, ops72_fresh, ops73_fresh, ops74_fresh, ops75_fresh, ops76_fresh, ops77_fresh, ops78_fresh, ops79_fresh, ops80_fresh, ops81_fresh, ops82_fresh, ops83_fresh⟩
/-- They are the groups' stretches, group after group. -/
theorem stretches_eq : (stretches : List (List (HloOp τ sig (Elt F)))) = pre ++ (feat0 ++ (feat1 ++ (feat2 ++ (feat3 ++ (feat4 ++ (feat5 ++ (feat6 ++ (feat7 ++ (post))))))))) := rfl

/-- The stretches of each window of @main, in order. -/
abbrev window0 : List (List (HloOp τ sig (Elt F))) := [ops0, ops1, ops2, ops3, ops4, ops5, ops6, ops7, ops8, ops9, ops10, ops11, ops12, ops13, ops14, ops15, ops16, ops17]
abbrev window1 : List (List (HloOp τ sig (Elt F))) := [ops18, ops19, ops20, ops21, ops22, ops23, ops24, ops25, ops26, ops27, ops28, ops29, ops30, ops31, ops32, ops33, ops34, ops35, ops36]
abbrev window2 : List (List (HloOp τ sig (Elt F))) := [ops37, ops38, ops39, ops40, ops41, ops42, ops43, ops44, ops45, ops46, ops47, ops48, ops49, ops50, ops51]
abbrev window3 : List (List (HloOp τ sig (Elt F))) := [ops52, ops53, ops54, ops55, ops56, ops57, ops58, ops59, ops60, ops61, ops62, ops63, ops64, ops65, ops66, ops67, ops68, ops69]
abbrev window4 : List (List (HloOp τ sig (Elt F))) := [ops70, ops71, ops72, ops73, ops74, ops75, ops76, ops77, ops78, ops79, ops80, ops81, ops82, ops83]

end Cert.ReferenceIdeal.Hand

end
-- ==== Proof.RefRun.lean ====
/-
  The reference's run. @main's five windows are, each, the chain of that window's stretches (RefOps); joined, @main is
  the chain of all the stretches, which is the one straight line of their concatenation; and a straight line of host
  operations runs, from any memory, to the fold of its operations' results over the launch contents.
-/
import proofs.«420186_j87522843560495_3_alg».proof.Proof.RefOps
import Idealize.ShloMosaic.Lib.Pipeline.Regions

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]

/-! ## Lists of lists -/

/-- A property of every element of every list holds of every element of the concatenation. -/
theorem forall_flatten {α : Type} {P : α → Prop} {Ls : List (List α)} (h : Ls.Forall fun l => l.Forall P) :
    Ls.flatten.Forall P := by
  rw [List.forall_iff_forall_mem] at h ⊢
  intro a ha
  obtain ⟨l, hl, hal⟩ := List.mem_flatten.mp ha
  exact (List.forall_iff_forall_mem.mp (h l hl)) a hal

/-- Straight lines run one after the other are their concatenation run as one. -/
theorem chain_map_seq {nD : Nat} {τ : Topo} {sig : RefSig} {Val : EltTy → Type} {Λ : Labels} :
    ∀ Ls : List (List (HloOp τ sig Val)),
      Pipeline.chain (Ls.map fun l => (StableHlo.seq l : Prog (TpuEff nD τ sig Val Λ .tc) PUnit)) = StableHlo.seq Ls.flatten
  | [] => rfl
  | l :: Ls => by
    rw [List.map_cons, Pipeline.chain_cons, chain_map_seq Ls, List.flatten_cons, StableHlo.seq_append]

/-! ## @main as the chain of its stretches -/

/-- A stretch as a fragment of @main. -/
abbrev sq (l : List (HloOp τ sig (Elt F))) :
    Prog (TpuEff nD τ sig (Elt F) (Pipeline.Sig Λ₀ (Fin 0) fun p => (pcfgs (F := F) p).Adm) .tc) PUnit := StableHlo.seq l

/-- Window 0 is the chain of its stretches, the last in tail position. -/
theorem main_part0_chain (c : Dev nD) : main_part0 (F := F) c
    = Pipeline.chainK ((window0 (F := F)).dropLast.map sq) (sq ((window0 (F := F)).getLast (List.cons_ne_nil _ _))) := by
  chain_rfl

/-- Window 1 likewise. -/
theorem main_part1_chain (c : Dev nD) : main_part1 (F := F) c
    = Pipeline.chainK ((window1 (F := F)).dropLast.map sq) (sq ((window1 (F := F)).getLast (List.cons_ne_nil _ _))) := by
  chain_rfl

/-- Window 2 likewise. -/
theorem main_part2_chain (c : Dev nD) : main_part2 (F := F) c
    = Pipeline.chainK ((window2 (F := F)).dropLast.map sq) (sq ((window2 (F := F)).getLast (List.cons_ne_nil _ _))) := by
  chain_rfl

/-- Window 3 likewise. -/
theorem main_part3_chain (c : Dev nD) : main_part3 (F := F) c
    = Pipeline.chainK ((window3 (F := F)).dropLast.map sq) (sq ((window3 (F := F)).getLast (List.cons_ne_nil _ _))) := by
  chain_rfl

/-- The last window ends in the return: it is the closed chain of its stretches. -/
theorem main_part4_chain (c : Dev nD) : main_part4 (F := F) c = Pipeline.chain ((window4 (F := F)).map sq) := by
  chain_rfl

/-- @main is the chain of all its stretches: the windows' chains joined at the four boundaries. -/
theorem main_chain (c : Dev nD) : main (F := F) c = Pipeline.chain ((stretches (F := F)).map sq) := by
  show (main_part0 (F := F) c >>= fun _ => main_part1 (F := F) c >>= fun _ => main_part2 (F := F) c >>= fun _ =>
    main_part3 (F := F) c >>= fun _ => main_part4 (F := F) c) = _
  rewrite [main_part4_chain, main_part3_chain, Pipeline.chainK_bind_chain, main_part2_chain, Pipeline.chainK_bind_chain,
    main_part1_chain, Pipeline.chainK_bind_chain, main_part0_chain, Pipeline.chainK_bind_chain]
  chain_rfl

/-- All of @main's operations, in order. -/
abbrev allOps : List (HloOp τ sig (Elt F)) := (stretches (F := F)).flatten

/-- @main is that straight line. -/
theorem main_eq (c : Dev nD) : main (F := F) c = StableHlo.seq allOps := by
  rw [main_chain]; exact chain_map_seq _

theorem allOps_sub : (allOps : List (HloOp τ sig (Elt F))).Forall fun op => op.bufs ⊆ StableHlo.tcRefs τ sig :=
  forall_flatten stretches_sub

theorem allOps_fresh : ∀ op ∈ (allOps : List (HloOp τ sig (Elt F))), op.fresh = ∅ :=
  List.forall_iff_forall_mem.mp (forall_flatten stretches_fresh)

/-! ## The run -/

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has
    each TensorCore buffer at the fold of @main's operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = StableHlo.after allOps (StableHlo.launchContents m c) (Proc.devRef .tc b) :=
  StableHlo.run_seq scopedRefs_eq scopedSems_eq defs main (fun _ => allOps) main_eq (fun _ => allOps_sub) m ρ
    (fun _ => allOps_fresh)

end Cert.ReferenceIdeal.Hand

end
-- ==== Proof.RefValLib.lean ====
/-
  What the value lemmas of the reference's features share: a reference that a group of stretches does not write keeps
  its contents through them.
-/
import proofs.«420186_j87522843560495_3_alg».proof.Proof.RefRun
import proofs.«420186_j87522843560495_3_alg».proof.Proof.Spec
import Idealize.ShloMosaic.Lib.Pipeline.Frame

noncomputable section

namespace Cert.ReferenceIdeal.Hand

open Idealize.ShloMosaic Idealize.SL.Sem
open Cert.ReferenceIdeal

variable {F : FTy → Type} [FloatOps F]

/-- A reference outside a list that holds every reference some stretches write keeps its contents through them. -/
theorem keep_of {Ls : List (List (HloOp τ sig (Elt F)))} {Wr : List (Ref sig .tc)}
    (h : Ls.Forall fun l => l.Forall fun op => op.writes ⊆ (Wr.map (Proc.devRef (τ := τ) .tc)).toFinset)
    {r : Ref sig .tc} (hr : r ∉ Wr) (V : Valuation τ sig (Elt F)) :
    StableHlo.after Ls.flatten V (Proc.devRef .tc r) = V (Proc.devRef .tc r) :=
  StableHlo.after_of_writes_sub _ V (forall_flatten h) hr

/-- @main's seventeen arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

end Cert.ReferenceIdeal.Hand

end
-- ==== Proof.RefVal0.lean ====
/-
  Feature 0 of the reference (main_arg0 hashed into the table main_arg8): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat0A : List (List (HloOp τ sig (Elt F))) := [ops1, ops2, ops3, ops4, ops5]
abbrev feat0B : List (List (HloOp τ sig (Elt F))) := [ops6, ops7, ops8, ops9, ops10]
theorem feat0_split : (feat0 : List (List (HloOp τ sig (Elt F)))) = feat0A ++ feat0B := rfl

/-- No stretch of the feature writes a reference outside the feature's list. -/
theorem feat0_keep {r : Ref sig .tc} (hr : r ∉ feat0_w) (V : Valuation τ sig (Elt F)) :
    StableHlo.after (feat0 (F := F)).flatten V dR(r) = V dR(r) := keep_of feat0_writes hr V
theorem feat0A_keep {r : Ref sig .tc} (hr : r ∉ feat0_w) (V : Valuation τ sig (Elt F)) :
    StableHlo.after (feat0A (F := F)).flatten V dR(r) = V dR(r) :=
  keep_of (Ls := feat0A) (Wr := feat0_w) ⟨ops1_writes, ops2_writes, ops3_writes, ops4_writes, ops5_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat0_sorted (W : Valuation τ sig (Elt F)) :
    StableHlo.after (feat0A (F := F)).flatten W dR(main_v5) = sortedBins 100000#32 (W dR(main_arg0)) := by
  simp only [feat0A, ops1, ops2, ops3, ops4, ops5, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat0_tail (W : Valuation τ sig (Elt F)) :
    StableHlo.after (feat0B (F := F)).flatten W dR(main_v26)
      = addf (broadcastInDim SB ![] hbS (W dR(main_v0)))
          (rowSumH (select (keepMask 100000#32 (W dR(main_v5)))
            (Host.gather gdA (W dR(main_arg8)) (broadcastInDim SBL1 ![0, 1] hb3 (rowIndex 100000#32 99999#32 (W dR(main_v5)))))
            (splat (id (constant (F := F) Sc .f32 0x00000000#32))))) := by
  simp only [feat0B, ops6, ops7, ops8, ops9, ops10, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat0_total (W : Valuation τ sig (Elt F)) :
    StableHlo.after (feat0 (F := F)).flatten W dR(main_v26)
      = addf (broadcastInDim SB ![] hbS (W dR(main_v0))) (rowSumH (gwA (W dR(main_arg0)) (W dR(main_arg8)))) := by
  rw [feat0_split, List.flatten_append, StableHlo.after_append, feat0_tail, feat0_sorted,
    feat0A_keep (r := main_arg8) (by decide), feat0A_keep (r := main_v0) (by decide)]
  rfl

end Cert.ReferenceIdeal.Hand

end
-- ==== Proof.RefVal1.lean ====
/-
  Feature 1 of the reference (main_arg1 hashed into the table main_arg9): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat1A : List (List (HloOp τ sig (Elt F))) := [ops11, ops12, ops13, ops14, ops15]
abbrev feat1B : List (List (HloOp τ sig (Elt F))) := [ops16, ops17, ops18, ops19, ops20]
theorem feat1_split : (feat1 : List (List (HloOp τ sig (Elt F)))) = feat1A ++ feat1B := rfl

/-- No stretch of the feature writes a reference outside the feature's list. -/
theorem feat1_keep {r : Ref sig .tc} (hr : r ∉ feat1_w) (V : Valuation τ sig (Elt F)) :
    StableHlo.after (feat1 (F := F)).flatten V dR(r) = V dR(r) := keep_of feat1_writes hr V
theorem feat1A_keep {r : Ref sig .tc} (hr : r ∉ feat1_w) (V : Valuation τ sig (Elt F)) :
    StableHlo.after (feat1A (F := F)).flatten V dR(r) = V dR(r) :=
  keep_of (Ls := feat1A) (Wr := feat1_w) ⟨ops11_writes, ops12_writes, ops13_writes, ops14_writes, ops15_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat1_sorted (W : Valuation τ sig (Elt F)) :
    StableHlo.after (feat1A (F := F)).flatten W dR(main_v31) = sortedBins 100000#32 (W dR(main_arg1)) := by
  simp only [feat1A, ops11, ops12, ops13, ops14, ops15, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat1_tail (W : Valuation τ sig (Elt F)) :
    StableHlo.after (feat1B (F := F)).flatten W dR(main_v51)
      = addf (W dR(main_v26))
          (rowSumH (select (keepMask 100000#32 (W dR(main_v31)))
            (Host.gather gdA (W dR(main_arg9)) (broadcastInDim SBL1 ![0, 1] hb3 (rowIndex 100000#32 99999#32 (W dR(main_v31)))))
            (splat (id (constant (F := F) Sc .f32 0x00000000#32))))) := by
  simp only [feat1B, ops16, ops17, ops18, ops19, ops20, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat1_total (W : Valuation τ sig (Elt F)) :
    StableHlo.after (feat1 (F := F)).flatten W dR(main_v51)
      = addf (W dR(main_v26)) (rowSumH (gwA (W dR(main_arg1)) (W dR(main_arg9)))) := by
  rw [feat1_split, List.flatten_append, StableHlo.after_append, feat1_tail, feat1_sorted,
    feat1A_keep (r := main_arg9) (by decide), feat1A_keep (r := main_v26) (by decide)]
  rfl

end Cert.ReferenceIdeal.Hand

end
-- ==== Proof.RefVal2.lean ====
/-
  Feature 2 of the reference (main_arg2 hashed into the table main_arg10): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat2A : List (List (HloOp τ sig (Elt F))) := [ops21, ops22, ops23, ops24, ops25]
abbrev feat2B : List (List (HloOp τ sig (Elt F))) := [ops26, ops27, ops28, ops29, ops30]
theorem feat2_split : (feat2 : List (List (HloOp τ sig (Elt F)))) = feat2A ++ feat2B := rfl

/-- No stretch of the feature writes a reference outside the feature's list. -/
theorem feat2_keep {r : Ref sig .tc} (hr : r ∉ feat2_w) (V : Valuation τ sig (Elt F)) :
    StableHlo.after (feat2 (F := F)).flatten V dR(r) = V dR(r) := keep_of feat2_writes hr V
theorem feat2A_keep {r : Ref sig .tc} (hr : r ∉ feat2_w) (V : Valuation τ sig (Elt F)) :
    StableHlo.after (feat2A (F := F)).flatten V dR(r) = V dR(r) :=
  keep_of (Ls := feat2A) (Wr := feat2_w) ⟨ops21_writes, ops22_writes, ops23_writes, ops24_writes, ops25_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat2_sorted (W : Valuation τ sig (Elt F)) :
    StableHlo.after (feat2A (F := F)).flatten W dR(main_v56) = sortedBins 100000#32 (W dR(main_arg2)) := by
  simp only [feat2A, ops21, ops22, ops23, ops24, ops25, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat2_tail (W : Valuation τ sig (Elt F)) :
    StableHlo.after (feat2B (F := F)).flatten W dR(main_v76)
      = addf (W dR(main_v51))
          (rowSumH (select (keepMask 100000#32 (W dR(main_v56)))
            (Host.gather gdA (W dR(main_arg10)) (broadcastInDim SBL1 ![0, 1] hb3 (rowIndex 100000#32 99999#32 (W dR(main_v56)))))
            (splat (id (constant (F := F) Sc .f32 0x00000000#32))))) := by
  simp only [feat2B, ops26, ops27, ops28, ops29, ops30, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat2_total (W : Valuation τ sig (Elt F)) :
    StableHlo.after (feat2 (F := F)).flatten W dR(main_v76)
      = addf (W dR(main_v51)) (rowSumH (gwA (W dR(main_arg2)) (W dR(main_arg10)))) := by
  rw [feat2_split, List.flatten_append, StableHlo.after_append, feat2_tail, feat2_sorted,
    feat2A_keep (r := main_arg10) (by decide), feat2A_keep (r := main_v51) (by decide)]
  rfl

end Cert.ReferenceIdeal.Hand

end
-- ==== Proof.RefVal3.lean ====
/-
  Feature 3 of the reference (main_arg3 hashed into the table main_arg11): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat3A : List (List (HloOp τ sig (Elt F))) := [ops31, ops32, ops33, ops34, ops35]
abbrev feat3B : List (List (HloOp τ sig (Elt F))) := [ops36, ops37, ops38, ops39, ops40, ops41]
theorem feat3_split : (feat3 : List (List (HloOp τ sig (Elt F)))) = feat3A ++ feat3B := rfl

/-- No stretch of the feature writes a reference outside the feature's list. -/
theorem feat3_keep {r : Ref sig .tc} (hr : r ∉ feat3_w) (V : Valuation τ sig (Elt F)) :
    StableHlo.after (feat3 (F := F)).flatten V dR(r) = V dR(r) := keep_of feat3_writes hr V
theorem feat3A_keep {r : Ref sig .tc} (hr : r ∉ feat3_w) (V : Valuation τ sig (Elt F)) :
    StableHlo.after (feat3A (F := F)).flatten V dR(r) = V dR(r) :=
  keep_of (Ls := feat3A) (Wr := feat3_w) ⟨ops31_writes, ops32_writes, ops33_writes, ops34_writes, ops35_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat3_sorted (W : Valuation τ sig (Elt F)) :
    StableHlo.after (feat3A (F := F)).flatten W dR(main_v81) = sortedBins 100000#32 (W dR(main_arg3)) := by
  simp only [feat3A, ops31, ops32, ops33, ops34, ops35, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat3_tail (W : Valuation τ sig (Elt F)) :
    StableHlo.after (feat3B (F := F)).flatten W dR(main_v101)
      = addf (W dR(main_v76))
          (rowSumH (select (keepMask 100000#32 (W dR(main_v81)))
            (Host.gather gdA (W dR(main_arg11)) (broadcastInDim SBL1 ![0, 1] hb3 (rowIndex 100000#32 99999#32 (W dR(main_v81)))))
            (splat (id (constant (F := F) Sc .f32 0x00000000#32))))) := by
  simp only [feat3B, ops36, ops37, ops38, ops39, ops40, ops41, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat3_total (W : Valuation τ sig (Elt F)) :
    StableHlo.after (feat3 (F := F)).flatten W dR(main_v101)
      = addf (W dR(main_v76)) (rowSumH (gwA (W dR(main_arg3)) (W dR(main_arg11)))) := by
  rw [feat3_split, List.flatten_append, StableHlo.after_append, feat3_tail, feat3_sorted,
    feat3A_keep (r := main_arg11) (by decide), feat3A_keep (r := main_v76) (by decide)]
  rfl

end Cert.ReferenceIdeal.Hand

end
-- ==== Proof.RefVal4.lean ====
/-
  Feature 4 of the reference (main_arg4 hashed into the table main_arg12): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat4A : List (List (HloOp τ sig (Elt F))) := [ops42, ops43, ops44, ops45, ops46]
abbrev feat4B : List (List (HloOp τ sig (Elt F))) := [ops47, ops48, ops49, ops50, ops51, ops52]
theorem feat4_split : (feat4 : List (List (HloOp τ sig (Elt F)))) = feat4A ++ feat4B := rfl

/-- No stretch of the feature writes a reference outside the feature's list. -/
theorem feat4_keep {r : Ref sig .tc} (hr : r ∉ feat4_w) (V : Valuation τ sig (Elt F)) :
    StableHlo.after (feat4 (F := F)).flatten V dR(r) = V dR(r) := keep_of feat4_writes hr V
theorem feat4A_keep {r : Ref sig .tc} (hr : r ∉ feat4_w) (V : Valuation τ sig (Elt F)) :
    StableHlo.after (feat4A (F := F)).flatten V dR(r) = V dR(r) :=
  keep_of (Ls := feat4A) (Wr := feat4_w) ⟨ops42_writes, ops43_writes, ops44_writes, ops45_writes, ops46_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat4_sorted (W : Valuation τ sig (Elt F)) :
    StableHlo.after (feat4A (F := F)).flatten W dR(main_v106) = sortedBins 100000#32 (W dR(main_arg4)) := by
  simp only [feat4A, ops42, ops43, ops44, ops45, ops46, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat4_tail (W : Valuation τ sig (Elt F)) :
    StableHlo.after (feat4B (F := F)).flatten W dR(main_v126)
      = addf (W dR(main_v101))
          (rowSumH (select (keepMask 100000#32 (W dR(main_v106)))
            (Host.gather gdA (W dR(main_arg12)) (broadcastInDim SBL1 ![0, 1] hb3 (rowIndex 100000#32 99999#32 (W dR(main_v106)))))
            (splat (id (constant (F := F) Sc .f32 0x00000000#32))))) := by
  simp only [feat4B, ops47, ops48, ops49, ops50, ops51, ops52, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat4_total (W : Valuation τ sig (Elt F)) :
    StableHlo.after (feat4 (F := F)).flatten W dR(main_v126)
      = addf (W dR(main_v101)) (rowSumH (gwA (W dR(main_arg4)) (W dR(main_arg12)))) := by
  rw [feat4_split, List.flatten_append, StableHlo.after_append, feat4_tail, feat4_sorted,
    feat4A_keep (r := main_arg12) (by decide), feat4A_keep (r := main_v101) (by decide)]
  rfl

end Cert.ReferenceIdeal.Hand

end
-- ==== Proof.RefVal5.lean ====
/-
  Feature 5 of the reference (main_arg5 hashed into the table main_arg13): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat5A : List (List (HloOp τ sig (Elt F))) := [ops53, ops54, ops55, ops56, ops57]
abbrev feat5B : List (List (HloOp τ sig (Elt F))) := [ops58, ops59, ops60, ops61, ops62]
theorem feat5_split : (feat5 : List (List (HloOp τ sig (Elt F)))) = feat5A ++ feat5B := rfl

/-- No stretch of the feature writes a reference outside the feature's list. -/
theorem feat5_keep {r : Ref sig .tc} (hr : r ∉ feat5_w) (V : Valuation τ sig (Elt F)) :
    StableHlo.after (feat5 (F := F)).flatten V dR(r) = V dR(r) := keep_of feat5_writes hr V
theorem feat5A_keep {r : Ref sig .tc} (hr : r ∉ feat5_w) (V : Valuation τ sig (Elt F)) :
    StableHlo.after (feat5A (F := F)).flatten V dR(r) = V dR(r) :=
  keep_of (Ls := feat5A) (Wr := feat5_w) ⟨ops53_writes, ops54_writes, ops55_writes, ops56_writes, ops57_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat5_sorted (W : Valuation τ sig (Elt F)) :
    StableHlo.after (feat5A (F := F)).flatten W dR(main_v131) = sortedBins 100000#32 (W dR(main_arg5)) := by
  simp only [feat5A, ops53, ops54, ops55, ops56, ops57, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat5_tail (W : Valuation τ sig (Elt F)) :
    StableHlo.after (feat5B (F := F)).flatten W dR(main_v151)
      = addf (W dR(main_v126))
          (rowSumH (select (keepMask 100000#32 (W dR(main_v131)))
            (Host.gather gdA (W dR(main_arg13)) (broadcastInDim SBL1 ![0, 1] hb3 (rowIndex 100000#32 99999#32 (W dR(main_v131)))))
            (splat (id (constant (F := F) Sc .f32 0x00000000#32))))) := by
  simp only [feat5B, ops58, ops59, ops60, ops61, ops62, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat5_total (W : Valuation τ sig (Elt F)) :
    StableHlo.after (feat5 (F := F)).flatten W dR(main_v151)
      = addf (W dR(main_v126)) (rowSumH (gwA (W dR(main_arg5)) (W dR(main_arg13)))) := by
  rw [feat5_split, List.flatten_append, StableHlo.after_append, feat5_tail, feat5_sorted,
    feat5A_keep (r := main_arg13) (by decide), feat5A_keep (r := main_v126) (by decide)]
  rfl

end Cert.ReferenceIdeal.Hand

end
-- ==== Proof.RefVal6.lean ====
/-
  Feature 6 of the reference (main_arg6 hashed into the table main_arg14): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat6A : List (List (HloOp τ sig (Elt F))) := [ops63, ops64, ops65, ops66, ops67]
abbrev feat6B : List (List (HloOp τ sig (Elt F))) := [ops68, ops69, ops70, ops71, ops72]
theorem feat6_split : (feat6 : List (List (HloOp τ sig (Elt F)))) = feat6A ++ feat6B := rfl

/-- No stretch of the feature writes a reference outside the feature's list. -/
theorem feat6_keep {r : Ref sig .tc} (hr : r ∉ feat6_w) (V : Valuation τ sig (Elt F)) :
    StableHlo.after (feat6 (F := F)).flatten V dR(r) = V dR(r) := keep_of feat6_writes hr V
theorem feat6A_keep {r : Ref sig .tc} (hr : r ∉ feat6_w) (V : Valuation τ sig (Elt F)) :
    StableHlo.after (feat6A (F := F)).flatten V dR(r) = V dR(r) :=
  keep_of (Ls := feat6A) (Wr := feat6_w) ⟨ops63_writes, ops64_writes, ops65_writes, ops66_writes, ops67_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat6_sorted (W : Valuation τ sig (Elt F)) :
    StableHlo.after (feat6A (F := F)).flatten W dR(main_v156) = sortedBins 1000000#32 (W dR(main_arg6)) := by
  simp only [feat6A, ops63, ops64, ops65, ops66, ops67, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat6_tail (W : Valuation τ sig (Elt F)) :
    StableHlo.after (feat6B (F := F)).flatten W dR(main_v176)
      = addf (W dR(main_v151))
          (rowSumH (select (keepMask 1000000#32 (W dR(main_v156)))
            (Host.gather gdB (W dR(main_arg14)) (broadcastInDim SBL1 ![0, 1] hb3 (rowIndex 1000000#32 999999#32 (W dR(main_v156)))))
            (splat (id (constant (F := F) Sc .f32 0x00000000#32))))) := by
  simp only [feat6B, ops68, ops69, ops70, ops71, ops72, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat6_total (W : Valuation τ sig (Elt F)) :
    StableHlo.after (feat6 (F := F)).flatten W dR(main_v176)
      = addf (W dR(main_v151)) (rowSumH (gwB (W dR(main_arg6)) (W dR(main_arg14)))) := by
  rw [feat6_split, List.flatten_append, StableHlo.after_append, feat6_tail, feat6_sorted,
    feat6A_keep (r := main_arg14) (by decide), feat6A_keep (r := main_v151) (by decide)]
  rfl

end Cert.ReferenceIdeal.Hand

end
-- ==== Proof.RefVal7.lean ====
/-
  Feature 7 of the reference (main_arg7 hashed into the table main_arg15): what its stretches leave in the running total.
  The stretches up to the sort leave the sorted bins of the ids; the stretches after it, read at ANY contents of the
  sorted bins, the table and the total so far, leave the total plus the row sums of the masked gathered weights; the
  two together are the feature's term of the shared specification.
-/
import proofs.«420186_j87522843560495_3_alg».proof.Proof.RefValLib

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-- The stretches up to the sort, and those after it. -/
abbrev feat7A : List (List (HloOp τ sig (Elt F))) := [ops73, ops74, ops75, ops76, ops77]
abbrev feat7B : List (List (HloOp τ sig (Elt F))) := [ops78, ops79, ops80, ops81, ops82]
theorem feat7_split : (feat7 : List (List (HloOp τ sig (Elt F)))) = feat7A ++ feat7B := rfl

/-- No stretch of the feature writes a reference outside the feature's list. -/
theorem feat7_keep {r : Ref sig .tc} (hr : r ∉ feat7_w) (V : Valuation τ sig (Elt F)) :
    StableHlo.after (feat7 (F := F)).flatten V dR(r) = V dR(r) := keep_of feat7_writes hr V
theorem feat7A_keep {r : Ref sig .tc} (hr : r ∉ feat7_w) (V : Valuation τ sig (Elt F)) :
    StableHlo.after (feat7A (F := F)).flatten V dR(r) = V dR(r) :=
  keep_of (Ls := feat7A) (Wr := feat7_w) ⟨ops73_writes, ops74_writes, ops75_writes, ops76_writes, ops77_writes⟩ hr V

open StableHlo in
attribute [local irreducible] Host.sort Host.gather Host.reduceAdd concatenate in
set_option maxRecDepth 8192 in
set_option maxHeartbeats 2000000 in
/-- The ids' sign test and floored remainder, the select of the sentinel for padding, the sort: the sorted bins. -/
theorem feat7_sorted (W : Valuation τ sig (Elt F)) :
    StableHlo.after (feat7A (F := F)).flatten W dR(main_v181) = sortedBins 1000000#32 (W dR(main_arg7)) := by
  simp only [feat7A, ops73, ops74, ops75, ops76, ops77, List.flatten_cons, List.flatten_nil, List.cons_append, List.nil_append, List.append_nil]
  after_results_simp
  simp only [StableHlo.TRef.ofBuf, StableHlo.TRef.toBuf, cast_eq]
  rfl

open StableHlo in
attribute [local irreducible] Host.sort Host.gather Host.reduceAdd concatenate in
set_option maxRecDepth 8192 in
set_option maxHeartbeats 2000000 in
/-- From any contents: the mask, the clamped and wrapped row numbers, the gather, the select against zero, the row
    sums, and their sum into the total. -/
theorem feat7_tail (W : Valuation τ sig (Elt F)) :
    StableHlo.after (feat7B (F := F)).flatten W dR(main_v201)
      = addf (W dR(main_v176))
          (rowSumH (select (keepMask 1000000#32 (W dR(main_v181)))
            (Host.gather gdB (W dR(main_arg15)) (broadcastInDim SBL1 ![0, 1] hb3 (rowIndex 1000000#32 999999#32 (W dR(main_v181)))))
            (splat (id (constant (F := F) Sc .f32 0x00000000#32))))) := by
  simp only [feat7B, ops78, ops79, ops80, ops81, ops82, List.flatten_cons, List.flatten_nil, List.cons_append, List.nil_append, List.append_nil]
  after_results_simp
  simp only [StableHlo.TRef.ofBuf, StableHlo.TRef.toBuf, cast_eq]
  rfl

/-- The feature whole: the total so far plus the row sums of the feature's masked gathered weights. -/
theorem feat7_total (W : Valuation τ sig (Elt F)) :
    StableHlo.after (feat7 (F := F)).flatten W dR(main_v201)
      = addf (W dR(main_v176)) (rowSumH (gwB (W dR(main_arg7)) (W dR(main_arg15)))) := by
  rw [feat7_split, List.flatten_append, StableHlo.after_append, feat7_tail, feat7_sorted,
    feat7A_keep (r := main_arg15) (by decide), feat7A_keep (r := main_v176) (by decide)]
  rfl

end Cert.ReferenceIdeal.Hand

end
-- ==== Proof.RefValue.lean ====
/-
  The reference's value. The operations are the bias's reshape, the eight features, the result's broadcast; the
  valuation after each group is named (S0 after the reshape, S1 … S8 after the features, S9 at the end). No group writes
  an argument, so the arguments read at every stage are the launch's; each feature adds its row sums to the total the
  group before it left; the broadcast of the last total is the shared specification's result.
-/
import proofs.«420186_j87522843560495_3_alg».proof.Proof.RefVal0
import proofs.«420186_j87522843560495_3_alg».proof.Proof.RefVal1
import proofs.«420186_j87522843560495_3_alg».proof.Proof.RefVal2
import proofs.«420186_j87522843560495_3_alg».proof.Proof.RefVal3
import proofs.«420186_j87522843560495_3_alg».proof.Proof.RefVal4
import proofs.«420186_j87522843560495_3_alg».proof.Proof.RefVal5
import proofs.«420186_j87522843560495_3_alg».proof.Proof.RefVal6
import proofs.«420186_j87522843560495_3_alg».proof.Proof.RefVal7

noncomputable section

namespace Cert.ReferenceIdeal.Hand

open Idealize.ShloMosaic Idealize.SL.Sem
open Cert.ReferenceIdeal Cert.ReferenceIdeal.Facts₀ Cert.ReferenceIdeal.Facts
open Cert.WideSum

variable {F : FTy → Type} [FloatOps F]

set_option quotPrecheck false in
local notation "dR(" b ")" => (Proc.devRef (τ := τ) .tc b : DevRef τ sig)

/-! ## The first and the last operation -/

theorem pre_keep {r : Ref sig .tc} (hr : r ∉ pre_w) (V : Valuation τ sig (Elt F)) :
    StableHlo.after (pre (F := F)).flatten V dR(r) = V dR(r) := keep_of pre_writes hr V
theorem post_keep {r : Ref sig .tc} (hr : r ∉ post_w) (V : Valuation τ sig (Elt F)) :
    StableHlo.after (post (F := F)).flatten V dR(r) = V dR(r) := keep_of post_writes hr V

open StableHlo in
/-- The bias as a scalar. -/
theorem pre_val (W : Valuation τ sig (Elt F)) :
    StableHlo.after (pre (F := F)).flatten W dR(main_v0) = shapeCast Sc (W dR(main_arg16)) hsc := by
  simp only [pre, ops0, List.flatten_cons, List.flatten_nil, List.append_nil]
  after_results_simp <;> rfl

open StableHlo in
/-- The last total as a column. -/
theorem post_val (W : Valuation τ sig (Elt F)) :
    StableHlo.after (post (F := F)).flatten W dR(main_v202) = broadcastInDim SB1 ![0] hbr (W dR(main_v201)) := by
  simp only [post, ops83, List.flatten_cons, List.flatten_nil, List.append_nil]
  after_results_simp <;> rfl

/-! ## The stages -/

/-- The contents after the bias's reshape, -/
def S0 (V : Valuation τ sig (Elt F)) : Valuation τ sig (Elt F) := StableHlo.after (pre (F := F)).flatten V
/-- after feature 0, -/
def S1 (V : Valuation τ sig (Elt F)) : Valuation τ sig (Elt F) := StableHlo.after (feat0 (F := F)).flatten (S0 V)
/-- after feature 1, -/
def S2 (V : Valuation τ sig (Elt F)) : Valuation τ sig (Elt F) := StableHlo.after (feat1 (F := F)).flatten (S1 V)
/-- after feature 2, -/
def S3 (V : Valuation τ sig (Elt F)) : Valuation τ sig (Elt F) := StableHlo.after (feat2 (F := F)).flatten (S2 V)
/-- after feature 3, -/
def S4 (V : Valuation τ sig (Elt F)) : Valuation τ sig (Elt F) := StableHlo.after (feat3 (F := F)).flatten (S3 V)
/-- after feature 4, -/
def S5 (V : Valuation τ sig (Elt F)) : Valuation τ sig (Elt F) := StableHlo.after (feat4 (F := F)).flatten (S4 V)
/-- after feature 5, -/
def S6 (V : Valuation τ sig (Elt F)) : Valuation τ sig (Elt F) := StableHlo.after (feat5 (F := F)).flatten (S5 V)
/-- after feature 6, -/
def S7 (V : Valuation τ sig (Elt F)) : Valuation τ sig (Elt F) := StableHlo.after (feat6 (F := F)).flatten (S6 V)
/-- after feature 7, -/
def S8 (V : Valuation τ sig (Elt F)) : Valuation τ sig (Elt F) := StableHlo.after (feat7 (F := F)).flatten (S7 V)
/-- and at the end. -/
def S9 (V : Valuation τ sig (Elt F)) : Valuation τ sig (Elt F) := StableHlo.after (post (F := F)).flatten (S8 V)

/-- The fold of all of @main's operations is the last stage. -/
theorem after_allOps (V : Valuation τ sig (Elt F)) : StableHlo.after (allOps (F := F)) V = S9 V := by
  simp only [allOps, stretches_eq, List.flatten_append, StableHlo.after_append]
  rfl

/-! ## The arguments are never written -/

theorem pre_args : ∀ a ∈ argRefs, a ∉ pre_w := by decide
theorem feat0_args : ∀ a ∈ argRefs, a ∉ feat0_w := by decide
theorem feat1_args : ∀ a ∈ argRefs, a ∉ feat1_w := by decide
theorem feat2_args : ∀ a ∈ argRefs, a ∉ feat2_w := by decide
theorem feat3_args : ∀ a ∈ argRefs, a ∉ feat3_w := by decide
theorem feat4_args : ∀ a ∈ argRefs, a ∉ feat4_w := by decide
theorem feat5_args : ∀ a ∈ argRefs, a ∉ feat5_w := by decide
theorem feat6_args : ∀ a ∈ argRefs, a ∉ feat6_w := by decide
theorem feat7_args : ∀ a ∈ argRefs, a ∉ feat7_w := by decide
theorem post_args : ∀ a ∈ argRefs, a ∉ post_w := by decide

theorem S0_arg (V : Valuation τ sig (Elt F)) {a : Ref sig .tc} (ha : a ∈ argRefs) : S0 V dR(a) = V dR(a) :=
  pre_keep (pre_args a ha) V
theorem S1_arg (V : Valuation τ sig (Elt F)) {a : Ref sig .tc} (ha : a ∈ argRefs) : S1 V dR(a) = V dR(a) :=
  (feat0_keep (feat0_args a ha) (S0 V)).trans (S0_arg V ha)
theorem S2_arg (V : Valuation τ sig (Elt F)) {a : Ref sig .tc} (ha : a ∈ argRefs) : S2 V dR(a) = V dR(a) :=
  (feat1_keep (feat1_args a ha) (S1 V)).trans (S1_arg V ha)
theorem S3_arg (V : Valuation τ sig (Elt F)) {a : Ref sig .tc} (ha : a ∈ argRefs) : S3 V dR(a) = V dR(a) :=
  (feat2_keep (feat2_args a ha) (S2 V)).trans (S2_arg V ha)
theorem S4_arg (V : Valuation τ sig (Elt F)) {a : Ref sig .tc} (ha : a ∈ argRefs) : S4 V dR(a) = V dR(a) :=
  (feat3_keep (feat3_args a ha) (S3 V)).trans (S3_arg V ha)
theorem S5_arg (V : Valuation τ sig (Elt F)) {a : Ref sig .tc} (ha : a ∈ argRefs) : S5 V dR(a) = V dR(a) :=
  (feat4_keep (feat4_args a ha) (S4 V)).trans (S4_arg V ha)
theorem S6_arg (V : Valuation τ sig (Elt F)) {a : Ref sig .tc} (ha : a ∈ argRefs) : S6 V dR(a) = V dR(a) :=
  (feat5_keep (feat5_args a ha) (S5 V)).trans (S5_arg V ha)
theorem S7_arg (V : Valuation τ sig (Elt F)) {a : Ref sig .tc} (ha : a ∈ argRefs) : S7 V dR(a) = V dR(a) :=
  (feat6_keep (feat6_args a ha) (S6 V)).trans (S6_arg V ha)
theorem S8_arg (V : Valuation τ sig (Elt F)) {a : Ref sig .tc} (ha : a ∈ argRefs) : S8 V dR(a) = V dR(a) :=
  (feat7_keep (feat7_args a ha) (S7 V)).trans (S7_arg V ha)
theorem S9_arg (V : Valuation τ sig (Elt F)) {a : Ref sig .tc} (ha : a ∈ argRefs) : S9 V dR(a) = V dR(a) :=
  (post_keep (post_args a ha) (S8 V)).trans (S8_arg V ha)

/-! ## The running total, feature by feature -/

/-- The total after feature 0. -/
theorem total0 (V : Valuation τ sig (Elt F)) :
    S1 V dR(main_v26)
      = addf (broadcastInDim SB ![] hbS (shapeCast Sc (V dR(main_arg16)) hsc))
        (rowSumH (gwA (V dR(main_arg0)) (V dR(main_arg8)))) := by
  rw [show S1 V dR(main_v26) = _ from feat0_total (S0 V), show S0 V dR(main_v0) = _ from pre_val V,
    S0_arg V (a := main_arg0) (by decide), S0_arg V (a := main_arg8) (by decide)]

/-- The total after feature 1. -/
theorem total1 (V : Valuation τ sig (Elt F)) :
    S2 V dR(main_v51)
      = addf (addf (broadcastInDim SB ![] hbS (shapeCast Sc (V dR(main_arg16)) hsc))
        (rowSumH (gwA (V dR(main_arg0)) (V dR(main_arg8)))))
        (rowSumH (gwA (V dR(main_arg1)) (V dR(main_arg9)))) := by
  rw [show S2 V dR(main_v51) = _ from feat1_total (S1 V), total0 V,
    S1_arg V (a := main_arg1) (by decide), S1_arg V (a := main_arg9) (by decide)]

/-- The total after feature 2. -/
theorem total2 (V : Valuation τ sig (Elt F)) :
    S3 V dR(main_v76)
      = addf (addf (addf (broadcastInDim SB ![] hbS (shapeCast Sc (V dR(main_arg16)) hsc))
        (rowSumH (gwA (V dR(main_arg0)) (V dR(main_arg8)))))
        (rowSumH (gwA (V dR(main_arg1)) (V dR(main_arg9)))))
        (rowSumH (gwA (V dR(main_arg2)) (V dR(main_arg10)))) := by
  rw [show S3 V dR(main_v76) = _ from feat2_total (S2 V), total1 V,
    S2_arg V (a := main_arg2) (by decide), S2_arg V (a := main_arg10) (by decide)]

/-- The total after feature 3. -/
theorem total3 (V : Valuation τ sig (Elt F)) :
    S4 V dR(main_v101)
      = addf (addf (addf (addf (broadcastInDim SB ![] hbS (shapeCast Sc (V dR(main_arg16)) hsc))
        (rowSumH (gwA (V dR(main_arg0)) (V dR(main_arg8)))))
        (rowSumH (gwA (V dR(main_arg1)) (V dR(main_arg9)))))
        (rowSumH (gwA (V dR(main_arg2)) (V dR(main_arg10)))))
        (rowSumH (gwA (V dR(main_arg3)) (V dR(main_arg11)))) := by
  rw [show S4 V dR(main_v101) = _ from feat3_total (S3 V), total2 V,
    S3_arg V (a := main_arg3) (by decide), S3_arg V (a := main_arg11) (by decide)]

/-- The total after feature 4. -/
theorem total4 (V : Valuation τ sig (Elt F)) :
    S5 V dR(main_v126)
      = addf (addf (addf (addf (addf (broadcastInDim SB ![] hbS (shapeCast Sc (V dR(main_arg16)) hsc))
        (rowSumH (gwA (V dR(main_arg0)) (V dR(main_arg8)))))
        (rowSumH (gwA (V dR(main_arg1)) (V dR(main_arg9)))))
        (rowSumH (gwA (V dR(main_arg2)) (V dR(main_arg10)))))
        (rowSumH (gwA (V dR(main_arg3)) (V dR(main_arg11)))))
        (rowSumH (gwA (V dR(main_arg4)) (V dR(main_arg12)))) := by
  rw [show S5 V dR(main_v126) = _ from feat4_total (S4 V), total3 V,
    S4_arg V (a := main_arg4) (by decide), S4_arg V (a := main_arg12) (by decide)]

/-- The total after feature 5. -/
theorem total5 (V : Valuation τ sig (Elt F)) :
    S6 V dR(main_v151)
      = addf (addf (addf (addf (addf (addf (broadcastInDim SB ![] hbS (shapeCast Sc (V dR(main_arg16)) hsc))
        (rowSumH (gwA (V dR(main_arg0)) (V dR(main_arg8)))))
        (rowSumH (gwA (V dR(main_arg1)) (V dR(main_arg9)))))
        (rowSumH (gwA (V dR(main_arg2)) (V dR(main_arg10)))))
        (rowSumH (gwA (V dR(main_arg3)) (V dR(main_arg11)))))
        (rowSumH (gwA (V dR(main_arg4)) (V dR(main_arg12)))))
        (rowSumH (gwA (V dR(main_arg5)) (V dR(main_arg13)))) := by
  rw [show S6 V dR(main_v151) = _ from feat5_total (S5 V), total4 V,
    S5_arg V (a := main_arg5) (by decide), S5_arg V (a := main_arg13) (by decide)]

/-- The total after feature 6. -/
theorem total6 (V : Valuation τ sig (Elt F)) :
    S7 V dR(main_v176)
      = addf (addf (addf (addf (addf (addf (addf (broadcastInDim SB ![] hbS (shapeCast Sc (V dR(main_arg16)) hsc))
        (rowSumH (gwA (V dR(main_arg0)) (V dR(main_arg8)))))
        (rowSumH (gwA (V dR(main_arg1)) (V dR(main_arg9)))))
        (rowSumH (gwA (V dR(main_arg2)) (V dR(main_arg10)))))
        (rowSumH (gwA (V dR(main_arg3)) (V dR(main_arg11)))))
        (rowSumH (gwA (V dR(main_arg4)) (V dR(main_arg12)))))
        (rowSumH (gwA (V dR(main_arg5)) (V dR(main_arg13)))))
        (rowSumH (gwB (V dR(main_arg6)) (V dR(main_arg14)))) := by
  rw [show S7 V dR(main_v176) = _ from feat6_total (S6 V), total5 V,
    S6_arg V (a := main_arg6) (by decide), S6_arg V (a := main_arg14) (by decide)]

/-- The total after feature 7. -/
theorem total7 (V : Valuation τ sig (Elt F)) :
    S8 V dR(main_v201)
      = addf (addf (addf (addf (addf (addf (addf (addf (broadcastInDim SB ![] hbS (shapeCast Sc (V dR(main_arg16)) hsc))
        (rowSumH (gwA (V dR(main_arg0)) (V dR(main_arg8)))))
        (rowSumH (gwA (V dR(main_arg1)) (V dR(main_arg9)))))
        (rowSumH (gwA (V dR(main_arg2)) (V dR(main_arg10)))))
        (rowSumH (gwA (V dR(main_arg3)) (V dR(main_arg11)))))
        (rowSumH (gwA (V dR(main_arg4)) (V dR(main_arg12)))))
        (rowSumH (gwA (V dR(main_arg5)) (V dR(main_arg13)))))
        (rowSumH (gwB (V dR(main_arg6)) (V dR(main_arg14)))))
        (rowSumH (gwB (V dR(main_arg7)) (V dR(main_arg15)))) := by
  rw [show S8 V dR(main_v201) = _ from feat7_total (S7 V), total6 V,
    S7_arg V (a := main_arg7) (by decide), S7_arg V (a := main_arg15) (by decide)]

/-! ## The result and the run -/

/-- The result buffer ends at the shared specification's value of the launch's arguments. -/
theorem result_eq (V : Valuation τ sig (Elt F)) :
    StableHlo.after (allOps (F := F)) V dR(main_v202)
      = refOut (V dR(main_arg0)) (V dR(main_arg1)) (V dR(main_arg2)) (V dR(main_arg3)) (V dR(main_arg4)) (V dR(main_arg5))
          (V dR(main_arg6)) (V dR(main_arg7)) (V dR(main_arg8)) (V dR(main_arg9)) (V dR(main_arg10)) (V dR(main_arg11))
          (V dR(main_arg12)) (V dR(main_arg13)) (V dR(main_arg14)) (V dR(main_arg15)) (V dR(main_arg16)) := by
  rw [after_allOps, show S9 V dR(main_v202) = _ from post_val (S8 V), total7]
  rfl

/-- Every argument ends as launched. -/
theorem arg_eq (V : Valuation τ sig (Elt F)) {a : Ref sig .tc} (ha : a ∈ argRefs) :
    StableHlo.after (allOps (F := F)) V dR(a) = V dR(a) := by
  rw [after_allOps]; exact S9_arg V ha

/-- From any memory with zero counters the reference runs, its result buffer ends at the shared specification's value
    of its seventeen arguments, and the arguments end unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v202)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run (defs (F := F)) _ _).mono
    (fun _ h c => ⟨(h c main_v202).trans (result_eq _),
      (h c main_arg0).trans (arg_eq _ (by decide)),
      (h c main_arg1).trans (arg_eq _ (by decide)),
      (h c main_arg2).trans (arg_eq _ (by decide)),
      (h c main_arg3).trans (arg_eq _ (by decide)),
      (h c main_arg4).trans (arg_eq _ (by decide)),
      (h c main_arg5).trans (arg_eq _ (by decide)),
      (h c main_arg6).trans (arg_eq _ (by decide)),
      (h c main_arg7).trans (arg_eq _ (by decide)),
      (h c main_arg8).trans (arg_eq _ (by decide)),
      (h c main_arg9).trans (arg_eq _ (by decide)),
      (h c main_arg10).trans (arg_eq _ (by decide)),
      (h c main_arg11).trans (arg_eq _ (by decide)),
      (h c main_arg12).trans (arg_eq _ (by decide)),
      (h c main_arg13).trans (arg_eq _ (by decide)),
      (h c main_arg14).trans (arg_eq _ (by decide)),
      (h c main_arg15).trans (arg_eq _ (by decide)),
      (h c main_arg16).trans (arg_eq _ (by decide))⟩)
    (run_all (F := F) m ρ)

end Cert.ReferenceIdeal.Hand

end
-- ==== Proof.lean ====
/-
  A wide (linear) model over eight hashed multi-valued features: the Pallas program against its jnp reference,
  over the extended reals.

  Both programs turn each feature's ids into the same array of MASKED GATHERED WEIGHTS (every distinct bucket of a
  row contributes its weight once, padding nothing: `Cert.WideSum.gw`), by the same chain of integer host
  operations. They differ only in how the numbers are added up. The kernel's pallas_call sums each row of the eight
  arrays, adds the eight row sums left to right, lays the totals out as [128, 128], and the host re-lays them as a
  column and adds the bias last. The reference starts from the bias and adds one feature's row sums (each started
  from zero) after the other. Addition of extended reals is commutative and associative, infinities included, so
  the two results are equal for every input: the precondition is never opened.

  * the kernel's result array read off its run: Proof/KPay.lean (the body at one element), Proof/KValue.lean
    (blocks to array, the host tail), Proof/KHost.lean (the host operations before the region are `gw`);
  * the reference's run and its result: Proof/RefOps.lean, Proof/RefRun.lean, Proof/RefValue.lean;
  * the two orders of adding up agree: Proof/Sums.lean.
-/
import proofs.«420186_j87522843560495_3_alg».proof.Defs
import proofs.«420186_j87522843560495_3_alg».proof.Proof.Gen.Kernel
import proofs.«420186_j87522843560495_3_alg».proof.Proof.Gen.Kernel.Skeleton
import proofs.«420186_j87522843560495_3_alg».proof.Proof.Gen.Kernel.Launch
import proofs.«420186_j87522843560495_3_alg».proof.Proof.Gen.Kernel.Points
import proofs.«420186_j87522843560495_3_alg».proof.Proof.Gen.Kernel.Frame
import proofs.«420186_j87522843560495_3_alg».proof.Proof.Gen.KernelIdeal
import proofs.«420186_j87522843560495_3_alg».proof.Proof.Gen.KernelIdeal.Skeleton
import proofs.«420186_j87522843560495_3_alg».proof.Proof.Gen.KernelIdeal.Launch
import proofs.«420186_j87522843560495_3_alg».proof.Proof.Gen.KernelIdeal.Points
import proofs.«420186_j87522843560495_3_alg».proof.Proof.Gen.KernelIdeal.Frame
import proofs.«420186_j87522843560495_3_alg».proof.Proof.Gen.ReferenceIdeal
import proofs.«420186_j87522843560495_3_alg».proof.Proof.Gen.Pre_finite_inputs
import proofs.«420186_j87522843560495_3_alg».proof.Proof.Sums
import proofs.«420186_j87522843560495_3_alg».proof.Proof.KValue
import proofs.«420186_j87522843560495_3_alg».proof.Proof.KHost
import proofs.«420186_j87522843560495_3_alg».proof.Proof.RefValue
import Idealize.ShloMosaic.Adequacy
import Idealize.ShloMosaic.Init

noncomputable section

namespace Cert.Proof

open Idealize.ShloMosaic Idealize.ShloMosaic.TcCoe Idealize.SL.Sem Cert.WideSum

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The two idealized programs end with equal results: the kernel's is the eight features' row sums added left to
    right plus the bias, the reference's the bias plus the row sums one after the other, of the same eight arrays. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16, refOut_eq_kerOut]
  have h0 := Cert.KernelIdeal.HostIn.hostIn_0 (F := Ideal) m c
  have h1 := Cert.KernelIdeal.HostIn.hostIn_1 (F := Ideal) m c
  have h2 := Cert.KernelIdeal.HostIn.hostIn_2 (F := Ideal) m c
  have h3 := Cert.KernelIdeal.HostIn.hostIn_3 (F := Ideal) m c
  have h4 := Cert.KernelIdeal.HostIn.hostIn_4 (F := Ideal) m c
  have h5 := Cert.KernelIdeal.HostIn.hostIn_5 (F := Ideal) m c
  have h6 := Cert.KernelIdeal.HostIn.hostIn_6 (F := Ideal) m c
  have h7 := Cert.KernelIdeal.HostIn.hostIn_7 (F := Ideal) m c
  show _ = kerOut (Cert.KernelIdeal.Gen.V m c Cert.KernelIdeal.main_v22) (Cert.KernelIdeal.Gen.V m c Cert.KernelIdeal.main_v45)
    (Cert.KernelIdeal.Gen.V m c Cert.KernelIdeal.main_v68) (Cert.KernelIdeal.Gen.V m c Cert.KernelIdeal.main_v91)
    (Cert.KernelIdeal.Gen.V m c Cert.KernelIdeal.main_v114) (Cert.KernelIdeal.Gen.V m c Cert.KernelIdeal.main_v137)
    (Cert.KernelIdeal.Gen.V m c Cert.KernelIdeal.main_v160) (Cert.KernelIdeal.Gen.V m c Cert.KernelIdeal.main_v183) _
  rw [show Cert.KernelIdeal.Gen.V m c Cert.KernelIdeal.main_v22 = _ from h0, show Cert.KernelIdeal.Gen.V m c Cert.KernelIdeal.main_v45 = _ from h1,
    show Cert.KernelIdeal.Gen.V m c Cert.KernelIdeal.main_v68 = _ from h2, show Cert.KernelIdeal.Gen.V m c Cert.KernelIdeal.main_v91 = _ from h3,
    show Cert.KernelIdeal.Gen.V m c Cert.KernelIdeal.main_v114 = _ from h4, show Cert.KernelIdeal.Gen.V m c Cert.KernelIdeal.main_v137 = _ from h5,
    show Cert.KernelIdeal.Gen.V m c Cert.KernelIdeal.main_v160 = _ from h6, show Cert.KernelIdeal.Gen.V m c Cert.KernelIdeal.main_v183 = _ from h7]

/-- The certificate. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
